-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v334) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x112 : Shape := ⟨2, ![128, 112]⟩
abbrev S112 : Shape := ⟨1, ![112]⟩
abbrev S_ : Shape := ⟨0, ![]⟩
abbrev S1x800000 : Shape := ⟨2, ![1, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x112 : S_.BroadcastsInDim S128x112 (![] : Fin 0 → Fin S128x112.rank)
  reducesTo_S128x112_S_d0_1 : S128x112.ReducesTo [0, 1] S_
  bcast_S_S112 : S_.BroadcastsInDim S112 (![] : Fin 0 → Fin S112.rank)
  reducesTo_S112_S_d0 : S112.ReducesTo [0] S_
  slices_S2x800000_S1x800000_0_0 : S2x800000.Slices ![0, 0] S1x800000
  shapeCasts_S1x800000_S800000 : S1x800000.ShapeCasts S800000

variable [Facts]

def fn_part3 {F : FTy → Type} [FloatOps F] (main_arg1 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_v53 : IVec S1x800000 32 := (extractStridedSlice S1x800000 ![0, 0] · slices_S2x800000_S1x800000_0_0) main_arg1
  let main_v54 : IVec S800000 32 := shapeCast S800000 main_v53 shapeCasts_S1x800000_S800000
  let main_c_19 : IVec S_ 32 := constantI S_ 32 50000#32
  let main_v55 : IVec S800000 32 := broadcastInDim S800000 ![] bcast_S_S800000 main_c_19
  let main_v56 : IVec S800000 1 := cmpi .slt main_v54 main_v55
  let main_v57 : IVec S800000 1 := andi main_v52 main_v56
  let main_c_20 : IVec S_ 1 := constantI S_ 1 1#1
  let main_v58 : IVec S_ 1 := (fun x v => Host.reduce IntOp.andi x v reducesTo_S800000_S_d0 h_S_) main_v57 main_c_20
  let main_v59 : IVec S_ 1 := andi main_v48 main_v58
  main_v59

def fn_part2 {F : FTy → Type} [FloatOps F] (main_arg1 : IVec S2x800000 32) (main_arg8 : FVec F S4x128 .f32) (main_arg9 : FVec F S128x112 .f32) (main_arg10 : FVec F S112 .f32) (main_v33 : IVec S_ 1) : IVec S_ 1 :=
  let main_v34 : FVec F S4x128 .f32 := Host.absf main_arg8
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S128x112 .f32 := Host.absf main_arg9
  let main_cst_14 : FVec F S_ .f32 := constant S_ .f32 0x7F800000#32
  let main_v40 : FVec F S128x112 .f32 := broadcastInDim S128x112 ![] bcast_S_S128x112 main_cst_14
  let main_v41 : IVec S128x112 1 := cmpf .olt main_v39 main_v40
  let main_c_15 : IVec S_ 1 := constantI S_ 1 1#1
  let main_v42 : IVec S_ 1 := (fun x v => Host.reduce IntOp.andi x v reducesTo_S128x112_S_d0_1 h_S_) main_v41 main_c_15
  let main_v43 : IVec S_ 1 := andi main_v38 main_v42
  let main_v44 : FVec F S112 .f32 := Host.absf main_arg10
  let main_cst_16 : FVec F S_ .f32 := constant S_ .f32 0x7F800000#32
  let main_v45 : FVec F S112 .f32 := broadcastInDim S112 ![] bcast_S_S112 main_cst_16
  let main_v46 : IVec S112 1 := cmpf .olt main_v44 main_v45
  let main_c_17 : IVec S_ 1 := constantI S_ 1 1#1
  let main_v47 : IVec S_ 1 := (fun x v => Host.reduce IntOp.andi x v reducesTo_S112_S_d0 h_S_) main_v46 main_c_17
  let main_v48 : IVec S_ 1 := andi main_v43 main_v47
  let main_v49 : IVec S1x800000 32 := (extractStridedSlice S1x800000 ![0, 0] · slices_S2x800000_S1x800000_0_0) main_arg1
  let main_v50 : IVec S800000 32 := shapeCast S800000 main_v49 shapeCasts_S1x800000_S800000
  let main_c_18 : IVec S_ 32 := constantI S_ 32 0#32
  fn_part3 (F := F) main_arg1 main_v48 main_v50 main_c_18

def fn_part1 {F : FTy → Type} [FloatOps F] (main_arg1 : IVec S2x800000 32) (main_arg5 : FVec F S4x128x128 .f32) (main_arg6 : FVec F S4x128 .f32) (main_arg7 : FVec F S4x128 .f32) (main_arg8 : FVec F S4x128 .f32) (main_arg9 : FVec F S128x112 .f32) (main_arg10 : FVec F S112 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x128x128 .f32 := Host.absf main_arg5
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S4x128x128 .f32) (main_arg6 : FVec F S4x128 .f32) (main_arg7 : FVec F S4x128 .f32) (main_arg8 : FVec F S4x128 .f32) (main_arg9 : FVec F S128x112 .f32) (main_arg10 : FVec F S112 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x112 : Shape := ⟨2, ![128, 112]⟩
abbrev S112 : Shape := ⟨1, ![112]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x128 : Shape := ⟨2, ![1, 128]⟩
abbrev S5000x128 : Shape := ⟨2, ![5000, 128]⟩
abbrev S1x128x128 : Shape := ⟨3, ![1, 128, 128]⟩
abbrev S50000x1 : Shape := ⟨2, ![50000, 1]⟩
abbrev S5000x1 : Shape := ⟨2, ![5000, 1]⟩
abbrev S1 : Shape := ⟨1, ![1]⟩
abbrev S1x1 : Shape := ⟨2, ![1, 1]⟩
abbrev S800000x128 : Shape := ⟨2, ![800000, 128]⟩
abbrev S5000 : Shape := ⟨1, ![5000]⟩
abbrev S50000x112 : Shape := ⟨2, ![50000, 112]⟩

abbrev nBuf : Space → Nat
  | .hbm => 245
  | .vmem => 60
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S4x128x128, .f32⟩
  | 6 => ⟨S4x128, .f32⟩
  | 7 => ⟨S4x128, .f32⟩
  | 8 => ⟨S4x128, .f32⟩
  | 9 => ⟨S128x112, .f32⟩
  | 10 => ⟨S112, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S50000, .f32⟩
  | 51 => ⟨S1x128, .f32⟩
  | 52 => ⟨S50000x128, .f32⟩
  | 53 => ⟨S1x128x128, .f32⟩
  | 54 => ⟨S128x128, .f32⟩
  | 55 => ⟨S1x128, .f32⟩
  | 56 => ⟨S128, .f32⟩
  | 57 => ⟨S1x128, .f32⟩
  | 58 => ⟨S50000x1, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S1, .i32⟩
  | 70 => ⟨S_, .i32⟩
  | 71 => ⟨S800000x1, .i32⟩
  | 72 => ⟨S800000x1, .i1⟩
  | 73 => ⟨S1x1, .i32⟩
  | 74 => ⟨S800000x1, .i32⟩
  | 75 => ⟨S800000x1, .i1⟩
  | 76 => ⟨S800000x1, .i1⟩
  | 77 => ⟨S_, .i1⟩
  | 78 => ⟨S800000, .i1⟩
  | 79 => ⟨S800000x128, .f32⟩
  | 80 => ⟨S800000x128, .i1⟩
  | 81 => ⟨S_, .f32⟩
  | 82 => ⟨S800000x128, .f32⟩
  | 83 => ⟨S800000x128, .f32⟩
  | 84 => ⟨S800000x1, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x128, .f32⟩
  | 92 => ⟨S1x128, .f32⟩
  | 93 => ⟨S128, .f32⟩
  | 94 => ⟨S1x128, .f32⟩
  | 95 => ⟨S128, .f32⟩
  | 96 => ⟨S1x128x128, .f32⟩
  | 97 => ⟨S128x128, .f32⟩
  | 98 => ⟨S1x128, .f32⟩
  | 99 => ⟨S128, .f32⟩
  | 100 => ⟨S1x128, .f32⟩
  | 101 => ⟨S1x128, .f32⟩
  | 102 => ⟨S1x128, .f32⟩
  | 103 => ⟨S50000x1, .f32⟩
  | 104 => ⟨S50000x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S1, .i32⟩
  | 115 => ⟨S_, .i32⟩
  | 116 => ⟨S800000x1, .i32⟩
  | 117 => ⟨S800000x1, .i1⟩
  | 118 => ⟨S1x1, .i32⟩
  | 119 => ⟨S800000x1, .i32⟩
  | 120 => ⟨S800000x1, .i1⟩
  | 121 => ⟨S800000x1, .i1⟩
  | 122 => ⟨S_, .i1⟩
  | 123 => ⟨S800000, .i1⟩
  | 124 => ⟨S800000x128, .f32⟩
  | 125 => ⟨S800000x128, .i1⟩
  | 126 => ⟨S_, .f32⟩
  | 127 => ⟨S800000x128, .f32⟩
  | _ => ⟨S50000x128, .f32⟩

abbrev hbmTy0_1 (i : Nat) : BufTy := match i % 128 with
  | 0 => ⟨S800000x128, .f32⟩
  | 1 => ⟨S800000x1, .f32⟩
  | 2 => ⟨S800000x128, .f32⟩
  | 3 => ⟨S800000x128, .f32⟩
  | 4 => ⟨S_, .f32⟩
  | 5 => ⟨S50000x128, .f32⟩
  | 6 => ⟨S800000x1, .i32⟩
  | 7 => ⟨S50000x128, .f32⟩
  | 8 => ⟨S50000x128, .f32⟩
  | 9 => ⟨S50000x128, .f32⟩
  | 10 => ⟨S1x128, .f32⟩
  | 11 => ⟨S128, .f32⟩
  | 12 => ⟨S1x128, .f32⟩
  | 13 => ⟨S128, .f32⟩
  | 14 => ⟨S1x128x128, .f32⟩
  | 15 => ⟨S128x128, .f32⟩
  | 16 => ⟨S1x128, .f32⟩
  | 17 => ⟨S128, .f32⟩
  | 18 => ⟨S1x128, .f32⟩
  | 19 => ⟨S1x128, .f32⟩
  | 20 => ⟨S1x128, .f32⟩
  | 21 => ⟨S50000x1, .f32⟩
  | 22 => ⟨S50000x128, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S1, .i32⟩
  | 33 => ⟨S_, .i32⟩
  | 34 => ⟨S800000x1, .i32⟩
  | 35 => ⟨S800000x1, .i1⟩
  | 36 => ⟨S1x1, .i32⟩
  | 37 => ⟨S800000x1, .i32⟩
  | 38 => ⟨S800000x1, .i1⟩
  | 39 => ⟨S800000x1, .i1⟩
  | 40 => ⟨S_, .i1⟩
  | 41 => ⟨S800000, .i1⟩
  | 42 => ⟨S800000x128, .f32⟩
  | 43 => ⟨S800000x128, .i1⟩
  | 44 => ⟨S_, .f32⟩
  | 45 => ⟨S800000x128, .f32⟩
  | 46 => ⟨S800000x128, .f32⟩
  | 47 => ⟨S800000x1, .f32⟩
  | 48 => ⟨S800000x128, .f32⟩
  | 49 => ⟨S800000x128, .f32⟩
  | 50 => ⟨S_, .f32⟩
  | 51 => ⟨S50000x128, .f32⟩
  | 52 => ⟨S800000x1, .i32⟩
  | 53 => ⟨S50000x128, .f32⟩
  | 54 => ⟨S50000x128, .f32⟩
  | 55 => ⟨S50000x128, .f32⟩
  | 56 => ⟨S1x128, .f32⟩
  | 57 => ⟨S128, .f32⟩
  | 58 => ⟨S1x128, .f32⟩
  | 59 => ⟨S128, .f32⟩
  | 60 => ⟨S1x128x128, .f32⟩
  | 61 => ⟨S128x128, .f32⟩
  | 62 => ⟨S1x128, .f32⟩
  | 63 => ⟨S128, .f32⟩
  | 64 => ⟨S1x128, .f32⟩
  | 65 => ⟨S1x128, .f32⟩
  | 66 => ⟨S1x128, .f32⟩
  | 67 => ⟨S50000x1, .f32⟩
  | 68 => ⟨S50000x128, .f32⟩
  | 69 => ⟨S50000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S1, .i32⟩
  | 79 => ⟨S_, .i32⟩
  | 80 => ⟨S800000x1, .i32⟩
  | 81 => ⟨S800000x1, .i1⟩
  | 82 => ⟨S1x1, .i32⟩
  | 83 => ⟨S800000x1, .i32⟩
  | 84 => ⟨S800000x1, .i1⟩
  | 85 => ⟨S800000x1, .i1⟩
  | 86 => ⟨S_, .i1⟩
  | 87 => ⟨S800000, .i1⟩
  | 88 => ⟨S800000x128, .f32⟩
  | 89 => ⟨S800000x128, .i1⟩
  | 90 => ⟨S_, .f32⟩
  | 91 => ⟨S800000x128, .f32⟩
  | 92 => ⟨S800000x128, .f32⟩
  | 93 => ⟨S800000x1, .f32⟩
  | 94 => ⟨S800000x128, .f32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S50000x128, .f32⟩
  | 101 => ⟨S50000x128, .f32⟩
  | 102 => ⟨S_, .i32⟩
  | 103 => ⟨S_, .f32⟩
  | 104 => ⟨S128x128, .f32⟩
  | 105 => ⟨S_, .i32⟩
  | 106 => ⟨S_, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S1x128, .f32⟩
  | 114 => ⟨S1x128, .f32⟩
  | 115 => ⟨S50000x128, .f32⟩
  | 116 => ⟨S50000x112, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x1, .f32⟩
  | .local _ .vmem, ⟨23, _⟩ => ⟨S5000x1, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x1, .f32⟩
  | .local _ .vmem, ⟨35, _⟩ => ⟨S5000x1, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S5000x1, .f32⟩
  | .local _ .vmem, ⟨47, _⟩ => ⟨S5000x1, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38_0 : Ref sig .tc := ⟨.hbm, 59, rfl⟩
abbrev main_v38_1 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_cst : Ref sig .tc := ⟨.hbm, 81, rfl⟩
abbrev main_call1_v15 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_6 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59_0 : Ref sig .tc := ⟨.hbm, 104, rfl⟩
abbrev main_v59_1 : Ref sig .tc := ⟨.hbm, 105, rfl⟩
abbrev main_call2_c : Ref sig .tc := ⟨.hbm, 106, rfl⟩
abbrev main_call2_v0 : Ref sig .tc := ⟨.hbm, 107, rfl⟩
abbrev main_call2_v1 : Ref sig .tc := ⟨.hbm, 108, rfl⟩
abbrev main_call2_c_0 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_c_1 : Ref sig .tc := ⟨.hbm, 114, rfl⟩
abbrev main_call2_c_2 : Ref sig .tc := ⟨.hbm, 115, rfl⟩
abbrev main_call2_v6 : Ref sig .tc := ⟨.hbm, 116, rfl⟩
abbrev main_call2_v7 : Ref sig .tc := ⟨.hbm, 117, rfl⟩
abbrev main_call2_v8 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_call2_c_3 : Ref sig .tc := ⟨.hbm, 122, rfl⟩
abbrev main_call2_v12 : Ref sig .tc := ⟨.hbm, 123, rfl⟩
abbrev main_call2_v13 : Ref sig .tc := ⟨.hbm, 124, rfl⟩
abbrev main_call2_v14 : Ref sig .tc := ⟨.hbm, 125, rfl⟩
abbrev main_call2_cst : Ref sig .tc := ⟨.hbm, 126, rfl⟩
abbrev main_call2_v15 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_7 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81_0 : Ref sig .tc := ⟨.hbm, 150, rfl⟩
abbrev main_v81_1 : Ref sig .tc := ⟨.hbm, 151, rfl⟩
abbrev main_call3_c : Ref sig .tc := ⟨.hbm, 152, rfl⟩
abbrev main_call3_v0 : Ref sig .tc := ⟨.hbm, 153, rfl⟩
abbrev main_call3_v1 : Ref sig .tc := ⟨.hbm, 154, rfl⟩
abbrev main_call3_c_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_c_1 : Ref sig .tc := ⟨.hbm, 160, rfl⟩
abbrev main_call3_c_2 : Ref sig .tc := ⟨.hbm, 161, rfl⟩
abbrev main_call3_v6 : Ref sig .tc := ⟨.hbm, 162, rfl⟩
abbrev main_call3_v7 : Ref sig .tc := ⟨.hbm, 163, rfl⟩
abbrev main_call3_v8 : Ref sig .tc := ⟨.hbm, 164, rfl⟩
abbrev main_call3_v9 : Ref sig .tc := ⟨.hbm, 165, rfl⟩
abbrev main_call3_v10 : Ref sig .tc := ⟨.hbm, 166, rfl⟩
abbrev main_call3_v11 : Ref sig .tc := ⟨.hbm, 167, rfl⟩
abbrev main_call3_c_3 : Ref sig .tc := ⟨.hbm, 168, rfl⟩
abbrev main_call3_v12 : Ref sig .tc := ⟨.hbm, 169, rfl⟩
abbrev main_call3_v13 : Ref sig .tc := ⟨.hbm, 170, rfl⟩
abbrev main_call3_v14 : Ref sig .tc := ⟨.hbm, 171, rfl⟩
abbrev main_call3_cst : Ref sig .tc := ⟨.hbm, 172, rfl⟩
abbrev main_call3_v15 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_cst_8 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103_0 : Ref sig .tc := ⟨.hbm, 196, rfl⟩
abbrev main_v103_1 : Ref sig .tc := ⟨.hbm, 197, rfl⟩
abbrev main_call4_c : Ref sig .tc := ⟨.hbm, 198, rfl⟩
abbrev main_call4_v0 : Ref sig .tc := ⟨.hbm, 199, rfl⟩
abbrev main_call4_v1 : Ref sig .tc := ⟨.hbm, 200, rfl⟩
abbrev main_call4_c_0 : Ref sig .tc := ⟨.hbm, 201, rfl⟩
abbrev main_call4_v2 : Ref sig .tc := ⟨.hbm, 202, rfl⟩
abbrev main_call4_v3 : Ref sig .tc := ⟨.hbm, 203, rfl⟩
abbrev main_call4_v4 : Ref sig .tc := ⟨.hbm, 204, rfl⟩
abbrev main_call4_v5 : Ref sig .tc := ⟨.hbm, 205, rfl⟩
abbrev main_call4_c_1 : Ref sig .tc := ⟨.hbm, 206, rfl⟩
abbrev main_call4_c_2 : Ref sig .tc := ⟨.hbm, 207, rfl⟩
abbrev main_call4_v6 : Ref sig .tc := ⟨.hbm, 208, rfl⟩
abbrev main_call4_v7 : Ref sig .tc := ⟨.hbm, 209, rfl⟩
abbrev main_call4_v8 : Ref sig .tc := ⟨.hbm, 210, rfl⟩
abbrev main_call4_v9 : Ref sig .tc := ⟨.hbm, 211, rfl⟩
abbrev main_call4_v10 : Ref sig .tc := ⟨.hbm, 212, rfl⟩
abbrev main_call4_v11 : Ref sig .tc := ⟨.hbm, 213, rfl⟩
abbrev main_call4_c_3 : Ref sig .tc := ⟨.hbm, 214, rfl⟩
abbrev main_call4_v12 : Ref sig .tc := ⟨.hbm, 215, rfl⟩
abbrev main_call4_v13 : Ref sig .tc := ⟨.hbm, 216, rfl⟩
abbrev main_call4_v14 : Ref sig .tc := ⟨.hbm, 217, rfl⟩
abbrev main_call4_cst : Ref sig .tc := ⟨.hbm, 218, rfl⟩
abbrev main_call4_v15 : Ref sig .tc := ⟨.hbm, 219, rfl⟩
abbrev main_v104 : Ref sig .tc := ⟨.hbm, 220, rfl⟩
abbrev main_v105 : Ref sig .tc := ⟨.hbm, 221, rfl⟩
abbrev main_v106 : Ref sig .tc := ⟨.hbm, 222, rfl⟩
abbrev main_v107 : Ref sig .tc := ⟨.hbm, 223, rfl⟩
abbrev main_cst_9 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_c_10 : Ref sig .tc := ⟨.hbm, 230, rfl⟩
abbrev main_call5_v0 : Ref sig .tc := ⟨.hbm, 231, rfl⟩
abbrev main_v113 : Ref sig .tc := ⟨.hbm, 232, rfl⟩
abbrev main_c_11 : Ref sig .tc := ⟨.hbm, 233, rfl⟩
abbrev main_call6_v0 : Ref sig .tc := ⟨.hbm, 234, rfl⟩
abbrev main_v114 : Ref sig .tc := ⟨.hbm, 235, rfl⟩
abbrev main_v115 : Ref sig .tc := ⟨.hbm, 236, rfl⟩
abbrev main_v116 : Ref sig .tc := ⟨.hbm, 237, rfl⟩
abbrev main_v117 : Ref sig .tc := ⟨.hbm, 238, rfl⟩
abbrev main_v118 : Ref sig .tc := ⟨.hbm, 239, rfl⟩
abbrev main_v119 : Ref sig .tc := ⟨.hbm, 240, rfl⟩
abbrev main_v120 : Ref sig .tc := ⟨.hbm, 241, rfl⟩
abbrev main_v121 : Ref sig .tc := ⟨.hbm, 242, rfl⟩
abbrev main_v122 : Ref sig .tc := ⟨.hbm, 243, rfl⟩
abbrev main_v123 : Ref sig .tc := ⟨.hbm, 244, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg7_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc3_sem6_0 : DmaSem sig := 36
abbrev cc3_sem6_1 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47
abbrev cc4_sem6_0 : DmaSem sig := 48
abbrev cc4_sem6_1 : DmaSem sig := 49
abbrev cc4_sem7_0 : DmaSem sig := 50
abbrev cc4_sem7_1 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S50000_S50000x1 : S50000.ShapeCasts S50000x1
  shapeCasts_S5000x128_S5000x128 : S5000x128.ShapeCasts S5000x128
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S4x128_S1x128_1_0 : S4x128.Slices ![1, 0] S1x128
  slices_S4x128x128_S1x128x128_1_0_0 : S4x128x128.Slices ![1, 0, 0] S1x128x128
  reduces_S5000x128_S5000 : S5000x128.Reduces [1] S5000
  shapeCasts_S5000_S5000x1 : S5000.ShapeCasts S5000x1
  slices_S4x128_S1x128_2_0 : S4x128.Slices ![2, 0] S1x128
  slices_S4x128x128_S1x128x128_2_0_0 : S4x128x128.Slices ![2, 0, 0] S1x128x128
  slices_S4x128_S1x128_3_0 : S4x128.Slices ![3, 0] S1x128
  slices_S4x128x128_S1x128x128_3_0_0 : S4x128x128.Slices ![3, 0, 0] S1x128x128
  pads_S128x112_S128x128_000_0160 : S128x112.Pads (![0, 0] : Fin 2 → Nat) ![0, 16] ![0, 0] S128x128
  pads_S112_S128_0160 : S112.Pads (![0] : Fin 1 → Nat) ![16] ![0] S128
  slices_S50000x128_S50000x112_0_0 : S50000x128.Slices ![0, 0] S50000x112
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S50000x1.size a
  hwx2_5 : ∀ i : grid2.Coords, EltTy.bits .f32 = 32 ∨ (Rect.block (s := S50000x1) S5000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S50000x1.size a
  hwx3_5 : ∀ i : grid3.Coords, EltTy.bits .f32 = 32 ∨ (Rect.block (s := S50000x1) S5000x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S50000x1.size a
  hwx4_5 : ∀ i : grid4.Coords, EltTy.bits .f32 = 32 ∨ (Rect.block (s := S50000x1) S5000x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v38_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v38_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S5000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v59_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v59_1) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v68) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80) S5000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v81_0) S5000x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v81_1) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v90) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v99) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v100) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v96) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v101) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v102) S5000x1.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v103_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v103_1) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v112) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v119) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v120) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v121) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v122) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x112 : Shape := ⟨2, ![128, 112]⟩
abbrev S112 : Shape := ⟨1, ![112]⟩
abbrev S1x800000 : Shape := ⟨2, ![1, 800000]⟩
abbrev S1x128 : Shape := ⟨2, ![1, 128]⟩
abbrev S1x128x128 : Shape := ⟨3, ![1, 128, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S50000x112 : Shape := ⟨2, ![50000, 112]⟩
abbrev S1x112 : Shape := ⟨2, ![1, 112]⟩

abbrev nBuf : Space → Nat
  | .hbm => 426
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S4x128x128, .f32⟩
  | 6 => ⟨S4x128, .f32⟩
  | 7 => ⟨S4x128, .f32⟩
  | 8 => ⟨S4x128, .f32⟩
  | 9 => ⟨S128x112, .f32⟩
  | 10 => ⟨S112, .f32⟩
  | 11 => ⟨S1x800000, .i32⟩
  | 12 => ⟨S800000, .i32⟩
  | 13 => ⟨S1x800000, .i32⟩
  | 14 => ⟨S800000, .i32⟩
  | 15 => ⟨S50000x128, .f32⟩
  | 16 => ⟨S1x128, .f32⟩
  | 17 => ⟨S50000x128, .f32⟩
  | 18 => ⟨S50000x128, .f32⟩
  | 19 => ⟨S1x128x128, .f32⟩
  | 20 => ⟨S128x128, .f32⟩
  | 21 => ⟨S1x128, .f32⟩
  | 22 => ⟨S128, .f32⟩
  | 23 => ⟨S50000x128, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S800000, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S800000x1, .f32⟩
  | 69 => ⟨S800000x128, .f32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S50000, .f32⟩
  | 76 => ⟨S50000x1, .f32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S1x128, .f32⟩
  | 84 => ⟨S128, .f32⟩
  | 85 => ⟨S1x128, .f32⟩
  | 86 => ⟨S128, .f32⟩
  | 87 => ⟨S_, .f32⟩
  | 88 => ⟨S50000, .f32⟩
  | 89 => ⟨S50000x1, .f32⟩
  | 90 => ⟨S_, .f32⟩
  | 91 => ⟨S50000x1, .f32⟩
  | 92 => ⟨S50000x1, .f32⟩
  | 93 => ⟨S50000x128, .f32⟩
  | 94 => ⟨S50000x128, .f32⟩
  | 95 => ⟨S50000x128, .f32⟩
  | 96 => ⟨S_, .f32⟩
  | 97 => ⟨S50000, .f32⟩
  | 98 => ⟨S50000x1, .f32⟩
  | 99 => ⟨S_, .f32⟩
  | 100 => ⟨S50000x1, .f32⟩
  | 101 => ⟨S50000x1, .f32⟩
  | 102 => ⟨S50000x128, .f32⟩
  | 103 => ⟨S50000x128, .f32⟩
  | 104 => ⟨S_, .f32⟩
  | 105 => ⟨S50000x1, .f32⟩
  | 106 => ⟨S50000x1, .f32⟩
  | 107 => ⟨S50000x1, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S1x128x128, .f32⟩
  | 120 => ⟨S128x128, .f32⟩
  | 121 => ⟨S1x128, .f32⟩
  | 122 => ⟨S128, .f32⟩
  | 123 => ⟨S50000x128, .f32⟩
  | 124 => ⟨S_, .f32⟩
  | 125 => ⟨S50000, .f32⟩
  | 126 => ⟨S800000x1, .i32⟩
  | 127 => ⟨S50000, .f32⟩
  | _ => ⟨S50000x128, .f32⟩

abbrev hbmTy0_1 (i : Nat) : BufTy := match i % 128 with
  | 0 => ⟨S_, .f32⟩
  | 1 => ⟨S50000, .f32⟩
  | 2 => ⟨S50000, .f32⟩
  | 3 => ⟨S_, .f32⟩
  | 4 => ⟨S50000, .f32⟩
  | 5 => ⟨S50000, .i1⟩
  | 6 => ⟨S50000, .f32⟩
  | 7 => ⟨S_, .f32⟩
  | 8 => ⟨S_, .f32⟩
  | 9 => ⟨S50000, .f32⟩
  | 10 => ⟨S50000, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000, .f32⟩
  | 20 => ⟨S800000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .f32⟩
  | 30 => ⟨S800000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S800000x1, .f32⟩
  | 41 => ⟨S800000x128, .f32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S50000, .f32⟩
  | 48 => ⟨S50000x1, .f32⟩
  | 49 => ⟨S50000x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S50000x128, .f32⟩
  | 56 => ⟨S1x128, .f32⟩
  | 57 => ⟨S128, .f32⟩
  | 58 => ⟨S1x128, .f32⟩
  | 59 => ⟨S128, .f32⟩
  | 60 => ⟨S_, .f32⟩
  | 61 => ⟨S50000, .f32⟩
  | 62 => ⟨S50000x1, .f32⟩
  | 63 => ⟨S_, .f32⟩
  | 64 => ⟨S50000x1, .f32⟩
  | 65 => ⟨S50000x1, .f32⟩
  | 66 => ⟨S50000x128, .f32⟩
  | 67 => ⟨S50000x128, .f32⟩
  | 68 => ⟨S50000x128, .f32⟩
  | 69 => ⟨S_, .f32⟩
  | 70 => ⟨S50000, .f32⟩
  | 71 => ⟨S50000x1, .f32⟩
  | 72 => ⟨S_, .f32⟩
  | 73 => ⟨S50000x1, .f32⟩
  | 74 => ⟨S50000x1, .f32⟩
  | 75 => ⟨S50000x128, .f32⟩
  | 76 => ⟨S50000x128, .f32⟩
  | 77 => ⟨S_, .f32⟩
  | 78 => ⟨S50000x1, .f32⟩
  | 79 => ⟨S50000x1, .f32⟩
  | 80 => ⟨S50000x1, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S1x128x128, .f32⟩
  | 93 => ⟨S128x128, .f32⟩
  | 94 => ⟨S1x128, .f32⟩
  | 95 => ⟨S128, .f32⟩
  | 96 => ⟨S50000x128, .f32⟩
  | 97 => ⟨S_, .f32⟩
  | 98 => ⟨S50000, .f32⟩
  | 99 => ⟨S800000x1, .i32⟩
  | 100 => ⟨S50000, .f32⟩
  | 101 => ⟨S_, .f32⟩
  | 102 => ⟨S50000, .f32⟩
  | 103 => ⟨S50000, .f32⟩
  | 104 => ⟨S_, .f32⟩
  | 105 => ⟨S50000, .f32⟩
  | 106 => ⟨S50000, .i1⟩
  | 107 => ⟨S50000, .f32⟩
  | 108 => ⟨S_, .f32⟩
  | 109 => ⟨S_, .f32⟩
  | 110 => ⟨S50000, .f32⟩
  | 111 => ⟨S50000, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000, .f32⟩
  | 121 => ⟨S800000, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_2 (i : Nat) : BufTy := match i % 128 with
  | 0 => ⟨S800000, .i32⟩
  | 1 => ⟨S800000x1, .i32⟩
  | 2 => ⟨S800000, .f32⟩
  | 3 => ⟨S800000, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S800000x1, .f32⟩
  | 14 => ⟨S800000x128, .f32⟩
  | 15 => ⟨S800000x128, .f32⟩
  | 16 => ⟨S_, .f32⟩
  | 17 => ⟨S50000x128, .f32⟩
  | 18 => ⟨S800000x1, .i32⟩
  | 19 => ⟨S50000x128, .f32⟩
  | 20 => ⟨S50000, .f32⟩
  | 21 => ⟨S50000x1, .f32⟩
  | 22 => ⟨S50000x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S50000x128, .f32⟩
  | 29 => ⟨S1x128, .f32⟩
  | 30 => ⟨S128, .f32⟩
  | 31 => ⟨S1x128, .f32⟩
  | 32 => ⟨S128, .f32⟩
  | 33 => ⟨S_, .f32⟩
  | 34 => ⟨S50000, .f32⟩
  | 35 => ⟨S50000x1, .f32⟩
  | 36 => ⟨S_, .f32⟩
  | 37 => ⟨S50000x1, .f32⟩
  | 38 => ⟨S50000x1, .f32⟩
  | 39 => ⟨S50000x128, .f32⟩
  | 40 => ⟨S50000x128, .f32⟩
  | 41 => ⟨S50000x128, .f32⟩
  | 42 => ⟨S_, .f32⟩
  | 43 => ⟨S50000, .f32⟩
  | 44 => ⟨S50000x1, .f32⟩
  | 45 => ⟨S_, .f32⟩
  | 46 => ⟨S50000x1, .f32⟩
  | 47 => ⟨S50000x1, .f32⟩
  | 48 => ⟨S50000x128, .f32⟩
  | 49 => ⟨S50000x128, .f32⟩
  | 50 => ⟨S_, .f32⟩
  | 51 => ⟨S50000x1, .f32⟩
  | 52 => ⟨S50000x1, .f32⟩
  | 53 => ⟨S50000x1, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S1x128x128, .f32⟩
  | 66 => ⟨S128x128, .f32⟩
  | 67 => ⟨S1x128, .f32⟩
  | 68 => ⟨S128, .f32⟩
  | 69 => ⟨S50000x128, .f32⟩
  | 70 => ⟨S_, .f32⟩
  | 71 => ⟨S50000, .f32⟩
  | 72 => ⟨S800000x1, .i32⟩
  | 73 => ⟨S50000, .f32⟩
  | 74 => ⟨S_, .f32⟩
  | 75 => ⟨S50000, .f32⟩
  | 76 => ⟨S50000, .f32⟩
  | 77 => ⟨S_, .f32⟩
  | 78 => ⟨S50000, .f32⟩
  | 79 => ⟨S50000, .i1⟩
  | 80 => ⟨S50000, .f32⟩
  | 81 => ⟨S_, .f32⟩
  | 82 => ⟨S_, .f32⟩
  | 83 => ⟨S50000, .f32⟩
  | 84 => ⟨S50000, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000, .f32⟩
  | 94 => ⟨S800000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000, .f32⟩
  | 104 => ⟨S800000, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S800000x1, .f32⟩
  | 115 => ⟨S800000x128, .f32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S50000, .f32⟩
  | 122 => ⟨S50000x1, .f32⟩
  | 123 => ⟨S50000x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_3 (i : Nat) : BufTy := match i % 128 with
  | 0 => ⟨S50000x128, .f32⟩
  | 1 => ⟨S50000x128, .f32⟩
  | 2 => ⟨S1x128, .f32⟩
  | 3 => ⟨S128, .f32⟩
  | 4 => ⟨S1x128, .f32⟩
  | 5 => ⟨S128, .f32⟩
  | 6 => ⟨S_, .f32⟩
  | 7 => ⟨S50000, .f32⟩
  | 8 => ⟨S50000x1, .f32⟩
  | 9 => ⟨S_, .f32⟩
  | 10 => ⟨S50000x1, .f32⟩
  | 11 => ⟨S50000x1, .f32⟩
  | 12 => ⟨S50000x128, .f32⟩
  | 13 => ⟨S50000x128, .f32⟩
  | 14 => ⟨S50000x128, .f32⟩
  | 15 => ⟨S_, .f32⟩
  | 16 => ⟨S50000, .f32⟩
  | 17 => ⟨S50000x1, .f32⟩
  | 18 => ⟨S_, .f32⟩
  | 19 => ⟨S50000x1, .f32⟩
  | 20 => ⟨S50000x1, .f32⟩
  | 21 => ⟨S50000x128, .f32⟩
  | 22 => ⟨S50000x128, .f32⟩
  | 23 => ⟨S_, .f32⟩
  | 24 => ⟨S50000x1, .f32⟩
  | 25 => ⟨S50000x1, .f32⟩
  | 26 => ⟨S50000x1, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S50000x112, .f32⟩
  | 39 => ⟨S1x112, .f32⟩
  | 40 => ⟨S50000x112, .f32⟩
  | 41 => ⟨S50000x112, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_9 : Ref sig .tc := ⟨.hbm, 87, rfl⟩
abbrev main_v63 : Ref sig .tc := ⟨.hbm, 88, rfl⟩
abbrev main_v64 : Ref sig .tc := ⟨.hbm, 89, rfl⟩
abbrev main_cst_10 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_11 : Ref sig .tc := ⟨.hbm, 96, rfl⟩
abbrev main_v70 : Ref sig .tc := ⟨.hbm, 97, rfl⟩
abbrev main_v71 : Ref sig .tc := ⟨.hbm, 98, rfl⟩
abbrev main_cst_12 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_call1_cst : Ref sig .tc := ⟨.hbm, 116, rfl⟩
abbrev main_call1_v0 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_14 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_15 : Ref sig .tc := ⟨.hbm, 128, rfl⟩
abbrev main_v96 : Ref sig .tc := ⟨.hbm, 129, rfl⟩
abbrev main_v97 : Ref sig .tc := ⟨.hbm, 130, rfl⟩
abbrev main_cst_16 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_17 : Ref sig .tc := ⟨.hbm, 135, rfl⟩
abbrev main_call2_v0 : Ref sig .tc := ⟨.hbm, 136, rfl⟩
abbrev main_call2_v1 : Ref sig .tc := ⟨.hbm, 137, rfl⟩
abbrev main_v101 : Ref sig .tc := ⟨.hbm, 138, rfl⟩
abbrev main_c_18 : Ref sig .tc := ⟨.hbm, 139, rfl⟩
abbrev main_v102 : Ref sig .tc := ⟨.hbm, 140, rfl⟩
abbrev main_v103 : Ref sig .tc := ⟨.hbm, 141, rfl⟩
abbrev main_c_19 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_20 : Ref sig .tc := ⟨.hbm, 149, rfl⟩
abbrev main_v110 : Ref sig .tc := ⟨.hbm, 150, rfl⟩
abbrev main_v111 : Ref sig .tc := ⟨.hbm, 151, rfl⟩
abbrev main_c_21 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_c_22 : Ref sig .tc := ⟨.hbm, 159, rfl⟩
abbrev main_v118 : Ref sig .tc := ⟨.hbm, 160, rfl⟩
abbrev main_v119 : Ref sig .tc := ⟨.hbm, 161, rfl⟩
abbrev main_c_23 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_24 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_25 : Ref sig .tc := ⟨.hbm, 188, rfl⟩
abbrev main_v144 : Ref sig .tc := ⟨.hbm, 189, rfl⟩
abbrev main_v145 : Ref sig .tc := ⟨.hbm, 190, rfl⟩
abbrev main_cst_26 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_27 : Ref sig .tc := ⟨.hbm, 197, rfl⟩
abbrev main_v151 : Ref sig .tc := ⟨.hbm, 198, rfl⟩
abbrev main_v152 : Ref sig .tc := ⟨.hbm, 199, rfl⟩
abbrev main_cst_28 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_cst_29 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_call3_cst : Ref sig .tc := ⟨.hbm, 217, rfl⟩
abbrev main_call3_v0 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_cst_30 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_cst_31 : Ref sig .tc := ⟨.hbm, 229, rfl⟩
abbrev main_v177 : Ref sig .tc := ⟨.hbm, 230, rfl⟩
abbrev main_v178 : Ref sig .tc := ⟨.hbm, 231, rfl⟩
abbrev main_cst_32 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_cst_33 : Ref sig .tc := ⟨.hbm, 236, rfl⟩
abbrev main_call4_v0 : Ref sig .tc := ⟨.hbm, 237, rfl⟩
abbrev main_call4_v1 : Ref sig .tc := ⟨.hbm, 238, rfl⟩
abbrev main_v182 : Ref sig .tc := ⟨.hbm, 239, rfl⟩
abbrev main_c_34 : Ref sig .tc := ⟨.hbm, 240, rfl⟩
abbrev main_v183 : Ref sig .tc := ⟨.hbm, 241, rfl⟩
abbrev main_v184 : Ref sig .tc := ⟨.hbm, 242, rfl⟩
abbrev main_c_35 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_c_36 : Ref sig .tc := ⟨.hbm, 250, rfl⟩
abbrev main_v191 : Ref sig .tc := ⟨.hbm, 251, rfl⟩
abbrev main_v192 : Ref sig .tc := ⟨.hbm, 252, rfl⟩
abbrev main_c_37 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_c_38 : Ref sig .tc := ⟨.hbm, 260, rfl⟩
abbrev main_v199 : Ref sig .tc := ⟨.hbm, 261, rfl⟩
abbrev main_v200 : Ref sig .tc := ⟨.hbm, 262, rfl⟩
abbrev main_c_39 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_cst_40 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_cst_41 : Ref sig .tc := ⟨.hbm, 289, rfl⟩
abbrev main_v225 : Ref sig .tc := ⟨.hbm, 290, rfl⟩
abbrev main_v226 : Ref sig .tc := ⟨.hbm, 291, rfl⟩
abbrev main_cst_42 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_cst_43 : Ref sig .tc := ⟨.hbm, 298, rfl⟩
abbrev main_v232 : Ref sig .tc := ⟨.hbm, 299, rfl⟩
abbrev main_v233 : Ref sig .tc := ⟨.hbm, 300, rfl⟩
abbrev main_cst_44 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_cst_45 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_call5_cst : Ref sig .tc := ⟨.hbm, 318, rfl⟩
abbrev main_call5_v0 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_cst_46 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_cst_47 : Ref sig .tc := ⟨.hbm, 330, rfl⟩
abbrev main_v258 : Ref sig .tc := ⟨.hbm, 331, rfl⟩
abbrev main_v259 : Ref sig .tc := ⟨.hbm, 332, rfl⟩
abbrev main_cst_48 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_cst_49 : Ref sig .tc := ⟨.hbm, 337, rfl⟩
abbrev main_call6_v0 : Ref sig .tc := ⟨.hbm, 338, rfl⟩
abbrev main_call6_v1 : Ref sig .tc := ⟨.hbm, 339, rfl⟩
abbrev main_v263 : Ref sig .tc := ⟨.hbm, 340, rfl⟩
abbrev main_c_50 : Ref sig .tc := ⟨.hbm, 341, rfl⟩
abbrev main_v264 : Ref sig .tc := ⟨.hbm, 342, rfl⟩
abbrev main_v265 : Ref sig .tc := ⟨.hbm, 343, rfl⟩
abbrev main_c_51 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_c_52 : Ref sig .tc := ⟨.hbm, 351, rfl⟩
abbrev main_v272 : Ref sig .tc := ⟨.hbm, 352, rfl⟩
abbrev main_v273 : Ref sig .tc := ⟨.hbm, 353, rfl⟩
abbrev main_c_53 : Ref sig .tc := ⟨.hbm, 354, rfl⟩
abbrev main_v274 : Ref sig .tc := ⟨.hbm, 355, rfl⟩
abbrev main_v275 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_v279 : Ref sig .tc := ⟨.hbm, 360, rfl⟩
abbrev main_c_54 : Ref sig .tc := ⟨.hbm, 361, rfl⟩
abbrev main_v280 : Ref sig .tc := ⟨.hbm, 362, rfl⟩
abbrev main_v281 : Ref sig .tc := ⟨.hbm, 363, rfl⟩
abbrev main_c_55 : Ref sig .tc := ⟨.hbm, 364, rfl⟩
abbrev main_v282 : Ref sig .tc := ⟨.hbm, 365, rfl⟩
abbrev main_v283 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_v287 : Ref sig .tc := ⟨.hbm, 370, rfl⟩
abbrev main_v288 : Ref sig .tc := ⟨.hbm, 371, rfl⟩
abbrev main_v289 : Ref sig .tc := ⟨.hbm, 372, rfl⟩
abbrev main_cst_56 : Ref sig .tc := ⟨.hbm, 373, rfl⟩
abbrev main_v290 : Ref sig .tc := ⟨.hbm, 374, rfl⟩
abbrev main_v291 : Ref sig .tc := ⟨.hbm, 375, rfl⟩
abbrev main_v292 : Ref sig .tc := ⟨.hbm, 376, rfl⟩
abbrev main_v293 : Ref sig .tc := ⟨.hbm, 377, rfl⟩
abbrev main_v294 : Ref sig .tc := ⟨.hbm, 378, rfl⟩
abbrev main_v295 : Ref sig .tc := ⟨.hbm, 379, rfl⟩
abbrev main_v296 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_v300 : Ref sig .tc := ⟨.hbm, 384, rfl⟩
abbrev main_v301 : Ref sig .tc := ⟨.hbm, 385, rfl⟩
abbrev main_v302 : Ref sig .tc := ⟨.hbm, 386, rfl⟩
abbrev main_v303 : Ref sig .tc := ⟨.hbm, 387, rfl⟩
abbrev main_v304 : Ref sig .tc := ⟨.hbm, 388, rfl⟩
abbrev main_v305 : Ref sig .tc := ⟨.hbm, 389, rfl⟩
abbrev main_cst_57 : Ref sig .tc := ⟨.hbm, 390, rfl⟩
abbrev main_v306 : Ref sig .tc := ⟨.hbm, 391, rfl⟩
abbrev main_v307 : Ref sig .tc := ⟨.hbm, 392, rfl⟩
abbrev main_cst_58 : Ref sig .tc := ⟨.hbm, 393, rfl⟩
abbrev main_v308 : Ref sig .tc := ⟨.hbm, 394, rfl⟩
abbrev main_v309 : Ref sig .tc := ⟨.hbm, 395, rfl⟩
abbrev main_v310 : Ref sig .tc := ⟨.hbm, 396, rfl⟩
abbrev main_v311 : Ref sig .tc := ⟨.hbm, 397, rfl⟩
abbrev main_v312 : Ref sig .tc := ⟨.hbm, 398, rfl⟩
abbrev main_cst_59 : Ref sig .tc := ⟨.hbm, 399, rfl⟩
abbrev main_v313 : Ref sig .tc := ⟨.hbm, 400, rfl⟩
abbrev main_v314 : Ref sig .tc := ⟨.hbm, 401, rfl⟩
abbrev main_cst_60 : Ref sig .tc := ⟨.hbm, 402, rfl⟩
abbrev main_v315 : Ref sig .tc := ⟨.hbm, 403, rfl⟩
abbrev main_v316 : Ref sig .tc := ⟨.hbm, 404, rfl⟩
abbrev main_v317 : Ref sig .tc := ⟨.hbm, 405, rfl⟩
abbrev main_v318 : Ref sig .tc := ⟨.hbm, 406, rfl⟩
abbrev main_cst_61 : Ref sig .tc := ⟨.hbm, 407, rfl⟩
abbrev main_v319 : Ref sig .tc := ⟨.hbm, 408, rfl⟩
abbrev main_v320 : Ref sig .tc := ⟨.hbm, 409, rfl⟩
abbrev main_v321 : Ref sig .tc := ⟨.hbm, 410, rfl⟩
abbrev main_v322 : Ref sig .tc := ⟨.hbm, 411, rfl⟩
abbrev main_v323 : Ref sig .tc := ⟨.hbm, 412, rfl⟩
abbrev main_v324 : Ref sig .tc := ⟨.hbm, 413, rfl⟩
abbrev main_v325 : Ref sig .tc := ⟨.hbm, 414, rfl⟩
abbrev main_v326 : Ref sig .tc := ⟨.hbm, 415, rfl⟩
abbrev main_v327 : Ref sig .tc := ⟨.hbm, 416, rfl⟩
abbrev main_v328 : Ref sig .tc := ⟨.hbm, 417, rfl⟩
abbrev main_v329 : Ref sig .tc := ⟨.hbm, 418, rfl⟩
abbrev main_call7_cst : Ref sig .tc := ⟨.hbm, 419, rfl⟩
abbrev main_call7_v0 : Ref sig .tc := ⟨.hbm, 420, rfl⟩
abbrev main_v330 : Ref sig .tc := ⟨.hbm, 421, rfl⟩
abbrev main_v331 : Ref sig .tc := ⟨.hbm, 422, rfl⟩
abbrev main_v332 : Ref sig .tc := ⟨.hbm, 423, rfl⟩
abbrev main_v333 : Ref sig .tc := ⟨.hbm, 424, rfl⟩
abbrev main_v334 : Ref sig .tc := ⟨.hbm, 425, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S4x128_S1x128_1_0 : S4x128.Slices ![1, 0] S1x128
  reducesTo_S50000x128_S50000_d1 : S50000x128.ReducesTo [1] S50000
  h_S_ : 0 < S_.numel
  bcast_S_S50000x1 : S_.BroadcastsInDim S50000x1 (![] : Fin 0 → Fin S50000x1.rank)
  slices_S4x128x128_S1x128x128_1_0_0 : S4x128x128.Slices ![1, 0, 0] S1x128x128
  slices_S4x128_S1x128_2_0 : S4x128.Slices ![2, 0] S1x128
  slices_S4x128x128_S1x128x128_2_0_0 : S4x128x128.Slices ![2, 0, 0] S1x128x128
  slices_S4x128_S1x128_3_0 : S4x128.Slices ![3, 0] S1x128
  slices_S4x128x128_S1x128x128_3_0_0 : S4x128x128.Slices ![3, 0, 0] S1x128x128
  bcast_S112_S1x112_1 : S112.BroadcastsInDim S1x112 (![1] : Fin 1 → Fin S1x112.rank)
  bcast_S1x112_S50000x112_0_1 : S1x112.BroadcastsInDim S50000x112 (![0, 1] : Fin 2 → Fin S50000x112.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x112_S50000x112_1_0_0_1_n_n_wf : DotDims.WF S50000x128 S128x112 S50000x112 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x112_S50000x112_1_0_0_1_n_n : DotDims S50000x128 S128x112 S50000x112 where
  lhsContracting := [1]
  rhsContracting := [0]
  lhsNonContracting := [0]
  rhsNonContracting := [1]
  lhsBatch := []
  rhsBatch := []
  wf := dot_S50000x128_S128x112_S50000x112_1_0_0_1_n_n_wf

class Facts : Prop extends Facts₀ where

variable [Facts]
-- ==== Proof.Spec.lean ====
/-
  The whole-array functions the two programs share, written once in the host program's vocabulary.

  A graph convolution layer here is: a dense product `h · W` (`mm`), a per-row scaling of that product by the
  squared inverse root degree plus a bias row (`selfTerm`: the self-loop's contribution), and a normalisation of a
  row to zero mean and unit variance followed by an affine map and a clamp at zero (`lnrelu`). The encoder is
  `lin` (a product plus a bias row) and the head is `lnrelu` followed by a product and a bias row. Every definition
  below is the composition of host operations that the reference program applies, in its order, so that the
  reference's run is these functions by unfolding, and each tiled kernel is shown to compute the same function of
  its whole arrays.
-/
import proofs.«413863_j12395275616334_2_alg».proof.ReferenceIdeal

noncomputable section

namespace Cert.Spec

open Idealize.ShloMosaic Cert.ReferenceIdeal Cert.ReferenceIdeal.Facts₀

variable {F : FTy → Type} [FloatOps F] [Cert.ReferenceIdeal.Facts₀]

/-! ## The dense part -/

/-- A [1,128] row laid under every one of the 50000 rows. -/
def rowB (b : FVec F S1x128 .f32) : FVec F S50000x128 .f32 :=
  broadcastInDim S50000x128 ![0, 1] bcast_S1x128_S50000x128_0_1 b

/-- A [50000,1] column laid beside every one of the 128 columns. -/
def colB (s : FVec F S50000x1 .f32) : FVec F S50000x128 .f32 :=
  broadcastInDim S50000x128 ![0, 1] bcast_S50000x1_S50000x128_0_1 s

/-- The dense product of the node features with a [128,128] weight: entry (i, j) is the sum over k of x(i,k)·W(k,j). -/
def mm (x : FVec F S50000x128 .f32) (W : FVec F S128x128 .f32) : FVec F S50000x128 .f32 :=
  Host.dotGeneral dot_S50000x128_S128x128_S50000x128_1_0_0_1_n_n none x W

/-- A product plus a bias row: the encoder, and the last step of the head. -/
def lin (x : FVec F S50000x128 .f32) (W : FVec F S128x128 .f32) (b : FVec F S1x128 .f32) : FVec F S50000x128 .f32 :=
  addf (mm x W) (rowB b)

/-- The self-loop's contribution with the layer's bias: row i of the product scaled by s(i), plus the bias row. -/
def selfTerm (xw : FVec F S50000x128 .f32) (s : FVec F S50000x1 .f32) (b : FVec F S1x128 .f32) : FVec F S50000x128 .f32 :=
  addf (mulf xw (colB s)) (rowB b)

/-- The mean of each row, as a [50000,1] column: the row's sum over its 128 entries divided by 128. -/
def rowMean (h : FVec F S50000x128 .f32) : FVec F S50000x1 .f32 :=
  Host.divf
    (broadcastInDim S50000x1 ![0] bcast_S50000_S50000x1_0
      (Host.reduceAdd h (constant S_ .f32 0x00000000#32) reducesTo_S50000x128_S50000_d1 h_S_))
    (broadcastInDim S50000x1 ![] bcast_S_S50000x1 (constant S_ .f32 0x43000000#32))

/-- Each row minus its mean. -/
def centred (h : FVec F S50000x128 .f32) : FVec F S50000x128 .f32 :=
  subf h (colB (rowMean h))

/-- The inverse root of each row's variance plus the small constant, as a [50000,1] column. -/
def rowInvStd (h : FVec F S50000x128 .f32) : FVec F S50000x1 .f32 :=
  Host.rsqrt
    (addf (rowMean (mulf (centred h) (centred h)))
      (broadcastInDim S50000x1 ![] bcast_S_S50000x1 (constant S_ .f32 0x3727C5AC#32)))

/-- Row normalisation, the affine map by the rows `g` and `b`, and the clamp at zero. -/
def lnrelu (h : FVec F S50000x128 .f32) (g b : FVec F S1x128 .f32) : FVec F S50000x128 .f32 :=
  maximumf
    (addf (mulf (mulf (centred h) (colB (rowInvStd h))) (rowB g)) (rowB b))
    (broadcastInDim S50000x128 ![] bcast_S_S50000x128 (constant S_ .f32 0x00000000#32))

/-- A vector of 128 as a [1,128] row (jnp's broadcasting of a bias or a scale against a matrix). -/
def row1 (v : FVec F S128 .f32) : FVec F S1x128 .f32 := broadcastInDim S1x128 ![1] bcast_S128_S1x128_1 v

/-- One float per node as a [50000,1] column. -/
def nodeCol (v : FVec F S50000 .f32) : FVec F S50000x1 .f32 := broadcastInDim S50000x1 ![0] bcast_S50000_S50000x1_0 v

/-! ## The graph part: degrees, edge coefficients, gather and scatter over the edge list -/

/-- A vector of 800000 edge words. -/
abbrev EIdx (F : FTy → Type) := (⟨S800000, .i32⟩ : BufTy).Contents (Elt F)
/-- The same as an [800000,1] column of start indices. -/
abbrev EIdxCol (F : FTy → Type) := (⟨S800000x1, .i32⟩ : BufTy).Contents (Elt F)
/-- One float per edge. -/
abbrev EVal (F : FTy → Type) := (⟨S800000, .f32⟩ : BufTy).Contents (Elt F)
/-- One float per node. -/
abbrev NVal (F : FTy → Type) := (⟨S50000, .f32⟩ : BufTy).Contents (Elt F)
/-- A [50000,128] array of node features. -/
abbrev Feat (F : FTy → Type) := (⟨S50000x128, .f32⟩ : BufTy).Contents (Elt F)
/-- A [800000,128] array: one feature row per edge. -/
abbrev ERows (F : FTy → Type) := (⟨S800000x128, .f32⟩ : BufTy).Contents (Elt F)

/-- Edge words as a column of start indices. -/
def col (i : EIdx F) : EIdxCol F := broadcastInDim S800000x1 ![0] bcast_S800000_S800000x1_0 i

/-- numpy's reading of a negative index: a word below zero counts from the end (plus 50000), any other is itself. -/
def wrap (i : EIdx F) : EIdxCol F :=
  col (select (cmpi .slt i (broadcastInDim S800000 ![] bcast_S_S800000 (constantI S_ 32 0#32)))
    (addi i (broadcastInDim S800000 ![] bcast_S_S800000 (constantI S_ 32 50000#32))) i)

/-- The weighted in-degree of every node plus one (the self loop's weight). -/
def deg (dst : EIdx F) (ew : EVal F) : NVal F :=
  addf (Host.scatterAdd scatter_S50000_S800000x1_S800000_n_0_0_1
      (broadcastInDim S50000 ![] bcast_S_S50000 (constant S_ .f32 0x00000000#32)) (col dst) ew)
    (broadcastInDim S50000 ![] bcast_S_S50000 (constant S_ .f32 0x3F800000#32))

/-- The inverse root of the degree where it is positive, zero elsewhere. -/
def dinv (dst : EIdx F) (ew : EVal F) : NVal F :=
  select (cmpf .ogt (deg dst ew) (broadcastInDim S50000 ![] bcast_S_S50000 (constant S_ .f32 0x00000000#32)))
    (Host.rsqrt (deg dst ew))
    (broadcastInDim S50000 ![] bcast_S_S50000 (id (constant S_ .f32 0x00000000#32)))

/-- The coefficient of an edge: the inverse root degree at its source, its weight, the inverse root degree at its target. -/
def coef (src dst : EIdx F) (ew : EVal F) : EVal F :=
  mulf (mulf (Host.gather gather_S50000_S800000x1_S800000_n_0_n_n_0_1_1 (dinv dst ew) (wrap src)) ew)
    (Host.gather gather_S50000_S800000x1_S800000_n_0_n_n_0_1_1 (dinv dst ew) (wrap dst))

/-- The self loop's coefficient of a node: the square of its inverse root degree. -/
def sd (dst : EIdx F) (ew : EVal F) : NVal F := mulf (dinv dst ew) (dinv dst ew)

/-- One float per edge laid along all 128 columns of that edge's row. -/
def spread (v : EVal F) : ERows F :=
  broadcastInDim S800000x128 ![0, 1] bcast_S800000x1_S800000x128_0_1
    (broadcastInDim S800000x1 ![0] bcast_S800000_S800000x1_0 v)

/-- The accumulating scatter of edge rows into node rows: row n of the result is the sum of the rows of `u` whose edge's target is n. -/
def scat (dst : EIdx F) (u : ERows F) : Feat F :=
  Host.scatterAdd scatter_S50000x128_S800000x1_S800000x128_1_0_0_1
    (broadcastInDim S50000x128 ![] bcast_S_S50000x128 (constant S_ .f32 0x00000000#32)) (col dst) u

/-- The row of `xw` at every edge's source. -/
def rows (xw : Feat F) (src : EIdx F) : ERows F :=
  Host.gather gather_S50000x128_S800000x1_S800000x128_1_0_n_n_0_1_1128 xw (wrap src)

/-- The aggregation of a layer: every edge carries its source's row of `xw`, scaled by the edge's coefficient, to its target. -/
def agg (xw : Feat F) (src dst : EIdx F) (ew : EVal F) : Feat F :=
  scat dst (mulf (rows xw src) (spread (coef src dst ew)))

/-- The reference's convolution of the product `xw`: the aggregation, plus the self loop's term, plus the bias. -/
def conv (xw : Feat F) (src dst : EIdx F) (ew : EVal F) (b : FVec F S128 .f32) : Feat F :=
  addf (addf (agg xw src dst ew) (mulf xw (colB (nodeCol (sd dst ew))))) (rowB (row1 b))

/-! ## The arguments' pieces -/

def srcOf (ei : (⟨S2x800000, .i32⟩ : BufTy).Contents (Elt F)) : EIdx F :=
  shapeCast S800000 (extractStridedSlice S1x800000 ![0, 0] ei slices_S2x800000_S1x800000_0_0) shapeCasts_S1x800000_S800000
def dstOf (ei : (⟨S2x800000, .i32⟩ : BufTy).Contents (Elt F)) : EIdx F :=
  shapeCast S800000 (extractStridedSlice S1x800000 ![1, 0] ei slices_S2x800000_S1x800000_1_0) shapeCasts_S1x800000_S800000

/-- Layer k's [128,128] weight out of the [4,128,128] stack. -/
def W0 (w : FVec F S4x128x128 .f32) : FVec F S128x128 .f32 := shapeCast S128x128 (extractStridedSlice S1x128x128 ![0, 0, 0] w slices_S4x128x128_S1x128x128_0_0_0) shapeCasts_S1x128x128_S128x128
def W1 (w : FVec F S4x128x128 .f32) : FVec F S128x128 .f32 := shapeCast S128x128 (extractStridedSlice S1x128x128 ![1, 0, 0] w slices_S4x128x128_S1x128x128_1_0_0) shapeCasts_S1x128x128_S128x128
def W2 (w : FVec F S4x128x128 .f32) : FVec F S128x128 .f32 := shapeCast S128x128 (extractStridedSlice S1x128x128 ![2, 0, 0] w slices_S4x128x128_S1x128x128_2_0_0) shapeCasts_S1x128x128_S128x128
def W3 (w : FVec F S4x128x128 .f32) : FVec F S128x128 .f32 := shapeCast S128x128 (extractStridedSlice S1x128x128 ![3, 0, 0] w slices_S4x128x128_S1x128x128_3_0_0) shapeCasts_S1x128x128_S128x128
/-- Row k of a [4,128] stack of per-layer vectors. -/
def r0 (p : FVec F S4x128 .f32) : FVec F S128 .f32 := shapeCast S128 (extractStridedSlice S1x128 ![0, 0] p slices_S4x128_S1x128_0_0) shapeCasts_S1x128_S128
def r1 (p : FVec F S4x128 .f32) : FVec F S128 .f32 := shapeCast S128 (extractStridedSlice S1x128 ![1, 0] p slices_S4x128_S1x128_1_0) shapeCasts_S1x128_S128
def r2 (p : FVec F S4x128 .f32) : FVec F S128 .f32 := shapeCast S128 (extractStridedSlice S1x128 ![2, 0] p slices_S4x128_S1x128_2_0) shapeCasts_S1x128_S128
def r3 (p : FVec F S4x128 .f32) : FVec F S128 .f32 := shapeCast S128 (extractStridedSlice S1x128 ![3, 0] p slices_S4x128_S1x128_3_0) shapeCasts_S1x128_S128

/-! ## The reference program, layer by layer -/

/-- The encoder. -/
def refEnc (x : Feat F) (encW : FVec F S128x128 .f32) (encb : FVec F S128 .f32) : Feat F := lin x encW (row1 encb)

/-- A residual layer of the reference: `h + conv (lnrelu h · W)`. -/
def refRes (h : Feat F) (g b : FVec F S128 .f32) (W : FVec F S128x128 .f32) (cb : FVec F S128 .f32) (src dst : EIdx F) (ew : EVal F) : Feat F :=
  addf h (conv (mm (lnrelu h (row1 g) (row1 b)) W) src dst ew cb)

/-- The reference's head: the normalised, clamped features times the [128,112] weight, plus the bias. -/
def refHead (h : Feat F) (g b : FVec F S128 .f32) (linW : FVec F S128x112 .f32) (linb : FVec F S112 .f32) : FVec F S50000x112 .f32 :=
  addf (Host.dotGeneral dot_S50000x128_S128x112_S50000x112_1_0_0_1_n_n none (lnrelu h (row1 g) (row1 b)) linW)
    (broadcastInDim S50000x112 ![0, 1] bcast_S1x112_S50000x112_0_1 (broadcastInDim S1x112 ![1] bcast_S112_S1x112_1 linb))

end Cert.Spec

end
-- ==== Proof.KSpec.lean ====
/-
  The kernel program's result as one composition of whole-array functions of its arguments: the host operations it
  applies between its tiled kernels, in its order, with each tiled kernel standing as the whole-array function
  (`Cert.Spec.lin`, `mm`, `selfTerm`, `lnrelu`) it computes. It differs from the reference's composition in four
  places only: the gather of source rows is jnp's `take` in fill mode (a row whose wrapped index leaves [0, 50000)
  reads as the fill word); the self loop's term and the bias are added to each other before the aggregation is
  added, and the residual last; bias and scale vectors reach the kernels reshaped to a row rather than broadcast;
  and the head multiplies by the weight padded with 16 zero columns and drops those columns at the end.
-/
import proofs.«413863_j12395275616334_2_alg».proof.KernelIdeal
import proofs.«413863_j12395275616334_2_alg».proof.Proof.Spec

noncomputable section

namespace Cert.KSpec

open Idealize.ShloMosaic Cert.KernelIdeal Cert.KernelIdeal.Facts₀

variable {F : FTy → Type} [FloatOps F] [Cert.KernelIdeal.Facts₀] [Cert.ReferenceIdeal.Facts₀]

/-! ## The graph part: degrees, edge coefficients, gather and scatter over the edge list -/

/-- A vector of 800000 edge words. -/
abbrev EIdx (F : FTy → Type) := (⟨S800000, .i32⟩ : BufTy).Contents (Elt F)
/-- The same as an [800000,1] column of start indices. -/
abbrev EIdxCol (F : FTy → Type) := (⟨S800000x1, .i32⟩ : BufTy).Contents (Elt F)
/-- One float per edge. -/
abbrev EVal (F : FTy → Type) := (⟨S800000, .f32⟩ : BufTy).Contents (Elt F)
/-- One float per node. -/
abbrev NVal (F : FTy → Type) := (⟨S50000, .f32⟩ : BufTy).Contents (Elt F)
/-- A [50000,128] array of node features. -/
abbrev Feat (F : FTy → Type) := (⟨S50000x128, .f32⟩ : BufTy).Contents (Elt F)
/-- A [800000,128] array: one feature row per edge. -/
abbrev ERows (F : FTy → Type) := (⟨S800000x128, .f32⟩ : BufTy).Contents (Elt F)

/-- Edge words as a column of start indices. -/
def col (i : EIdx F) : EIdxCol F := broadcastInDim S800000x1 ![0] bcast_S800000_S800000x1_0 i

/-- numpy's reading of a negative index: a word below zero counts from the end (plus 50000), any other is itself. -/
def wrap (i : EIdx F) : EIdxCol F :=
  col (select (cmpi .slt i (broadcastInDim S800000 ![] bcast_S_S800000 (constantI S_ 32 0#32)))
    (addi i (broadcastInDim S800000 ![] bcast_S_S800000 (constantI S_ 32 50000#32))) i)

/-- The weighted in-degree of every node plus one (the self loop's weight). -/
def deg (dst : EIdx F) (ew : EVal F) : NVal F :=
  addf (Host.scatterAdd scatter_S50000_S800000x1_S800000_n_0_0_1
      (broadcastInDim S50000 ![] bcast_S_S50000 (constant S_ .f32 0x00000000#32)) (col dst) ew)
    (broadcastInDim S50000 ![] bcast_S_S50000 (constant S_ .f32 0x3F800000#32))

/-- The inverse root of the degree where it is positive, zero elsewhere. -/
def dinv (dst : EIdx F) (ew : EVal F) : NVal F :=
  select (cmpf .ogt (deg dst ew) (broadcastInDim S50000 ![] bcast_S_S50000 (constant S_ .f32 0x00000000#32)))
    (Host.rsqrt (deg dst ew))
    (broadcastInDim S50000 ![] bcast_S_S50000 (id (constant S_ .f32 0x00000000#32)))

/-- The coefficient of an edge: the inverse root degree at its source, its weight, the inverse root degree at its target. -/
def coef (src dst : EIdx F) (ew : EVal F) : EVal F :=
  mulf (mulf (Host.gather gather_S50000_S800000x1_S800000_n_0_n_n_0_1_1 (dinv dst ew) (wrap src)) ew)
    (Host.gather gather_S50000_S800000x1_S800000_n_0_n_n_0_1_1 (dinv dst ew) (wrap dst))

/-- The self loop's coefficient of a node: the square of its inverse root degree. -/
def sd (dst : EIdx F) (ew : EVal F) : NVal F := mulf (dinv dst ew) (dinv dst ew)

/-- One float per edge laid along all 128 columns of that edge's row. -/
def spread (v : EVal F) : ERows F :=
  broadcastInDim S800000x128 ![0, 1] bcast_S800000x1_S800000x128_0_1
    (broadcastInDim S800000x1 ![0] bcast_S800000_S800000x1_0 v)

/-- The accumulating scatter of edge rows into node rows: row n of the result is the sum of the rows of `u` whose edge's target is n. -/
def scat (dst : EIdx F) (u : ERows F) : Feat F :=
  Host.scatterAdd scatter_S50000x128_S800000x1_S800000x128_1_0_0_1
    (broadcastInDim S50000x128 ![] bcast_S_S50000x128 (constant S_ .f32 0x00000000#32)) (col dst) u

/-- The row of `xw` at every edge's source. -/
def rows (xw : Feat F) (src : EIdx F) : ERows F :=
  Host.gather gather_S50000x128_S800000x1_S800000x128_1_0_n_n_0_1_1128 xw (wrap src)

/-- Which edges' wrapped source index lies in [0, 49999], laid along that edge's 128 columns. -/
def inRange (src : EIdx F) : (⟨S800000x128, .i1⟩ : BufTy).Contents (Elt F) :=
  broadcastInDim S800000x128 ![0] bcast_S800000_S800000x128_0
    (Host.reduce IntOp.andi
      (andi (cmpi .sge (wrap src) (broadcastInDim S800000x1 ![] bcast_S_S800000x1 (constantI S_ 32 0#32)))
        (cmpi .sle (wrap src) (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- jnp's `take` in fill mode: the gathered row where the index is in range, the fill word elsewhere. -/
def take (xw : Feat F) (src : EIdx F) : ERows F :=
  select (inRange src) (rows xw src) (broadcastInDim S800000x128 ![] bcast_S_S800000x128 (constant S_ .f32 0x7FC00000#32))

/-- The kernel program's aggregation: as the reference's, over `take`. -/
def agg (xw : Feat F) (src dst : EIdx F) (ew : EVal F) : Feat F :=
  scat dst (mulf (take xw src) (spread (coef src dst ew)))

/-- A vector of 128 reshaped to a [1,128] row. -/
def asRow (v : FVec F S128 .f32) : FVec F S1x128 .f32 := shapeCast S1x128 v shapeCasts_S128_S1x128

/-- The self loop's coefficients reshaped to a [50000,1] column. -/
def sdCol (dst : EIdx F) (ew : EVal F) : FVec F S50000x1 .f32 := shapeCast S50000x1 (sd dst ew) shapeCasts_S50000_S50000x1

def srcOf (ei : (⟨S2x800000, .i32⟩ : BufTy).Contents (Elt F)) : EIdx F :=
  shapeCast S800000 (extractStridedSlice S1x800000 ![0, 0] ei slices_S2x800000_S1x800000_0_0) shapeCasts_S1x800000_S800000
def dstOf (ei : (⟨S2x800000, .i32⟩ : BufTy).Contents (Elt F)) : EIdx F :=
  shapeCast S800000 (extractStridedSlice S1x800000 ![1, 0] ei slices_S2x800000_S1x800000_1_0) shapeCasts_S1x800000_S800000

def W0 (w : FVec F S4x128x128 .f32) : FVec F S128x128 .f32 := shapeCast S128x128 (extractStridedSlice S1x128x128 ![0, 0, 0] w slices_S4x128x128_S1x128x128_0_0_0) shapeCasts_S1x128x128_S128x128
def W1 (w : FVec F S4x128x128 .f32) : FVec F S128x128 .f32 := shapeCast S128x128 (extractStridedSlice S1x128x128 ![1, 0, 0] w slices_S4x128x128_S1x128x128_1_0_0) shapeCasts_S1x128x128_S128x128
def W2 (w : FVec F S4x128x128 .f32) : FVec F S128x128 .f32 := shapeCast S128x128 (extractStridedSlice S1x128x128 ![2, 0, 0] w slices_S4x128x128_S1x128x128_2_0_0) shapeCasts_S1x128x128_S128x128
def W3 (w : FVec F S4x128x128 .f32) : FVec F S128x128 .f32 := shapeCast S128x128 (extractStridedSlice S1x128x128 ![3, 0, 0] w slices_S4x128x128_S1x128x128_3_0_0) shapeCasts_S1x128x128_S128x128
def r0 (p : FVec F S4x128 .f32) : FVec F S128 .f32 := shapeCast S128 (extractStridedSlice S1x128 ![0, 0] p slices_S4x128_S1x128_0_0) shapeCasts_S1x128_S128
def r1 (p : FVec F S4x128 .f32) : FVec F S128 .f32 := shapeCast S128 (extractStridedSlice S1x128 ![1, 0] p slices_S4x128_S1x128_1_0) shapeCasts_S1x128_S128
def r2 (p : FVec F S4x128 .f32) : FVec F S128 .f32 := shapeCast S128 (extractStridedSlice S1x128 ![2, 0] p slices_S4x128_S1x128_2_0) shapeCasts_S1x128_S128
def r3 (p : FVec F S4x128 .f32) : FVec F S128 .f32 := shapeCast S128 (extractStridedSlice S1x128 ![3, 0] p slices_S4x128_S1x128_3_0) shapeCasts_S1x128_S128

/-- The encoder kernel's array. -/
def enc (x : Feat F) (encW : FVec F S128x128 .f32) (encb : FVec F S128 .f32) : Feat F := Cert.Spec.lin x encW (asRow encb)

/-- The first layer: the aggregation of the product plus the self loop's term with the bias. -/
def first (h : Feat F) (W : FVec F S128x128 .f32) (cb : FVec F S128 .f32) (src dst : EIdx F) (ew : EVal F) : Feat F :=
  addf (agg (Cert.Spec.mm h W) src dst ew) (Cert.Spec.selfTerm (Cert.Spec.mm h W) (sdCol dst ew) (asRow cb))

/-- A residual layer of the kernel program: (aggregation + (self term + bias)) + h, over the normalised, clamped h. -/
def res (h : Feat F) (g b : FVec F S128 .f32) (W : FVec F S128x128 .f32) (cb : FVec F S128 .f32) (src dst : EIdx F) (ew : EVal F) : Feat F :=
  addf (addf (agg (Cert.Spec.mm (Cert.Spec.lnrelu h (asRow g) (asRow b)) W) src dst ew)
      (Cert.Spec.selfTerm (Cert.Spec.mm (Cert.Spec.lnrelu h (asRow g) (asRow b)) W) (sdCol dst ew) (asRow cb))) h

/-- The head's weight with 16 zero columns appended. -/
def padW (linW : FVec F S128x112 .f32) : FVec F S128x128 .f32 :=
  pad S128x128 ![0, 0] ![0, 16] ![0, 0] linW (sitofp (F := F) .f32 (constantI S_ 32 0#32)) pads_S128x112_S128x128_000_0160 h_S_
/-- The head's bias with 16 zeros appended. -/
def padb (linb : FVec F S112 .f32) : FVec F S128 .f32 :=
  pad S128 ![0] ![16] ![0] linb (sitofp (F := F) .f32 (constantI S_ 32 0#32)) pads_S112_S128_0160 h_S_

/-- The head: the last kernel's [50000,128] array with its last 16 columns dropped. -/
def head (h : Feat F) (g b : FVec F S128 .f32) (linW : FVec F S128x112 .f32) (linb : FVec F S112 .f32) : FVec F S50000x112 .f32 :=
  extractStridedSlice S50000x112 ![0, 0]
    (Cert.Spec.lin (Cert.Spec.lnrelu h (asRow g) (asRow b)) (padW linW) (asRow (padb linb))) slices_S50000x128_S50000x112_0_0

/-- The kernel program's result, of its eleven arguments. -/
def out (x : Feat F) (ei : (⟨S2x800000, .i32⟩ : BufTy).Contents (Elt F)) (ew : EVal F) (encW : FVec F S128x128 .f32) (encb : FVec F S128 .f32)
    (cw : FVec F S4x128x128 .f32) (cb ng nb : FVec F S4x128 .f32) (linW : FVec F S128x112 .f32) (linb : FVec F S112 .f32) : FVec F S50000x112 .f32 :=
  head
    (res (res (res (first (enc x encW encb) (W0 cw) (r0 cb) (srcOf ei) (dstOf ei) ew)
      (r1 ng) (r1 nb) (W1 cw) (r1 cb) (srcOf ei) (dstOf ei) ew)
      (r2 ng) (r2 nb) (W2 cw) (r2 cb) (srcOf ei) (dstOf ei) ew)
      (r3 ng) (r3 nb) (W3 cw) (r3 cb) (srcOf ei) (dstOf ei) ew)
    (r0 ng) (r0 nb) linW linb

end Cert.KSpec

namespace Cert.Spec

open Idealize.ShloMosaic Cert.ReferenceIdeal Cert.ReferenceIdeal.Facts₀

variable {F : FTy → Type} [FloatOps F] [Cert.ReferenceIdeal.Facts₀]

/-- The reference program's result, of its eleven arguments. -/
def out (x : Feat F) (ei : (⟨S2x800000, .i32⟩ : BufTy).Contents (Elt F)) (ew : EVal F) (encW : FVec F S128x128 .f32) (encb : FVec F S128 .f32)
    (cw : FVec F S4x128x128 .f32) (cb ng nb : FVec F S4x128 .f32) (linW : FVec F S128x112 .f32) (linb : FVec F S112 .f32) : FVec F S50000x112 .f32 :=
  refHead
    (refRes (refRes (refRes (conv (mm (refEnc x encW encb) (W0 cw)) (srcOf ei) (dstOf ei) ew (r0 cb))
      (r1 ng) (r1 nb) (W1 cw) (r1 cb) (srcOf ei) (dstOf ei) ew)
      (r2 ng) (r2 nb) (W2 cw) (r2 cb) (srcOf ei) (dstOf ei) ew)
      (r3 ng) (r3 nb) (W3 cw) (r3 cb) (srcOf ei) (dstOf ei) ew)
    (r0 ng) (r0 nb) linW linb

end Cert.Spec

end
-- ==== Proof.KState.lean ====
/-
  What every boundary of the kernel program's run keeps from region 0's entry on: the two rows of the edge list,
  the edges' coefficients and the nodes' self-loop coefficients (computed once, before the first kernel), and the six
  weight arguments later stretches still slice. `a m c b` is core c's launch contents of buffer b.
-/
import proofs.«413863_j12395275616334_2_alg».proof.Proof.Gen.KernelIdeal.Frame
import proofs.«413863_j12395275616334_2_alg».proof.Proof.Gen.KernelIdeal
import proofs.«413863_j12395275616334_2_alg».proof.Proof.Gen.ReferenceIdeal
import proofs.«413863_j12395275616334_2_alg».proof.Proof.KSpec
import Idealize.ShloMosaic.PureOps.Ideal

set_option maxRecDepth 16384

noncomputable section

namespace Cert.KernelIdeal.KState
open Idealize.ShloMosaic Idealize.ShloMosaic.TcCoe Idealize.SL.Sem Cert.KernelIdeal Cert.KernelIdeal.Gen

variable (m : (ℓ : Loc nD τ sig) → Buf (Elt Ideal) ℓ) (c : Dev nD)

/-- Core `c`'s launch contents of the buffer `b`. -/
abbrev a (b : Ref sig .tc) := m ((c : Thread nD τ).loc b)

/-- The source row of the edge list. -/
abbrev src := Cert.KSpec.srcOf (F := Ideal) (a m c main_arg1)
/-- The target row of the edge list. -/
abbrev dst := Cert.KSpec.dstOf (F := Ideal) (a m c main_arg1)
/-- The edge weights. -/
abbrev ew := a m c main_arg2

/-- The buffers a boundary's contents `W` keep: the edge rows, the coefficients, and the weight arguments. -/
structure Kept (W : Valuation τ sig (Elt Ideal)) : Prop where
  v1 : W (Proc.devRef .tc main_v1) = src m c
  v3 : W (Proc.devRef .tc main_v3) = dst m c
  v28 : W (Proc.devRef .tc main_v28) = Cert.KSpec.coef (F := Ideal) (src m c) (dst m c) (ew m c)
  v29 : W (Proc.devRef .tc main_v29) = Cert.KSpec.sd (F := Ideal) (dst m c) (ew m c)
  a5 : W (Proc.devRef .tc main_arg5) = a m c main_arg5
  a6 : W (Proc.devRef .tc main_arg6) = a m c main_arg6
  a7 : W (Proc.devRef .tc main_arg7) = a m c main_arg7
  a8 : W (Proc.devRef .tc main_arg8) = a m c main_arg8
  a9 : W (Proc.devRef .tc main_arg9) = a m c main_arg9
  a10 : W (Proc.devRef .tc main_arg10) = a m c main_arg10

end Cert.KernelIdeal.KState

end
-- ==== Proof.Region0.lean ====
/-
  Region 0 (the encoder kernel, ten row tiles of 5000): its output array is the whole-array product plus bias row.

  The kernel walks the 50000 rows of the features in ten tiles of 5000 rows. At tile t it multiplies rows
  5000·t … 5000·t + 4999 by the whole [128,128] weight, accumulating from zero, adds the [1,128] bias row to every
  row, and writes the result to the same rows of the output. Entry (r, q) of what a tile stores is therefore
  Σ_k x(5000·t + r, k) · W(k, q) + b(q); the whole-array function `lin` has the same sum at entry (i, q); and row i
  of the output lies in the block of tile i / 5000. So the ten blocks written back are the ten row blocks of one
  function of the whole arrays, they cover the output, and the output array is that function.
-/
import proofs.«413863_j12395275616334_2_alg».proof.Proof.Gen.KernelIdeal.Frame
import proofs.«413863_j12395275616334_2_alg».proof.Proof.Gen.KernelIdeal
import proofs.«413863_j12395275616334_2_alg».proof.Proof.Gen.ReferenceIdeal
import proofs.«413863_j12395275616334_2_alg».proof.Proof.KSpec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Region0
open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-! ## The block product at an entry

The product contracts axis 1 of the left operand against axis 0 of the right. At output entry (r, q) and contraction
position k the left operand is read at (r, k) and the right at (k, q): the four lemmas below say so axis by axis. -/

theorem lhsK_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhsK_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsK_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsK_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (r, q) of a [5000,128] block times the [128,128] weight, accumulated from zero: the sum over k of x(r,k)·W(k,q). -/
theorem blockProd_apply (x : FVec Ideal S5000x128 .f32) (W : FVec Ideal S128x128 .f32) (r : Fin 5000) (q : Fin 128) :
    matmul dot_S5000x128_S128x128_S5000x128_1_0_0_1_n_n none x W (constant (F := Ideal) S5000x128 .f32 0x00000000#32) (ix2 r q)
      = ∑ k : Fin 128, x (ix2 r k) * W (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k :=
    funext fun a => Fin.ext (by
      match a with
      | ⟨0, _⟩ => exact lhsK_0 _ _
      | ⟨1, _⟩ => exact (lhsK_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q :=
    funext fun a => Fin.ext (by
      match a with
      | ⟨0, _⟩ => exact (rhsK_0 _ _).trans hk
      | ⟨1, _⟩ => exact rhsK_1 _ _)
  rw [el, er]

/-- Entry (r, q) of what the body stores: the block's product row plus the bias row's entry q. -/
theorem pay_apply (x : FVec Ideal S5000x128 .f32) (W : FVec Ideal S128x128 .f32) (b : FVec Ideal S1x128 .f32) (r : Fin 5000) (q : Fin 128) :
    k0_pay1 (F := Ideal) x W b (ix2 r q) = (∑ k : Fin 128, x (ix2 r k) * W (ix2 k q)) + b (ix2 0 q) := by
  unfold k0_pay1
  show matmul dot_S5000x128_S128x128_S5000x128_1_0_0_1_n_n none x W (constant (F := Ideal) S5000x128 .f32 0x00000000#32) (ix2 r q)
      + broadcastTo S5000x128 (shapeCast S1x128 b shapeCasts_S1x128_S1x128) broadcasts_S1x128_S5000x128 (ix2 r q) = _
  rw [blockProd_apply, shapeCast_self]
  refine congrArg (_ + ·) ?_
  refine broadcastTo_apply b broadcasts_S1x128_S5000x128 (ix2 r q) (ix2 0 q) fun a => ?_
  match a with
  | ⟨0, _⟩ => rfl
  | ⟨1, _⟩ => rfl

/-! ## The whole-array functions at an entry -/

theorem lhsR_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide),
    dif_pos (show (0 : Fin Cert.ReferenceIdeal.S50000x128.rank) ∈ Cert.ReferenceIdeal.dot_S50000x128_S128x128_S50000x128_1_0_0_1_n_n.lhsNonContracting by decide)]
  rfl
theorem lhsR_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhsR_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhsR_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide),
    dif_pos (show (1 : Fin Cert.ReferenceIdeal.S128x128.rank) ∈ Cert.ReferenceIdeal.dot_S50000x128_S128x128_S50000x128_1_0_0_1_n_n.rhsNonContracting by decide)]
  rfl

/-- Entry (i, q) of the whole-array product: the sum over k of x(i,k)·W(k,q). -/
theorem mm_apply (x : FVec Ideal Cert.ReferenceIdeal.S50000x128 .f32) (W : FVec Ideal Cert.ReferenceIdeal.S128x128 .f32) (i : Fin 50000) (q : Fin 128) :
    Cert.Spec.mm (F := Ideal) x W (ix2 i q) = ∑ k : Fin 128, x (ix2 i k) * W (ix2 k q) := by
  unfold Cert.Spec.mm
  simp only [Host.dotGeneral]
  rw [Ideal.dotGeneral_apply,
    ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 i q) ((contrEquiv1 Cert.ReferenceIdeal.dot_S50000x128_S128x128_S50000x128_1_0_0_1_n_n 128 rfl rfl).symm k) = ix2 i k :=
    funext fun a => Fin.ext (by
      match a with
      | ⟨0, _⟩ => exact lhsR_0 _ _
      | ⟨1, _⟩ => exact (lhsR_1 _ _).trans hk)
  have er : Cert.ReferenceIdeal.dot_S50000x128_S128x128_S50000x128_1_0_0_1_n_n.rhsIdx (ix2 i q) ((contrEquiv1 Cert.ReferenceIdeal.dot_S50000x128_S128x128_S50000x128_1_0_0_1_n_n 128 rfl rfl).symm k) = ix2 k q :=
    funext fun a => Fin.ext (by
      match a with
      | ⟨0, _⟩ => exact (rhsR_0 _ _).trans hk
      | ⟨1, _⟩ => exact rhsR_1 _ _)
  rw [el, er]

/-- Entry (i, q) of a [1,128] row laid under every row: the row's entry q. -/
theorem rowB_apply (b : FVec Ideal Cert.ReferenceIdeal.S1x128 .f32) (i : Fin 50000) (q : Fin 128) :
    Cert.Spec.rowB (F := Ideal) b (ix2 i q) = b (ix2 0 q) := by
  unfold Cert.Spec.rowB
  refine broadcastInDim_apply _ _ b (ix2 i q) (ix2 0 q) fun a => ?_
  match a with
  | ⟨0, _⟩ => rfl
  | ⟨1, _⟩ => rfl

/-- Entry (i, q) of the product plus a bias row. -/
theorem lin_apply (x : FVec Ideal Cert.ReferenceIdeal.S50000x128 .f32) (W : FVec Ideal Cert.ReferenceIdeal.S128x128 .f32)
    (b : FVec Ideal Cert.ReferenceIdeal.S1x128 .f32) (i : Fin 50000) (q : Fin 128) :
    Cert.Spec.lin (F := Ideal) x W b (ix2 i q) = (∑ k : Fin 128, x (ix2 i k) * W (ix2 k q)) + b (ix2 0 q) := by
  unfold Cert.Spec.lin
  show Cert.Spec.mm (F := Ideal) x W (ix2 i q) + Cert.Spec.rowB (F := Ideal) b (ix2 i q) = _
  rw [mm_apply, rowB_apply]

/-! ## From the row tiles to the array -/

theorem hz : (![0, 0] : Fin 2 → Nat) = fun _ => 0 := funext fun a => by fin_cases a <;> rfl

/-- What the output array ends holding, entry by entry: row i of `x` against column q of `W`, plus the bias row's entry q. -/
def G (x : FVec Ideal S50000x128 .f32) (W : FVec Ideal S128x128 .f32) (b : FVec Ideal S1x128 .f32) : FVec Ideal S50000x128 .f32 :=
  fun i => (∑ k : Fin 128, x (ix2 (i 0) k) * W (ix2 k (i 1))) + b (ix2 0 (i 1))

/-- The block index maps over the ten tiles: the feature window and the output window sit at row block t, the weight and the
    bias row are whole at every tile. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Tile t's block of the features is rows 5000·t … 5000·t + 4999 of the array. -/
theorem xblk_apply (c : Dev nD) (t : Fin cfg0.N) (y : S5000x128.Idx) (i : S50000x128.Idx)
    (h0 : (i 0).val = t.val * 5000 + (y 0).val) (h1 : (i 1).val = (y 1).val) :
    (iblk0 V c 0 t : FVec Ideal S5000x128 .f32) y = (V c main_arg0 : FVec Ideal S50000x128 .f32) i := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight's block is the whole weight at every tile. -/
theorem wblk_eq (c : Dev nD) (t : Fin cfg0.N) : (iblk0 V c 1 t : FVec Ideal S128x128 .f32) = V c main_arg3 := by
  obtain ⟨-, -, e2, e3, -⟩ := idx_facts t
  funext y
  unfold iblk0
  rw [View.read_apply]
  show V c main_arg3 _ = V c main_arg3 _
  refine congrArg (V c main_arg3) ?_
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- The bias row's block is the whole row at every tile. -/
theorem bblk_eq (c : Dev nD) (t : Fin cfg0.N) : (iblk0 V c 2 t : FVec Ideal S1x128 .f32) = V c main_v30 := by
  obtain ⟨-, -, -, -, e4, e5, -⟩ := idx_facts t
  funext y
  unfold iblk0
  rw [View.read_apply]
  show V c main_v30 _ = V c main_v30 _
  refine congrArg (V c main_v30) ?_
  funext a
  apply Fin.ext
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

/-- One entry of what tile T stores is the entry of `G` in row 5000·T + r: the tile's rows are the array's rows there, and
    the weight and the bias row are the same at every tile. -/
theorem point_eq (x0 : FVec Ideal S5000x128 .f32) (x1 : FVec Ideal S128x128 .f32) (x2 : FVec Ideal S1x128 .f32)
    (x : FVec Ideal S50000x128 .f32) (T : Nat)
    (hx : ∀ (y : S5000x128.Idx) (i : S50000x128.Idx), (i 0).val = T * 5000 + (y 0).val → (i 1).val = (y 1).val → x0 y = x i)
    (j : S5000x128.Idx) (i : S50000x128.Idx) (hi0 : (i 0).val = T * 5000 + (j 0).val) (hi1 : (i 1).val = (j 1).val) :
    k0_pay1 (F := Ideal) x0 x1 x2 j = G x x1 x2 i := by
  obtain ⟨r, q, rfl⟩ : ∃ (r : Fin 5000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext hi1
  rw [pay_apply]
  unfold G
  refine congrArg (· + _) (Finset.sum_congr rfl fun k _ => ?_)
  exact congrArg (· * _) (hx (ix2 r k) (ix2 p k) hi0 rfl)

/-- What tile t writes back is block t of `G` of the arrays the region found. -/
theorem flushed_eq (c : Dev nD) (t : Fin cfg0.N) :
    (dat0 V c).flushed 3 t = ((cfg0.win 3).blk t).view.read (Elt Ideal) (G (V c main_arg0) (V c main_arg3) (V c main_v30)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [wblk_eq V c t, bblk_eq V c t]
  obtain ⟨-, -, -, -, -, -, e6, e7⟩ := idx_facts t
  funext j
  rw [View.read_apply]
  refine point_eq (iblk0 V c 0 t) (V c main_arg3) (V c main_v30) (V c main_arg0) t.val (fun y i h0 h1 => xblk_apply V c t y i h0 h1)
    _ (((cfg0.win 3).blk t).view.emb j) ?_ ?_
  · show win0_3.index t (0 : Fin 2) * 5000 + 1 * (j 0).val = t.val * 5000 + (j 0).val
    rw [e6]; omega
  · show win0_3.index t (1 : Fin 2) * 128 + 1 * (j 1).val = (j 1).val
    rw [e7]; omega

/-- An entry of the array is in tile t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v31).slice (win0_3.rect t)).set ↔ _
  rw [View.set_slice_whole, Rect.mem_set_unit]
  exact Iff.rfl

/-- Row i of the array lies in the block of tile i / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, e6, e7⟩ := idx_facts ⟨(i 0).val / 5000, ht⟩
  have e6' : win0_3.index ⟨(i 0).val / 5000, ht⟩ (0 : Fin 2) = (i 0).val / 5000 := e6
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6']; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e7]; omega

/-- `G` is the encoder's whole-array function. -/
theorem G_eq_lin (x : FVec Ideal S50000x128 .f32) (W : FVec Ideal S128x128 .f32) (b : FVec Ideal S1x128 .f32) :
    G x W b = Cert.Spec.lin (F := Ideal) x W b := by
  funext i
  obtain ⟨p, q, rfl⟩ : ∃ (p : Fin 50000) (q : Fin 128), i = ix2 p q := ⟨i 0, i 1, eq_ix2 i⟩
  rw [lin_apply]
  rfl

/-- The output array after region 0 is `x · W + b` of the arrays the region found, whole array. -/
theorem arr0_3 (c : Dev nD) : (dat0 (F := Ideal) V c).arrAt 3 cfg0.N
    = Cert.Spec.lin (F := Ideal) (V c main_arg0) (V c main_arg3) (V c main_v30) :=
  ((dat0 V c).arrAt_eq_of_cover 3 (G (V c main_arg0) (V c main_arg3) (V c main_v30)) (fun t _ => flushed_eq V c t) cover).trans
    (G_eq_lin _ _ _)

end Cert.KernelIdeal.Region0

end
-- ==== Proof.KStep0.lean ====
/-
  From the launch to region 1's entry: the host prologue (edge rows, degrees, coefficients), the encoder kernel,
  and the first layer's weight slices.
-/
import proofs.«413863_j12395275616334_2_alg».proof.Proof.Gen.KernelIdeal.Frame
import proofs.«413863_j12395275616334_2_alg».proof.Proof.Gen.KernelIdeal
import proofs.«413863_j12395275616334_2_alg».proof.Proof.Gen.ReferenceIdeal
import proofs.«413863_j12395275616334_2_alg».proof.Proof.KSpec
import proofs.«413863_j12395275616334_2_alg».proof.Proof.KState
import proofs.«413863_j12395275616334_2_alg».proof.Proof.Region0
import Idealize.ShloMosaic.PureOps.Ideal

set_option maxRecDepth 16384

noncomputable section

namespace Cert.KernelIdeal.KStep0
open Idealize.ShloMosaic Idealize.ShloMosaic.TcCoe Idealize.SL.Sem Cert.KernelIdeal Cert.KernelIdeal.Gen
open Cert.KernelIdeal.KState

variable (m : (ℓ : Loc nD τ sig) → Buf (Elt Ideal) ℓ) (ρ : Dev nD → PrngReg) (c : Dev nD)

/-! ## Each host stretch over any entry contents

For a stretch's list of operations and any contents `V` at its entry: what each buffer the later steps read holds
at the exit, as the operations' functions of the entry contents; and a buffer the stretch does not write keeps its
contents. -/

section Stretch
variable (V : Valuation τ sig (Elt Ideal))

/-- Every operation's written buffer lies in the listed references: one conjunct per operation. -/
local macro "writes_in_list" : tactic => `(tactic| (
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)))

/-! ### The first stretch: the edge rows, the degrees, the inverse root's two branches -/

/-- The references the first stretch writes. -/
abbrev wr0 : List (Ref sig .tc) :=
  [main_v0, main_v1, main_v2, main_v3, main_cst, main_v4, main_v5, main_v6, main_cst_0, main_v7, main_v8, main_cst_1, main_v9,
   main_v10, main_v11, main_cst_2]
theorem writes0 : (hostOps0 : List (HloOp τ sig (Elt Ideal))).Forall fun op => op.writes ⊆ (wr0.map (Proc.devRef (τ := τ) .tc)).toFinset := by
  writes_in_list
theorem keep0 {r : Ref sig .tc} (h : r ∉ wr0) : StableHlo.after hostOps0 V (Proc.devRef .tc r) = V (Proc.devRef .tc r) :=
  StableHlo.after_of_writes_sub hostOps0 V writes0 h

theorem ops0_v1 : StableHlo.after hostOps0 V (Proc.devRef .tc main_v1)
    = Cert.KSpec.srcOf (F := Ideal) (V (Proc.devRef .tc main_arg1)) := by
  after_results
  rfl
theorem ops0_v3 : StableHlo.after hostOps0 V (Proc.devRef .tc main_v3)
    = Cert.KSpec.dstOf (F := Ideal) (V (Proc.devRef .tc main_arg1)) := by
  after_results
  rfl
/-- The comparison of the degrees with zero. -/
theorem ops0_v10 : StableHlo.after hostOps0 V (Proc.devRef .tc main_v10)
    = cmpf .ogt (Cert.KSpec.deg (F := Ideal) (Cert.KSpec.dstOf (V (Proc.devRef .tc main_arg1))) (V (Proc.devRef .tc main_arg2)))
        (broadcastInDim S50000 ![] bcast_S_S50000 (constant (F := Ideal) S_ .f32 0x00000000#32)) := by
  after_results
  rfl
/-- The inverse root of the degrees. -/
theorem ops0_v11 : StableHlo.after hostOps0 V (Proc.devRef .tc main_v11)
    = Host.rsqrt (F := Ideal) (s := S50000) (φ := .f32) (Cert.KSpec.deg (F := Ideal) (Cert.KSpec.dstOf (V (Proc.devRef .tc main_arg1))) (V (Proc.devRef .tc main_arg2))) := by
  after_results
  rfl
theorem ops0_cst2 : StableHlo.after hostOps0 V (Proc.devRef .tc main_cst_2) = constant (F := Ideal) S_ .f32 0x00000000#32 := by
  after_results

/-! ### The second stretch: the inverse root degree, zero where the degree is not positive -/

abbrev wr0_1 : List (Ref sig .tc) := [main_call0_v0, main_call0_v1, main_v12]
theorem writes0_1 : (hostOps0_1 : List (HloOp τ sig (Elt Ideal))).Forall fun op => op.writes ⊆ (wr0_1.map (Proc.devRef (τ := τ) .tc)).toFinset := by
  writes_in_list
theorem keep0_1 {r : Ref sig .tc} (h : r ∉ wr0_1) : StableHlo.after hostOps0_1 V (Proc.devRef .tc r) = V (Proc.devRef .tc r) :=
  StableHlo.after_of_writes_sub hostOps0_1 V writes0_1 h

theorem ops0_1_v12 (dst : Cert.KSpec.EIdx Ideal) (ew : Cert.KSpec.EVal Ideal)
    (h10 : V (Proc.devRef .tc main_v10) = cmpf .ogt (Cert.KSpec.deg (F := Ideal) dst ew)
        (broadcastInDim S50000 ![] bcast_S_S50000 (constant (F := Ideal) S_ .f32 0x00000000#32)))
    (h11 : V (Proc.devRef .tc main_v11) = Host.rsqrt (F := Ideal) (s := S50000) (φ := .f32) (Cert.KSpec.deg (F := Ideal) dst ew))
    (hc : V (Proc.devRef .tc main_cst_2) = constant (F := Ideal) S_ .f32 0x00000000#32) :
    StableHlo.after hostOps0_1 V (Proc.devRef .tc main_v12) = Cert.KSpec.dinv (F := Ideal) dst ew := by
  after_results
  simp only [StableHlo.TRef.ofBuf, StableHlo.TRef.toBuf, cast_eq]
  rw [h10, h11, hc]
  rfl

/-! ### The third stretch: the edges' coefficients, the self loops' coefficients, the encoder's bias as a row -/

abbrev wr0_2 : List (Ref sig .tc) :=
  [main_c, main_v13, main_v14, main_c_3, main_v15, main_v16, main_v17, main_v18, main_v19, main_v20, main_c_4, main_v21, main_v22,
   main_c_5, main_v23, main_v24, main_v25, main_v26, main_v27, main_v28, main_v29, main_v30]
theorem writes0_2 : (hostOps0_2 : List (HloOp τ sig (Elt Ideal))).Forall fun op => op.writes ⊆ (wr0_2.map (Proc.devRef (τ := τ) .tc)).toFinset := by
  writes_in_list
theorem keep0_2 {r : Ref sig .tc} (h : r ∉ wr0_2) : StableHlo.after hostOps0_2 V (Proc.devRef .tc r) = V (Proc.devRef .tc r) :=
  StableHlo.after_of_writes_sub hostOps0_2 V writes0_2 h

theorem ops0_2_v28 (src dst : Cert.KSpec.EIdx Ideal) (ew : Cert.KSpec.EVal Ideal)
    (h1 : V (Proc.devRef .tc main_v1) = src) (h3 : V (Proc.devRef .tc main_v3) = dst) (h2 : V (Proc.devRef .tc main_arg2) = ew)
    (h12 : V (Proc.devRef .tc main_v12) = Cert.KSpec.dinv (F := Ideal) dst ew) :
    StableHlo.after hostOps0_2 V (Proc.devRef .tc main_v28) = Cert.KSpec.coef (F := Ideal) src dst ew := by
  after_results_simp
  rw [h1, h3, h2, h12]
  rfl
theorem ops0_2_v29 (dst : Cert.KSpec.EIdx Ideal) (ew : Cert.KSpec.EVal Ideal)
    (h12 : V (Proc.devRef .tc main_v12) = Cert.KSpec.dinv (F := Ideal) dst ew) :
    StableHlo.after hostOps0_2 V (Proc.devRef .tc main_v29) = Cert.KSpec.sd (F := Ideal) dst ew := by
  after_results
  rw [h12]
  rfl
theorem ops0_2_v30 : StableHlo.after hostOps0_2 V (Proc.devRef .tc main_v30)
    = Cert.KSpec.asRow (F := Ideal) (V (Proc.devRef .tc main_arg4)) := by
  after_results
  rfl

/-! ### The stretch before region 1: the first layer's weight, its bias as a row, the self loops' coefficients as a column -/

abbrev wr1 : List (Ref sig .tc) := [main_v32, main_v33, main_v34, main_v35, main_v36, main_v37]
theorem writes1 : (hostOps1 : List (HloOp τ sig (Elt Ideal))).Forall fun op => op.writes ⊆ (wr1.map (Proc.devRef (τ := τ) .tc)).toFinset := by
  writes_in_list
theorem keep1 {r : Ref sig .tc} (h : r ∉ wr1) : StableHlo.after hostOps1 V (Proc.devRef .tc r) = V (Proc.devRef .tc r) :=
  StableHlo.after_of_writes_sub hostOps1 V writes1 h

theorem ops1_v33 : StableHlo.after hostOps1 V (Proc.devRef .tc main_v33)
    = Cert.KSpec.W0 (F := Ideal) (V (Proc.devRef .tc main_arg5)) := by
  after_results
  rfl
theorem ops1_v36 : StableHlo.after hostOps1 V (Proc.devRef .tc main_v36)
    = Cert.KSpec.asRow (Cert.KSpec.r0 (F := Ideal) (V (Proc.devRef .tc main_arg6))) := by
  after_results
  rfl
theorem ops1_v37 (dst : Cert.KSpec.EIdx Ideal) (ew : Cert.KSpec.EVal Ideal)
    (h29 : V (Proc.devRef .tc main_v29) = Cert.KSpec.sd (F := Ideal) dst ew) :
    StableHlo.after hostOps1 V (Proc.devRef .tc main_v37) = Cert.KSpec.sdCol (F := Ideal) dst ew := by
  after_results
  rw [h29]
  rfl

end Stretch

/-! ## The boundaries from the launch to region 1's entry -/

section Run

/-- A reference no stretch up to region 0's entry writes holds its launch contents there. -/
theorem w3_launch {r : Ref sig .tc} (h0 : r ∉ wr0) (h1 : r ∉ wr0_1) (h2 : r ∉ wr0_2) :
    W3 m ρ c (Proc.devRef .tc r) = W0 m ρ c (Proc.devRef .tc r) :=
  (keep0_2 (W2 m ρ c) h2).trans ((keep0_1 (W1 m ρ c) h1).trans (keep0 (W0 m ρ c) h0))

/-- A reference that is moreover none of region 0's arrays, and that the stretch before region 1 does not write,
    holds its launch contents at region 1's entry. -/
theorem w5_launch {r : Ref sig .tc} (h0 : r ∉ wr0) (h1 : r ∉ wr0_1) (h2 : r ∉ wr0_2)
    (h4 : ∀ w, Pipeline.arrRef spec0 w ≠ r) (h5 : r ∉ wr1) :
    W5 m ρ c (Proc.devRef .tc r) = W0 m ρ c (Proc.devRef .tc r) :=
  (keep1 (W4 m ρ c) h5).trans ((W4_of_ne m ρ c r h4).trans (w3_launch m ρ c h0 h1 h2))

/-- A reference written before region 0 that is none of its arrays and that the stretch before region 1 does not
    write: at region 1's entry it holds what it held at region 0's entry. -/
theorem w5_of_w3 {r : Ref sig .tc} (h4 : ∀ w, Pipeline.arrRef spec0 w ≠ r) (h5 : r ∉ wr1) :
    W5 m ρ c (Proc.devRef .tc r) = W3 m ρ c (Proc.devRef .tc r) :=
  (keep1 (W4 m ρ c) h5).trans (W4_of_ne m ρ c r h4)

/-! ### After the first stretch -/

theorem w1_v1 : W1 m ρ c (Proc.devRef .tc main_v1) = src m c := ops0_v1 (W0 m ρ c)
theorem w1_v3 : W1 m ρ c (Proc.devRef .tc main_v3) = dst m c := ops0_v3 (W0 m ρ c)
theorem w1_v10 : W1 m ρ c (Proc.devRef .tc main_v10) = cmpf .ogt (Cert.KSpec.deg (F := Ideal) (dst m c) (ew m c))
    (broadcastInDim S50000 ![] bcast_S_S50000 (constant (F := Ideal) S_ .f32 0x00000000#32)) := ops0_v10 (W0 m ρ c)
theorem w1_v11 : W1 m ρ c (Proc.devRef .tc main_v11)
    = Host.rsqrt (F := Ideal) (s := S50000) (φ := .f32) (Cert.KSpec.deg (F := Ideal) (dst m c) (ew m c)) := ops0_v11 (W0 m ρ c)
theorem w1_cst2 : W1 m ρ c (Proc.devRef .tc main_cst_2) = constant (F := Ideal) S_ .f32 0x00000000#32 := ops0_cst2 (W0 m ρ c)

/-! ### After the second stretch -/

theorem w2_v12 : W2 m ρ c (Proc.devRef .tc main_v12) = Cert.KSpec.dinv (F := Ideal) (dst m c) (ew m c) :=
  ops0_1_v12 (W1 m ρ c) (dst m c) (ew m c) (w1_v10 m ρ c) (w1_v11 m ρ c) (w1_cst2 m ρ c)
theorem w2_v1 : W2 m ρ c (Proc.devRef .tc main_v1) = src m c := (keep0_1 (W1 m ρ c) (by decide)).trans (w1_v1 m ρ c)
theorem w2_v3 : W2 m ρ c (Proc.devRef .tc main_v3) = dst m c := (keep0_1 (W1 m ρ c) (by decide)).trans (w1_v3 m ρ c)
theorem w2_arg2 : W2 m ρ c (Proc.devRef .tc main_arg2) = ew m c :=
  (keep0_1 (W1 m ρ c) (by decide)).trans (keep0 (W0 m ρ c) (by decide))
theorem w2_arg4 : W2 m ρ c (Proc.devRef .tc main_arg4) = a m c main_arg4 :=
  (keep0_1 (W1 m ρ c) (by decide)).trans (keep0 (W0 m ρ c) (by decide))

/-! ### At region 0's entry -/

theorem w3_v1 : W3 m ρ c (Proc.devRef .tc main_v1) = src m c := (keep0_2 (W2 m ρ c) (by decide)).trans (w2_v1 m ρ c)
theorem w3_v3 : W3 m ρ c (Proc.devRef .tc main_v3) = dst m c := (keep0_2 (W2 m ρ c) (by decide)).trans (w2_v3 m ρ c)
theorem w3_v28 : W3 m ρ c (Proc.devRef .tc main_v28) = Cert.KSpec.coef (F := Ideal) (src m c) (dst m c) (ew m c) :=
  ops0_2_v28 (W2 m ρ c) (src m c) (dst m c) (ew m c) (w2_v1 m ρ c) (w2_v3 m ρ c) (w2_arg2 m ρ c) (w2_v12 m ρ c)
theorem w3_v29 : W3 m ρ c (Proc.devRef .tc main_v29) = Cert.KSpec.sd (F := Ideal) (dst m c) (ew m c) :=
  ops0_2_v29 (W2 m ρ c) (dst m c) (ew m c) (w2_v12 m ρ c)
theorem w3_v30 : W3 m ρ c (Proc.devRef .tc main_v30) = Cert.KSpec.asRow (F := Ideal) (a m c main_arg4) :=
  (ops0_2_v30 (W2 m ρ c)).trans (congrArg Cert.KSpec.asRow (w2_arg4 m ρ c))
theorem w3_arg0 : W3 m ρ c (Proc.devRef .tc main_arg0) = a m c main_arg0 :=
  w3_launch m ρ c (by decide) (by decide) (by decide)
theorem w3_arg3 : W3 m ρ c (Proc.devRef .tc main_arg3) = a m c main_arg3 :=
  w3_launch m ρ c (by decide) (by decide) (by decide)

/-! ### At region 0's exit: the encoder's array -/

theorem w4_v31 : W4 m ρ c (Proc.devRef .tc main_v31)
    = Cert.KSpec.enc (F := Ideal) (a m c main_arg0) (a m c main_arg3) (a m c main_arg4) := by
  refine (W4_arr m ρ c 3).trans ((Region0.arr0_3 (V3 m ρ) c).trans ?_)
  dsimp only [V3]
  rw [w3_arg0 m ρ c, w3_arg3 m ρ c, w3_v30 m ρ c]
  rfl

/-! ### At region 1's entry -/

theorem w5_v31 : W5 m ρ c (Proc.devRef .tc main_v31)
    = Cert.KSpec.enc (F := Ideal) (a m c main_arg0) (a m c main_arg3) (a m c main_arg4) :=
  (keep1 (W4 m ρ c) (by decide)).trans (w4_v31 m ρ c)
theorem w5_v33 : W5 m ρ c (Proc.devRef .tc main_v33) = Cert.KSpec.W0 (F := Ideal) (a m c main_arg5) :=
  (ops1_v33 (W4 m ρ c)).trans (congrArg Cert.KSpec.W0
    ((W4_of_ne m ρ c main_arg5 (by decide)).trans (w3_launch m ρ c (by decide) (by decide) (by decide))))
theorem w5_v36 : W5 m ρ c (Proc.devRef .tc main_v36) = Cert.KSpec.asRow (Cert.KSpec.r0 (F := Ideal) (a m c main_arg6)) :=
  (ops1_v36 (W4 m ρ c)).trans (congrArg (fun p => Cert.KSpec.asRow (Cert.KSpec.r0 (F := Ideal) p))
    ((W4_of_ne m ρ c main_arg6 (by decide)).trans (w3_launch m ρ c (by decide) (by decide) (by decide))))
theorem w5_v37 : W5 m ρ c (Proc.devRef .tc main_v37) = Cert.KSpec.sdCol (F := Ideal) (dst m c) (ew m c) :=
  ops1_v37 (W4 m ρ c) (dst m c) (ew m c) ((W4_of_ne m ρ c main_v29 (by decide)).trans (w3_v29 m ρ c))

theorem kept5 : Kept m c (W5 m ρ c) where
  v1 := (w5_of_w3 m ρ c (by decide) (by decide)).trans (w3_v1 m ρ c)
  v3 := (w5_of_w3 m ρ c (by decide) (by decide)).trans (w3_v3 m ρ c)
  v28 := (w5_of_w3 m ρ c (by decide) (by decide)).trans (w3_v28 m ρ c)
  v29 := (w5_of_w3 m ρ c (by decide) (by decide)).trans (w3_v29 m ρ c)
  a5 := w5_launch m ρ c (by decide) (by decide) (by decide) (by decide) (by decide)
  a6 := w5_launch m ρ c (by decide) (by decide) (by decide) (by decide) (by decide)
  a7 := w5_launch m ρ c (by decide) (by decide) (by decide) (by decide) (by decide)
  a8 := w5_launch m ρ c (by decide) (by decide) (by decide) (by decide) (by decide)
  a9 := w5_launch m ρ c (by decide) (by decide) (by decide) (by decide) (by decide)
  a10 := w5_launch m ρ c (by decide) (by decide) (by decide) (by decide) (by decide)

end Run

/-- At region 1's entry: the kept buffers, the encoder's array, and the first layer's weight, bias row and self-loop column. -/
theorem at5 : Kept m c (W5 m ρ c)
      ∧ W5 m ρ c (Proc.devRef .tc main_v31) = Cert.KSpec.enc (F := Ideal) (a m c main_arg0) (a m c main_arg3) (a m c main_arg4)
      ∧ W5 m ρ c (Proc.devRef .tc main_v33) = Cert.KSpec.W0 (F := Ideal) (a m c main_arg5)
      ∧ W5 m ρ c (Proc.devRef .tc main_v36) = Cert.KSpec.asRow (Cert.KSpec.r0 (F := Ideal) (a m c main_arg6))
      ∧ W5 m ρ c (Proc.devRef .tc main_v37) = Cert.KSpec.sdCol (F := Ideal) (dst m c) (ew m c) :=
  ⟨kept5 m ρ c, w5_v31 m ρ c, w5_v33 m ρ c, w5_v36 m ρ c, w5_v37 m ρ c⟩

end Cert.KernelIdeal.KStep0

end
-- ==== Proof.Region1.lean ====
/-
  Region 1 (the first layer's kernel): its two output arrays are the whole-array product and the self-loop term.

  The kernel walks the 50000 rows of the node features in ten tiles of 5000 rows. At tile t it multiplies rows
  5000·t … 5000·t + 4999 by the whole [128,128] weight, accumulating from zero, and writes that product to the same
  rows of the first output; it scales row r of the product by entry r of the tile's [5000,1] block of the column of
  self-loop coefficients, adds the [1,128] bias row to every row, and writes that to the same rows of the second
  output. Entry (r, q) of what a tile stores is therefore Σ_k x(5000·t + r, k) · W(k, q), respectively that sum times
  s(5000·t + r) plus b(q); the whole-array functions `mm` and `selfTerm` of `mm` have the same values at entry (i, q);
  and row i of either output lies in the block of tile i / 5000. So each output's ten blocks are the ten row blocks
  of one function of the whole arrays, they cover the output, and the output array is that function.
-/
import proofs.«413863_j12395275616334_2_alg».proof.Proof.Gen.KernelIdeal.Frame
import proofs.«413863_j12395275616334_2_alg».proof.Proof.Gen.KernelIdeal
import proofs.«413863_j12395275616334_2_alg».proof.Proof.Gen.ReferenceIdeal
import proofs.«413863_j12395275616334_2_alg».proof.Proof.KSpec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Region1
open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-! ## The block product at an entry

The product contracts axis 1 of the left operand against axis 0 of the right. At output entry (r, q) and contraction
position k the left operand is read at (r, k) and the right at (k, q): the four lemmas below say so axis by axis. -/

theorem lhsK_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhsK_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsK_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsK_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (r, q) of a [5000,128] block times the [128,128] weight, accumulated from zero: the sum over k of x(r,k)·W(k,q). -/
theorem blockProd_apply (x : FVec Ideal S5000x128 .f32) (W : FVec Ideal S128x128 .f32) (r : Fin 5000) (q : Fin 128) :
    matmul dot_S5000x128_S128x128_S5000x128_1_0_0_1_n_n none x W (constant (F := Ideal) S5000x128 .f32 0x00000000#32) (ix2 r q)
      = ∑ k : Fin 128, x (ix2 r k) * W (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k :=
    funext fun a => Fin.ext (by
      match a with
      | ⟨0, _⟩ => exact lhsK_0 _ _
      | ⟨1, _⟩ => exact (lhsK_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q :=
    funext fun a => Fin.ext (by
      match a with
      | ⟨0, _⟩ => exact (rhsK_0 _ _).trans hk
      | ⟨1, _⟩ => exact rhsK_1 _ _)
  rw [el, er]

/-- Entry (r, q) of the product the body stores to the first output. -/
theorem pay1_apply (x : FVec Ideal S5000x128 .f32) (W : FVec Ideal S128x128 .f32) (r : Fin 5000) (q : Fin 128) :
    k1_pay1 (F := Ideal) x W (ix2 r q) = ∑ k : Fin 128, x (ix2 r k) * W (ix2 k q) := by
  unfold k1_pay1
  show matmul dot_S5000x128_S128x128_S5000x128_1_0_0_1_n_n none (shapeCast S5000x128 x shapeCasts_S5000x128_S5000x128)
      (shapeCast S128x128 W shapeCasts_S128x128_S128x128) (constant (F := Ideal) S5000x128 .f32 0x00000000#32) (ix2 r q) = _
  rw [shapeCast_self, shapeCast_self, blockProd_apply]

/-- Entry (r, q) of what the body stores to the second output: the product's entry times the column block's entry r,
    plus the bias row's entry q. -/
theorem pay2_apply (x : FVec Ideal S5000x128 .f32) (W : FVec Ideal S128x128 .f32) (s : FVec Ideal S5000x1 .f32)
    (b : FVec Ideal S1x128 .f32) (r : Fin 5000) (q : Fin 128) :
    k1_pay2 (F := Ideal) x W s b (ix2 r q) = (∑ k : Fin 128, x (ix2 r k) * W (ix2 k q)) * s (ix2 r 0) + b (ix2 0 q) := by
  unfold k1_pay2
  show k1_pay1 (F := Ideal) x W (ix2 r q)
        * broadcastTo S5000x128 (shapeCast S5000x1 s shapeCasts_S5000x1_S5000x1) broadcasts_S5000x1_S5000x128 (ix2 r q)
      + broadcastTo S5000x128 (shapeCast S1x128 b shapeCasts_S1x128_S1x128) broadcasts_S1x128_S5000x128 (ix2 r q) = _
  rw [pay1_apply, shapeCast_self, shapeCast_self]
  have hs : broadcastTo S5000x128 s broadcasts_S5000x1_S5000x128 (ix2 r q) = s (ix2 r 0) :=
    broadcastTo_apply s broadcasts_S5000x1_S5000x128 (ix2 r q) (ix2 r 0) fun a => by
      match a with
      | ⟨0, _⟩ => rfl
      | ⟨1, _⟩ => rfl
  have hb : broadcastTo S5000x128 b broadcasts_S1x128_S5000x128 (ix2 r q) = b (ix2 0 q) :=
    broadcastTo_apply b broadcasts_S1x128_S5000x128 (ix2 r q) (ix2 0 q) fun a => by
      match a with
      | ⟨0, _⟩ => rfl
      | ⟨1, _⟩ => rfl
  rw [hs, hb]

/-! ## The whole-array functions at an entry -/

theorem lhsR_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide),
    dif_pos (show (0 : Fin Cert.ReferenceIdeal.S50000x128.rank) ∈ Cert.ReferenceIdeal.dot_S50000x128_S128x128_S50000x128_1_0_0_1_n_n.lhsNonContracting by decide)]
  rfl
theorem lhsR_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhsR_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhsR_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide),
    dif_pos (show (1 : Fin Cert.ReferenceIdeal.S128x128.rank) ∈ Cert.ReferenceIdeal.dot_S50000x128_S128x128_S50000x128_1_0_0_1_n_n.rhsNonContracting by decide)]
  rfl

/-- Entry (i, q) of the whole-array product: the sum over k of x(i,k)·W(k,q). -/
theorem mm_apply (x : FVec Ideal Cert.ReferenceIdeal.S50000x128 .f32) (W : FVec Ideal Cert.ReferenceIdeal.S128x128 .f32) (i : Fin 50000) (q : Fin 128) :
    Cert.Spec.mm (F := Ideal) x W (ix2 i q) = ∑ k : Fin 128, x (ix2 i k) * W (ix2 k q) := by
  unfold Cert.Spec.mm
  simp only [Host.dotGeneral]
  rw [Ideal.dotGeneral_apply,
    ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 i q) ((contrEquiv1 Cert.ReferenceIdeal.dot_S50000x128_S128x128_S50000x128_1_0_0_1_n_n 128 rfl rfl).symm k) = ix2 i k :=
    funext fun a => Fin.ext (by
      match a with
      | ⟨0, _⟩ => exact lhsR_0 _ _
      | ⟨1, _⟩ => exact (lhsR_1 _ _).trans hk)
  have er : Cert.ReferenceIdeal.dot_S50000x128_S128x128_S50000x128_1_0_0_1_n_n.rhsIdx (ix2 i q) ((contrEquiv1 Cert.ReferenceIdeal.dot_S50000x128_S128x128_S50000x128_1_0_0_1_n_n 128 rfl rfl).symm k) = ix2 k q :=
    funext fun a => Fin.ext (by
      match a with
      | ⟨0, _⟩ => exact (rhsR_0 _ _).trans hk
      | ⟨1, _⟩ => exact rhsR_1 _ _)
  rw [el, er]

/-- Entry (i, q) of a [1,128] row laid under every row: the row's entry q. -/
theorem rowB_apply (b : FVec Ideal Cert.ReferenceIdeal.S1x128 .f32) (i : Fin 50000) (q : Fin 128) :
    Cert.Spec.rowB (F := Ideal) b (ix2 i q) = b (ix2 0 q) := by
  unfold Cert.Spec.rowB
  refine broadcastInDim_apply _ _ b (ix2 i q) (ix2 0 q) fun a => ?_
  match a with
  | ⟨0, _⟩ => rfl
  | ⟨1, _⟩ => rfl

/-- Entry (i, q) of a [50000,1] column laid beside every column: the column's entry i. -/
theorem colB_apply (s : FVec Ideal Cert.ReferenceIdeal.S50000x1 .f32) (i : Fin 50000) (q : Fin 128) :
    Cert.Spec.colB (F := Ideal) s (ix2 i q) = s (ix2 i 0) := by
  unfold Cert.Spec.colB
  refine broadcastInDim_apply _ _ s (ix2 i q) (ix2 i 0) fun a => ?_
  match a with
  | ⟨0, _⟩ => rfl
  | ⟨1, _⟩ => rfl

/-- Entry (i, q) of the self-loop term: the product's entry scaled by the column's entry i, plus the bias row's entry q. -/
theorem selfTerm_apply (xw : FVec Ideal Cert.ReferenceIdeal.S50000x128 .f32) (s : FVec Ideal Cert.ReferenceIdeal.S50000x1 .f32)
    (b : FVec Ideal Cert.ReferenceIdeal.S1x128 .f32) (i : Fin 50000) (q : Fin 128) :
    Cert.Spec.selfTerm (F := Ideal) xw s b (ix2 i q) = xw (ix2 i q) * s (ix2 i 0) + b (ix2 0 q) := by
  unfold Cert.Spec.selfTerm
  show xw (ix2 i q) * Cert.Spec.colB (F := Ideal) s (ix2 i q) + Cert.Spec.rowB (F := Ideal) b (ix2 i q) = _
  rw [colB_apply, rowB_apply]

/-! ## From the row tiles to the arrays -/

theorem hz : (![0, 0] : Fin 2 → Nat) = fun _ => 0 := funext fun a => by fin_cases a <;> rfl

/-- What the first output ends holding, entry by entry: row i of `x` against column q of `W`. -/
def G4 (x : FVec Ideal S50000x128 .f32) (W : FVec Ideal S128x128 .f32) : FVec Ideal S50000x128 .f32 :=
  fun i => ∑ k : Fin 128, x (ix2 (i 0) k) * W (ix2 k (i 1))

/-- What the second output ends holding, entry by entry: that product's entry times the column's entry i, plus the bias
    row's entry q. -/
def G5 (x : FVec Ideal S50000x128 .f32) (W : FVec Ideal S128x128 .f32) (s : FVec Ideal S50000x1 .f32)
    (b : FVec Ideal S1x128 .f32) : FVec Ideal S50000x128 .f32 :=
  fun i => (∑ k : Fin 128, x (ix2 (i 0) k) * W (ix2 k (i 1))) * s (ix2 (i 0) 0) + b (ix2 0 (i 1))

/-- The block index maps over the ten tiles: the feature window, the column window and both output windows sit at row
    block t, the weight and the bias row are whole at every tile. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Tile t's block of the features is rows 5000·t … 5000·t + 4999 of the array. -/
theorem xblk_apply (c : Dev nD) (t : Fin cfg1.N) (y : S5000x128.Idx) (i : S50000x128.Idx)
    (h0 : (i 0).val = t.val * 5000 + (y 0).val) (h1 : (i 1).val = (y 1).val) :
    (iblk1 V c 0 t : FVec Ideal S5000x128 .f32) y = (V c main_v31 : FVec Ideal S50000x128 .f32) i := by
  obtain ⟨e0, e1, -⟩ := idx_facts t
  unfold iblk1
  rw [View.read_apply]
  show V c main_v31 _ = V c main_v31 _
  refine congrArg (V c main_v31) ?_
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The weight's block is the whole weight at every tile. -/
theorem wblk_eq (c : Dev nD) (t : Fin cfg1.N) : (iblk1 V c 1 t : FVec Ideal S128x128 .f32) = V c main_v33 := by
  obtain ⟨-, -, e2, e3, -⟩ := idx_facts t
  funext y
  unfold iblk1
  rw [View.read_apply]
  show V c main_v33 _ = V c main_v33 _
  refine congrArg (V c main_v33) ?_
  funext a
  apply Fin.ext
  match a with
  | ⟨0, _⟩ => show win1_1.index t (0 : Fin 2) * 128 + 1 * (y 0).val = (y 0).val; rw [e2]; omega
  | ⟨1, _⟩ => show win1_1.index t (1 : Fin 2) * 128 + 1 * (y 1).val = (y 1).val; rw [e3]; omega

/-- The bias row's block is the whole row at every tile. -/
theorem bblk_eq (c : Dev nD) (t : Fin cfg1.N) : (iblk1 V c 2 t : FVec Ideal S1x128 .f32) = V c main_v36 := by
  obtain ⟨-, -, -, -, e4, e5, -⟩ := idx_facts t
  funext y
  unfold iblk1
  rw [View.read_apply]
  show V c main_v36 _ = V c main_v36 _
  refine congrArg (V c main_v36) ?_
  funext a
  apply Fin.ext
  match a with
  | ⟨0, _⟩ => show win1_2.index t (0 : Fin 2) * 1 + 1 * (y 0).val = (y 0).val; rw [e4]; omega
  | ⟨1, _⟩ => show win1_2.index t (1 : Fin 2) * 128 + 1 * (y 1).val = (y 1).val; rw [e5]; omega

/-- Tile t's block of the column of self-loop coefficients is entries 5000·t … 5000·t + 4999 of the column. -/
theorem sblk_apply (c : Dev nD) (t : Fin cfg1.N) (y : S5000x1.Idx) (i : S50000x1.Idx)
    (h0 : (i 0).val = t.val * 5000 + (y 0).val) (h1 : (i 1).val = (y 1).val) :
    (iblk1 V c 3 t : FVec Ideal S5000x1 .f32) y = (V c main_v37 : FVec Ideal S50000x1 .f32) i := by
  obtain ⟨-, -, -, -, -, -, e6, e7, -⟩ := idx_facts t
  unfold iblk1
  rw [View.read_apply]
  show V c main_v37 _ = V c main_v37 _
  refine congrArg (V c main_v37) ?_
  funext a
  apply Fin.ext
  match a with
  | ⟨0, _⟩ => show win1_3.index t (0 : Fin 2) * 5000 + 1 * (y 0).val = (i 0).val; rw [e6, h0]; omega
  | ⟨1, _⟩ => show win1_3.index t (1 : Fin 2) * 1 + 1 * (y 1).val = (i 1).val; rw [e7, h1]; omega

/-- One entry of what tile T stores to the first output is the entry of `G4` in row 5000·T + r. -/
theorem point4_eq (x0 : FVec Ideal S5000x128 .f32) (x1 : FVec Ideal S128x128 .f32)
    (x : FVec Ideal S50000x128 .f32) (T : Nat)
    (hx : ∀ (y : S5000x128.Idx) (i : S50000x128.Idx), (i 0).val = T * 5000 + (y 0).val → (i 1).val = (y 1).val → x0 y = x i)
    (j : S5000x128.Idx) (i : S50000x128.Idx) (hi0 : (i 0).val = T * 5000 + (j 0).val) (hi1 : (i 1).val = (j 1).val) :
    k1_pay1 (F := Ideal) x0 x1 j = G4 x x1 i := by
  obtain ⟨r, q, rfl⟩ : ∃ (r : Fin 5000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext hi1
  rw [pay1_apply]
  unfold G4
  refine Finset.sum_congr rfl fun k _ => ?_
  exact congrArg (· * _) (hx (ix2 r k) (ix2 p k) hi0 rfl)

/-- One entry of what tile T stores to the second output is the entry of `G5` in row 5000·T + r: the tile's rows of the
    features and of the column are the arrays' rows there, and the weight and the bias row are the same at every tile. -/
theorem point5_eq (x0 : FVec Ideal S5000x128 .f32) (x1 : FVec Ideal S128x128 .f32) (x3 : FVec Ideal S5000x1 .f32)
    (x2 : FVec Ideal S1x128 .f32) (x : FVec Ideal S50000x128 .f32) (s : FVec Ideal S50000x1 .f32) (T : Nat)
    (hx : ∀ (y : S5000x128.Idx) (i : S50000x128.Idx), (i 0).val = T * 5000 + (y 0).val → (i 1).val = (y 1).val → x0 y = x i)
    (hs : ∀ (y : S5000x1.Idx) (i : S50000x1.Idx), (i 0).val = T * 5000 + (y 0).val → (i 1).val = (y 1).val → x3 y = s i)
    (j : S5000x128.Idx) (i : S50000x128.Idx) (hi0 : (i 0).val = T * 5000 + (j 0).val) (hi1 : (i 1).val = (j 1).val) :
    k1_pay2 (F := Ideal) x0 x1 x3 x2 j = G5 x x1 s x2 i := by
  obtain ⟨r, q, rfl⟩ : ∃ (r : Fin 5000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q = q' := (Fin.ext hi1).symm
  rw [pay2_apply]
  unfold G5
  refine congrArg (· + _) ?_
  have e1 : (∑ k : Fin 128, x0 (ix2 r k) * x1 (ix2 k q)) = ∑ k : Fin 128, x (ix2 p k) * x1 (ix2 k q) :=
    Finset.sum_congr rfl fun k _ => congrArg (· * _) (hx (ix2 r k) (ix2 p k) hi0 rfl)
  have e2 : x3 (ix2 r 0) = s (ix2 p 0) := hs (ix2 r 0) (ix2 p 0) hi0 rfl
  show (∑ k : Fin 128, x0 (ix2 r k) * x1 (ix2 k q)) * x3 (ix2 r 0) = (∑ k : Fin 128, x (ix2 p k) * x1 (ix2 k q)) * s (ix2 p 0)
  rw [e1, e2]

/-- What tile t writes back to the first output is block t of `G4` of the arrays the region found. -/
theorem flushed4_eq (c : Dev nD) (t : Fin cfg1.N) :
    (dat1 V c).flushed 4 t = ((cfg1.win 4).blk t).view.read (Elt Ideal) (G4 (V c main_v31) (V c main_v33)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz]
  rw [wblk_eq V c t]
  obtain ⟨-, -, -, -, -, -, -, -, e8, e9, -⟩ := idx_facts t
  funext j
  rw [View.read_apply]
  refine point4_eq (iblk1 V c 0 t) (V c main_v33) (V c main_v31) t.val (fun y i h0 h1 => xblk_apply V c t y i h0 h1)
    _ (((cfg1.win 4).blk t).view.emb j) ?_ ?_
  · show win1_4.index t (0 : Fin 2) * 5000 + 1 * (j 0).val = t.val * 5000 + (j 0).val
    rw [e8]; omega
  · show win1_4.index t (1 : Fin 2) * 128 + 1 * (j 1).val = (j 1).val
    rw [e9]; omega

/-- What tile t writes back to the second output is block t of `G5` of the arrays the region found. -/
theorem flushed5_eq (c : Dev nD) (t : Fin cfg1.N) :
    (dat1 V c).flushed 5 t = ((cfg1.win 5).blk t).view.read (Elt Ideal) (G5 (V c main_v31) (V c main_v33) (V c main_v37) (V c main_v36)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S5000x1) hz,
    View.ld_unit_zero (S := S1x128) hz]
  rw [wblk_eq V c t, bblk_eq V c t]
  obtain ⟨-, -, -, -, -, -, -, -, -, -, e10, e11⟩ := idx_facts t
  funext j
  rw [View.read_apply]
  refine point5_eq (iblk1 V c 0 t) (V c main_v33) (iblk1 V c 3 t) (V c main_v36) (V c main_v31) (V c main_v37) t.val
    (fun y i h0 h1 => xblk_apply V c t y i h0 h1) (fun y i h0 h1 => sblk_apply V c t y i h0 h1)
    _ (((cfg1.win 5).blk t).view.emb j) ?_ ?_
  · show win1_5.index t (0 : Fin 2) * 5000 + 1 * (j 0).val = t.val * 5000 + (j 0).val
    rw [e10]; omega
  · show win1_5.index t (1 : Fin 2) * 128 + 1 * (j 1).val = (j 1).val
    rw [e11]; omega

/-- An entry of the first output is in tile t's block iff each coordinate is in the block's range on its axis. -/
theorem mem_blk4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v38_0).slice (win1_4.rect t)).set ↔ _
  rw [View.set_slice_whole, Rect.mem_set_unit]
  exact Iff.rfl

/-- The same for the second output. -/
theorem mem_blk5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v38_1).slice (win1_5.rect t)).set ↔ _
  rw [View.set_slice_whole, Rect.mem_set_unit]
  exact Iff.rfl

/-- Row i of the first output lies in the block of tile i / 5000. -/
theorem cover4 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, -, -, e8, e9, -⟩ := idx_facts ⟨(i 0).val / 5000, ht⟩
  have e8' : win1_4.index ⟨(i 0).val / 5000, ht⟩ (0 : Fin 2) = (i 0).val / 5000 := e8
  refine ⟨⟨(i 0).val / 5000, ht⟩, flush1_4 _, ?_⟩
  rw [mem_blk4]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e8']; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e9]; omega

/-- Row i of the second output lies in the block of tile i / 5000. -/
theorem cover5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, -, -, -, -, e10, e11⟩ := idx_facts ⟨(i 0).val / 5000, ht⟩
  have e10' : win1_5.index ⟨(i 0).val / 5000, ht⟩ (0 : Fin 2) = (i 0).val / 5000 := e10
  refine ⟨⟨(i 0).val / 5000, ht⟩, flush1_5 _, ?_⟩
  rw [mem_blk5]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e10']; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e11]; omega

/-- `G4` is the whole-array product. -/
theorem G4_eq_mm (x : FVec Ideal S50000x128 .f32) (W : FVec Ideal S128x128 .f32) :
    G4 x W = Cert.Spec.mm (F := Ideal) x W := by
  funext i
  obtain ⟨p, q, rfl⟩ : ∃ (p : Fin 50000) (q : Fin 128), i = ix2 p q := ⟨i 0, i 1, eq_ix2 i⟩
  rw [mm_apply]
  rfl

/-- `G5` is the self-loop term of the whole-array product. -/
theorem G5_eq_selfTerm (x : FVec Ideal S50000x128 .f32) (W : FVec Ideal S128x128 .f32) (s : FVec Ideal S50000x1 .f32)
    (b : FVec Ideal S1x128 .f32) :
    G5 x W s b = Cert.Spec.selfTerm (F := Ideal) (Cert.Spec.mm x W) s b := by
  funext i
  obtain ⟨p, q, rfl⟩ : ∃ (p : Fin 50000) (q : Fin 128), i = ix2 p q := ⟨i 0, i 1, eq_ix2 i⟩
  rw [selfTerm_apply, mm_apply]
  rfl

/-- The product's array after region 1. -/
theorem arr1_4 (c : Dev nD) : (dat1 (F := Ideal) V c).arrAt 4 cfg1.N
    = Cert.Spec.mm (F := Ideal) (V c main_v31) (V c main_v33) :=
  ((dat1 V c).arrAt_eq_of_cover 4 (G4 (V c main_v31) (V c main_v33)) (fun t _ => flushed4_eq V c t) cover4).trans
    (G4_eq_mm _ _)

/-- The self-loop array after region 1: the product scaled row by row, plus the bias row. -/
theorem arr1_5 (c : Dev nD) : (dat1 (F := Ideal) V c).arrAt 5 cfg1.N
    = Cert.Spec.selfTerm (F := Ideal) (Cert.Spec.mm (V c main_v31) (V c main_v33)) (V c main_v37) (V c main_v36) :=
  ((dat1 V c).arrAt_eq_of_cover 5 (G5 (V c main_v31) (V c main_v33) (V c main_v37) (V c main_v36)) (fun t _ => flushed5_eq V c t) cover5).trans
    (G5_eq_selfTerm _ _ _ _)

end Cert.KernelIdeal.Region1

end
-- ==== Proof.KStep1.lean ====
/-
  From region 1's entry to region 2's entry: the first layer's kernel, the gather of source rows in fill mode, the
  scaling by the edge coefficients, the scatter to targets, the sum with the self-loop array, and the next layer's slices.
-/
import proofs.«413863_j12395275616334_2_alg».proof.Proof.Gen.KernelIdeal.Frame
import proofs.«413863_j12395275616334_2_alg».proof.Proof.Gen.KernelIdeal
import proofs.«413863_j12395275616334_2_alg».proof.Proof.Gen.ReferenceIdeal
import proofs.«413863_j12395275616334_2_alg».proof.Proof.KSpec
import proofs.«413863_j12395275616334_2_alg».proof.Proof.KState
import proofs.«413863_j12395275616334_2_alg».proof.Proof.Region1
import Idealize.ShloMosaic.PureOps.Ideal

set_option maxRecDepth 16384

noncomputable section

namespace Cert.KernelIdeal.KStep1
open Idealize.ShloMosaic Idealize.ShloMosaic.TcCoe Idealize.SL.Sem Cert.KernelIdeal Cert.KernelIdeal.Gen
open Cert.KernelIdeal.KState

variable (m : (ℓ : Loc nD τ sig) → Buf (Elt Ideal) ℓ) (ρ : Dev nD → PrngReg) (c : Dev nD)

/-! ## A host stretch at an arbitrary entry valuation -/

/-- A buffer none of the listed operations writes holds after them what it held before. -/
local macro "carried" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- Contents moved to a typed reference's buffer type and back are the contents. -/
theorem ofBuf_toBuf {T : BufTy} (x : StableHlo.TRef sig T) (v : T.Contents (Elt Ideal)) : x.ofBuf (x.toBuf v) = v := by
  obtain ⟨r, h, h2, h3⟩ := x
  subst h
  rfl

section Host

variable (V : Valuation τ sig (Elt Ideal))

/-! ### The gather of the product's rows at the source indices, in fill mode -/

/-- The gather stretch, every buffer read at its value's type: its result is the fill-mode gather of the product's rows
    at the source indices. -/
theorem take_core :
    (StableHlo.TRef.of main_v39 : StableHlo.TRef sig ⟨S800000x128, .f32⟩).ofBuf (StableHlo.after hostOps2 V (Proc.devRef .tc main_v39))
      = Cert.KSpec.take (F := Ideal)
          ((StableHlo.TRef.of main_v38_0 : StableHlo.TRef sig ⟨S50000x128, .f32⟩).ofBuf (V (Proc.devRef .tc main_v38_0)))
          ((StableHlo.TRef.of main_v1 : StableHlo.TRef sig ⟨S800000, .i32⟩).ofBuf (V (Proc.devRef .tc main_v1))) := by
  after_results_simp
  repeat rw [ofBuf_toBuf]
  unfold Cert.KSpec.take Cert.KSpec.inRange Cert.KSpec.rows Cert.KSpec.wrap Cert.KSpec.col
  rfl

/-- The gather stretch leaves at its result the fill-mode gather of the product's rows at the source indices. -/
theorem take_at : StableHlo.after hostOps2 V (Proc.devRef .tc main_v39)
    = Cert.KSpec.take (F := Ideal) (V (Proc.devRef .tc main_v38_0)) (V (Proc.devRef .tc main_v1)) :=
  take_core V

/-- The gather stretch does not write the self-loop array. -/
theorem keep2_v38_1 : StableHlo.after hostOps2 V (Proc.devRef .tc main_v38_1) = V (Proc.devRef .tc main_v38_1) := by
  carried hostOps2

/-- The gather stretch keeps the kept buffers. -/
theorem kept2 (hk : Kept m c V) : Kept m c (StableHlo.after hostOps2 V) where
  v1 := Eq.trans (by carried hostOps2) hk.v1
  v3 := Eq.trans (by carried hostOps2) hk.v3
  v28 := Eq.trans (by carried hostOps2) hk.v28
  v29 := Eq.trans (by carried hostOps2) hk.v29
  a5 := Eq.trans (by carried hostOps2) hk.a5
  a6 := Eq.trans (by carried hostOps2) hk.a6
  a7 := Eq.trans (by carried hostOps2) hk.a7
  a8 := Eq.trans (by carried hostOps2) hk.a8
  a9 := Eq.trans (by carried hostOps2) hk.a9
  a10 := Eq.trans (by carried hostOps2) hk.a10

/-! ### The scaling, the scatter, the sum, and the next layer's slices -/

/-- The sum: the scatter to the target rows of the gathered rows scaled by the coefficients, plus the self-loop array. -/
theorem v46_at : StableHlo.after hostOps2_1 V (Proc.devRef .tc main_v46)
    = (addf (F := Ideal) (s := S50000x128) (φ := .f32) (Cert.KSpec.scat (F := Ideal) (V (Proc.devRef .tc main_v3))
        (mulf (F := Ideal) (s := S800000x128) (φ := .f32) (V (Proc.devRef .tc main_v39)) (Cert.KSpec.spread (F := Ideal) (V (Proc.devRef .tc main_v28)))))
      (V (Proc.devRef .tc main_v38_1)) : Cert.KSpec.Feat Ideal) := by
  after_results
  rfl

/-- Layer 1's scale row. -/
theorem v55_at : StableHlo.after hostOps2_1 V (Proc.devRef .tc main_v55)
    = Cert.KSpec.asRow (Cert.KSpec.r1 (F := Ideal) (V (Proc.devRef .tc main_arg7))) := by
  after_results
  rfl

/-- Layer 1's shift row. -/
theorem v56_at : StableHlo.after hostOps2_1 V (Proc.devRef .tc main_v56)
    = Cert.KSpec.asRow (Cert.KSpec.r1 (F := Ideal) (V (Proc.devRef .tc main_arg8))) := by
  after_results
  rfl

/-- Layer 1's weight. -/
theorem v52_at : StableHlo.after hostOps2_1 V (Proc.devRef .tc main_v52)
    = Cert.KSpec.W1 (F := Ideal) (V (Proc.devRef .tc main_arg5)) := by
  after_results
  rfl

/-- Layer 1's bias row. -/
theorem v57_at : StableHlo.after hostOps2_1 V (Proc.devRef .tc main_v57)
    = Cert.KSpec.asRow (Cert.KSpec.r1 (F := Ideal) (V (Proc.devRef .tc main_arg6))) := by
  after_results
  rfl

/-- The self-loop coefficients as a column. -/
theorem v58_at (d : Cert.KSpec.EIdx Ideal) (e : Cert.KSpec.EVal Ideal)
    (hv : V (Proc.devRef .tc main_v29) = Cert.KSpec.sd (F := Ideal) d e) :
    StableHlo.after hostOps2_1 V (Proc.devRef .tc main_v58) = Cert.KSpec.sdCol (F := Ideal) d e := by
  after_results
  rw [hv]
  rfl

/-- The second stretch keeps the kept buffers. -/
theorem kept21 (hk : Kept m c V) : Kept m c (StableHlo.after hostOps2_1 V) where
  v1 := Eq.trans (by carried hostOps2_1) hk.v1
  v3 := Eq.trans (by carried hostOps2_1) hk.v3
  v28 := Eq.trans (by carried hostOps2_1) hk.v28
  v29 := Eq.trans (by carried hostOps2_1) hk.v29
  a5 := Eq.trans (by carried hostOps2_1) hk.a5
  a6 := Eq.trans (by carried hostOps2_1) hk.a6
  a7 := Eq.trans (by carried hostOps2_1) hk.a7
  a8 := Eq.trans (by carried hostOps2_1) hk.a8
  a9 := Eq.trans (by carried hostOps2_1) hk.a9
  a10 := Eq.trans (by carried hostOps2_1) hk.a10

end Host

/-! ## Region 1: its two output arrays, and every other buffer as entered -/

/-- Region 1 keeps the kept buffers: none is one of its windows' arrays. -/
theorem kept6 (hk : Kept m c (W5 m ρ c)) : Kept m c (W6 m ρ c) where
  v1 := (W6_of_ne m ρ c main_v1 (by decide)).trans hk.v1
  v3 := (W6_of_ne m ρ c main_v3 (by decide)).trans hk.v3
  v28 := (W6_of_ne m ρ c main_v28 (by decide)).trans hk.v28
  v29 := (W6_of_ne m ρ c main_v29 (by decide)).trans hk.v29
  a5 := (W6_of_ne m ρ c main_arg5 (by decide)).trans hk.a5
  a6 := (W6_of_ne m ρ c main_arg6 (by decide)).trans hk.a6
  a7 := (W6_of_ne m ρ c main_arg7 (by decide)).trans hk.a7
  a8 := (W6_of_ne m ρ c main_arg8 (by decide)).trans hk.a8
  a9 := (W6_of_ne m ρ c main_arg9 (by decide)).trans hk.a9
  a10 := (W6_of_ne m ρ c main_arg10 (by decide)).trans hk.a10

/-- After region 1 the product's array is the whole-array product of the entered features and weight. -/
theorem w6_v38_0 (h : Cert.KSpec.Feat Ideal) (W : FVec Ideal S128x128 .f32)
    (hx : W5 m ρ c (Proc.devRef .tc main_v31) = h) (hW : W5 m ρ c (Proc.devRef .tc main_v33) = W) :
    W6 m ρ c (Proc.devRef .tc main_v38_0) = Cert.Spec.mm (F := Ideal) h W := by
  have e : W6 m ρ c (Proc.devRef .tc main_v38_0)
      = Cert.Spec.mm (F := Ideal) (W5 m ρ c (Proc.devRef .tc main_v31)) (W5 m ρ c (Proc.devRef .tc main_v33)) :=
    (W6_arr m ρ c 4).trans (Region1.arr1_4 (V5 m ρ) c)
  rw [hx, hW] at e
  exact e

/-- After region 1 the self-loop array is the product scaled row by row by the self-loop column, plus the bias row. -/
theorem w6_v38_1 (h : Cert.KSpec.Feat Ideal) (W : FVec Ideal S128x128 .f32) (s : FVec Ideal S50000x1 .f32) (b : FVec Ideal S1x128 .f32)
    (hx : W5 m ρ c (Proc.devRef .tc main_v31) = h) (hW : W5 m ρ c (Proc.devRef .tc main_v33) = W)
    (hb : W5 m ρ c (Proc.devRef .tc main_v36) = b) (hs : W5 m ρ c (Proc.devRef .tc main_v37) = s) :
    W6 m ρ c (Proc.devRef .tc main_v38_1) = Cert.Spec.selfTerm (F := Ideal) (Cert.Spec.mm h W) s b := by
  have e : W6 m ρ c (Proc.devRef .tc main_v38_1)
      = Cert.Spec.selfTerm (F := Ideal)
          (Cert.Spec.mm (W5 m ρ c (Proc.devRef .tc main_v31)) (W5 m ρ c (Proc.devRef .tc main_v33)))
          (W5 m ρ c (Proc.devRef .tc main_v37)) (W5 m ρ c (Proc.devRef .tc main_v36)) :=
    (W6_arr m ρ c 5).trans (Region1.arr1_5 (V5 m ρ) c)
  rw [hx, hW, hs, hb] at e
  exact e

/-! ## The step -/
/-- At region 2's entry: the kept buffers, the first layer's output, and layer 1's scale, shift, weight, bias and self-loop column. -/
theorem at8 (h : Cert.KSpec.Feat Ideal) (cb : FVec Ideal S128 .f32) (W : FVec Ideal S128x128 .f32)
    (hk : Kept m c (W5 m ρ c)) (hx : W5 m ρ c (Proc.devRef .tc main_v31) = h) (hW : W5 m ρ c (Proc.devRef .tc main_v33) = W) (hcb : W5 m ρ c (Proc.devRef .tc main_v36) = Cert.KSpec.asRow cb)
    (hsd : W5 m ρ c (Proc.devRef .tc main_v37) = Cert.KSpec.sdCol (F := Ideal) (dst m c) (ew m c)) :
    Kept m c (W8 m ρ c)
      ∧ W8 m ρ c (Proc.devRef .tc main_v46) = Cert.KSpec.first (F := Ideal) h W cb (src m c) (dst m c) (ew m c)
      ∧ W8 m ρ c (Proc.devRef .tc main_v55) = Cert.KSpec.asRow (Cert.KSpec.r1 (F := Ideal) (a m c main_arg7))
      ∧ W8 m ρ c (Proc.devRef .tc main_v56) = Cert.KSpec.asRow (Cert.KSpec.r1 (F := Ideal) (a m c main_arg8))
      ∧ W8 m ρ c (Proc.devRef .tc main_v52) = Cert.KSpec.W1 (F := Ideal) (a m c main_arg5)
      ∧ W8 m ρ c (Proc.devRef .tc main_v57) = Cert.KSpec.asRow (Cert.KSpec.r1 (F := Ideal) (a m c main_arg6))
      ∧ W8 m ρ c (Proc.devRef .tc main_v58) = Cert.KSpec.sdCol (F := Ideal) (dst m c) (ew m c) := by
  have k6 : Kept m c (W6 m ρ c) := kept6 m ρ c hk
  have k7 : Kept m c (W7 m ρ c) := kept2 m c (W6 m ρ c) k6
  have k8 : Kept m c (W8 m ρ c) := kept21 m c (W7 m ρ c) k7
  -- the gathered rows: the product's rows at the sources, in fill mode
  have e39 : W7 m ρ c (Proc.devRef .tc main_v39)
      = Cert.KSpec.take (F := Ideal) (W6 m ρ c (Proc.devRef .tc main_v38_0)) (W6 m ρ c (Proc.devRef .tc main_v1)) :=
    take_at (W6 m ρ c)
  rw [w6_v38_0 m ρ c h W hx hW, k6.v1] at e39
  -- the self-loop array is carried through the gather stretch
  have e381 : W7 m ρ c (Proc.devRef .tc main_v38_1)
      = Cert.Spec.selfTerm (F := Ideal) (Cert.Spec.mm h W) (Cert.KSpec.sdCol (F := Ideal) (dst m c) (ew m c)) (Cert.KSpec.asRow cb) :=
    (keep2_v38_1 (W6 m ρ c)).trans (w6_v38_1 m ρ c h W _ _ hx hW hcb hsd)
  refine ⟨k8, ?_, ?_, ?_, ?_, ?_, ?_⟩
  · refine (v46_at (W7 m ρ c)).trans ?_
    rw [k7.v3, k7.v28, e39, e381]
    rfl
  · refine (v55_at (W7 m ρ c)).trans ?_
    rw [k7.a7]
  · refine (v56_at (W7 m ρ c)).trans ?_
    rw [k7.a8]
  · refine (v52_at (W7 m ρ c)).trans ?_
    rw [k7.a5]
  · refine (v57_at (W7 m ρ c)).trans ?_
    rw [k7.a6]
  · exact v58_at (W7 m ρ c) (dst m c) (ew m c) k7.v29

end Cert.KernelIdeal.KStep1

end
-- ==== Proof.Region2.lean ====
/-
  Region 2 (a residual layer's kernel: row normalisation, clamp, product, self-loop term), whole arrays.
-/
import proofs.«413863_j12395275616334_2_alg».proof.Proof.Gen.KernelIdeal.Frame
import proofs.«413863_j12395275616334_2_alg».proof.Proof.Gen.KernelIdeal
import proofs.«413863_j12395275616334_2_alg».proof.Proof.Gen.ReferenceIdeal
import proofs.«413863_j12395275616334_2_alg».proof.Proof.KSpec
import Idealize.ShloMosaic.PureOps.Ideal
import Idealize.ShloMosaic.PureOps.Ideal.Laws
import Idealize.ShloMosaic.Lib.ValueIdx
import Idealize.ShloMosaic.Lib.IdealHost
import Idealize.ShloMosaic.Lib.ValueLayout
import Idealize.ShloMosaic.Lib.Pipeline.Value

set_option maxRecDepth 16384

noncomputable section

namespace Cert.KernelIdeal.Region2
open Idealize.ShloMosaic Idealize.ShloMosaic.TcCoe Idealize.SL.Sem Cert.KernelIdeal Cert.KernelIdeal.Gen
open Idealize.ShloMosaic.ValueIdx
open scoped BigOperators

variable (V : (c : Dev nD) → (b : Ref sig .tc) → Buf (Elt Ideal) ((c : Thread nD τ).loc b))

/-! ## A row's statistics, as functions of the row's 128 entries -/

/-- The row's mean: the sum of its entries divided by 128. -/
def rMean (f : Fin 128 → EReal) : EReal := Ideal.div (∑ k, f k) (Ideal.ofBits .f32 0x43000000#32)
/-- The row's variance: the mean of the squared deviations. -/
def rVar (f : Fin 128 → EReal) : EReal := Ideal.div (∑ k, (f k - rMean f) * (f k - rMean f)) (Ideal.ofBits .f32 0x43000000#32)
/-- The inverse root of the variance plus the small constant. -/
def rInv (f : Fin 128 → EReal) : EReal := Ideal.rsqrt (rVar f + Ideal.ofBits .f32 0x3727C5AC#32)
/-- The normalised row under the affine map by `g`, `b`, clamped at zero. -/
def rAct (f g b : Fin 128 → EReal) (k : Fin 128) : EReal :=
  max ((f k - rMean f) * rInv f * g k + b k) (Ideal.ofBits .f32 0x00000000#32)
/-- That row times column `q` of the weight. -/
def rDot (f g b : Fin 128 → EReal) (W : Fin 128 → Fin 128 → EReal) (q : Fin 128) : EReal := ∑ k, rAct f g b k * W k q

/-! ## The block's layout operations read at an index -/

/-- A lane sum of a [5000,128] block at row `r` is the sum of that row's 128 entries. -/
theorem laneSum_apply (v : FVec Ideal S5000x128 .f32) (hφ : FKind.Formats .f32)
    (hacc : (0x00000000#32 : BitVec 32) = FKind.add.neutral .f32 hφ) (r : Fin 5000) :
    multiReduction (F := Ideal) .add [1] S5000 v 0x00000000#32 reduces_S5000x128_S5000 hφ hacc (ix1 r) = ∑ k : Fin 128, v (ix2 r k) := by
  refine (Ideal.multiReduction_add_single v 0x00000000#32 reduces_S5000x128_S5000 hφ hacc (ix1 r)).trans ?_
  refine Finset.sum_congr rfl fun k _ => congrArg v ?_
  funext a
  match a with
  | ⟨0, _⟩ => rfl
  | ⟨1, _⟩ => rfl

/-- A vector of 5000 as a [5000,1] column reads its entry `r` at `(r, 0)`. -/
theorem asCol_apply (v : FVec Ideal S5000 .f32) (r : Fin 5000) (u : Fin 1) :
    shapeCast S5000x1 v shapeCasts_S5000_S5000x1 (ix2 r u) = v (ix1 r) :=
  shapeCast_apply v shapeCasts_S5000_S5000x1 (ix2 r u) (ix1 r) (by
    have hu : u.val = 0 := by omega
    rw [Shape.rowMajor_val_two, Shape.rowMajor_val_one]
    show r.val = r.val * 1 + u.val
    rw [hu]; omega)

/-- A [5000,1] column laid along the 128 lanes reads, at `(r, q)`, the column at `(r, 0)`. -/
theorem colB_apply (v : FVec Ideal S5000x1 .f32) (r : Fin 5000) (q : Fin 128) :
    broadcastTo S5000x128 v broadcasts_S5000x1_S5000x128 (ix2 r q) = v (ix2 r (0 : Fin 1)) := by
  refine broadcastTo_apply v broadcasts_S5000x1_S5000x128 (ix2 r q) (ix2 r (0 : Fin 1)) fun ax => ?_
  match ax with
  | ⟨0, _⟩ => rfl
  | ⟨1, _⟩ => rfl

/-- A [1,128] row laid under the 5000 rows reads, at `(r, q)`, the row at `(0, q)`. -/
theorem rowB_apply (v : FVec Ideal S1x128 .f32) (r : Fin 5000) (q : Fin 128) :
    broadcastTo S5000x128 v broadcasts_S1x128_S5000x128 (ix2 r q) = v (ix2 (0 : Fin 1) q) :=
  broadcastTo_1b_ab_apply v broadcasts_S1x128_S5000x128 r q

/-! ## The kernel's payload, stage by stage, and each stage read at an index -/

/-- The block's row means as a [5000,1] column, in the kernel's operations. -/
def kMean (x : FVec Ideal S5000x128 .f32) : FVec Ideal S5000x1 .f32 :=
  divf (shapeCast S5000x1 (multiReduction .add [1] S5000 x 0x00000000#32 reduces_S5000x128_S5000 (.inl rfl) rfl) shapeCasts_S5000_S5000x1)
    (broadcast S5000x1 (Scalar.ofBits .f32 0x43000000#32))
/-- The centred block. -/
def kCen (x : FVec Ideal S5000x128 .f32) : FVec Ideal S5000x128 .f32 :=
  subf x (broadcastTo S5000x128 (kMean x) broadcasts_S5000x1_S5000x128)
/-- The rows' inverse root variances as a [5000,1] column. -/
def kInv (x : FVec Ideal S5000x128 .f32) : FVec Ideal S5000x1 .f32 :=
  rsqrt (addf (divf (shapeCast S5000x1 (multiReduction .add [1] S5000 (mulf (kCen x) (kCen x)) 0x00000000#32 reduces_S5000x128_S5000 (.inl rfl) rfl) shapeCasts_S5000_S5000x1)
      (broadcast S5000x1 (Scalar.ofBits .f32 0x43000000#32)))
    (broadcast S5000x1 (Scalar.ofBits .f32 0x3727C5AC#32)))
/-- The normalised block under the affine map, clamped at zero. -/
def kAct (x : FVec Ideal S5000x128 .f32) (g b : FVec Ideal S1x128 .f32) : FVec Ideal S5000x128 .f32 :=
  maximumf (addf (mulf (mulf (kCen x) (broadcastTo S5000x128 (kInv x) broadcasts_S5000x1_S5000x128))
      (broadcastTo S5000x128 g broadcasts_S1x128_S5000x128)) (broadcastTo S5000x128 b broadcasts_S1x128_S5000x128))
    (broadcast S5000x128 (Scalar.ofBits .f32 0x00000000#32))

/-- The product payload is the block product of those stages with the weight, into the zero splat. -/
theorem pay2_eq (x0 : FVec Ideal S5000x128 .f32) (g b : FVec Ideal S1x128 .f32) (W : FVec Ideal S128x128 .f32) :
    k2_pay2 (F := Ideal) x0 g b W
      = matmul dot_S5000x128_S128x128_S5000x128_1_0_0_1_n_n none (kAct x0 g b) W (constant (F := Ideal) S5000x128 .f32 0x00000000#32) := by
  unfold k2_pay2 kAct kInv kCen kMean
  simp only [shapeCast_self]

theorem kMean_apply (x : FVec Ideal S5000x128 .f32) (r : Fin 5000) (u : Fin 1) :
    kMean x (ix2 r u) = rMean fun k => x (ix2 r k) := by
  show Ideal.div (shapeCast S5000x1 (multiReduction (F := Ideal) .add [1] S5000 x 0x00000000#32 reduces_S5000x128_S5000 (.inl rfl) rfl) shapeCasts_S5000_S5000x1 (ix2 r u))
    (Ideal.ofBits .f32 0x43000000#32) = _
  rw [asCol_apply]
  exact congrArg (fun s => Ideal.div s (Ideal.ofBits .f32 0x43000000#32)) (laneSum_apply x _ _ r)

theorem kCen_apply (x : FVec Ideal S5000x128 .f32) (r : Fin 5000) (k : Fin 128) :
    kCen x (ix2 r k) = x (ix2 r k) - rMean fun k => x (ix2 r k) := by
  show x (ix2 r k) - broadcastTo S5000x128 (kMean x) broadcasts_S5000x1_S5000x128 (ix2 r k) = _
  rw [colB_apply, kMean_apply]

theorem kInv_apply (x : FVec Ideal S5000x128 .f32) (r : Fin 5000) (u : Fin 1) :
    kInv x (ix2 r u) = rInv fun k => x (ix2 r k) := by
  show Ideal.rsqrt (Ideal.div (shapeCast S5000x1 (multiReduction (F := Ideal) .add [1] S5000 (mulf (kCen x) (kCen x)) 0x00000000#32 reduces_S5000x128_S5000 (.inl rfl) rfl) shapeCasts_S5000_S5000x1 (ix2 r u))
    (Ideal.ofBits .f32 0x43000000#32) + Ideal.ofBits .f32 0x3727C5AC#32) = _
  rw [asCol_apply]
  refine (congrArg (fun s => Ideal.rsqrt (Ideal.div s (Ideal.ofBits .f32 0x43000000#32) + Ideal.ofBits .f32 0x3727C5AC#32))
    (laneSum_apply (mulf (kCen x) (kCen x)) _ _ r)).trans ?_
  simp only [mulf_apply, kCen_apply]
  rfl

theorem kAct_apply (x : FVec Ideal S5000x128 .f32) (g b : FVec Ideal S1x128 .f32) (r : Fin 5000) (k : Fin 128) :
    kAct x g b (ix2 r k) = rAct (fun k => x (ix2 r k)) (fun k => g (ix2 (0 : Fin 1) k)) (fun k => b (ix2 (0 : Fin 1) k)) k := by
  show max (kCen x (ix2 r k) * broadcastTo S5000x128 (kInv x) broadcasts_S5000x1_S5000x128 (ix2 r k)
      * broadcastTo S5000x128 g broadcasts_S1x128_S5000x128 (ix2 r k) + broadcastTo S5000x128 b broadcasts_S1x128_S5000x128 (ix2 r k))
    (Ideal.ofBits .f32 0x00000000#32) = _
  rw [colB_apply, rowB_apply, rowB_apply, kInv_apply, kCen_apply]
  rfl

/-! ## The block product read at an index -/

theorem lhsK_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsK_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsK_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsK_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero splat at `(r, q)`: the sum over `k` of `A (r, k) · B (k, q)`. -/
theorem mmK_apply (A : FVec Ideal S5000x128 .f32) (B : FVec Ideal S128x128 .f32) (r : Fin 5000) (q : Fin 128) :
    matmul dot_S5000x128_S128x128_S5000x128_1_0_0_1_n_n none A B (constant (F := Ideal) S5000x128 .f32 0x00000000#32) (ix2 r q)
      = ∑ k : Fin 128, A (ix2 r k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhsK_0 _ _
    | ⟨1, _⟩ => exact (lhsK_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhsK_0 _ _).trans hk
    | ⟨1, _⟩ => exact rhsK_1 _ _)
  rw [el, er]

/-- THE PRODUCT PAYLOAD AT `(r, q)`: row `r` of the block, normalised and clamped, times column `q` of the weight. -/
theorem pay2_apply (x0 : FVec Ideal S5000x128 .f32) (g b : FVec Ideal S1x128 .f32) (W : FVec Ideal S128x128 .f32) (r : Fin 5000) (q : Fin 128) :
    k2_pay2 (F := Ideal) x0 g b W (ix2 r q)
      = rDot (fun k => x0 (ix2 r k)) (fun k => g (ix2 (0 : Fin 1) k)) (fun k => b (ix2 (0 : Fin 1) k)) (fun k q => W (ix2 k q)) q := by
  rw [pay2_eq, mmK_apply]
  exact Finset.sum_congr rfl fun k _ => by rw [kAct_apply]

/-- THE SELF-LOOP PAYLOAD AT `(r, q)`: the product there times the row's factor, plus the bias row. -/
theorem pay1_apply (x0 : FVec Ideal S5000x128 .f32) (g b : FVec Ideal S1x128 .f32) (W : FVec Ideal S128x128 .f32)
    (s : FVec Ideal S5000x1 .f32) (cb : FVec Ideal S1x128 .f32) (r : Fin 5000) (q : Fin 128) :
    k2_pay1 (F := Ideal) (k2_pay3 (F := Ideal) x0 g b W s) cb (ix2 r q)
      = rDot (fun k => x0 (ix2 r k)) (fun k => g (ix2 (0 : Fin 1) k)) (fun k => b (ix2 (0 : Fin 1) k)) (fun k q => W (ix2 k q)) q
          * s (ix2 r (0 : Fin 1)) + cb (ix2 (0 : Fin 1) q) := by
  unfold k2_pay1 k2_pay3
  simp only [shapeCast_self]
  show k2_pay2 (F := Ideal) x0 g b W (ix2 r q) * broadcastTo S5000x128 s broadcasts_S5000x1_S5000x128 (ix2 r q)
    + broadcastTo S5000x128 cb broadcasts_S1x128_S5000x128 (ix2 r q) = _
  rw [pay2_apply, colB_apply, rowB_apply]

/-! ## The whole-array functions read at an index -/

/-- A vector of 50000 as a [50000,1] column reads its entry `i` at `(i, 0)`. -/
theorem sCol_apply (h : S50000.BroadcastsInDim S50000x1 (![0] : Fin 1 → Fin S50000x1.rank)) (v : FVec Ideal S50000 .f32)
    (i : Fin 50000) (u : Fin 1) : broadcastInDim S50000x1 ![0] h v (ix2 i u) = v (ix1 i) :=
  broadcastInDim_apply _ h v (ix2 i u) (ix1 i) fun a => by
    match a with
    | ⟨0, _⟩ => rfl

/-- A [50000,1] column laid beside the 128 columns reads, at `(i, q)`, the column at `(i, 0)`. -/
theorem sColB_apply (h : S50000x1.BroadcastsInDim S50000x128 (![0, 1] : Fin 2 → Fin S50000x128.rank)) (v : FVec Ideal S50000x1 .f32)
    (i : Fin 50000) (q : Fin 128) : broadcastInDim S50000x128 ![0, 1] h v (ix2 i q) = v (ix2 i (0 : Fin 1)) :=
  broadcastInDim_apply _ h v (ix2 i q) (ix2 i (0 : Fin 1)) fun a => by
    match a with
    | ⟨0, _⟩ => rfl
    | ⟨1, _⟩ => rfl

/-- A [1,128] row laid under the 50000 rows reads, at `(i, q)`, the row at `(0, q)`. -/
theorem sRowB_apply (h : S1x128.BroadcastsInDim S50000x128 (![0, 1] : Fin 2 → Fin S50000x128.rank)) (v : FVec Ideal S1x128 .f32)
    (i : Fin 50000) (q : Fin 128) : broadcastInDim S50000x128 ![0, 1] h v (ix2 i q) = v (ix2 (0 : Fin 1) q) :=
  broadcastInDim_apply _ h v (ix2 i q) (ix2 (0 : Fin 1) q) fun a => by
    match a with
    | ⟨0, _⟩ => rfl
    | ⟨1, _⟩ => rfl

/-- The host's sum over axis 1 from the zero word, at row `i`: the sum of that row's 128 entries. -/
theorem sSum_apply (h' : S50000x128.ReducesTo [1] S50000) (hu : 0 < S_.numel) (x : FVec Ideal S50000x128 .f32) (i : Fin 50000) :
    Host.reduceAdd (F := Ideal) x (constant (F := Ideal) S_ .f32 0x00000000#32) h' hu (ix1 i) = ∑ k : Fin 128, x (ix2 i k) := by
  rw [hostReduceAdd_apply, Ideal.hostReduceAdd_single h' (by decide) x _ (ix1 i)]
  show Ideal.ofBits .f32 0x00000000#32 + _ = _
  rw [Ideal.ofBits_zero_f32, zero_add]
  refine Finset.sum_congr rfl fun k _ => congrArg x ?_
  funext a
  match a with
  | ⟨0, _⟩ => rfl
  | ⟨1, _⟩ => rfl

theorem sMean_apply (h : FVec Ideal S50000x128 .f32) (i : Fin 50000) (u : Fin 1) :
    Cert.Spec.rowMean (F := Ideal) h (ix2 i u) = rMean fun k => h (ix2 i k) := by
  unfold Cert.Spec.rowMean
  rw [hostDivf_apply, sCol_apply, broadcastInDim_scalar_apply, sSum_apply]
  rfl

theorem sCen_apply (h : FVec Ideal S50000x128 .f32) (i : Fin 50000) (k : Fin 128) :
    Cert.Spec.centred (F := Ideal) h (ix2 i k) = h (ix2 i k) - rMean fun k => h (ix2 i k) := by
  unfold Cert.Spec.centred Cert.Spec.colB
  rw [subf_apply, sColB_apply, sMean_apply]

theorem sInv_apply (h : FVec Ideal S50000x128 .f32) (i : Fin 50000) (u : Fin 1) :
    Cert.Spec.rowInvStd (F := Ideal) h (ix2 i u) = rInv fun k => h (ix2 i k) := by
  unfold Cert.Spec.rowInvStd
  show Ideal.rsqrt (Cert.Spec.rowMean (F := Ideal) (mulf (Cert.Spec.centred h) (Cert.Spec.centred h)) (ix2 i u)
    + broadcastInDim S50000x1 ![] _ (constant (F := Ideal) S_ .f32 0x3727C5AC#32) (ix2 i u)) = _
  rw [sMean_apply, broadcastInDim_scalar_apply]
  simp only [mulf_apply, sCen_apply, rInv, rVar]
  rfl

theorem sAct_apply (h : FVec Ideal S50000x128 .f32) (g b : FVec Ideal S1x128 .f32) (i : Fin 50000) (k : Fin 128) :
    Cert.Spec.lnrelu (F := Ideal) h g b (ix2 i k)
      = rAct (fun k => h (ix2 i k)) (fun k => g (ix2 (0 : Fin 1) k)) (fun k => b (ix2 (0 : Fin 1) k)) k := by
  unfold Cert.Spec.lnrelu Cert.Spec.colB Cert.Spec.rowB
  rw [maximumf_apply, addf_apply, mulf_apply, mulf_apply, sColB_apply, sRowB_apply, sRowB_apply, broadcastInDim_scalar_apply,
    sInv_apply, sCen_apply]
  rfl

/-! ## The whole-array product read at an index -/

theorem lhsR_0 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch by decide), dif_pos (show (0 : Fin S50000x128.rank) ∈ Cert.ReferenceIdeal.dot_S50000x128_S128x128_S50000x128_1_0_0_1_n_n.lhsNonContracting by decide)]
  rfl
theorem lhsR_1 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhsR_0 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhsR_1 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch by decide), dif_pos (show (1 : Fin S128x128.rank) ∈ Cert.ReferenceIdeal.dot_S50000x128_S128x128_S50000x128_1_0_0_1_n_n.rhsNonContracting by decide)]
  rfl

/-- The host's product at `(i, q)`: the sum over `k` of `A (i, k) · B (k, q)`. -/
theorem sMm_apply (A : FVec Ideal S50000x128 .f32) (B : FVec Ideal S128x128 .f32) (i : Fin 50000) (q : Fin 128) :
    Cert.Spec.mm (F := Ideal) A B (ix2 i q) = ∑ k : Fin 128, A (ix2 i k) * B (ix2 k q) := by
  unfold Cert.Spec.mm
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 i q) ((contrEquiv1 Cert.ReferenceIdeal.dot_S50000x128_S128x128_S50000x128_1_0_0_1_n_n 128 rfl rfl).symm k) = ix2 i k := funext fun a => Fin.ext (by
    match a with
    | ⟨0, _⟩ => exact lhsR_0 _ _
    | ⟨1, _⟩ => exact (lhsR_1 _ _).trans hk)
  have er : Cert.ReferenceIdeal.dot_S50000x128_S128x128_S50000x128_1_0_0_1_n_n.rhsIdx (ix2 i q) ((contrEquiv1 Cert.ReferenceIdeal.dot_S50000x128_S128x128_S50000x128_1_0_0_1_n_n 128 rfl rfl).symm k) = ix2 k q := funext fun a => Fin.ext (by
    match a with
    | ⟨0, _⟩ => exact (rhsR_0 _ _).trans hk
    | ⟨1, _⟩ => exact rhsR_1 _ _)
  rw [el, er]

/-- THE PRODUCT ARRAY AT `(i, q)`: row `i` of the input, normalised and clamped, times column `q` of the weight. -/
theorem spec6_apply (X : FVec Ideal S50000x128 .f32) (g b : FVec Ideal S1x128 .f32) (W : FVec Ideal S128x128 .f32) (i : Fin 50000) (q : Fin 128) :
    Cert.Spec.mm (F := Ideal) (Cert.Spec.lnrelu X g b) W (ix2 i q)
      = rDot (fun k => X (ix2 i k)) (fun k => g (ix2 (0 : Fin 1) k)) (fun k => b (ix2 (0 : Fin 1) k)) (fun k q => W (ix2 k q)) q := by
  rw [sMm_apply]
  exact Finset.sum_congr rfl fun k _ => by rw [sAct_apply]

/-- THE SELF-LOOP ARRAY AT `(i, q)`: the product there times the row's factor, plus the bias row. -/
theorem spec7_apply (xw : FVec Ideal S50000x128 .f32) (s : FVec Ideal S50000x1 .f32) (cb : FVec Ideal S1x128 .f32) (i : Fin 50000) (q : Fin 128) :
    Cert.Spec.selfTerm (F := Ideal) xw s cb (ix2 i q) = xw (ix2 i q) * s (ix2 i (0 : Fin 1)) + cb (ix2 (0 : Fin 1) q) := by
  unfold Cert.Spec.selfTerm Cert.Spec.colB Cert.Spec.rowB
  rw [addf_apply, mulf_apply, sColB_apply, sRowB_apply]

/-! ## From blocks to the arrays -/

theorem hz : (![0, 0] : Fin 2 → Nat) = fun _ => 0 := funext fun a => by fin_cases a <;> rfl

/-- The printed index maps, decided over the 10 grid points: the row-blocked windows (the input, the rows' factors, both
    outputs) sit at block `t` of axis 0; the row and weight windows are whole at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem lt_N (t : Fin cfg2.N) : t.val < 10 := lt_of_lt_of_eq t.isLt N_2

/-- The input's block at point `t` is rows `5000 t … 5000 t + 4999` of its array. -/
theorem blk0_apply (c : Dev nD) (t : Fin cfg2.N) (r : Fin 5000) (k : Fin 128) (i : Fin 50000) (hi : i.val = t.val * 5000 + r.val) :
    (iblk2 V c 0 t : FVec Ideal S5000x128 .f32) (ix2 r k) = (V c main_v46 : FVec Ideal S50000x128 .f32) (ix2 i k) := by
  obtain ⟨e0, e1, -⟩ := idx_facts t
  unfold iblk2
  rw [View.read_apply]
  show V c main_v46 _ = V c main_v46 _
  congr 1
  funext a
  apply Fin.ext
  match a with
  | ⟨0, _⟩ => show win2_0.index t (0 : Fin 2) * 5000 + 1 * r.val = i.val; omega
  | ⟨1, _⟩ => show win2_0.index t (1 : Fin 2) * 128 + 1 * k.val = k.val; omega

/-- The rows' factors' block at point `t` is rows `5000 t … 5000 t + 4999` of their column. -/
theorem blk5_apply (c : Dev nD) (t : Fin cfg2.N) (r : Fin 5000) (i : Fin 50000) (hi : i.val = t.val * 5000 + r.val) :
    (iblk2 V c 5 t : FVec Ideal S5000x1 .f32) (ix2 r (0 : Fin 1)) = (V c main_v58 : FVec Ideal S50000x1 .f32) (ix2 i (0 : Fin 1)) := by
  obtain ⟨-, -, -, -, -, -, -, -, -, -, e0, e1, -⟩ := idx_facts t
  unfold iblk2
  rw [View.read_apply]
  show V c main_v58 _ = V c main_v58 _
  congr 1
  funext a
  apply Fin.ext
  match a with
  | ⟨0, _⟩ => show win2_5.index t (0 : Fin 2) * 5000 + 1 * r.val = i.val; omega
  | ⟨1, _⟩ => show win2_5.index t (1 : Fin 2) * 1 + 1 * 0 = 0; omega

/-- The scale row's, the shift row's, the weight's and the bias row's windows hold their whole arrays at every point. -/
theorem blk1_eq (c : Dev nD) (t : Fin cfg2.N) : (iblk2 V c 1 t : FVec Ideal S1x128 .f32) = V c main_v55 := by
  obtain ⟨-, -, e0, e1, -⟩ := idx_facts t
  funext y
  unfold iblk2
  rw [View.read_apply]
  show V c main_v55 _ = V c main_v55 y
  congr 1
  funext a
  apply Fin.ext
  match a with
  | ⟨0, _⟩ => show win2_1.index t (0 : Fin 2) * 1 + 1 * (y 0).val = (y 0).val; omega
  | ⟨1, _⟩ => show win2_1.index t (1 : Fin 2) * 128 + 1 * (y 1).val = (y 1).val; omega
theorem blk2_eq (c : Dev nD) (t : Fin cfg2.N) : (iblk2 V c 2 t : FVec Ideal S1x128 .f32) = V c main_v56 := by
  obtain ⟨-, -, -, -, e0, e1, -⟩ := idx_facts t
  funext y
  unfold iblk2
  rw [View.read_apply]
  show V c main_v56 _ = V c main_v56 y
  congr 1
  funext a
  apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega
theorem blk3_eq (c : Dev nD) (t : Fin cfg2.N) : (iblk2 V c 3 t : FVec Ideal S128x128 .f32) = V c main_v52 := by
  obtain ⟨-, -, -, -, -, -, e0, e1, -⟩ := idx_facts t
  funext y
  unfold iblk2
  rw [View.read_apply]
  show V c main_v52 _ = V c main_v52 y
  congr 1
  funext a
  apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega
theorem blk4_eq (c : Dev nD) (t : Fin cfg2.N) : (iblk2 V c 4 t : FVec Ideal S1x128 .f32) = V c main_v57 := by
  obtain ⟨-, -, -, -, -, -, -, -, e0, e1, -⟩ := idx_facts t
  funext y
  unfold iblk2
  rw [View.read_apply]
  show V c main_v57 _ = V c main_v57 y
  congr 1
  funext a
  apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- WHAT POINT `t` WRITES BACK to the product's array is block `t` of the whole-array product of the arrays the region found. -/
theorem flushed6_eq (c : Dev nD) (t : Fin cfg2.N) :
    (dat2 (F := Ideal) V c).flushed 6 t = ((cfg2.win 6).blk t).view.read (Elt Ideal)
      (Cert.Spec.mm (F := Ideal) (Cert.Spec.lnrelu (V c main_v46) (V c main_v55) (V c main_v56)) (V c main_v52)) := by
  show (cfg2.win 6).cut (grid2.coords t) ((dat2 (F := Ideal) V c).after 6 t) = _
  rw [after2_6]
  unfold out2_6
  rw [View.canon_unit_zero hz]
  simp only [View.ld_unit_zero (S := S5000x128) hz, View.ld_unit_zero (S := S1x128) hz, View.ld_unit_zero (S := S128x128) hz]
  rw [blk1_eq, blk2_eq, blk3_eq]
  obtain ⟨-, -, -, -, -, -, -, -, -, -, -, -, e0, e1, -⟩ := idx_facts t
  have ht := lt_N t
  funext j
  obtain ⟨r, q, rfl⟩ : ∃ (r : Fin 5000) (q : Fin 128), j = ix2 r q := ⟨j 0, j 1, eq_ix2 j⟩
  have he : ((cfg2.win 6).blk t).view.emb (ix2 r q) = ix2 (⟨t.val * 5000 + r.val, by omega⟩ : Fin 50000) q := by
    funext a
    apply Fin.ext
    match a with
    | ⟨0, _⟩ => show win2_6.index t (0 : Fin 2) * 5000 + 1 * r.val = t.val * 5000 + r.val; omega
    | ⟨1, _⟩ => show win2_6.index t (1 : Fin 2) * 128 + 1 * q.val = q.val; omega
  show k2_pay2 (F := Ideal) (iblk2 V c 0 t) (V c main_v55) (V c main_v56) (V c main_v52) (ix2 r q)
    = Cert.Spec.mm (F := Ideal) (Cert.Spec.lnrelu (V c main_v46) (V c main_v55) (V c main_v56)) (V c main_v52) (((cfg2.win 6).blk t).view.emb (ix2 r q))
  rw [he]
  refine (pay2_apply (iblk2 V c 0 t) (V c main_v55) (V c main_v56) (V c main_v52) r q).trans ?_
  refine Eq.trans ?_ (spec6_apply (V c main_v46) (V c main_v55) (V c main_v56) (V c main_v52) ⟨t.val * 5000 + r.val, by omega⟩ q).symm
  refine congrArg (fun f => rDot f _ _ _ q) (funext fun k => ?_)
  exact blk0_apply V c t r k ⟨t.val * 5000 + r.val, by omega⟩ rfl

/-- WHAT POINT `t` WRITES BACK to the self-loop array is block `t` of the whole-array self-loop term. -/
theorem flushed7_eq (c : Dev nD) (t : Fin cfg2.N) :
    (dat2 (F := Ideal) V c).flushed 7 t = ((cfg2.win 7).blk t).view.read (Elt Ideal)
      (Cert.Spec.selfTerm (F := Ideal) (Cert.Spec.mm (Cert.Spec.lnrelu (V c main_v46) (V c main_v55) (V c main_v56)) (V c main_v52)) (V c main_v58) (V c main_v57)) := by
  show (cfg2.win 7).cut (grid2.coords t) ((dat2 (F := Ideal) V c).after 7 t) = _
  rw [after2_7]
  unfold out2_7
  rw [View.canon_unit_zero hz]
  simp only [View.ld_unit_zero (S := S5000x128) hz, View.ld_unit_zero (S := S1x128) hz, View.ld_unit_zero (S := S128x128) hz,
    View.ld_unit_zero (S := S5000x1) hz]
  rw [blk1_eq, blk2_eq, blk3_eq, blk4_eq]
  obtain ⟨-, -, -, -, -, -, -, -, -, -, -, -, -, -, e0, e1⟩ := idx_facts t
  have ht := lt_N t
  funext j
  obtain ⟨r, q, rfl⟩ : ∃ (r : Fin 5000) (q : Fin 128), j = ix2 r q := ⟨j 0, j 1, eq_ix2 j⟩
  have he : ((cfg2.win 7).blk t).view.emb (ix2 r q) = ix2 (⟨t.val * 5000 + r.val, by omega⟩ : Fin 50000) q := by
    funext a
    apply Fin.ext
    match a with
    | ⟨0, _⟩ => show win2_7.index t (0 : Fin 2) * 5000 + 1 * r.val = t.val * 5000 + r.val; omega
    | ⟨1, _⟩ => show win2_7.index t (1 : Fin 2) * 128 + 1 * q.val = q.val; omega
  show k2_pay1 (F := Ideal) (k2_pay3 (F := Ideal) (iblk2 V c 0 t) (V c main_v55) (V c main_v56) (V c main_v52) (iblk2 V c 5 t)) (V c main_v57) (ix2 r q)
    = Cert.Spec.selfTerm (F := Ideal) (Cert.Spec.mm (Cert.Spec.lnrelu (V c main_v46) (V c main_v55) (V c main_v56)) (V c main_v52)) (V c main_v58) (V c main_v57)
        (((cfg2.win 7).blk t).view.emb (ix2 r q))
  rw [he]
  refine (pay1_apply (iblk2 V c 0 t) (V c main_v55) (V c main_v56) (V c main_v52) (iblk2 V c 5 t) (V c main_v57) r q).trans ?_
  refine Eq.trans ?_ (spec7_apply _ (V c main_v58) (V c main_v57) ⟨t.val * 5000 + r.val, by omega⟩ q).symm
  rw [spec6_apply, blk5_apply V c t r ⟨t.val * 5000 + r.val, by omega⟩ rfl]
  refine congrArg (fun f => rDot f _ _ _ q * _ + _) (funext fun k => ?_)
  exact blk0_apply V c t r k ⟨t.val * 5000 + r.val, by omega⟩ rfl

/-- An index of the product's array is in point `t`'s block iff each coordinate is in the block's range on its axis. -/
theorem mem_blk6 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v59_0).slice (win2_6.rect t)).set ↔ _
  rw [View.set_slice_whole, Rect.mem_set_unit]
  exact Iff.rfl
theorem mem_blk7 (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v59_1).slice (win2_7.rect t)).set ↔ _
  rw [View.set_slice_whole, Rect.mem_set_unit]
  exact Iff.rfl

/-- Every row lies in the block of the point `row / 5000`, which writes back. -/
theorem cover6 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  refine ⟨⟨(i 0).val / 5000, lt_of_lt_of_eq (by omega : (i 0).val / 5000 < 10) N_2.symm⟩, flush2_6 _, ?_⟩
  rw [mem_blk6]
  obtain ⟨-, -, -, -, -, -, -, -, -, -, -, -, e0, e1, -⟩ := idx_facts ⟨(i 0).val / 5000, lt_of_lt_of_eq (by omega : (i 0).val / 5000 < 10) N_2.symm⟩
  intro a
  match a with
  | ⟨0, _⟩ =>
    show win2_6.index _ (0 : Fin 2) * 5000 ≤ (i 0).val ∧ (i 0).val < win2_6.index _ (0 : Fin 2) * 5000 + 5000
    rw [e0]; show (i 0).val / 5000 * 5000 ≤ (i 0).val ∧ (i 0).val < (i 0).val / 5000 * 5000 + 5000; omega
  | ⟨1, _⟩ =>
    show win2_6.index _ (1 : Fin 2) * 128 ≤ (i 1).val ∧ (i 1).val < win2_6.index _ (1 : Fin 2) * 128 + 128
    rw [e1]; omega
theorem cover7 (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  refine ⟨⟨(i 0).val / 5000, lt_of_lt_of_eq (by omega : (i 0).val / 5000 < 10) N_2.symm⟩, flush2_7 _, ?_⟩
  rw [mem_blk7]
  obtain ⟨-, -, -, -, -, -, -, -, -, -, -, -, -, -, e0, e1⟩ := idx_facts ⟨(i 0).val / 5000, lt_of_lt_of_eq (by omega : (i 0).val / 5000 < 10) N_2.symm⟩
  intro a
  match a with
  | ⟨0, _⟩ =>
    show win2_7.index _ (0 : Fin 2) * 5000 ≤ (i 0).val ∧ (i 0).val < win2_7.index _ (0 : Fin 2) * 5000 + 5000
    rw [e0]; show (i 0).val / 5000 * 5000 ≤ (i 0).val ∧ (i 0).val < (i 0).val / 5000 * 5000 + 5000; omega
  | ⟨1, _⟩ =>
    show win2_7.index _ (1 : Fin 2) * 128 ≤ (i 1).val ∧ (i 1).val < win2_7.index _ (1 : Fin 2) * 128 + 128
    rw [e1]; omega

/-- The product's array after region 2: the normalised, clamped input times the weight, whole array. -/
theorem arr2_6 (c : Dev nD) : (dat2 (F := Ideal) V c).arrAt 6 cfg2.N
    = Cert.Spec.mm (F := Ideal) (Cert.Spec.lnrelu (V c main_v46) (V c main_v55) (V c main_v56)) (V c main_v52) :=
  (dat2 (F := Ideal) V c).arrAt_eq_of_cover 6 _ (fun t _ => flushed6_eq V c t) cover6

/-- The self-loop array after region 2: that product scaled row by row, plus the bias row. -/
theorem arr2_7 (c : Dev nD) : (dat2 (F := Ideal) V c).arrAt 7 cfg2.N
    = Cert.Spec.selfTerm (F := Ideal) (Cert.Spec.mm (Cert.Spec.lnrelu (V c main_v46) (V c main_v55) (V c main_v56)) (V c main_v52)) (V c main_v58) (V c main_v57) :=
  (dat2 (F := Ideal) V c).arrAt_eq_of_cover 7 _ (fun t _ => flushed7_eq V c t) cover7

end Cert.KernelIdeal.Region2

end
-- ==== Proof.KStep2.lean ====
/-
  From region 2's entry to region 3's entry: a residual layer's kernel, the gather of source rows in fill mode, the
  scaling by the edge coefficients, the scatter to targets, the sums with the self-loop array and the layer's input,
  and the next layer's slices.
-/
import proofs.«413863_j12395275616334_2_alg».proof.Proof.Gen.KernelIdeal.Frame
import proofs.«413863_j12395275616334_2_alg».proof.Proof.Gen.KernelIdeal
import proofs.«413863_j12395275616334_2_alg».proof.Proof.Gen.ReferenceIdeal
import proofs.«413863_j12395275616334_2_alg».proof.Proof.KSpec
import proofs.«413863_j12395275616334_2_alg».proof.Proof.KState
import proofs.«413863_j12395275616334_2_alg».proof.Proof.Region2
import Idealize.ShloMosaic.PureOps.Ideal

set_option maxRecDepth 16384

noncomputable section

namespace Cert.KernelIdeal.KStep2
open Idealize.ShloMosaic Idealize.ShloMosaic.TcCoe Idealize.SL.Sem Cert.KernelIdeal Cert.KernelIdeal.Gen
open Cert.KernelIdeal.KState

variable (m : (ℓ : Loc nD τ sig) → Buf (Elt Ideal) ℓ) (ρ : Dev nD → PrngReg) (c : Dev nD)

/-- A buffer that none of a stretch's operations writes holds after the stretch what it held before. -/
local macro "carried" ops:ident : tactic =>
  `(tactic| (
    refine StableHlo.after_of_forall_not_mem _ _ (List.forall_iff_forall_mem.mp ?_)
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## Transport along a typed reference's type equation -/

/-- Contents moved to a buffer's own type and back are the contents. -/
theorem ofBuf_toBuf {T : BufTy} (x : StableHlo.TRef sig T) (v : T.Contents (Elt Ideal)) :
    x.ofBuf (x.toBuf v) = v := by
  obtain ⟨r, h, h₁, h₂⟩ := x
  subst h
  rfl

/-- The gather's result buffer holds contents of its own type. -/
theorem toBuf_v60 (v : Cert.KSpec.ERows Ideal) :
    (StableHlo.TRef.of main_v60 : StableHlo.TRef sig ⟨S800000x128, .f32⟩).toBuf v = v := rfl
/-- The source row read at its own type. -/
theorem ofBuf_v1 (v : Cert.KSpec.EIdx Ideal) :
    (StableHlo.TRef.of main_v1 : StableHlo.TRef sig ⟨S800000, .i32⟩).ofBuf v = v := rfl
/-- The product's array read at its own type. -/
theorem ofBuf_v59_0 (v : Cert.KSpec.Feat Ideal) :
    (StableHlo.TRef.of main_v59_0 : StableHlo.TRef sig ⟨S50000x128, .f32⟩).ofBuf v = v := rfl

/-! ## Region 2: the kernel writes its two output arrays and nothing else -/

/-- The product's array at region 2's exit: the normalised, clamped input times the weight. -/
theorem w9_prod (h : Cert.KSpec.Feat Ideal) (g b : FVec Ideal S128 .f32) (W : FVec Ideal S128x128 .f32)
    (hx : W8 m ρ c (Proc.devRef .tc main_v46) = h) (hg : W8 m ρ c (Proc.devRef .tc main_v55) = Cert.KSpec.asRow g)
    (hb : W8 m ρ c (Proc.devRef .tc main_v56) = Cert.KSpec.asRow b) (hW : W8 m ρ c (Proc.devRef .tc main_v52) = W) :
    W9 m ρ c (Proc.devRef .tc main_v59_0)
      = Cert.Spec.mm (F := Ideal) (Cert.Spec.lnrelu h (Cert.KSpec.asRow g) (Cert.KSpec.asRow b)) W := by
  have e := (W9_arr m ρ c 6).trans (Region2.arr2_6 (V8 m ρ) c)
  rw [← hx, ← hg, ← hb, ← hW]
  exact e

/-- The self-loop array at region 2's exit: the product scaled row by row by the self-loop column, plus the bias row. -/
theorem w9_self (h : Cert.KSpec.Feat Ideal) (g b cb : FVec Ideal S128 .f32) (W : FVec Ideal S128x128 .f32)
    (hx : W8 m ρ c (Proc.devRef .tc main_v46) = h) (hg : W8 m ρ c (Proc.devRef .tc main_v55) = Cert.KSpec.asRow g)
    (hb : W8 m ρ c (Proc.devRef .tc main_v56) = Cert.KSpec.asRow b) (hW : W8 m ρ c (Proc.devRef .tc main_v52) = W)
    (hcb : W8 m ρ c (Proc.devRef .tc main_v57) = Cert.KSpec.asRow cb)
    (hsd : W8 m ρ c (Proc.devRef .tc main_v58) = Cert.KSpec.sdCol (F := Ideal) (dst m c) (ew m c)) :
    W9 m ρ c (Proc.devRef .tc main_v59_1)
      = Cert.Spec.selfTerm (F := Ideal) (Cert.Spec.mm (Cert.Spec.lnrelu h (Cert.KSpec.asRow g) (Cert.KSpec.asRow b)) W)
          (Cert.KSpec.sdCol (F := Ideal) (dst m c) (ew m c)) (Cert.KSpec.asRow cb) := by
  have e := (W9_arr m ρ c 7).trans (Region2.arr2_7 (V8 m ρ) c)
  rw [← hx, ← hg, ← hb, ← hW, ← hcb, ← hsd]
  exact e

/-- The layer's input is one of the kernel's input windows: the region leaves it as entered. -/
theorem w9_in : W9 m ρ c (Proc.devRef .tc main_v46) = W8 m ρ c (Proc.devRef .tc main_v46) :=
  (W9_arr m ρ c 0).trans (((dat2 (V8 m ρ) c).arrAt_in 0 rfl _).trans (A_eq2 (V8 m ρ) c 0))

/-- Region 2 writes none of the kept buffers. -/
theorem w9_kept (hk : Kept m c (W8 m ρ c)) : Kept m c (W9 m ρ c) where
  v1 := (W9_of_ne m ρ c main_v1 (by decide)).trans hk.v1
  v3 := (W9_of_ne m ρ c main_v3 (by decide)).trans hk.v3
  v28 := (W9_of_ne m ρ c main_v28 (by decide)).trans hk.v28
  v29 := (W9_of_ne m ρ c main_v29 (by decide)).trans hk.v29
  a5 := (W9_of_ne m ρ c main_arg5 (by decide)).trans hk.a5
  a6 := (W9_of_ne m ρ c main_arg6 (by decide)).trans hk.a6
  a7 := (W9_of_ne m ρ c main_arg7 (by decide)).trans hk.a7
  a8 := (W9_of_ne m ρ c main_arg8 (by decide)).trans hk.a8
  a9 := (W9_of_ne m ρ c main_arg9 (by decide)).trans hk.a9
  a10 := (W9_of_ne m ρ c main_arg10 (by decide)).trans hk.a10

/-! ## The gather of source rows (the inlined take, in fill mode), from any contents `V` -/

/-- After the gather: the row of `xw` at every edge's index where the wrapped index is in range, the fill word elsewhere. -/
theorem take_of (V : Valuation τ sig (Elt Ideal)) (xw : Cert.KSpec.Feat Ideal) (i : Cert.KSpec.EIdx Ideal)
    (hp : V (Proc.devRef .tc main_v59_0) = xw) (h1 : V (Proc.devRef .tc main_v1) = i) :
    StableHlo.after hostOps3 V (Proc.devRef .tc main_v60) = Cert.KSpec.take (F := Ideal) xw i := by
  after_results_simp
  simp only [ofBuf_toBuf]
  rw [h1, hp]
  simp only [toBuf_v60, ofBuf_v1, ofBuf_v59_0]
  unfold Cert.KSpec.take Cert.KSpec.inRange Cert.KSpec.rows Cert.KSpec.wrap Cert.KSpec.col
  with_reducible rfl

/-- The gather writes none of the kept buffers. -/
theorem kept3 (V : Valuation τ sig (Elt Ideal)) (hk : Kept m c V) : Kept m c (StableHlo.after hostOps3 V) where
  v1 := Eq.trans (by carried hostOps3) hk.v1
  v3 := Eq.trans (by carried hostOps3) hk.v3
  v28 := Eq.trans (by carried hostOps3) hk.v28
  v29 := Eq.trans (by carried hostOps3) hk.v29
  a5 := Eq.trans (by carried hostOps3) hk.a5
  a6 := Eq.trans (by carried hostOps3) hk.a6
  a7 := Eq.trans (by carried hostOps3) hk.a7
  a8 := Eq.trans (by carried hostOps3) hk.a8
  a9 := Eq.trans (by carried hostOps3) hk.a9
  a10 := Eq.trans (by carried hostOps3) hk.a10

/-- The gather leaves the layer's input as it was. -/
theorem in3 (V : Valuation τ sig (Elt Ideal)) :
    StableHlo.after hostOps3 V (Proc.devRef .tc main_v46) = V (Proc.devRef .tc main_v46) := by
  carried hostOps3

/-- The gather leaves the self-loop array as it was. -/
theorem self3 (V : Valuation τ sig (Elt Ideal)) :
    StableHlo.after hostOps3 V (Proc.devRef .tc main_v59_1) = V (Proc.devRef .tc main_v59_1) := by
  carried hostOps3

/-! ## The aggregation, the sums, and the next layer's slices, from any contents `V` -/

/-- The layer's output: the scatter to targets of the gathered rows scaled by the edge coefficients, plus the
    self-loop array, plus the layer's input. -/
theorem res_of (V : Valuation τ sig (Elt Ideal)) (h : Cert.KSpec.Feat Ideal) (g b cb : FVec Ideal S128 .f32)
    (W : FVec Ideal S128x128 .f32) (i j : Cert.KSpec.EIdx Ideal) (w : Cert.KSpec.EVal Ideal)
    (h60 : V (Proc.devRef .tc main_v60)
      = Cert.KSpec.take (F := Ideal) (Cert.Spec.mm (Cert.Spec.lnrelu h (Cert.KSpec.asRow g) (Cert.KSpec.asRow b)) W) i)
    (h28 : V (Proc.devRef .tc main_v28) = Cert.KSpec.coef (F := Ideal) i j w)
    (h3 : V (Proc.devRef .tc main_v3) = j)
    (hs : V (Proc.devRef .tc main_v59_1)
      = Cert.Spec.selfTerm (F := Ideal) (Cert.Spec.mm (Cert.Spec.lnrelu h (Cert.KSpec.asRow g) (Cert.KSpec.asRow b)) W)
          (Cert.KSpec.sdCol (F := Ideal) j w) (Cert.KSpec.asRow cb))
    (hx : V (Proc.devRef .tc main_v46) = h) :
    StableHlo.after hostOps3_1 V (Proc.devRef .tc main_v68) = Cert.KSpec.res (F := Ideal) h g b W cb i j w := by
  after_results_simp
  rw [h60, h28, h3, hs, hx]
  unfold Cert.KSpec.res Cert.KSpec.agg Cert.KSpec.scat Cert.KSpec.spread Cert.KSpec.col
  with_reducible rfl

/-- Row 2 of the scale argument, as a row. -/
theorem v77_of (V : Valuation τ sig (Elt Ideal)) (p : FVec Ideal S4x128 .f32) (hp : V (Proc.devRef .tc main_arg7) = p) :
    StableHlo.after hostOps3_1 V (Proc.devRef .tc main_v77) = Cert.KSpec.asRow (Cert.KSpec.r2 (F := Ideal) p) := by
  after_results_simp
  rw [hp]
  rfl

/-- Row 2 of the shift argument, as a row. -/
theorem v78_of (V : Valuation τ sig (Elt Ideal)) (p : FVec Ideal S4x128 .f32) (hp : V (Proc.devRef .tc main_arg8) = p) :
    StableHlo.after hostOps3_1 V (Proc.devRef .tc main_v78) = Cert.KSpec.asRow (Cert.KSpec.r2 (F := Ideal) p) := by
  after_results_simp
  rw [hp]
  rfl

/-- Slice 2 of the weight argument. -/
theorem v74_of (V : Valuation τ sig (Elt Ideal)) (p : FVec Ideal S4x128x128 .f32) (hp : V (Proc.devRef .tc main_arg5) = p) :
    StableHlo.after hostOps3_1 V (Proc.devRef .tc main_v74) = Cert.KSpec.W2 (F := Ideal) p := by
  after_results_simp
  rw [hp]
  rfl

/-- Row 2 of the bias argument, as a row. -/
theorem v79_of (V : Valuation τ sig (Elt Ideal)) (p : FVec Ideal S4x128 .f32) (hp : V (Proc.devRef .tc main_arg6) = p) :
    StableHlo.after hostOps3_1 V (Proc.devRef .tc main_v79) = Cert.KSpec.asRow (Cert.KSpec.r2 (F := Ideal) p) := by
  after_results_simp
  rw [hp]
  rfl

/-- A vector of one float per node, reshaped to a column. -/
theorem v80_of (V : Valuation τ sig (Elt Ideal)) (s : Cert.KSpec.NVal Ideal) (hs : V (Proc.devRef .tc main_v29) = s) :
    StableHlo.after hostOps3_1 V (Proc.devRef .tc main_v80)
      = (shapeCast S50000x1 s shapeCasts_S50000_S50000x1 : FVec Ideal S50000x1 .f32) := by
  after_results_simp
  rw [hs]
  rfl

/-- The sums and slices write none of the kept buffers. -/
theorem kept3_1 (V : Valuation τ sig (Elt Ideal)) (hk : Kept m c V) : Kept m c (StableHlo.after hostOps3_1 V) where
  v1 := Eq.trans (by carried hostOps3_1) hk.v1
  v3 := Eq.trans (by carried hostOps3_1) hk.v3
  v28 := Eq.trans (by carried hostOps3_1) hk.v28
  v29 := Eq.trans (by carried hostOps3_1) hk.v29
  a5 := Eq.trans (by carried hostOps3_1) hk.a5
  a6 := Eq.trans (by carried hostOps3_1) hk.a6
  a7 := Eq.trans (by carried hostOps3_1) hk.a7
  a8 := Eq.trans (by carried hostOps3_1) hk.a8
  a9 := Eq.trans (by carried hostOps3_1) hk.a9
  a10 := Eq.trans (by carried hostOps3_1) hk.a10

/-- At region 3's entry: the kept buffers, this layer's output, and the next layer's scale, shift, weight, bias and self-loop column. -/
theorem at11 (h : Cert.KSpec.Feat Ideal) (g b cb : FVec Ideal S128 .f32) (W : FVec Ideal S128x128 .f32)
    (hk : Kept m c (W8 m ρ c)) (hx : W8 m ρ c (Proc.devRef .tc main_v46) = h) (hg : W8 m ρ c (Proc.devRef .tc main_v55) = Cert.KSpec.asRow g) (hb : W8 m ρ c (Proc.devRef .tc main_v56) = Cert.KSpec.asRow b)
    (hW : W8 m ρ c (Proc.devRef .tc main_v52) = W) (hcb : W8 m ρ c (Proc.devRef .tc main_v57) = Cert.KSpec.asRow cb) (hsd : W8 m ρ c (Proc.devRef .tc main_v58) = Cert.KSpec.sdCol (F := Ideal) (dst m c) (ew m c)) :
    Kept m c (W11 m ρ c)
      ∧ W11 m ρ c (Proc.devRef .tc main_v68) = Cert.KSpec.res (F := Ideal) h g b W cb (src m c) (dst m c) (ew m c)
      ∧ W11 m ρ c (Proc.devRef .tc main_v77) = Cert.KSpec.asRow (Cert.KSpec.r2 (F := Ideal) (a m c main_arg7))
      ∧ W11 m ρ c (Proc.devRef .tc main_v78) = Cert.KSpec.asRow (Cert.KSpec.r2 (F := Ideal) (a m c main_arg8))
      ∧ W11 m ρ c (Proc.devRef .tc main_v74) = Cert.KSpec.W2 (F := Ideal) (a m c main_arg5)
      ∧ W11 m ρ c (Proc.devRef .tc main_v79) = Cert.KSpec.asRow (Cert.KSpec.r2 (F := Ideal) (a m c main_arg6))
      ∧ W11 m ρ c (Proc.devRef .tc main_v80) = Cert.KSpec.sdCol (F := Ideal) (dst m c) (ew m c) := by
  have k9 := w9_kept m ρ c hk
  have k10 := kept3 m c (W9 m ρ c) k9
  have p9 := w9_prod m ρ c h g b W hx hg hb hW
  have s10 := (self3 (W9 m ρ c)).trans (w9_self m ρ c h g b cb W hx hg hb hW hcb hsd)
  have x10 := (in3 (W9 m ρ c)).trans ((w9_in m ρ c).trans hx)
  have t10 := take_of (W9 m ρ c) _ _ p9 k9.v1
  refine ⟨kept3_1 m c _ k10, ?_, ?_, ?_, ?_, ?_, ?_⟩
  · exact res_of (StableHlo.after hostOps3 (W9 m ρ c)) h g b cb W (src m c) (dst m c) (ew m c) t10 k10.v28 k10.v3 s10 x10
  · exact v77_of _ _ k10.a7
  · exact v78_of _ _ k10.a8
  · exact v74_of _ _ k10.a5
  · exact v79_of _ _ k10.a6
  · unfold Cert.KSpec.sdCol
    exact v80_of _ _ k10.v29

end Cert.KernelIdeal.KStep2

end
-- ==== Proof.Region3.lean ====
/-
  Region 3 (a residual layer's kernel: row normalisation, clamp, product, self-loop term), whole arrays.
-/
import proofs.«413863_j12395275616334_2_alg».proof.Proof.Gen.KernelIdeal.Frame
import proofs.«413863_j12395275616334_2_alg».proof.Proof.Gen.KernelIdeal
import proofs.«413863_j12395275616334_2_alg».proof.Proof.Gen.ReferenceIdeal
import proofs.«413863_j12395275616334_2_alg».proof.Proof.KSpec
import Idealize.ShloMosaic.PureOps.Ideal
import Idealize.ShloMosaic.PureOps.Ideal.Laws
import Idealize.ShloMosaic.Lib.ValueIdx
import Idealize.ShloMosaic.Lib.IdealHost
import Idealize.ShloMosaic.Lib.ValueLayout
import Idealize.ShloMosaic.Lib.Pipeline.Value

set_option maxRecDepth 16384

noncomputable section

namespace Cert.KernelIdeal.Region3
open Idealize.ShloMosaic Idealize.ShloMosaic.TcCoe Idealize.SL.Sem Cert.KernelIdeal Cert.KernelIdeal.Gen
open Idealize.ShloMosaic.ValueIdx
open scoped BigOperators

variable (V : (c : Dev nD) → (b : Ref sig .tc) → Buf (Elt Ideal) ((c : Thread nD τ).loc b))

/-! ## A row's statistics, as functions of the row's 128 entries -/

/-- The row's mean: the sum of its entries divided by 128. -/
def rMean (f : Fin 128 → EReal) : EReal := Ideal.div (∑ k, f k) (Ideal.ofBits .f32 0x43000000#32)
/-- The row's variance: the mean of the squared deviations. -/
def rVar (f : Fin 128 → EReal) : EReal := Ideal.div (∑ k, (f k - rMean f) * (f k - rMean f)) (Ideal.ofBits .f32 0x43000000#32)
/-- The inverse root of the variance plus the small constant. -/
def rInv (f : Fin 128 → EReal) : EReal := Ideal.rsqrt (rVar f + Ideal.ofBits .f32 0x3727C5AC#32)
/-- The normalised row under the affine map by `g`, `b`, clamped at zero. -/
def rAct (f g b : Fin 128 → EReal) (k : Fin 128) : EReal :=
  max ((f k - rMean f) * rInv f * g k + b k) (Ideal.ofBits .f32 0x00000000#32)
/-- That row times column `q` of the weight. -/
def rDot (f g b : Fin 128 → EReal) (W : Fin 128 → Fin 128 → EReal) (q : Fin 128) : EReal := ∑ k, rAct f g b k * W k q

/-! ## The block's layout operations read at an index -/

/-- A lane sum of a [5000,128] block at row `r` is the sum of that row's 128 entries. -/
theorem laneSum_apply (v : FVec Ideal S5000x128 .f32) (hφ : FKind.Formats .f32)
    (hacc : (0x00000000#32 : BitVec 32) = FKind.add.neutral .f32 hφ) (r : Fin 5000) :
    multiReduction (F := Ideal) .add [1] S5000 v 0x00000000#32 reduces_S5000x128_S5000 hφ hacc (ix1 r) = ∑ k : Fin 128, v (ix2 r k) := by
  refine (Ideal.multiReduction_add_single v 0x00000000#32 reduces_S5000x128_S5000 hφ hacc (ix1 r)).trans ?_
  refine Finset.sum_congr rfl fun k _ => congrArg v ?_
  funext a
  match a with
  | ⟨0, _⟩ => rfl
  | ⟨1, _⟩ => rfl

/-- A vector of 5000 as a [5000,1] column reads its entry `r` at `(r, 0)`. -/
theorem asCol_apply (v : FVec Ideal S5000 .f32) (r : Fin 5000) (u : Fin 1) :
    shapeCast S5000x1 v shapeCasts_S5000_S5000x1 (ix2 r u) = v (ix1 r) :=
  shapeCast_apply v shapeCasts_S5000_S5000x1 (ix2 r u) (ix1 r) (by
    have hu : u.val = 0 := by omega
    rw [Shape.rowMajor_val_two, Shape.rowMajor_val_one]
    show r.val = r.val * 1 + u.val
    rw [hu]; omega)

/-- A [5000,1] column laid along the 128 lanes reads, at `(r, q)`, the column at `(r, 0)`. -/
theorem colB_apply (v : FVec Ideal S5000x1 .f32) (r : Fin 5000) (q : Fin 128) :
    broadcastTo S5000x128 v broadcasts_S5000x1_S5000x128 (ix2 r q) = v (ix2 r (0 : Fin 1)) := by
  refine broadcastTo_apply v broadcasts_S5000x1_S5000x128 (ix2 r q) (ix2 r (0 : Fin 1)) fun ax => ?_
  match ax with
  | ⟨0, _⟩ => rfl
  | ⟨1, _⟩ => rfl

/-- A [1,128] row laid under the 5000 rows reads, at `(r, q)`, the row at `(0, q)`. -/
theorem rowB_apply (v : FVec Ideal S1x128 .f32) (r : Fin 5000) (q : Fin 128) :
    broadcastTo S5000x128 v broadcasts_S1x128_S5000x128 (ix2 r q) = v (ix2 (0 : Fin 1) q) :=
  broadcastTo_1b_ab_apply v broadcasts_S1x128_S5000x128 r q

/-! ## The kernel's payload, stage by stage, and each stage read at an index -/

/-- The block's row means as a [5000,1] column, in the kernel's operations. -/
def kMean (x : FVec Ideal S5000x128 .f32) : FVec Ideal S5000x1 .f32 :=
  divf (shapeCast S5000x1 (multiReduction .add [1] S5000 x 0x00000000#32 reduces_S5000x128_S5000 (.inl rfl) rfl) shapeCasts_S5000_S5000x1)
    (broadcast S5000x1 (Scalar.ofBits .f32 0x43000000#32))
/-- The centred block. -/
def kCen (x : FVec Ideal S5000x128 .f32) : FVec Ideal S5000x128 .f32 :=
  subf x (broadcastTo S5000x128 (kMean x) broadcasts_S5000x1_S5000x128)
/-- The rows' inverse root variances as a [5000,1] column. -/
def kInv (x : FVec Ideal S5000x128 .f32) : FVec Ideal S5000x1 .f32 :=
  rsqrt (addf (divf (shapeCast S5000x1 (multiReduction .add [1] S5000 (mulf (kCen x) (kCen x)) 0x00000000#32 reduces_S5000x128_S5000 (.inl rfl) rfl) shapeCasts_S5000_S5000x1)
      (broadcast S5000x1 (Scalar.ofBits .f32 0x43000000#32)))
    (broadcast S5000x1 (Scalar.ofBits .f32 0x3727C5AC#32)))
/-- The normalised block under the affine map, clamped at zero. -/
def kAct (x : FVec Ideal S5000x128 .f32) (g b : FVec Ideal S1x128 .f32) : FVec Ideal S5000x128 .f32 :=
  maximumf (addf (mulf (mulf (kCen x) (broadcastTo S5000x128 (kInv x) broadcasts_S5000x1_S5000x128))
      (broadcastTo S5000x128 g broadcasts_S1x128_S5000x128)) (broadcastTo S5000x128 b broadcasts_S1x128_S5000x128))
    (broadcast S5000x128 (Scalar.ofBits .f32 0x00000000#32))

/-- The product payload is the block product of those stages with the weight, into the zero splat. -/
theorem pay2_eq (x0 : FVec Ideal S5000x128 .f32) (g b : FVec Ideal S1x128 .f32) (W : FVec Ideal S128x128 .f32) :
    k3_pay2 (F := Ideal) x0 g b W
      = matmul dot_S5000x128_S128x128_S5000x128_1_0_0_1_n_n none (kAct x0 g b) W (constant (F := Ideal) S5000x128 .f32 0x00000000#32) := by
  unfold k3_pay2 kAct kInv kCen kMean
  simp only [shapeCast_self]

theorem kMean_apply (x : FVec Ideal S5000x128 .f32) (r : Fin 5000) (u : Fin 1) :
    kMean x (ix2 r u) = rMean fun k => x (ix2 r k) := by
  show Ideal.div (shapeCast S5000x1 (multiReduction (F := Ideal) .add [1] S5000 x 0x00000000#32 reduces_S5000x128_S5000 (.inl rfl) rfl) shapeCasts_S5000_S5000x1 (ix2 r u))
    (Ideal.ofBits .f32 0x43000000#32) = _
  rw [asCol_apply]
  exact congrArg (fun s => Ideal.div s (Ideal.ofBits .f32 0x43000000#32)) (laneSum_apply x _ _ r)

theorem kCen_apply (x : FVec Ideal S5000x128 .f32) (r : Fin 5000) (k : Fin 128) :
    kCen x (ix2 r k) = x (ix2 r k) - rMean fun k => x (ix2 r k) := by
  show x (ix2 r k) - broadcastTo S5000x128 (kMean x) broadcasts_S5000x1_S5000x128 (ix2 r k) = _
  rw [colB_apply, kMean_apply]

theorem kInv_apply (x : FVec Ideal S5000x128 .f32) (r : Fin 5000) (u : Fin 1) :
    kInv x (ix2 r u) = rInv fun k => x (ix2 r k) := by
  show Ideal.rsqrt (Ideal.div (shapeCast S5000x1 (multiReduction (F := Ideal) .add [1] S5000 (mulf (kCen x) (kCen x)) 0x00000000#32 reduces_S5000x128_S5000 (.inl rfl) rfl) shapeCasts_S5000_S5000x1 (ix2 r u))
    (Ideal.ofBits .f32 0x43000000#32) + Ideal.ofBits .f32 0x3727C5AC#32) = _
  rw [asCol_apply]
  refine (congrArg (fun s => Ideal.rsqrt (Ideal.div s (Ideal.ofBits .f32 0x43000000#32) + Ideal.ofBits .f32 0x3727C5AC#32))
    (laneSum_apply (mulf (kCen x) (kCen x)) _ _ r)).trans ?_
  simp only [mulf_apply, kCen_apply]
  rfl

theorem kAct_apply (x : FVec Ideal S5000x128 .f32) (g b : FVec Ideal S1x128 .f32) (r : Fin 5000) (k : Fin 128) :
    kAct x g b (ix2 r k) = rAct (fun k => x (ix2 r k)) (fun k => g (ix2 (0 : Fin 1) k)) (fun k => b (ix2 (0 : Fin 1) k)) k := by
  show max (kCen x (ix2 r k) * broadcastTo S5000x128 (kInv x) broadcasts_S5000x1_S5000x128 (ix2 r k)
      * broadcastTo S5000x128 g broadcasts_S1x128_S5000x128 (ix2 r k) + broadcastTo S5000x128 b broadcasts_S1x128_S5000x128 (ix2 r k))
    (Ideal.ofBits .f32 0x00000000#32) = _
  rw [colB_apply, rowB_apply, rowB_apply, kInv_apply, kCen_apply]
  rfl

/-! ## The block product read at an index -/

theorem lhsK_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsK_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsK_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsK_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero splat at `(r, q)`: the sum over `k` of `A (r, k) · B (k, q)`. -/
theorem mmK_apply (A : FVec Ideal S5000x128 .f32) (B : FVec Ideal S128x128 .f32) (r : Fin 5000) (q : Fin 128) :
    matmul dot_S5000x128_S128x128_S5000x128_1_0_0_1_n_n none A B (constant (F := Ideal) S5000x128 .f32 0x00000000#32) (ix2 r q)
      = ∑ k : Fin 128, A (ix2 r k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhsK_0 _ _
    | ⟨1, _⟩ => exact (lhsK_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhsK_0 _ _).trans hk
    | ⟨1, _⟩ => exact rhsK_1 _ _)
  rw [el, er]

/-- THE PRODUCT PAYLOAD AT `(r, q)`: row `r` of the block, normalised and clamped, times column `q` of the weight. -/
theorem pay2_apply (x0 : FVec Ideal S5000x128 .f32) (g b : FVec Ideal S1x128 .f32) (W : FVec Ideal S128x128 .f32) (r : Fin 5000) (q : Fin 128) :
    k3_pay2 (F := Ideal) x0 g b W (ix2 r q)
      = rDot (fun k => x0 (ix2 r k)) (fun k => g (ix2 (0 : Fin 1) k)) (fun k => b (ix2 (0 : Fin 1) k)) (fun k q => W (ix2 k q)) q := by
  rw [pay2_eq, mmK_apply]
  exact Finset.sum_congr rfl fun k _ => by rw [kAct_apply]

/-- THE SELF-LOOP PAYLOAD AT `(r, q)`: the product there times the row's factor, plus the bias row. -/
theorem pay1_apply (x0 : FVec Ideal S5000x128 .f32) (g b : FVec Ideal S1x128 .f32) (W : FVec Ideal S128x128 .f32)
    (s : FVec Ideal S5000x1 .f32) (cb : FVec Ideal S1x128 .f32) (r : Fin 5000) (q : Fin 128) :
    k3_pay1 (F := Ideal) (k3_pay3 (F := Ideal) x0 g b W s) cb (ix2 r q)
      = rDot (fun k => x0 (ix2 r k)) (fun k => g (ix2 (0 : Fin 1) k)) (fun k => b (ix2 (0 : Fin 1) k)) (fun k q => W (ix2 k q)) q
          * s (ix2 r (0 : Fin 1)) + cb (ix2 (0 : Fin 1) q) := by
  unfold k3_pay1 k3_pay3
  simp only [shapeCast_self]
  show k3_pay2 (F := Ideal) x0 g b W (ix2 r q) * broadcastTo S5000x128 s broadcasts_S5000x1_S5000x128 (ix2 r q)
    + broadcastTo S5000x128 cb broadcasts_S1x128_S5000x128 (ix2 r q) = _
  rw [pay2_apply, colB_apply, rowB_apply]

/-! ## The whole-array functions read at an index -/

/-- A vector of 50000 as a [50000,1] column reads its entry `i` at `(i, 0)`. -/
theorem sCol_apply (h : S50000.BroadcastsInDim S50000x1 (![0] : Fin 1 → Fin S50000x1.rank)) (v : FVec Ideal S50000 .f32)
    (i : Fin 50000) (u : Fin 1) : broadcastInDim S50000x1 ![0] h v (ix2 i u) = v (ix1 i) :=
  broadcastInDim_apply _ h v (ix2 i u) (ix1 i) fun a => by
    match a with
    | ⟨0, _⟩ => rfl

/-- A [50000,1] column laid beside the 128 columns reads, at `(i, q)`, the column at `(i, 0)`. -/
theorem sColB_apply (h : S50000x1.BroadcastsInDim S50000x128 (![0, 1] : Fin 2 → Fin S50000x128.rank)) (v : FVec Ideal S50000x1 .f32)
    (i : Fin 50000) (q : Fin 128) : broadcastInDim S50000x128 ![0, 1] h v (ix2 i q) = v (ix2 i (0 : Fin 1)) :=
  broadcastInDim_apply _ h v (ix2 i q) (ix2 i (0 : Fin 1)) fun a => by
    match a with
    | ⟨0, _⟩ => rfl
    | ⟨1, _⟩ => rfl

/-- A [1,128] row laid under the 50000 rows reads, at `(i, q)`, the row at `(0, q)`. -/
theorem sRowB_apply (h : S1x128.BroadcastsInDim S50000x128 (![0, 1] : Fin 2 → Fin S50000x128.rank)) (v : FVec Ideal S1x128 .f32)
    (i : Fin 50000) (q : Fin 128) : broadcastInDim S50000x128 ![0, 1] h v (ix2 i q) = v (ix2 (0 : Fin 1) q) :=
  broadcastInDim_apply _ h v (ix2 i q) (ix2 (0 : Fin 1) q) fun a => by
    match a with
    | ⟨0, _⟩ => rfl
    | ⟨1, _⟩ => rfl

/-- The host's sum over axis 1 from the zero word, at row `i`: the sum of that row's 128 entries. -/
theorem sSum_apply (h' : S50000x128.ReducesTo [1] S50000) (hu : 0 < S_.numel) (x : FVec Ideal S50000x128 .f32) (i : Fin 50000) :
    Host.reduceAdd (F := Ideal) x (constant (F := Ideal) S_ .f32 0x00000000#32) h' hu (ix1 i) = ∑ k : Fin 128, x (ix2 i k) := by
  rw [hostReduceAdd_apply, Ideal.hostReduceAdd_single h' (by decide) x _ (ix1 i)]
  show Ideal.ofBits .f32 0x00000000#32 + _ = _
  rw [Ideal.ofBits_zero_f32, zero_add]
  refine Finset.sum_congr rfl fun k _ => congrArg x ?_
  funext a
  match a with
  | ⟨0, _⟩ => rfl
  | ⟨1, _⟩ => rfl

theorem sMean_apply (h : FVec Ideal S50000x128 .f32) (i : Fin 50000) (u : Fin 1) :
    Cert.Spec.rowMean (F := Ideal) h (ix2 i u) = rMean fun k => h (ix2 i k) := by
  unfold Cert.Spec.rowMean
  rw [hostDivf_apply, sCol_apply, broadcastInDim_scalar_apply, sSum_apply]
  rfl

theorem sCen_apply (h : FVec Ideal S50000x128 .f32) (i : Fin 50000) (k : Fin 128) :
    Cert.Spec.centred (F := Ideal) h (ix2 i k) = h (ix2 i k) - rMean fun k => h (ix2 i k) := by
  unfold Cert.Spec.centred Cert.Spec.colB
  rw [subf_apply, sColB_apply, sMean_apply]

theorem sInv_apply (h : FVec Ideal S50000x128 .f32) (i : Fin 50000) (u : Fin 1) :
    Cert.Spec.rowInvStd (F := Ideal) h (ix2 i u) = rInv fun k => h (ix2 i k) := by
  unfold Cert.Spec.rowInvStd
  show Ideal.rsqrt (Cert.Spec.rowMean (F := Ideal) (mulf (Cert.Spec.centred h) (Cert.Spec.centred h)) (ix2 i u)
    + broadcastInDim S50000x1 ![] _ (constant (F := Ideal) S_ .f32 0x3727C5AC#32) (ix2 i u)) = _
  rw [sMean_apply, broadcastInDim_scalar_apply]
  simp only [mulf_apply, sCen_apply, rInv, rVar]
  rfl

theorem sAct_apply (h : FVec Ideal S50000x128 .f32) (g b : FVec Ideal S1x128 .f32) (i : Fin 50000) (k : Fin 128) :
    Cert.Spec.lnrelu (F := Ideal) h g b (ix2 i k)
      = rAct (fun k => h (ix2 i k)) (fun k => g (ix2 (0 : Fin 1) k)) (fun k => b (ix2 (0 : Fin 1) k)) k := by
  unfold Cert.Spec.lnrelu Cert.Spec.colB Cert.Spec.rowB
  rw [maximumf_apply, addf_apply, mulf_apply, mulf_apply, sColB_apply, sRowB_apply, sRowB_apply, broadcastInDim_scalar_apply,
    sInv_apply, sCen_apply]
  rfl

/-! ## The whole-array product read at an index -/

theorem lhsR_0 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch by decide), dif_pos (show (0 : Fin S50000x128.rank) ∈ Cert.ReferenceIdeal.dot_S50000x128_S128x128_S50000x128_1_0_0_1_n_n.lhsNonContracting by decide)]
  rfl
theorem lhsR_1 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhsR_0 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhsR_1 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch by decide), dif_pos (show (1 : Fin S128x128.rank) ∈ Cert.ReferenceIdeal.dot_S50000x128_S128x128_S50000x128_1_0_0_1_n_n.rhsNonContracting by decide)]
  rfl

/-- The host's product at `(i, q)`: the sum over `k` of `A (i, k) · B (k, q)`. -/
theorem sMm_apply (A : FVec Ideal S50000x128 .f32) (B : FVec Ideal S128x128 .f32) (i : Fin 50000) (q : Fin 128) :
    Cert.Spec.mm (F := Ideal) A B (ix2 i q) = ∑ k : Fin 128, A (ix2 i k) * B (ix2 k q) := by
  unfold Cert.Spec.mm
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 i q) ((contrEquiv1 Cert.ReferenceIdeal.dot_S50000x128_S128x128_S50000x128_1_0_0_1_n_n 128 rfl rfl).symm k) = ix2 i k := funext fun a => Fin.ext (by
    match a with
    | ⟨0, _⟩ => exact lhsR_0 _ _
    | ⟨1, _⟩ => exact (lhsR_1 _ _).trans hk)
  have er : Cert.ReferenceIdeal.dot_S50000x128_S128x128_S50000x128_1_0_0_1_n_n.rhsIdx (ix2 i q) ((contrEquiv1 Cert.ReferenceIdeal.dot_S50000x128_S128x128_S50000x128_1_0_0_1_n_n 128 rfl rfl).symm k) = ix2 k q := funext fun a => Fin.ext (by
    match a with
    | ⟨0, _⟩ => exact (rhsR_0 _ _).trans hk
    | ⟨1, _⟩ => exact rhsR_1 _ _)
  rw [el, er]

/-- THE PRODUCT ARRAY AT `(i, q)`: row `i` of the input, normalised and clamped, times column `q` of the weight. -/
theorem spec6_apply (X : FVec Ideal S50000x128 .f32) (g b : FVec Ideal S1x128 .f32) (W : FVec Ideal S128x128 .f32) (i : Fin 50000) (q : Fin 128) :
    Cert.Spec.mm (F := Ideal) (Cert.Spec.lnrelu X g b) W (ix2 i q)
      = rDot (fun k => X (ix2 i k)) (fun k => g (ix2 (0 : Fin 1) k)) (fun k => b (ix2 (0 : Fin 1) k)) (fun k q => W (ix2 k q)) q := by
  rw [sMm_apply]
  exact Finset.sum_congr rfl fun k _ => by rw [sAct_apply]

/-- THE SELF-LOOP ARRAY AT `(i, q)`: the product there times the row's factor, plus the bias row. -/
theorem spec7_apply (xw : FVec Ideal S50000x128 .f32) (s : FVec Ideal S50000x1 .f32) (cb : FVec Ideal S1x128 .f32) (i : Fin 50000) (q : Fin 128) :
    Cert.Spec.selfTerm (F := Ideal) xw s cb (ix2 i q) = xw (ix2 i q) * s (ix2 i (0 : Fin 1)) + cb (ix2 (0 : Fin 1) q) := by
  unfold Cert.Spec.selfTerm Cert.Spec.colB Cert.Spec.rowB
  rw [addf_apply, mulf_apply, sColB_apply, sRowB_apply]

/-! ## From blocks to the arrays -/

theorem hz : (![0, 0] : Fin 2 → Nat) = fun _ => 0 := funext fun a => by fin_cases a <;> rfl

/-- The printed index maps, decided over the 10 grid points: the row-blocked windows (the input, the rows' factors, both
    outputs) sit at block `t` of axis 0; the row and weight windows are whole at every point. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

theorem lt_N (t : Fin cfg3.N) : t.val < 10 := lt_of_lt_of_eq t.isLt N_3

/-- The input's block at point `t` is rows `5000 t … 5000 t + 4999` of its array. -/
theorem blk0_apply (c : Dev nD) (t : Fin cfg3.N) (r : Fin 5000) (k : Fin 128) (i : Fin 50000) (hi : i.val = t.val * 5000 + r.val) :
    (iblk3 V c 0 t : FVec Ideal S5000x128 .f32) (ix2 r k) = (V c main_v68 : FVec Ideal S50000x128 .f32) (ix2 i k) := by
  obtain ⟨e0, e1, -⟩ := idx_facts t
  unfold iblk3
  rw [View.read_apply]
  show V c main_v68 _ = V c main_v68 _
  congr 1
  funext a
  apply Fin.ext
  match a with
  | ⟨0, _⟩ => show win3_0.index t (0 : Fin 2) * 5000 + 1 * r.val = i.val; omega
  | ⟨1, _⟩ => show win3_0.index t (1 : Fin 2) * 128 + 1 * k.val = k.val; omega

/-- The rows' factors' block at point `t` is rows `5000 t … 5000 t + 4999` of their column. -/
theorem blk5_apply (c : Dev nD) (t : Fin cfg3.N) (r : Fin 5000) (i : Fin 50000) (hi : i.val = t.val * 5000 + r.val) :
    (iblk3 V c 5 t : FVec Ideal S5000x1 .f32) (ix2 r (0 : Fin 1)) = (V c main_v80 : FVec Ideal S50000x1 .f32) (ix2 i (0 : Fin 1)) := by
  obtain ⟨-, -, -, -, -, -, -, -, -, -, e0, e1, -⟩ := idx_facts t
  unfold iblk3
  rw [View.read_apply]
  show V c main_v80 _ = V c main_v80 _
  congr 1
  funext a
  apply Fin.ext
  match a with
  | ⟨0, _⟩ => show win3_5.index t (0 : Fin 2) * 5000 + 1 * r.val = i.val; omega
  | ⟨1, _⟩ => show win3_5.index t (1 : Fin 2) * 1 + 1 * 0 = 0; omega

/-- The scale row's, the shift row's, the weight's and the bias row's windows hold their whole arrays at every point. -/
theorem blk1_eq (c : Dev nD) (t : Fin cfg3.N) : (iblk3 V c 1 t : FVec Ideal S1x128 .f32) = V c main_v77 := by
  obtain ⟨-, -, e0, e1, -⟩ := idx_facts t
  funext y
  unfold iblk3
  rw [View.read_apply]
  show V c main_v77 _ = V c main_v77 y
  congr 1
  funext a
  apply Fin.ext
  match a with
  | ⟨0, _⟩ => show win3_1.index t (0 : Fin 2) * 1 + 1 * (y 0).val = (y 0).val; omega
  | ⟨1, _⟩ => show win3_1.index t (1 : Fin 2) * 128 + 1 * (y 1).val = (y 1).val; omega
theorem blk2_eq (c : Dev nD) (t : Fin cfg3.N) : (iblk3 V c 2 t : FVec Ideal S1x128 .f32) = V c main_v78 := by
  obtain ⟨-, -, -, -, e0, e1, -⟩ := idx_facts t
  funext y
  unfold iblk3
  rw [View.read_apply]
  show V c main_v78 _ = V c main_v78 y
  congr 1
  funext a
  apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega
theorem blk3_eq (c : Dev nD) (t : Fin cfg3.N) : (iblk3 V c 3 t : FVec Ideal S128x128 .f32) = V c main_v74 := by
  obtain ⟨-, -, -, -, -, -, e0, e1, -⟩ := idx_facts t
  funext y
  unfold iblk3
  rw [View.read_apply]
  show V c main_v74 _ = V c main_v74 y
  congr 1
  funext a
  apply Fin.ext
  match a with
  | ⟨0, _⟩ => show win3_3.index t (0 : Fin 2) * 128 + 1 * (y 0).val = (y 0).val; omega
  | ⟨1, _⟩ => show win3_3.index t (1 : Fin 2) * 128 + 1 * (y 1).val = (y 1).val; omega
theorem blk4_eq (c : Dev nD) (t : Fin cfg3.N) : (iblk3 V c 4 t : FVec Ideal S1x128 .f32) = V c main_v79 := by
  obtain ⟨-, -, -, -, -, -, -, -, e0, e1, -⟩ := idx_facts t
  funext y
  unfold iblk3
  rw [View.read_apply]
  show V c main_v79 _ = V c main_v79 y
  congr 1
  funext a
  apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- WHAT POINT `t` WRITES BACK to the product's array is block `t` of the whole-array product of the arrays the region found. -/
theorem flushed6_eq (c : Dev nD) (t : Fin cfg3.N) :
    (dat3 (F := Ideal) V c).flushed 6 t = ((cfg3.win 6).blk t).view.read (Elt Ideal)
      (Cert.Spec.mm (F := Ideal) (Cert.Spec.lnrelu (V c main_v68) (V c main_v77) (V c main_v78)) (V c main_v74)) := by
  show (cfg3.win 6).cut (grid3.coords t) ((dat3 (F := Ideal) V c).after 6 t) = _
  rw [after3_6]
  unfold out3_6
  rw [View.canon_unit_zero hz]
  simp only [View.ld_unit_zero (S := S5000x128) hz, View.ld_unit_zero (S := S1x128) hz, View.ld_unit_zero (S := S128x128) hz]
  rw [blk1_eq, blk2_eq, blk3_eq]
  obtain ⟨-, -, -, -, -, -, -, -, -, -, -, -, e0, e1, -⟩ := idx_facts t
  have ht := lt_N t
  funext j
  obtain ⟨r, q, rfl⟩ : ∃ (r : Fin 5000) (q : Fin 128), j = ix2 r q := ⟨j 0, j 1, eq_ix2 j⟩
  have he : ((cfg3.win 6).blk t).view.emb (ix2 r q) = ix2 (⟨t.val * 5000 + r.val, by omega⟩ : Fin 50000) q := by
    funext a
    apply Fin.ext
    match a with
    | ⟨0, _⟩ => show win3_6.index t (0 : Fin 2) * 5000 + 1 * r.val = t.val * 5000 + r.val; omega
    | ⟨1, _⟩ => show win3_6.index t (1 : Fin 2) * 128 + 1 * q.val = q.val; omega
  show k3_pay2 (F := Ideal) (iblk3 V c 0 t) (V c main_v77) (V c main_v78) (V c main_v74) (ix2 r q)
    = Cert.Spec.mm (F := Ideal) (Cert.Spec.lnrelu (V c main_v68) (V c main_v77) (V c main_v78)) (V c main_v74) (((cfg3.win 6).blk t).view.emb (ix2 r q))
  rw [he]
  refine (pay2_apply (iblk3 V c 0 t) (V c main_v77) (V c main_v78) (V c main_v74) r q).trans ?_
  refine Eq.trans ?_ (spec6_apply (V c main_v68) (V c main_v77) (V c main_v78) (V c main_v74) ⟨t.val * 5000 + r.val, by omega⟩ q).symm
  refine congrArg (fun f => rDot f _ _ _ q) (funext fun k => ?_)
  exact blk0_apply V c t r k ⟨t.val * 5000 + r.val, by omega⟩ rfl

/-- WHAT POINT `t` WRITES BACK to the self-loop array is block `t` of the whole-array self-loop term. -/
theorem flushed7_eq (c : Dev nD) (t : Fin cfg3.N) :
    (dat3 (F := Ideal) V c).flushed 7 t = ((cfg3.win 7).blk t).view.read (Elt Ideal)
      (Cert.Spec.selfTerm (F := Ideal) (Cert.Spec.mm (Cert.Spec.lnrelu (V c main_v68) (V c main_v77) (V c main_v78)) (V c main_v74)) (V c main_v80) (V c main_v79)) := by
  show (cfg3.win 7).cut (grid3.coords t) ((dat3 (F := Ideal) V c).after 7 t) = _
  rw [after3_7]
  unfold out3_7
  rw [View.canon_unit_zero hz]
  simp only [View.ld_unit_zero (S := S5000x128) hz, View.ld_unit_zero (S := S1x128) hz, View.ld_unit_zero (S := S128x128) hz,
    View.ld_unit_zero (S := S5000x1) hz]
  rw [blk1_eq, blk2_eq, blk3_eq, blk4_eq]
  obtain ⟨-, -, -, -, -, -, -, -, -, -, -, -, -, -, e0, e1⟩ := idx_facts t
  have ht := lt_N t
  funext j
  obtain ⟨r, q, rfl⟩ : ∃ (r : Fin 5000) (q : Fin 128), j = ix2 r q := ⟨j 0, j 1, eq_ix2 j⟩
  have he : ((cfg3.win 7).blk t).view.emb (ix2 r q) = ix2 (⟨t.val * 5000 + r.val, by omega⟩ : Fin 50000) q := by
    funext a
    apply Fin.ext
    match a with
    | ⟨0, _⟩ => show win3_7.index t (0 : Fin 2) * 5000 + 1 * r.val = t.val * 5000 + r.val; omega
    | ⟨1, _⟩ => show win3_7.index t (1 : Fin 2) * 128 + 1 * q.val = q.val; omega
  show k3_pay1 (F := Ideal) (k3_pay3 (F := Ideal) (iblk3 V c 0 t) (V c main_v77) (V c main_v78) (V c main_v74) (iblk3 V c 5 t)) (V c main_v79) (ix2 r q)
    = Cert.Spec.selfTerm (F := Ideal) (Cert.Spec.mm (Cert.Spec.lnrelu (V c main_v68) (V c main_v77) (V c main_v78)) (V c main_v74)) (V c main_v80) (V c main_v79)
        (((cfg3.win 7).blk t).view.emb (ix2 r q))
  rw [he]
  refine (pay1_apply (iblk3 V c 0 t) (V c main_v77) (V c main_v78) (V c main_v74) (iblk3 V c 5 t) (V c main_v79) r q).trans ?_
  refine Eq.trans ?_ (spec7_apply _ (V c main_v80) (V c main_v79) ⟨t.val * 5000 + r.val, by omega⟩ q).symm
  rw [spec6_apply, blk5_apply V c t r ⟨t.val * 5000 + r.val, by omega⟩ rfl]
  refine congrArg (fun f => rDot f _ _ _ q * _ + _) (funext fun k => ?_)
  exact blk0_apply V c t r k ⟨t.val * 5000 + r.val, by omega⟩ rfl

/-- An index of the product's array is in point `t`'s block iff each coordinate is in the block's range on its axis. -/
theorem mem_blk6 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v81_0).slice (win3_6.rect t)).set ↔ _
  rw [View.set_slice_whole, Rect.mem_set_unit]
  exact Iff.rfl
theorem mem_blk7 (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v81_1).slice (win3_7.rect t)).set ↔ _
  rw [View.set_slice_whole, Rect.mem_set_unit]
  exact Iff.rfl

/-- Every row lies in the block of the point `row / 5000`, which writes back. -/
theorem cover6 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  refine ⟨⟨(i 0).val / 5000, lt_of_lt_of_eq (by omega : (i 0).val / 5000 < 10) N_3.symm⟩, flush3_6 _, ?_⟩
  rw [mem_blk6]
  obtain ⟨-, -, -, -, -, -, -, -, -, -, -, -, e0, e1, -⟩ := idx_facts ⟨(i 0).val / 5000, lt_of_lt_of_eq (by omega : (i 0).val / 5000 < 10) N_3.symm⟩
  intro a
  match a with
  | ⟨0, _⟩ =>
    show win3_6.index _ (0 : Fin 2) * 5000 ≤ (i 0).val ∧ (i 0).val < win3_6.index _ (0 : Fin 2) * 5000 + 5000
    rw [e0]; show (i 0).val / 5000 * 5000 ≤ (i 0).val ∧ (i 0).val < (i 0).val / 5000 * 5000 + 5000; omega
  | ⟨1, _⟩ =>
    show win3_6.index _ (1 : Fin 2) * 128 ≤ (i 1).val ∧ (i 1).val < win3_6.index _ (1 : Fin 2) * 128 + 128
    rw [e1]; omega
theorem cover7 (i : S50000x128.Idx) : ∃ t : Fin cfg3.N, (cfg3.win 7).flush t = true ∧ i ∈ ((cfg3.win 7).blk t).view.set := by
  have hi0 : (i 0).val < 50000 := (i 0).isLt
  have hi1 : (i 1).val < 128 := (i 1).isLt
  refine ⟨⟨(i 0).val / 5000, lt_of_lt_of_eq (by omega : (i 0).val / 5000 < 10) N_3.symm⟩, flush3_7 _, ?_⟩
  rw [mem_blk7]
  obtain ⟨-, -, -, -, -, -, -, -, -, -, -, -, -, -, e0, e1⟩ := idx_facts ⟨(i 0).val / 5000, lt_of_lt_of_eq (by omega : (i 0).val / 5000 < 10) N_3.symm⟩
  intro a
  match a with
  | ⟨0, _⟩ =>
    show win3_7.index _ (0 : Fin 2) * 5000 ≤ (i 0).val ∧ (i 0).val < win3_7.index _ (0 : Fin 2) * 5000 + 5000
    rw [e0]; show (i 0).val / 5000 * 5000 ≤ (i 0).val ∧ (i 0).val < (i 0).val / 5000 * 5000 + 5000; omega
  | ⟨1, _⟩ =>
    show win3_7.index _ (1 : Fin 2) * 128 ≤ (i 1).val ∧ (i 1).val < win3_7.index _ (1 : Fin 2) * 128 + 128
    rw [e1]; omega

/-- The product's array after region 3: the normalised, clamped input times the weight, whole array. -/
theorem arr3_6 (c : Dev nD) : (dat3 (F := Ideal) V c).arrAt 6 cfg3.N
    = Cert.Spec.mm (F := Ideal) (Cert.Spec.lnrelu (V c main_v68) (V c main_v77) (V c main_v78)) (V c main_v74) :=
  (dat3 (F := Ideal) V c).arrAt_eq_of_cover 6 _ (fun t _ => flushed6_eq V c t) cover6

/-- The self-loop array after region 3: that product scaled row by row, plus the bias row. -/
theorem arr3_7 (c : Dev nD) : (dat3 (F := Ideal) V c).arrAt 7 cfg3.N
    = Cert.Spec.selfTerm (F := Ideal) (Cert.Spec.mm (Cert.Spec.lnrelu (V c main_v68) (V c main_v77) (V c main_v78)) (V c main_v74)) (V c main_v80) (V c main_v79) :=
  (dat3 (F := Ideal) V c).arrAt_eq_of_cover 7 _ (fun t _ => flushed7_eq V c t) cover7

end Cert.KernelIdeal.Region3

end
-- ==== Proof.KStep3.lean ====
/-
  From region 3's entry to region 4's entry: a residual layer's kernel, the gather of source rows in fill mode, the
  scaling by the edge coefficients, the scatter to targets, the sums with the self-loop array and the layer's input,
  and the next layer's slices.
-/
import proofs.«413863_j12395275616334_2_alg».proof.Proof.Gen.KernelIdeal.Frame
import proofs.«413863_j12395275616334_2_alg».proof.Proof.Gen.KernelIdeal
import proofs.«413863_j12395275616334_2_alg».proof.Proof.Gen.ReferenceIdeal
import proofs.«413863_j12395275616334_2_alg».proof.Proof.KSpec
import proofs.«413863_j12395275616334_2_alg».proof.Proof.KState
import proofs.«413863_j12395275616334_2_alg».proof.Proof.Region3
import Idealize.ShloMosaic.PureOps.Ideal

set_option maxRecDepth 16384

noncomputable section

namespace Cert.KernelIdeal.KStep3
open Idealize.ShloMosaic Idealize.ShloMosaic.TcCoe Idealize.SL.Sem Cert.KernelIdeal Cert.KernelIdeal.Gen
open Cert.KernelIdeal.KState

variable (m : (ℓ : Loc nD τ sig) → Buf (Elt Ideal) ℓ) (ρ : Dev nD → PrngReg) (c : Dev nD)

/-- A buffer that none of a stretch's operations writes holds after the stretch what it held before. -/
local macro "carried" ops:ident : tactic =>
  `(tactic| (
    refine StableHlo.after_of_forall_not_mem _ _ (List.forall_iff_forall_mem.mp ?_)
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## Transport along a typed reference's type equation -/

/-- Contents moved to a buffer's own type and back are the contents. -/
theorem ofBuf_toBuf {T : BufTy} (x : StableHlo.TRef sig T) (v : T.Contents (Elt Ideal)) :
    x.ofBuf (x.toBuf v) = v := by
  obtain ⟨r, h, h₁, h₂⟩ := x
  subst h
  rfl

/-- The gather's result buffer holds contents of its own type. -/
theorem toBuf_v82 (v : Cert.KSpec.ERows Ideal) :
    (StableHlo.TRef.of main_v82 : StableHlo.TRef sig ⟨S800000x128, .f32⟩).toBuf v = v := rfl
/-- The source row read at its own type. -/
theorem ofBuf_v1 (v : Cert.KSpec.EIdx Ideal) :
    (StableHlo.TRef.of main_v1 : StableHlo.TRef sig ⟨S800000, .i32⟩).ofBuf v = v := rfl
/-- The product's array read at its own type. -/
theorem ofBuf_v81_0 (v : Cert.KSpec.Feat Ideal) :
    (StableHlo.TRef.of main_v81_0 : StableHlo.TRef sig ⟨S50000x128, .f32⟩).ofBuf v = v := rfl

/-! ## Region 3: the kernel writes its two output arrays and nothing else -/

/-- The product's array at region 3's exit: the normalised, clamped input times the weight. -/
theorem w12_prod (h : Cert.KSpec.Feat Ideal) (g b : FVec Ideal S128 .f32) (W : FVec Ideal S128x128 .f32)
    (hx : W11 m ρ c (Proc.devRef .tc main_v68) = h) (hg : W11 m ρ c (Proc.devRef .tc main_v77) = Cert.KSpec.asRow g)
    (hb : W11 m ρ c (Proc.devRef .tc main_v78) = Cert.KSpec.asRow b) (hW : W11 m ρ c (Proc.devRef .tc main_v74) = W) :
    W12 m ρ c (Proc.devRef .tc main_v81_0)
      = Cert.Spec.mm (F := Ideal) (Cert.Spec.lnrelu h (Cert.KSpec.asRow g) (Cert.KSpec.asRow b)) W := by
  have e := (W12_arr m ρ c 6).trans (Region3.arr3_6 (V11 m ρ) c)
  rw [← hx, ← hg, ← hb, ← hW]
  exact e

/-- The self-loop array at region 3's exit: the product scaled row by row by the self-loop column, plus the bias row. -/
theorem w12_self (h : Cert.KSpec.Feat Ideal) (g b cb : FVec Ideal S128 .f32) (W : FVec Ideal S128x128 .f32)
    (hx : W11 m ρ c (Proc.devRef .tc main_v68) = h) (hg : W11 m ρ c (Proc.devRef .tc main_v77) = Cert.KSpec.asRow g)
    (hb : W11 m ρ c (Proc.devRef .tc main_v78) = Cert.KSpec.asRow b) (hW : W11 m ρ c (Proc.devRef .tc main_v74) = W)
    (hcb : W11 m ρ c (Proc.devRef .tc main_v79) = Cert.KSpec.asRow cb)
    (hsd : W11 m ρ c (Proc.devRef .tc main_v80) = Cert.KSpec.sdCol (F := Ideal) (dst m c) (ew m c)) :
    W12 m ρ c (Proc.devRef .tc main_v81_1)
      = Cert.Spec.selfTerm (F := Ideal) (Cert.Spec.mm (Cert.Spec.lnrelu h (Cert.KSpec.asRow g) (Cert.KSpec.asRow b)) W)
          (Cert.KSpec.sdCol (F := Ideal) (dst m c) (ew m c)) (Cert.KSpec.asRow cb) := by
  have e := (W12_arr m ρ c 7).trans (Region3.arr3_7 (V11 m ρ) c)
  rw [← hx, ← hg, ← hb, ← hW, ← hcb, ← hsd]
  exact e

/-- The layer's input is one of the kernel's input windows: the region leaves it as entered. -/
theorem w12_in : W12 m ρ c (Proc.devRef .tc main_v68) = W11 m ρ c (Proc.devRef .tc main_v68) :=
  (W12_arr m ρ c 0).trans (((dat3 (V11 m ρ) c).arrAt_in 0 rfl _).trans (A_eq3 (V11 m ρ) c 0))

/-- Region 3 writes none of the kept buffers. -/
theorem w12_kept (hk : Kept m c (W11 m ρ c)) : Kept m c (W12 m ρ c) where
  v1 := (W12_of_ne m ρ c main_v1 (by decide)).trans hk.v1
  v3 := (W12_of_ne m ρ c main_v3 (by decide)).trans hk.v3
  v28 := (W12_of_ne m ρ c main_v28 (by decide)).trans hk.v28
  v29 := (W12_of_ne m ρ c main_v29 (by decide)).trans hk.v29
  a5 := (W12_of_ne m ρ c main_arg5 (by decide)).trans hk.a5
  a6 := (W12_of_ne m ρ c main_arg6 (by decide)).trans hk.a6
  a7 := (W12_of_ne m ρ c main_arg7 (by decide)).trans hk.a7
  a8 := (W12_of_ne m ρ c main_arg8 (by decide)).trans hk.a8
  a9 := (W12_of_ne m ρ c main_arg9 (by decide)).trans hk.a9
  a10 := (W12_of_ne m ρ c main_arg10 (by decide)).trans hk.a10

/-! ## The gather of source rows (the inlined take, in fill mode), from any contents `V` -/

/-- After the gather: the row of `xw` at every edge's index where the wrapped index is in range, the fill word elsewhere. -/
theorem take_of (V : Valuation τ sig (Elt Ideal)) (xw : Cert.KSpec.Feat Ideal) (i : Cert.KSpec.EIdx Ideal)
    (hp : V (Proc.devRef .tc main_v81_0) = xw) (h1 : V (Proc.devRef .tc main_v1) = i) :
    StableHlo.after hostOps4 V (Proc.devRef .tc main_v82) = Cert.KSpec.take (F := Ideal) xw i := by
  after_results_simp
  simp only [ofBuf_toBuf]
  rw [h1, hp]
  simp only [toBuf_v82, ofBuf_v1, ofBuf_v81_0]
  unfold Cert.KSpec.take Cert.KSpec.inRange Cert.KSpec.rows Cert.KSpec.wrap Cert.KSpec.col
  with_reducible rfl

/-- The gather writes none of the kept buffers. -/
theorem kept4 (V : Valuation τ sig (Elt Ideal)) (hk : Kept m c V) : Kept m c (StableHlo.after hostOps4 V) where
  v1 := Eq.trans (by carried hostOps4) hk.v1
  v3 := Eq.trans (by carried hostOps4) hk.v3
  v28 := Eq.trans (by carried hostOps4) hk.v28
  v29 := Eq.trans (by carried hostOps4) hk.v29
  a5 := Eq.trans (by carried hostOps4) hk.a5
  a6 := Eq.trans (by carried hostOps4) hk.a6
  a7 := Eq.trans (by carried hostOps4) hk.a7
  a8 := Eq.trans (by carried hostOps4) hk.a8
  a9 := Eq.trans (by carried hostOps4) hk.a9
  a10 := Eq.trans (by carried hostOps4) hk.a10

/-- The gather leaves the layer's input as it was. -/
theorem in4 (V : Valuation τ sig (Elt Ideal)) :
    StableHlo.after hostOps4 V (Proc.devRef .tc main_v68) = V (Proc.devRef .tc main_v68) := by
  carried hostOps4

/-- The gather leaves the self-loop array as it was. -/
theorem self4 (V : Valuation τ sig (Elt Ideal)) :
    StableHlo.after hostOps4 V (Proc.devRef .tc main_v81_1) = V (Proc.devRef .tc main_v81_1) := by
  carried hostOps4

/-! ## The aggregation, the sums, and the next layer's slices, from any contents `V` -/

/-- The layer's output: the scatter to targets of the gathered rows scaled by the edge coefficients, plus the
    self-loop array, plus the layer's input. -/
theorem res_of (V : Valuation τ sig (Elt Ideal)) (h : Cert.KSpec.Feat Ideal) (g b cb : FVec Ideal S128 .f32)
    (W : FVec Ideal S128x128 .f32) (i j : Cert.KSpec.EIdx Ideal) (w : Cert.KSpec.EVal Ideal)
    (h82 : V (Proc.devRef .tc main_v82)
      = Cert.KSpec.take (F := Ideal) (Cert.Spec.mm (Cert.Spec.lnrelu h (Cert.KSpec.asRow g) (Cert.KSpec.asRow b)) W) i)
    (h28 : V (Proc.devRef .tc main_v28) = Cert.KSpec.coef (F := Ideal) i j w)
    (h3 : V (Proc.devRef .tc main_v3) = j)
    (hs : V (Proc.devRef .tc main_v81_1)
      = Cert.Spec.selfTerm (F := Ideal) (Cert.Spec.mm (Cert.Spec.lnrelu h (Cert.KSpec.asRow g) (Cert.KSpec.asRow b)) W)
          (Cert.KSpec.sdCol (F := Ideal) j w) (Cert.KSpec.asRow cb))
    (hx : V (Proc.devRef .tc main_v68) = h) :
    StableHlo.after hostOps4_1 V (Proc.devRef .tc main_v90) = Cert.KSpec.res (F := Ideal) h g b W cb i j w := by
  after_results_simp
  rw [h82, h28, h3, hs, hx]
  unfold Cert.KSpec.res Cert.KSpec.agg Cert.KSpec.scat Cert.KSpec.spread Cert.KSpec.col
  with_reducible rfl

/-- Row 3 of the scale argument, as a row. -/
theorem v99_of (V : Valuation τ sig (Elt Ideal)) (p : FVec Ideal S4x128 .f32) (hp : V (Proc.devRef .tc main_arg7) = p) :
    StableHlo.after hostOps4_1 V (Proc.devRef .tc main_v99) = Cert.KSpec.asRow (Cert.KSpec.r3 (F := Ideal) p) := by
  after_results_simp
  rw [hp]
  rfl

/-- Row 3 of the shift argument, as a row. -/
theorem v100_of (V : Valuation τ sig (Elt Ideal)) (p : FVec Ideal S4x128 .f32) (hp : V (Proc.devRef .tc main_arg8) = p) :
    StableHlo.after hostOps4_1 V (Proc.devRef .tc main_v100) = Cert.KSpec.asRow (Cert.KSpec.r3 (F := Ideal) p) := by
  after_results_simp
  rw [hp]
  rfl

/-- Slice 3 of the weight argument. -/
theorem v96_of (V : Valuation τ sig (Elt Ideal)) (p : FVec Ideal S4x128x128 .f32) (hp : V (Proc.devRef .tc main_arg5) = p) :
    StableHlo.after hostOps4_1 V (Proc.devRef .tc main_v96) = Cert.KSpec.W3 (F := Ideal) p := by
  after_results_simp
  rw [hp]
  rfl

/-- Row 3 of the bias argument, as a row. -/
theorem v101_of (V : Valuation τ sig (Elt Ideal)) (p : FVec Ideal S4x128 .f32) (hp : V (Proc.devRef .tc main_arg6) = p) :
    StableHlo.after hostOps4_1 V (Proc.devRef .tc main_v101) = Cert.KSpec.asRow (Cert.KSpec.r3 (F := Ideal) p) := by
  after_results_simp
  rw [hp]
  rfl

/-- A vector of one float per node, reshaped to a column. -/
theorem v102_of (V : Valuation τ sig (Elt Ideal)) (s : Cert.KSpec.NVal Ideal) (hs : V (Proc.devRef .tc main_v29) = s) :
    StableHlo.after hostOps4_1 V (Proc.devRef .tc main_v102)
      = (shapeCast S50000x1 s shapeCasts_S50000_S50000x1 : FVec Ideal S50000x1 .f32) := by
  after_results_simp
  rw [hs]
  rfl

/-- The sums and slices write none of the kept buffers. -/
theorem kept4_1 (V : Valuation τ sig (Elt Ideal)) (hk : Kept m c V) : Kept m c (StableHlo.after hostOps4_1 V) where
  v1 := Eq.trans (by carried hostOps4_1) hk.v1
  v3 := Eq.trans (by carried hostOps4_1) hk.v3
  v28 := Eq.trans (by carried hostOps4_1) hk.v28
  v29 := Eq.trans (by carried hostOps4_1) hk.v29
  a5 := Eq.trans (by carried hostOps4_1) hk.a5
  a6 := Eq.trans (by carried hostOps4_1) hk.a6
  a7 := Eq.trans (by carried hostOps4_1) hk.a7
  a8 := Eq.trans (by carried hostOps4_1) hk.a8
  a9 := Eq.trans (by carried hostOps4_1) hk.a9
  a10 := Eq.trans (by carried hostOps4_1) hk.a10

/-- At region 4's entry: the kept buffers, this layer's output, and the next layer's scale, shift, weight, bias and self-loop column. -/
theorem at14 (h : Cert.KSpec.Feat Ideal) (g b cb : FVec Ideal S128 .f32) (W : FVec Ideal S128x128 .f32)
    (hk : Kept m c (W11 m ρ c)) (hx : W11 m ρ c (Proc.devRef .tc main_v68) = h) (hg : W11 m ρ c (Proc.devRef .tc main_v77) = Cert.KSpec.asRow g) (hb : W11 m ρ c (Proc.devRef .tc main_v78) = Cert.KSpec.asRow b)
    (hW : W11 m ρ c (Proc.devRef .tc main_v74) = W) (hcb : W11 m ρ c (Proc.devRef .tc main_v79) = Cert.KSpec.asRow cb) (hsd : W11 m ρ c (Proc.devRef .tc main_v80) = Cert.KSpec.sdCol (F := Ideal) (dst m c) (ew m c)) :
    Kept m c (W14 m ρ c)
      ∧ W14 m ρ c (Proc.devRef .tc main_v90) = Cert.KSpec.res (F := Ideal) h g b W cb (src m c) (dst m c) (ew m c)
      ∧ W14 m ρ c (Proc.devRef .tc main_v99) = Cert.KSpec.asRow (Cert.KSpec.r3 (F := Ideal) (a m c main_arg7))
      ∧ W14 m ρ c (Proc.devRef .tc main_v100) = Cert.KSpec.asRow (Cert.KSpec.r3 (F := Ideal) (a m c main_arg8))
      ∧ W14 m ρ c (Proc.devRef .tc main_v96) = Cert.KSpec.W3 (F := Ideal) (a m c main_arg5)
      ∧ W14 m ρ c (Proc.devRef .tc main_v101) = Cert.KSpec.asRow (Cert.KSpec.r3 (F := Ideal) (a m c main_arg6))
      ∧ W14 m ρ c (Proc.devRef .tc main_v102) = Cert.KSpec.sdCol (F := Ideal) (dst m c) (ew m c) := by
  have k12 := w12_kept m ρ c hk
  have k13 := kept4 m c (W12 m ρ c) k12
  have p12 := w12_prod m ρ c h g b W hx hg hb hW
  have s13 := (self4 (W12 m ρ c)).trans (w12_self m ρ c h g b cb W hx hg hb hW hcb hsd)
  have x13 := (in4 (W12 m ρ c)).trans ((w12_in m ρ c).trans hx)
  have t13 := take_of (W12 m ρ c) _ _ p12 k12.v1
  refine ⟨kept4_1 m c _ k13, ?_, ?_, ?_, ?_, ?_, ?_⟩
  · exact res_of (StableHlo.after hostOps4 (W12 m ρ c)) h g b cb W (src m c) (dst m c) (ew m c) t13 k13.v28 k13.v3 s13 x13
  · exact v99_of _ _ k13.a7
  · exact v100_of _ _ k13.a8
  · exact v96_of _ _ k13.a5
  · exact v101_of _ _ k13.a6
  · unfold Cert.KSpec.sdCol
    exact v102_of _ _ k13.v29

end Cert.KernelIdeal.KStep3

end
-- ==== Proof.Region4.lean ====
/-
  Region 4 (a residual layer's kernel: row normalisation, clamp, product, self-loop term), whole arrays.
-/
import proofs.«413863_j12395275616334_2_alg».proof.Proof.Gen.KernelIdeal.Frame
import proofs.«413863_j12395275616334_2_alg».proof.Proof.Gen.KernelIdeal
import proofs.«413863_j12395275616334_2_alg».proof.Proof.Gen.ReferenceIdeal
import proofs.«413863_j12395275616334_2_alg».proof.Proof.KSpec
import Idealize.ShloMosaic.PureOps.Ideal
import Idealize.ShloMosaic.PureOps.Ideal.Laws
import Idealize.ShloMosaic.Lib.ValueIdx
import Idealize.ShloMosaic.Lib.IdealHost
import Idealize.ShloMosaic.Lib.ValueLayout
import Idealize.ShloMosaic.Lib.Pipeline.Value

set_option maxRecDepth 16384

noncomputable section

namespace Cert.KernelIdeal.Region4
open Idealize.ShloMosaic Idealize.ShloMosaic.TcCoe Idealize.SL.Sem Cert.KernelIdeal Cert.KernelIdeal.Gen
open Idealize.ShloMosaic.ValueIdx
open scoped BigOperators

variable (V : (c : Dev nD) → (b : Ref sig .tc) → Buf (Elt Ideal) ((c : Thread nD τ).loc b))

/-! ## A row's statistics, as functions of the row's 128 entries -/

/-- The row's mean: the sum of its entries divided by 128. -/
def rMean (f : Fin 128 → EReal) : EReal := Ideal.div (∑ k, f k) (Ideal.ofBits .f32 0x43000000#32)
/-- The row's variance: the mean of the squared deviations. -/
def rVar (f : Fin 128 → EReal) : EReal := Ideal.div (∑ k, (f k - rMean f) * (f k - rMean f)) (Ideal.ofBits .f32 0x43000000#32)
/-- The inverse root of the variance plus the small constant. -/
def rInv (f : Fin 128 → EReal) : EReal := Ideal.rsqrt (rVar f + Ideal.ofBits .f32 0x3727C5AC#32)
/-- The normalised row under the affine map by `g`, `b`, clamped at zero. -/
def rAct (f g b : Fin 128 → EReal) (k : Fin 128) : EReal :=
  max ((f k - rMean f) * rInv f * g k + b k) (Ideal.ofBits .f32 0x00000000#32)
/-- That row times column `q` of the weight. -/
def rDot (f g b : Fin 128 → EReal) (W : Fin 128 → Fin 128 → EReal) (q : Fin 128) : EReal := ∑ k, rAct f g b k * W k q

/-! ## The block's layout operations read at an index -/

/-- A lane sum of a [5000,128] block at row `r` is the sum of that row's 128 entries. -/
theorem laneSum_apply (v : FVec Ideal S5000x128 .f32) (hφ : FKind.Formats .f32)
    (hacc : (0x00000000#32 : BitVec 32) = FKind.add.neutral .f32 hφ) (r : Fin 5000) :
    multiReduction (F := Ideal) .add [1] S5000 v 0x00000000#32 reduces_S5000x128_S5000 hφ hacc (ix1 r) = ∑ k : Fin 128, v (ix2 r k) := by
  refine (Ideal.multiReduction_add_single v 0x00000000#32 reduces_S5000x128_S5000 hφ hacc (ix1 r)).trans ?_
  refine Finset.sum_congr rfl fun k _ => congrArg v ?_
  funext a
  match a with
  | ⟨0, _⟩ => rfl
  | ⟨1, _⟩ => rfl

/-- A vector of 5000 as a [5000,1] column reads its entry `r` at `(r, 0)`. -/
theorem asCol_apply (v : FVec Ideal S5000 .f32) (r : Fin 5000) (u : Fin 1) :
    shapeCast S5000x1 v shapeCasts_S5000_S5000x1 (ix2 r u) = v (ix1 r) :=
  shapeCast_apply v shapeCasts_S5000_S5000x1 (ix2 r u) (ix1 r) (by
    have hu : u.val = 0 := by omega
    rw [Shape.rowMajor_val_two, Shape.rowMajor_val_one]
    show r.val = r.val * 1 + u.val
    rw [hu]; omega)

/-- A [5000,1] column laid along the 128 lanes reads, at `(r, q)`, the column at `(r, 0)`. -/
theorem colB_apply (v : FVec Ideal S5000x1 .f32) (r : Fin 5000) (q : Fin 128) :
    broadcastTo S5000x128 v broadcasts_S5000x1_S5000x128 (ix2 r q) = v (ix2 r (0 : Fin 1)) := by
  refine broadcastTo_apply v broadcasts_S5000x1_S5000x128 (ix2 r q) (ix2 r (0 : Fin 1)) fun ax => ?_
  match ax with
  | ⟨0, _⟩ => rfl
  | ⟨1, _⟩ => rfl

/-- A [1,128] row laid under the 5000 rows reads, at `(r, q)`, the row at `(0, q)`. -/
theorem rowB_apply (v : FVec Ideal S1x128 .f32) (r : Fin 5000) (q : Fin 128) :
    broadcastTo S5000x128 v broadcasts_S1x128_S5000x128 (ix2 r q) = v (ix2 (0 : Fin 1) q) :=
  broadcastTo_1b_ab_apply v broadcasts_S1x128_S5000x128 r q

/-! ## The kernel's payload, stage by stage, and each stage read at an index -/

/-- The block's row means as a [5000,1] column, in the kernel's operations. -/
def kMean (x : FVec Ideal S5000x128 .f32) : FVec Ideal S5000x1 .f32 :=
  divf (shapeCast S5000x1 (multiReduction .add [1] S5000 x 0x00000000#32 reduces_S5000x128_S5000 (.inl rfl) rfl) shapeCasts_S5000_S5000x1)
    (broadcast S5000x1 (Scalar.ofBits .f32 0x43000000#32))
/-- The centred block. -/
def kCen (x : FVec Ideal S5000x128 .f32) : FVec Ideal S5000x128 .f32 :=
  subf x (broadcastTo S5000x128 (kMean x) broadcasts_S5000x1_S5000x128)
/-- The rows' inverse root variances as a [5000,1] column. -/
def kInv (x : FVec Ideal S5000x128 .f32) : FVec Ideal S5000x1 .f32 :=
  rsqrt (addf (divf (shapeCast S5000x1 (multiReduction .add [1] S5000 (mulf (kCen x) (kCen x)) 0x00000000#32 reduces_S5000x128_S5000 (.inl rfl) rfl) shapeCasts_S5000_S5000x1)
      (broadcast S5000x1 (Scalar.ofBits .f32 0x43000000#32)))
    (broadcast S5000x1 (Scalar.ofBits .f32 0x3727C5AC#32)))
/-- The normalised block under the affine map, clamped at zero. -/
def kAct (x : FVec Ideal S5000x128 .f32) (g b : FVec Ideal S1x128 .f32) : FVec Ideal S5000x128 .f32 :=
  maximumf (addf (mulf (mulf (kCen x) (broadcastTo S5000x128 (kInv x) broadcasts_S5000x1_S5000x128))
      (broadcastTo S5000x128 g broadcasts_S1x128_S5000x128)) (broadcastTo S5000x128 b broadcasts_S1x128_S5000x128))
    (broadcast S5000x128 (Scalar.ofBits .f32 0x00000000#32))

/-- The product payload is the block product of those stages with the weight, into the zero splat. -/
theorem pay2_eq (x0 : FVec Ideal S5000x128 .f32) (g b : FVec Ideal S1x128 .f32) (W : FVec Ideal S128x128 .f32) :
    k4_pay2 (F := Ideal) x0 g b W
      = matmul dot_S5000x128_S128x128_S5000x128_1_0_0_1_n_n none (kAct x0 g b) W (constant (F := Ideal) S5000x128 .f32 0x00000000#32) := by
  unfold k4_pay2 kAct kInv kCen kMean
  simp only [shapeCast_self]

theorem kMean_apply (x : FVec Ideal S5000x128 .f32) (r : Fin 5000) (u : Fin 1) :
    kMean x (ix2 r u) = rMean fun k => x (ix2 r k) := by
  show Ideal.div (shapeCast S5000x1 (multiReduction (F := Ideal) .add [1] S5000 x 0x00000000#32 reduces_S5000x128_S5000 (.inl rfl) rfl) shapeCasts_S5000_S5000x1 (ix2 r u))
    (Ideal.ofBits .f32 0x43000000#32) = _
  rw [asCol_apply]
  exact congrArg (fun s => Ideal.div s (Ideal.ofBits .f32 0x43000000#32)) (laneSum_apply x _ _ r)

theorem kCen_apply (x : FVec Ideal S5000x128 .f32) (r : Fin 5000) (k : Fin 128) :
    kCen x (ix2 r k) = x (ix2 r k) - rMean fun k => x (ix2 r k) := by
  show x (ix2 r k) - broadcastTo S5000x128 (kMean x) broadcasts_S5000x1_S5000x128 (ix2 r k) = _
  rw [colB_apply, kMean_apply]

theorem kInv_apply (x : FVec Ideal S5000x128 .f32) (r : Fin 5000) (u : Fin 1) :
    kInv x (ix2 r u) = rInv fun k => x (ix2 r k) := by
  show Ideal.rsqrt (Ideal.div (shapeCast S5000x1 (multiReduction (F := Ideal) .add [1] S5000 (mulf (kCen x) (kCen x)) 0x00000000#32 reduces_S5000x128_S5000 (.inl rfl) rfl) shapeCasts_S5000_S5000x1 (ix2 r u))
    (Ideal.ofBits .f32 0x43000000#32) + Ideal.ofBits .f32 0x3727C5AC#32) = _
  rw [asCol_apply]
  refine (congrArg (fun s => Ideal.rsqrt (Ideal.div s (Ideal.ofBits .f32 0x43000000#32) + Ideal.ofBits .f32 0x3727C5AC#32))
    (laneSum_apply (mulf (kCen x) (kCen x)) _ _ r)).trans ?_
  simp only [mulf_apply, kCen_apply]
  rfl

theorem kAct_apply (x : FVec Ideal S5000x128 .f32) (g b : FVec Ideal S1x128 .f32) (r : Fin 5000) (k : Fin 128) :
    kAct x g b (ix2 r k) = rAct (fun k => x (ix2 r k)) (fun k => g (ix2 (0 : Fin 1) k)) (fun k => b (ix2 (0 : Fin 1) k)) k := by
  show max (kCen x (ix2 r k) * broadcastTo S5000x128 (kInv x) broadcasts_S5000x1_S5000x128 (ix2 r k)
      * broadcastTo S5000x128 g broadcasts_S1x128_S5000x128 (ix2 r k) + broadcastTo S5000x128 b broadcasts_S1x128_S5000x128 (ix2 r k))
    (Ideal.ofBits .f32 0x00000000#32) = _
  rw [colB_apply, rowB_apply, rowB_apply, kInv_apply, kCen_apply]
  rfl

/-! ## The block product read at an index -/

theorem lhsK_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsK_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsK_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsK_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero splat at `(r, q)`: the sum over `k` of `A (r, k) · B (k, q)`. -/
theorem mmK_apply (A : FVec Ideal S5000x128 .f32) (B : FVec Ideal S128x128 .f32) (r : Fin 5000) (q : Fin 128) :
    matmul dot_S5000x128_S128x128_S5000x128_1_0_0_1_n_n none A B (constant (F := Ideal) S5000x128 .f32 0x00000000#32) (ix2 r q)
      = ∑ k : Fin 128, A (ix2 r k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhsK_0 _ _
    | ⟨1, _⟩ => exact (lhsK_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhsK_0 _ _).trans hk
    | ⟨1, _⟩ => exact rhsK_1 _ _)
  rw [el, er]

/-- THE PRODUCT PAYLOAD AT `(r, q)`: row `r` of the block, normalised and clamped, times column `q` of the weight. -/
theorem pay2_apply (x0 : FVec Ideal S5000x128 .f32) (g b : FVec Ideal S1x128 .f32) (W : FVec Ideal S128x128 .f32) (r : Fin 5000) (q : Fin 128) :
    k4_pay2 (F := Ideal) x0 g b W (ix2 r q)
      = rDot (fun k => x0 (ix2 r k)) (fun k => g (ix2 (0 : Fin 1) k)) (fun k => b (ix2 (0 : Fin 1) k)) (fun k q => W (ix2 k q)) q := by
  rw [pay2_eq, mmK_apply]
  exact Finset.sum_congr rfl fun k _ => by rw [kAct_apply]

/-- THE SELF-LOOP PAYLOAD AT `(r, q)`: the product there times the row's factor, plus the bias row. -/
theorem pay1_apply (x0 : FVec Ideal S5000x128 .f32) (g b : FVec Ideal S1x128 .f32) (W : FVec Ideal S128x128 .f32)
    (s : FVec Ideal S5000x1 .f32) (cb : FVec Ideal S1x128 .f32) (r : Fin 5000) (q : Fin 128) :
    k4_pay1 (F := Ideal) (k4_pay3 (F := Ideal) x0 g b W s) cb (ix2 r q)
      = rDot (fun k => x0 (ix2 r k)) (fun k => g (ix2 (0 : Fin 1) k)) (fun k => b (ix2 (0 : Fin 1) k)) (fun k q => W (ix2 k q)) q
          * s (ix2 r (0 : Fin 1)) + cb (ix2 (0 : Fin 1) q) := by
  unfold k4_pay1 k4_pay3
  simp only [shapeCast_self]
  show k4_pay2 (F := Ideal) x0 g b W (ix2 r q) * broadcastTo S5000x128 s broadcasts_S5000x1_S5000x128 (ix2 r q)
    + broadcastTo S5000x128 cb broadcasts_S1x128_S5000x128 (ix2 r q) = _
  rw [pay2_apply, colB_apply, rowB_apply]

/-! ## The whole-array functions read at an index -/

/-- A vector of 50000 as a [50000,1] column reads its entry `i` at `(i, 0)`. -/
theorem sCol_apply (h : S50000.BroadcastsInDim S50000x1 (![0] : Fin 1 → Fin S50000x1.rank)) (v : FVec Ideal S50000 .f32)
    (i : Fin 50000) (u : Fin 1) : broadcastInDim S50000x1 ![0] h v (ix2 i u) = v (ix1 i) :=
  broadcastInDim_apply _ h v (ix2 i u) (ix1 i) fun a => by
    match a with
    | ⟨0, _⟩ => rfl

/-- A [50000,1] column laid beside the 128 columns reads, at `(i, q)`, the column at `(i, 0)`. -/
theorem sColB_apply (h : S50000x1.BroadcastsInDim S50000x128 (![0, 1] : Fin 2 → Fin S50000x128.rank)) (v : FVec Ideal S50000x1 .f32)
    (i : Fin 50000) (q : Fin 128) : broadcastInDim S50000x128 ![0, 1] h v (ix2 i q) = v (ix2 i (0 : Fin 1)) :=
  broadcastInDim_apply _ h v (ix2 i q) (ix2 i (0 : Fin 1)) fun a => by
    match a with
    | ⟨0, _⟩ => rfl
    | ⟨1, _⟩ => rfl

/-- A [1,128] row laid under the 50000 rows reads, at `(i, q)`, the row at `(0, q)`. -/
theorem sRowB_apply (h : S1x128.BroadcastsInDim S50000x128 (![0, 1] : Fin 2 → Fin S50000x128.rank)) (v : FVec Ideal S1x128 .f32)
    (i : Fin 50000) (q : Fin 128) : broadcastInDim S50000x128 ![0, 1] h v (ix2 i q) = v (ix2 (0 : Fin 1) q) :=
  broadcastInDim_apply _ h v (ix2 i q) (ix2 (0 : Fin 1) q) fun a => by
    match a with
    | ⟨0, _⟩ => rfl
    | ⟨1, _⟩ => rfl

/-- The host's sum over axis 1 from the zero word, at row `i`: the sum of that row's 128 entries. -/
theorem sSum_apply (h' : S50000x128.ReducesTo [1] S50000) (hu : 0 < S_.numel) (x : FVec Ideal S50000x128 .f32) (i : Fin 50000) :
    Host.reduceAdd (F := Ideal) x (constant (F := Ideal) S_ .f32 0x00000000#32) h' hu (ix1 i) = ∑ k : Fin 128, x (ix2 i k) := by
  rw [hostReduceAdd_apply, Ideal.hostReduceAdd_single h' (by decide) x _ (ix1 i)]
  show Ideal.ofBits .f32 0x00000000#32 + _ = _
  rw [Ideal.ofBits_zero_f32, zero_add]
  refine Finset.sum_congr rfl fun k _ => congrArg x ?_
  funext a
  match a with
  | ⟨0, _⟩ => rfl
  | ⟨1, _⟩ => rfl

theorem sMean_apply (h : FVec Ideal S50000x128 .f32) (i : Fin 50000) (u : Fin 1) :
    Cert.Spec.rowMean (F := Ideal) h (ix2 i u) = rMean fun k => h (ix2 i k) := by
  unfold Cert.Spec.rowMean
  rw [hostDivf_apply, sCol_apply, broadcastInDim_scalar_apply, sSum_apply]
  rfl

theorem sCen_apply (h : FVec Ideal S50000x128 .f32) (i : Fin 50000) (k : Fin 128) :
    Cert.Spec.centred (F := Ideal) h (ix2 i k) = h (ix2 i k) - rMean fun k => h (ix2 i k) := by
  unfold Cert.Spec.centred Cert.Spec.colB
  rw [subf_apply, sColB_apply, sMean_apply]

theorem sInv_apply (h : FVec Ideal S50000x128 .f32) (i : Fin 50000) (u : Fin 1) :
    Cert.Spec.rowInvStd (F := Ideal) h (ix2 i u) = rInv fun k => h (ix2 i k) := by
  unfold Cert.Spec.rowInvStd
  show Ideal.rsqrt (Cert.Spec.rowMean (F := Ideal) (mulf (Cert.Spec.centred h) (Cert.Spec.centred h)) (ix2 i u)
    + broadcastInDim S50000x1 ![] _ (constant (F := Ideal) S_ .f32 0x3727C5AC#32) (ix2 i u)) = _
  rw [sMean_apply, broadcastInDim_scalar_apply]
  simp only [mulf_apply, sCen_apply, rInv, rVar]
  rfl

theorem sAct_apply (h : FVec Ideal S50000x128 .f32) (g b : FVec Ideal S1x128 .f32) (i : Fin 50000) (k : Fin 128) :
    Cert.Spec.lnrelu (F := Ideal) h g b (ix2 i k)
      = rAct (fun k => h (ix2 i k)) (fun k => g (ix2 (0 : Fin 1) k)) (fun k => b (ix2 (0 : Fin 1) k)) k := by
  unfold Cert.Spec.lnrelu Cert.Spec.colB Cert.Spec.rowB
  rw [maximumf_apply, addf_apply, mulf_apply, mulf_apply, sColB_apply, sRowB_apply, sRowB_apply, broadcastInDim_scalar_apply,
    sInv_apply, sCen_apply]
  rfl

/-! ## The whole-array product read at an index -/

theorem lhsR_0 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch by decide), dif_pos (show (0 : Fin S50000x128.rank) ∈ Cert.ReferenceIdeal.dot_S50000x128_S128x128_S50000x128_1_0_0_1_n_n.lhsNonContracting by decide)]
  rfl
theorem lhsR_1 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhsR_0 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhsR_1 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch by decide), dif_pos (show (1 : Fin S128x128.rank) ∈ Cert.ReferenceIdeal.dot_S50000x128_S128x128_S50000x128_1_0_0_1_n_n.rhsNonContracting by decide)]
  rfl

/-- The host's product at `(i, q)`: the sum over `k` of `A (i, k) · B (k, q)`. -/
theorem sMm_apply (A : FVec Ideal S50000x128 .f32) (B : FVec Ideal S128x128 .f32) (i : Fin 50000) (q : Fin 128) :
    Cert.Spec.mm (F := Ideal) A B (ix2 i q) = ∑ k : Fin 128, A (ix2 i k) * B (ix2 k q) := by
  unfold Cert.Spec.mm
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 i q) ((contrEquiv1 Cert.ReferenceIdeal.dot_S50000x128_S128x128_S50000x128_1_0_0_1_n_n 128 rfl rfl).symm k) = ix2 i k := funext fun a => Fin.ext (by
    match a with
    | ⟨0, _⟩ => exact lhsR_0 _ _
    | ⟨1, _⟩ => exact (lhsR_1 _ _).trans hk)
  have er : Cert.ReferenceIdeal.dot_S50000x128_S128x128_S50000x128_1_0_0_1_n_n.rhsIdx (ix2 i q) ((contrEquiv1 Cert.ReferenceIdeal.dot_S50000x128_S128x128_S50000x128_1_0_0_1_n_n 128 rfl rfl).symm k) = ix2 k q := funext fun a => Fin.ext (by
    match a with
    | ⟨0, _⟩ => exact (rhsR_0 _ _).trans hk
    | ⟨1, _⟩ => exact rhsR_1 _ _)
  rw [el, er]

/-- THE PRODUCT ARRAY AT `(i, q)`: row `i` of the input, normalised and clamped, times column `q` of the weight. -/
theorem spec6_apply (X : FVec Ideal S50000x128 .f32) (g b : FVec Ideal S1x128 .f32) (W : FVec Ideal S128x128 .f32) (i : Fin 50000) (q : Fin 128) :
    Cert.Spec.mm (F := Ideal) (Cert.Spec.lnrelu X g b) W (ix2 i q)
      = rDot (fun k => X (ix2 i k)) (fun k => g (ix2 (0 : Fin 1) k)) (fun k => b (ix2 (0 : Fin 1) k)) (fun k q => W (ix2 k q)) q := by
  rw [sMm_apply]
  exact Finset.sum_congr rfl fun k _ => by rw [sAct_apply]

/-- THE SELF-LOOP ARRAY AT `(i, q)`: the product there times the row's factor, plus the bias row. -/
theorem spec7_apply (xw : FVec Ideal S50000x128 .f32) (s : FVec Ideal S50000x1 .f32) (cb : FVec Ideal S1x128 .f32) (i : Fin 50000) (q : Fin 128) :
    Cert.Spec.selfTerm (F := Ideal) xw s cb (ix2 i q) = xw (ix2 i q) * s (ix2 i (0 : Fin 1)) + cb (ix2 (0 : Fin 1) q) := by
  unfold Cert.Spec.selfTerm Cert.Spec.colB Cert.Spec.rowB
  rw [addf_apply, mulf_apply, sColB_apply, sRowB_apply]

/-! ## From blocks to the arrays -/

theorem hz : (![0, 0] : Fin 2 → Nat) = fun _ => 0 := funext fun a => by fin_cases a <;> rfl

/-- The printed index maps, decided over the 10 grid points: the row-blocked windows (the input, the rows' factors, both
    outputs) sit at block `t` of axis 0; the row and weight windows are whole at every point. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

theorem lt_N (t : Fin cfg4.N) : t.val < 10 := lt_of_lt_of_eq t.isLt N_4

/-- The input's block at point `t` is rows `5000 t … 5000 t + 4999` of its array. -/
theorem blk0_apply (c : Dev nD) (t : Fin cfg4.N) (r : Fin 5000) (k : Fin 128) (i : Fin 50000) (hi : i.val = t.val * 5000 + r.val) :
    (iblk4 V c 0 t : FVec Ideal S5000x128 .f32) (ix2 r k) = (V c main_v90 : FVec Ideal S50000x128 .f32) (ix2 i k) := by
  obtain ⟨e0, e1, -⟩ := idx_facts t
  unfold iblk4
  rw [View.read_apply]
  show V c main_v90 _ = V c main_v90 _
  congr 1
  funext a
  apply Fin.ext
  match a with
  | ⟨0, _⟩ => show win4_0.index t (0 : Fin 2) * 5000 + 1 * r.val = i.val; omega
  | ⟨1, _⟩ => show win4_0.index t (1 : Fin 2) * 128 + 1 * k.val = k.val; omega

/-- The rows' factors' block at point `t` is rows `5000 t … 5000 t + 4999` of their column. -/
theorem blk5_apply (c : Dev nD) (t : Fin cfg4.N) (r : Fin 5000) (i : Fin 50000) (hi : i.val = t.val * 5000 + r.val) :
    (iblk4 V c 5 t : FVec Ideal S5000x1 .f32) (ix2 r (0 : Fin 1)) = (V c main_v102 : FVec Ideal S50000x1 .f32) (ix2 i (0 : Fin 1)) := by
  obtain ⟨-, -, -, -, -, -, -, -, -, -, e0, e1, -⟩ := idx_facts t
  unfold iblk4
  rw [View.read_apply]
  show V c main_v102 _ = V c main_v102 _
  congr 1
  funext a
  apply Fin.ext
  match a with
  | ⟨0, _⟩ => show win4_5.index t (0 : Fin 2) * 5000 + 1 * r.val = i.val; omega
  | ⟨1, _⟩ => show win4_5.index t (1 : Fin 2) * 1 + 1 * 0 = 0; omega

/-- The scale row's, the shift row's, the weight's and the bias row's windows hold their whole arrays at every point. -/
theorem blk1_eq (c : Dev nD) (t : Fin cfg4.N) : (iblk4 V c 1 t : FVec Ideal S1x128 .f32) = V c main_v99 := by
  obtain ⟨-, -, e0, e1, -⟩ := idx_facts t
  funext y
  unfold iblk4
  rw [View.read_apply]
  show V c main_v99 _ = V c main_v99 y
  congr 1
  funext a
  apply Fin.ext
  match a with
  | ⟨0, _⟩ => show win4_1.index t (0 : Fin 2) * 1 + 1 * (y 0).val = (y 0).val; omega
  | ⟨1, _⟩ => show win4_1.index t (1 : Fin 2) * 128 + 1 * (y 1).val = (y 1).val; omega
theorem blk2_eq (c : Dev nD) (t : Fin cfg4.N) : (iblk4 V c 2 t : FVec Ideal S1x128 .f32) = V c main_v100 := by
  obtain ⟨-, -, -, -, e0, e1, -⟩ := idx_facts t
  funext y
  unfold iblk4
  rw [View.read_apply]
  show V c main_v100 _ = V c main_v100 y
  congr 1
  funext a
  apply Fin.ext
  match a with
  | ⟨0, _⟩ => show win4_2.index t (0 : Fin 2) * 1 + 1 * (y 0).val = (y 0).val; omega
  | ⟨1, _⟩ => show win4_2.index t (1 : Fin 2) * 128 + 1 * (y 1).val = (y 1).val; omega
theorem blk3_eq (c : Dev nD) (t : Fin cfg4.N) : (iblk4 V c 3 t : FVec Ideal S128x128 .f32) = V c main_v96 := by
  obtain ⟨-, -, -, -, -, -, e0, e1, -⟩ := idx_facts t
  funext y
  unfold iblk4
  rw [View.read_apply]
  show V c main_v96 _ = V c main_v96 y
  congr 1
  funext a
  apply Fin.ext
  match a with
  | ⟨0, _⟩ => show win4_3.index t (0 : Fin 2) * 128 + 1 * (y 0).val = (y 0).val; omega
  | ⟨1, _⟩ => show win4_3.index t (1 : Fin 2) * 128 + 1 * (y 1).val = (y 1).val; omega
theorem blk4_eq (c : Dev nD) (t : Fin cfg4.N) : (iblk4 V c 4 t : FVec Ideal S1x128 .f32) = V c main_v101 := by
  obtain ⟨-, -, -, -, -, -, -, -, e0, e1, -⟩ := idx_facts t
  funext y
  unfold iblk4
  rw [View.read_apply]
  show V c main_v101 _ = V c main_v101 y
  congr 1
  funext a
  apply Fin.ext
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- WHAT POINT `t` WRITES BACK to the product's array is block `t` of the whole-array product of the arrays the region found. -/
theorem flushed6_eq (c : Dev nD) (t : Fin cfg4.N) :
    (dat4 (F := Ideal) V c).flushed 6 t = ((cfg4.win 6).blk t).view.read (Elt Ideal)
      (Cert.Spec.mm (F := Ideal) (Cert.Spec.lnrelu (V c main_v90) (V c main_v99) (V c main_v100)) (V c main_v96)) := by
  show (cfg4.win 6).cut (grid4.coords t) ((dat4 (F := Ideal) V c).after 6 t) = _
  rw [after4_6]
  unfold out4_6
  rw [View.canon_unit_zero hz]
  simp only [View.ld_unit_zero (S := S5000x128) hz, View.ld_unit_zero (S := S1x128) hz, View.ld_unit_zero (S := S128x128) hz]
  rw [blk1_eq, blk2_eq, blk3_eq]
  obtain ⟨-, -, -, -, -, -, -, -, -, -, -, -, e0, e1, -⟩ := idx_facts t
  have ht := lt_N t
  funext j
  obtain ⟨r, q, rfl⟩ : ∃ (r : Fin 5000) (q : Fin 128), j = ix2 r q := ⟨j 0, j 1, eq_ix2 j⟩
  have he : ((cfg4.win 6).blk t).view.emb (ix2 r q) = ix2 (⟨t.val * 5000 + r.val, by omega⟩ : Fin 50000) q := by
    funext a
    apply Fin.ext
    match a with
    | ⟨0, _⟩ => show win4_6.index t (0 : Fin 2) * 5000 + 1 * r.val = t.val * 5000 + r.val; omega
    | ⟨1, _⟩ => show win4_6.index t (1 : Fin 2) * 128 + 1 * q.val = q.val; omega
  show k4_pay2 (F := Ideal) (iblk4 V c 0 t) (V c main_v99) (V c main_v100) (V c main_v96) (ix2 r q)
    = Cert.Spec.mm (F := Ideal) (Cert.Spec.lnrelu (V c main_v90) (V c main_v99) (V c main_v100)) (V c main_v96) (((cfg4.win 6).blk t).view.emb (ix2 r q))
  rw [he]
  refine (pay2_apply (iblk4 V c 0 t) (V c main_v99) (V c main_v100) (V c main_v96) r q).trans ?_
  refine Eq.trans ?_ (spec6_apply (V c main_v90) (V c main_v99) (V c main_v100) (V c main_v96) ⟨t.val * 5000 + r.val, by omega⟩ q).symm
  refine congrArg (fun f => rDot f _ _ _ q) (funext fun k => ?_)
  exact blk0_apply V c t r k ⟨t.val * 5000 + r.val, by omega⟩ rfl

/-- WHAT POINT `t` WRITES BACK to the self-loop array is block `t` of the whole-array self-loop term. -/
theorem flushed7_eq (c : Dev nD) (t : Fin cfg4.N) :
    (dat4 (F := Ideal) V c).flushed 7 t = ((cfg4.win 7).blk t).view.read (Elt Ideal)
      (Cert.Spec.selfTerm (F := Ideal) (Cert.Spec.mm (Cert.Spec.lnrelu (V c main_v90) (V c main_v99) (V c main_v100)) (V c main_v96)) (V c main_v102) (V c main_v101)) := by
  show (cfg4.win 7).cut (grid4.coords t) ((dat4 (F := Ideal) V c).after 7 t) = _
  rw [after4_7]
  unfold out4_7
  rw [View.canon_unit_zero hz]
  simp only [View.ld_unit_zero (S := S5000x128) hz, View.ld_unit_zero (S := S1x128) hz, View.ld_unit_zero (S := S128x128) hz,
    View.ld_unit_zero (S := S5000x1) hz]
  rw [blk1_eq, blk2_eq, blk3_eq, blk4_eq]
  obtain ⟨-, -, -, -, -, -, -, -, -, -, -, -, -, -, e0, e1⟩ := idx_facts t
  have ht := lt_N t
  funext j
  obtain ⟨r, q, rfl⟩ : ∃ (r : Fin 5000) (q : Fin 128), j = ix2 r q := ⟨j 0, j 1, eq_ix2 j⟩
  have he : ((cfg4.win 7).blk t).view.emb (ix2 r q) = ix2 (⟨t.val * 5000 + r.val, by omega⟩ : Fin 50000) q := by
    funext a
    apply Fin.ext
    match a with
    | ⟨0, _⟩ => show win4_7.index t (0 : Fin 2) * 5000 + 1 * r.val = t.val * 5000 + r.val; omega
    | ⟨1, _⟩ => show win4_7.index t (1 : Fin 2) * 128 + 1 * q.val = q.val; omega
  show k4_pay1 (F := Ideal) (k4_pay3 (F := Ideal) (iblk4 V c 0 t) (V c main_v99) (V c main_v100) (V c main_v96) (iblk4 V c 5 t)) (V c main_v101) (ix2 r q)
    = Cert.Spec.selfTerm (F := Ideal) (Cert.Spec.mm (Cert.Spec.lnrelu (V c main_v90) (V c main_v99) (V c main_v100)) (V c main_v96)) (V c main_v102) (V c main_v101)
        (((cfg4.win 7).blk t).view.emb (ix2 r q))
  rw [he]
  refine (pay1_apply (iblk4 V c 0 t) (V c main_v99) (V c main_v100) (V c main_v96) (iblk4 V c 5 t) (V c main_v101) r q).trans ?_
  refine Eq.trans ?_ (spec7_apply _ (V c main_v102) (V c main_v101) ⟨t.val * 5000 + r.val, by omega⟩ q).symm
  rw [spec6_apply, blk5_apply V c t r ⟨t.val * 5000 + r.val, by omega⟩ rfl]
  refine congrArg (fun f => rDot f _ _ _ q * _ + _) (funext fun k => ?_)
  exact blk0_apply V c t r k ⟨t.val * 5000 + r.val, by omega⟩ rfl

/-- An index of the product's array is in point `t`'s block iff each coordinate is in the block's range on its axis. -/
theorem mem_blk6 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v103_0).slice (win4_6.rect t)).set ↔ _
  rw [View.set_slice_whole, Rect.mem_set_unit]
  exact Iff.rfl
theorem mem_blk7 (t : Fin cfg4.N) (i : S50000x128.Idx) :
    i ∈ ((cfg4.win 7).blk t).view.set ↔ ∀ a : Fin 2, win4_7.index t a * S5000x128.size a ≤ (i a).val ∧ (i a).val < win4_7.index t a * S5000x128.size a + S5000x128.size a := by
  show i ∈ ((View.whole main_v103_1).slice (win4_7.rect t)).set ↔ _
  rw [View.set_slice_whole, Rect.mem_set_unit]
  exact Iff.rfl

/-- Every row lies in the block of the point `row / 5000`, which writes back. -/
theorem cover6 (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  refine ⟨⟨(i 0).val / 5000, lt_of_lt_of_eq (by omega : (i 0).val / 5000 < 10) N_4.symm⟩, flush4_6 _, ?_⟩
  rw [mem_blk6]
  obtain ⟨-, -, -, -, -, -, -, -, -, -, -, -, e0, e1, -⟩ := idx_facts ⟨(i 0).val / 5000, lt_of_lt_of_eq (by omega : (i 0).val / 5000 < 10) N_4.symm⟩
  intro a
  match a with
  | ⟨0, _⟩ =>
    show win4_6.index _ (0 : Fin 2) * 5000 ≤ (i 0).val ∧ (i 0).val < win4_6.index _ (0 : Fin 2) * 5000 + 5000
    rw [e0]; show (i 0).val / 5000 * 5000 ≤ (i 0).val ∧ (i 0).val < (i 0).val / 5000 * 5000 + 5000; omega
  | ⟨1, _⟩ =>
    show win4_6.index _ (1 : Fin 2) * 128 ≤ (i 1).val ∧ (i 1).val < win4_6.index _ (1 : Fin 2) * 128 + 128
    rw [e1]; omega
theorem cover7 (i : S50000x128.Idx) : ∃ t : Fin cfg4.N, (cfg4.win 7).flush t = true ∧ i ∈ ((cfg4.win 7).blk t).view.set := by
  have hi0 : (i 0).val < 50000 := (i 0).isLt
  have hi1 : (i 1).val < 128 := (i 1).isLt
  refine ⟨⟨(i 0).val / 5000, lt_of_lt_of_eq (by omega : (i 0).val / 5000 < 10) N_4.symm⟩, flush4_7 _, ?_⟩
  rw [mem_blk7]
  obtain ⟨-, -, -, -, -, -, -, -, -, -, -, -, -, -, e0, e1⟩ := idx_facts ⟨(i 0).val / 5000, lt_of_lt_of_eq (by omega : (i 0).val / 5000 < 10) N_4.symm⟩
  intro a
  match a with
  | ⟨0, _⟩ =>
    show win4_7.index _ (0 : Fin 2) * 5000 ≤ (i 0).val ∧ (i 0).val < win4_7.index _ (0 : Fin 2) * 5000 + 5000
    rw [e0]; show (i 0).val / 5000 * 5000 ≤ (i 0).val ∧ (i 0).val < (i 0).val / 5000 * 5000 + 5000; omega
  | ⟨1, _⟩ =>
    show win4_7.index _ (1 : Fin 2) * 128 ≤ (i 1).val ∧ (i 1).val < win4_7.index _ (1 : Fin 2) * 128 + 128
    rw [e1]; omega

/-- The product's array after region 4: the normalised, clamped input times the weight, whole array. -/
theorem arr4_6 (c : Dev nD) : (dat4 (F := Ideal) V c).arrAt 6 cfg4.N
    = Cert.Spec.mm (F := Ideal) (Cert.Spec.lnrelu (V c main_v90) (V c main_v99) (V c main_v100)) (V c main_v96) :=
  (dat4 (F := Ideal) V c).arrAt_eq_of_cover 6 _ (fun t _ => flushed6_eq V c t) cover6

/-- The self-loop array after region 4: that product scaled row by row, plus the bias row. -/
theorem arr4_7 (c : Dev nD) : (dat4 (F := Ideal) V c).arrAt 7 cfg4.N
    = Cert.Spec.selfTerm (F := Ideal) (Cert.Spec.mm (Cert.Spec.lnrelu (V c main_v90) (V c main_v99) (V c main_v100)) (V c main_v96)) (V c main_v102) (V c main_v101) :=
  (dat4 (F := Ideal) V c).arrAt_eq_of_cover 7 _ (fun t _ => flushed7_eq V c t) cover7

end Cert.KernelIdeal.Region4

end
-- ==== Proof.KStep4.lean ====
/-
  From region 4's entry to region 5's entry: the last residual layer, then the head's scale and shift rows and the
  padded weight and bias.
-/
import proofs.«413863_j12395275616334_2_alg».proof.Proof.Gen.KernelIdeal.Frame
import proofs.«413863_j12395275616334_2_alg».proof.Proof.Gen.KernelIdeal
import proofs.«413863_j12395275616334_2_alg».proof.Proof.Gen.ReferenceIdeal
import proofs.«413863_j12395275616334_2_alg».proof.Proof.KSpec
import proofs.«413863_j12395275616334_2_alg».proof.Proof.KState
import proofs.«413863_j12395275616334_2_alg».proof.Proof.Region4
import Idealize.ShloMosaic.PureOps.Ideal

set_option maxRecDepth 16384

noncomputable section

namespace Cert.KernelIdeal.KStep4
open Idealize.ShloMosaic Idealize.ShloMosaic.TcCoe Idealize.SL.Sem Cert.KernelIdeal Cert.KernelIdeal.Gen
open Cert.KernelIdeal.KState

variable (m : (ℓ : Loc nD τ sig) → Buf (Elt Ideal) ℓ) (ρ : Dev nD → PrngReg) (c : Dev nD)

/-- A buffer that none of a stretch's operations writes holds after the stretch what it held before. -/
local macro "carried" ops:ident : tactic =>
  `(tactic| (
    refine StableHlo.after_of_forall_not_mem _ _ (List.forall_iff_forall_mem.mp ?_)
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## Transport along a typed reference's type equation -/

/-- Contents moved to a buffer's own type and back are the contents. -/
theorem ofBuf_toBuf {T : BufTy} (x : StableHlo.TRef sig T) (v : T.Contents (Elt Ideal)) :
    x.ofBuf (x.toBuf v) = v := by
  obtain ⟨r, h, h₁, h₂⟩ := x
  subst h
  rfl

/-- The gather's result buffer holds contents of its own type. -/
theorem toBuf_v104 (v : Cert.KSpec.ERows Ideal) :
    (StableHlo.TRef.of main_v104 : StableHlo.TRef sig ⟨S800000x128, .f32⟩).toBuf v = v := rfl
/-- The source row read at its own type. -/
theorem ofBuf_v1 (v : Cert.KSpec.EIdx Ideal) :
    (StableHlo.TRef.of main_v1 : StableHlo.TRef sig ⟨S800000, .i32⟩).ofBuf v = v := rfl
/-- The product's array read at its own type. -/
theorem ofBuf_v103_0 (v : Cert.KSpec.Feat Ideal) :
    (StableHlo.TRef.of main_v103_0 : StableHlo.TRef sig ⟨S50000x128, .f32⟩).ofBuf v = v := rfl

/-! ## Region 4: the kernel writes its two output arrays and nothing else -/

/-- The product's array at region 4's exit: the normalised, clamped input times the weight. -/
theorem w15_prod (h : Cert.KSpec.Feat Ideal) (g b : FVec Ideal S128 .f32) (W : FVec Ideal S128x128 .f32)
    (hx : W14 m ρ c (Proc.devRef .tc main_v90) = h) (hg : W14 m ρ c (Proc.devRef .tc main_v99) = Cert.KSpec.asRow g)
    (hb : W14 m ρ c (Proc.devRef .tc main_v100) = Cert.KSpec.asRow b) (hW : W14 m ρ c (Proc.devRef .tc main_v96) = W) :
    W15 m ρ c (Proc.devRef .tc main_v103_0)
      = Cert.Spec.mm (F := Ideal) (Cert.Spec.lnrelu h (Cert.KSpec.asRow g) (Cert.KSpec.asRow b)) W := by
  have e := (W15_arr m ρ c 6).trans (Region4.arr4_6 (V14 m ρ) c)
  rw [← hx, ← hg, ← hb, ← hW]
  exact e

/-- The self-loop array at region 4's exit: the product scaled row by row by the self-loop column, plus the bias row. -/
theorem w15_self (h : Cert.KSpec.Feat Ideal) (g b cb : FVec Ideal S128 .f32) (W : FVec Ideal S128x128 .f32)
    (hx : W14 m ρ c (Proc.devRef .tc main_v90) = h) (hg : W14 m ρ c (Proc.devRef .tc main_v99) = Cert.KSpec.asRow g)
    (hb : W14 m ρ c (Proc.devRef .tc main_v100) = Cert.KSpec.asRow b) (hW : W14 m ρ c (Proc.devRef .tc main_v96) = W)
    (hcb : W14 m ρ c (Proc.devRef .tc main_v101) = Cert.KSpec.asRow cb)
    (hsd : W14 m ρ c (Proc.devRef .tc main_v102) = Cert.KSpec.sdCol (F := Ideal) (dst m c) (ew m c)) :
    W15 m ρ c (Proc.devRef .tc main_v103_1)
      = Cert.Spec.selfTerm (F := Ideal) (Cert.Spec.mm (Cert.Spec.lnrelu h (Cert.KSpec.asRow g) (Cert.KSpec.asRow b)) W)
          (Cert.KSpec.sdCol (F := Ideal) (dst m c) (ew m c)) (Cert.KSpec.asRow cb) := by
  have e := (W15_arr m ρ c 7).trans (Region4.arr4_7 (V14 m ρ) c)
  rw [← hx, ← hg, ← hb, ← hW, ← hcb, ← hsd]
  exact e

/-- The layer's input is one of the kernel's input windows: the region leaves it as entered. -/
theorem w15_in : W15 m ρ c (Proc.devRef .tc main_v90) = W14 m ρ c (Proc.devRef .tc main_v90) :=
  (W15_arr m ρ c 0).trans (((dat4 (V14 m ρ) c).arrAt_in 0 rfl _).trans (A_eq4 (V14 m ρ) c 0))

/-- Region 4 writes none of the kept buffers. -/
theorem w15_kept (hk : Kept m c (W14 m ρ c)) : Kept m c (W15 m ρ c) where
  v1 := (W15_of_ne m ρ c main_v1 (by decide)).trans hk.v1
  v3 := (W15_of_ne m ρ c main_v3 (by decide)).trans hk.v3
  v28 := (W15_of_ne m ρ c main_v28 (by decide)).trans hk.v28
  v29 := (W15_of_ne m ρ c main_v29 (by decide)).trans hk.v29
  a5 := (W15_of_ne m ρ c main_arg5 (by decide)).trans hk.a5
  a6 := (W15_of_ne m ρ c main_arg6 (by decide)).trans hk.a6
  a7 := (W15_of_ne m ρ c main_arg7 (by decide)).trans hk.a7
  a8 := (W15_of_ne m ρ c main_arg8 (by decide)).trans hk.a8
  a9 := (W15_of_ne m ρ c main_arg9 (by decide)).trans hk.a9
  a10 := (W15_of_ne m ρ c main_arg10 (by decide)).trans hk.a10

/-! ## The gather of source rows (the inlined take, in fill mode), from any contents `V` -/

/-- After the gather: the row of `xw` at every edge's index where the wrapped index is in range, the fill word elsewhere. -/
theorem take_of (V : Valuation τ sig (Elt Ideal)) (xw : Cert.KSpec.Feat Ideal) (i : Cert.KSpec.EIdx Ideal)
    (hp : V (Proc.devRef .tc main_v103_0) = xw) (h1 : V (Proc.devRef .tc main_v1) = i) :
    StableHlo.after hostOps5 V (Proc.devRef .tc main_v104) = Cert.KSpec.take (F := Ideal) xw i := by
  after_results_simp
  simp only [ofBuf_toBuf]
  rw [h1, hp]
  simp only [toBuf_v104, ofBuf_v1, ofBuf_v103_0]
  unfold Cert.KSpec.take Cert.KSpec.inRange Cert.KSpec.rows Cert.KSpec.wrap Cert.KSpec.col
  with_reducible rfl

/-- The gather writes none of the kept buffers. -/
theorem kept5 (V : Valuation τ sig (Elt Ideal)) (hk : Kept m c V) : Kept m c (StableHlo.after hostOps5 V) where
  v1 := Eq.trans (by carried hostOps5) hk.v1
  v3 := Eq.trans (by carried hostOps5) hk.v3
  v28 := Eq.trans (by carried hostOps5) hk.v28
  v29 := Eq.trans (by carried hostOps5) hk.v29
  a5 := Eq.trans (by carried hostOps5) hk.a5
  a6 := Eq.trans (by carried hostOps5) hk.a6
  a7 := Eq.trans (by carried hostOps5) hk.a7
  a8 := Eq.trans (by carried hostOps5) hk.a8
  a9 := Eq.trans (by carried hostOps5) hk.a9
  a10 := Eq.trans (by carried hostOps5) hk.a10

/-- The gather leaves the layer's input as it was. -/
theorem in5 (V : Valuation τ sig (Elt Ideal)) :
    StableHlo.after hostOps5 V (Proc.devRef .tc main_v90) = V (Proc.devRef .tc main_v90) := by
  carried hostOps5

/-- The gather leaves the self-loop array as it was. -/
theorem self5 (V : Valuation τ sig (Elt Ideal)) :
    StableHlo.after hostOps5 V (Proc.devRef .tc main_v103_1) = V (Proc.devRef .tc main_v103_1) := by
  carried hostOps5

/-! ## The aggregation and the sums, then the head's operands, from any contents `V` after the gather

The five stretches from the gather to the last kernel are read as one composition: the sums, the padding of the
head's weight, a constant, the padding of the head's bias, and the head's slices. -/

/-- The padded weight's buffer holds contents of its own type. -/
theorem toBuf_v113 (v : (⟨S128x128, .f32⟩ : BufTy).Contents (Elt Ideal)) :
    (StableHlo.TRef.of main_v113 : StableHlo.TRef sig ⟨S128x128, .f32⟩).toBuf v = v := rfl
/-- The head's weight argument read at its own type. -/
theorem ofBuf_arg9 (v : (⟨S128x112, .f32⟩ : BufTy).Contents (Elt Ideal)) :
    (StableHlo.TRef.of main_arg9 : StableHlo.TRef sig ⟨S128x112, .f32⟩).ofBuf v = v := rfl
/-- The integer zero that becomes the weight's padding, read at its own type. -/
theorem ofBuf_c_10 (v : (⟨S_, .i32⟩ : BufTy).Contents (Elt Ideal)) :
    (StableHlo.TRef.of main_c_10 : StableHlo.TRef sig ⟨S_, .i32⟩).ofBuf v = v := rfl
/-- The padded bias's buffer holds contents of its own type. -/
theorem toBuf_v114 (v : (⟨S128, .f32⟩ : BufTy).Contents (Elt Ideal)) :
    (StableHlo.TRef.of main_v114 : StableHlo.TRef sig ⟨S128, .f32⟩).toBuf v = v := rfl
/-- The head's bias argument read at its own type. -/
theorem ofBuf_arg10 (v : (⟨S112, .f32⟩ : BufTy).Contents (Elt Ideal)) :
    (StableHlo.TRef.of main_arg10 : StableHlo.TRef sig ⟨S112, .f32⟩).ofBuf v = v := rfl
/-- The integer zero that becomes the bias's padding, read at its own type. -/
theorem ofBuf_c_11 (v : (⟨S_, .i32⟩ : BufTy).Contents (Elt Ideal)) :
    (StableHlo.TRef.of main_c_11 : StableHlo.TRef sig ⟨S_, .i32⟩).ofBuf v = v := rfl

/-- The last layer's output: the scatter to targets of the gathered rows scaled by the edge coefficients, plus the
    self-loop array, plus the layer's input; the later stretches leave it. -/
theorem res_of (V : Valuation τ sig (Elt Ideal)) (h : Cert.KSpec.Feat Ideal) (g b cb : FVec Ideal S128 .f32)
    (W : FVec Ideal S128x128 .f32) (i j : Cert.KSpec.EIdx Ideal) (w : Cert.KSpec.EVal Ideal)
    (h104 : V (Proc.devRef .tc main_v104)
      = Cert.KSpec.take (F := Ideal) (Cert.Spec.mm (Cert.Spec.lnrelu h (Cert.KSpec.asRow g) (Cert.KSpec.asRow b)) W) i)
    (h28 : V (Proc.devRef .tc main_v28) = Cert.KSpec.coef (F := Ideal) i j w)
    (h3 : V (Proc.devRef .tc main_v3) = j)
    (hs : V (Proc.devRef .tc main_v103_1)
      = Cert.Spec.selfTerm (F := Ideal) (Cert.Spec.mm (Cert.Spec.lnrelu h (Cert.KSpec.asRow g) (Cert.KSpec.asRow b)) W)
          (Cert.KSpec.sdCol (F := Ideal) j w) (Cert.KSpec.asRow cb))
    (hx : V (Proc.devRef .tc main_v90) = h) :
    StableHlo.after hostOps5_5 (StableHlo.after hostOps5_4 (StableHlo.after hostOps5_3 (StableHlo.after hostOps5_2 (StableHlo.after hostOps5_1 V)))) (Proc.devRef .tc main_v112)
      = Cert.KSpec.res (F := Ideal) h g b W cb i j w := by
  after_results_simp
  rw [h104, h28, h3, hs, hx]
  unfold Cert.KSpec.res Cert.KSpec.agg Cert.KSpec.scat Cert.KSpec.spread Cert.KSpec.col
  with_reducible rfl

/-- Row 0 of the scale argument, as a row. -/
theorem v119_of (V : Valuation τ sig (Elt Ideal)) (p : FVec Ideal S4x128 .f32) (hp : V (Proc.devRef .tc main_arg7) = p) :
    StableHlo.after hostOps5_5 (StableHlo.after hostOps5_4 (StableHlo.after hostOps5_3 (StableHlo.after hostOps5_2 (StableHlo.after hostOps5_1 V)))) (Proc.devRef .tc main_v119)
      = Cert.KSpec.asRow (Cert.KSpec.r0 (F := Ideal) p) := by
  after_results_simp
  rw [hp]
  rfl

/-- Row 0 of the shift argument, as a row. -/
theorem v120_of (V : Valuation τ sig (Elt Ideal)) (p : FVec Ideal S4x128 .f32) (hp : V (Proc.devRef .tc main_arg8) = p) :
    StableHlo.after hostOps5_5 (StableHlo.after hostOps5_4 (StableHlo.after hostOps5_3 (StableHlo.after hostOps5_2 (StableHlo.after hostOps5_1 V)))) (Proc.devRef .tc main_v120)
      = Cert.KSpec.asRow (Cert.KSpec.r0 (F := Ideal) p) := by
  after_results_simp
  rw [hp]
  rfl

/-- The head's weight with sixteen columns of the integer zero's float appended. -/
theorem v113_of (V : Valuation τ sig (Elt Ideal)) (p : FVec Ideal S128x112 .f32) (hp : V (Proc.devRef .tc main_arg9) = p) :
    StableHlo.after hostOps5_5 (StableHlo.after hostOps5_4 (StableHlo.after hostOps5_3 (StableHlo.after hostOps5_2 (StableHlo.after hostOps5_1 V)))) (Proc.devRef .tc main_v113)
      = Cert.KSpec.padW (F := Ideal) p := by
  after_results_simp
  simp only [ofBuf_toBuf]
  rw [hp]
  simp only [toBuf_v113, ofBuf_arg9, ofBuf_c_10]
  unfold Cert.KSpec.padW
  with_reducible rfl

/-- The head's bias with sixteen entries of the integer zero's float appended, as a row. -/
theorem v121_of (V : Valuation τ sig (Elt Ideal)) (p : FVec Ideal S112 .f32) (hp : V (Proc.devRef .tc main_arg10) = p) :
    StableHlo.after hostOps5_5 (StableHlo.after hostOps5_4 (StableHlo.after hostOps5_3 (StableHlo.after hostOps5_2 (StableHlo.after hostOps5_1 V)))) (Proc.devRef .tc main_v121)
      = Cert.KSpec.asRow (Cert.KSpec.padb (F := Ideal) p) := by
  after_results_simp
  simp only [ofBuf_toBuf]
  rw [hp]
  simp only [toBuf_v114, ofBuf_arg10, ofBuf_c_11]
  unfold Cert.KSpec.asRow Cert.KSpec.padb
  rfl

/-- At region 5's entry: the last layer's output, the head's scale and shift rows, the padded weight and the padded bias row. -/
theorem at21 (h : Cert.KSpec.Feat Ideal) (g b cb : FVec Ideal S128 .f32) (W : FVec Ideal S128x128 .f32)
    (hk : Kept m c (W14 m ρ c)) (hx : W14 m ρ c (Proc.devRef .tc main_v90) = h) (hg : W14 m ρ c (Proc.devRef .tc main_v99) = Cert.KSpec.asRow g) (hb : W14 m ρ c (Proc.devRef .tc main_v100) = Cert.KSpec.asRow b)
    (hW : W14 m ρ c (Proc.devRef .tc main_v96) = W) (hcb : W14 m ρ c (Proc.devRef .tc main_v101) = Cert.KSpec.asRow cb) (hsd : W14 m ρ c (Proc.devRef .tc main_v102) = Cert.KSpec.sdCol (F := Ideal) (dst m c) (ew m c)) :
    W21 m ρ c (Proc.devRef .tc main_v112) = Cert.KSpec.res (F := Ideal) h g b W cb (src m c) (dst m c) (ew m c)
      ∧ W21 m ρ c (Proc.devRef .tc main_v119) = Cert.KSpec.asRow (Cert.KSpec.r0 (F := Ideal) (a m c main_arg7))
      ∧ W21 m ρ c (Proc.devRef .tc main_v120) = Cert.KSpec.asRow (Cert.KSpec.r0 (F := Ideal) (a m c main_arg8))
      ∧ W21 m ρ c (Proc.devRef .tc main_v113) = Cert.KSpec.padW (F := Ideal) (a m c main_arg9)
      ∧ W21 m ρ c (Proc.devRef .tc main_v121) = Cert.KSpec.asRow (Cert.KSpec.padb (F := Ideal) (a m c main_arg10)) := by
  have k15 := w15_kept m ρ c hk
  have k16 := kept5 m c (W15 m ρ c) k15
  have p15 := w15_prod m ρ c h g b W hx hg hb hW
  have s16 := (self5 (W15 m ρ c)).trans (w15_self m ρ c h g b cb W hx hg hb hW hcb hsd)
  have x16 := (in5 (W15 m ρ c)).trans ((w15_in m ρ c).trans hx)
  have t16 := take_of (W15 m ρ c) _ _ p15 k15.v1
  refine ⟨?_, ?_, ?_, ?_, ?_⟩
  · exact res_of (StableHlo.after hostOps5 (W15 m ρ c)) h g b cb W (src m c) (dst m c) (ew m c) t16 k16.v28 k16.v3 s16 x16
  · exact v119_of _ _ k16.a7
  · exact v120_of _ _ k16.a8
  · exact v113_of _ _ k16.a9
  · exact v121_of _ _ k16.a10

end Cert.KernelIdeal.KStep4

end
-- ==== Proof.Region5.lean ====
/-
  Region 5 (the head's kernel: row normalisation, clamp, product with the padded weight, plus the padded bias row), whole array.

  The road: the row function of the head on the extended reals (the mean of a row, its inverse root variance, the
  normalised, scaled, shifted and clamped entry, and the product with a column of the weight plus the bias); the
  kernel's payload on a block read at (r, q) is that function of the block's row r; the whole-array function read at
  (i, q) is that function of the array's row i; the block of point t is rows 5000·t … 5000·t + 4999 of the array and the
  other windows are whole at every point, so what point t writes back is block t of the whole-array function; the ten
  blocks tile the array.
-/
import proofs.«413863_j12395275616334_2_alg».proof.Proof.Gen.KernelIdeal.Frame
import proofs.«413863_j12395275616334_2_alg».proof.Proof.Gen.KernelIdeal
import proofs.«413863_j12395275616334_2_alg».proof.Proof.Gen.ReferenceIdeal
import proofs.«413863_j12395275616334_2_alg».proof.Proof.KSpec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Region5
open Idealize.ShloMosaic Idealize.ShloMosaic.TcCoe Idealize.SL.Sem Cert.KernelIdeal Cert.KernelIdeal.Gen
open Idealize.ShloMosaic.ValueIdx
open scoped BigOperators

variable (V : (c : Dev nD) → (b : Ref sig .tc) → Buf (Elt Ideal) ((c : Thread nD τ).loc b))

/-! ## The head's row function on the extended reals -/

/-- The mean of 128 extended reals: their sum divided by 128. -/
def mean (x : Fin 128 → EReal) : EReal := Ideal.div (∑ k : Fin 128, x k) (Ideal.ofBits .f32 0x43000000#32)

/-- The inverse root of a row's variance plus the small constant. -/
def invStd (x : Fin 128 → EReal) : EReal :=
  Ideal.rsqrt (mean (fun j => (x j - mean x) * (x j - mean x)) + Ideal.ofBits .f32 0x3727C5AC#32)

/-- Entry k of the row normalised, scaled by g, shifted by b and clamped at zero. -/
def nrm (x g b : Fin 128 → EReal) (k : Fin 128) : EReal :=
  max ((x k - mean x) * invStd x * g k + b k) (Ideal.ofBits .f32 0x00000000#32)

/-- Entry q of the head's row: the normalised row times column q of the weight, plus the bias. -/
def headAt (x g b : Fin 128 → EReal) (W : Fin 128 → Fin 128 → EReal) (lb : Fin 128 → EReal) (q : Fin 128) : EReal :=
  (∑ k : Fin 128, nrm x g b k * W k q) + lb q

/-! ## The kernel's payload, stage by stage -/

section Payload
variable {F : FTy → Type} [FloatOps F]

/-- The mean of each row of a block as a [5000,1] column: the lane sum, cast to a column, divided by 128. -/
def meanCol (v : FVec F S5000x128 .f32) : FVec F S5000x1 .f32 :=
  divf (shapeCast S5000x1 (multiReduction .add [1] S5000 v 0x00000000#32 reduces_S5000x128_S5000 (.inl rfl) rfl) shapeCasts_S5000_S5000x1)
    (broadcast S5000x1 (Scalar.ofBits .f32 0x43000000#32))

/-- A [5000,1] column laid beside every one of the 128 lanes. -/
def spread (s : FVec F S5000x1 .f32) : FVec F S5000x128 .f32 := broadcastTo S5000x128 s broadcasts_S5000x1_S5000x128

/-- A [1,128] row laid under every one of the 5000 rows of a block. -/
def under (g : FVec F S1x128 .f32) : FVec F S5000x128 .f32 :=
  broadcastTo S5000x128 (shapeCast S1x128 g shapeCasts_S1x128_S1x128) broadcasts_S1x128_S5000x128

/-- The block's rows normalised, scaled, shifted and clamped: the payload up to its product. -/
def lnBlk (x : FVec F S5000x128 .f32) (g b : FVec F S1x128 .f32) : FVec F S5000x128 .f32 :=
  maximumf
    (addf (mulf (mulf (subf x (spread (meanCol x)))
        (spread (rsqrt (addf (meanCol (mulf (subf x (spread (meanCol x))) (subf x (spread (meanCol x)))))
          (broadcast S5000x1 (Scalar.ofBits .f32 0x3727C5AC#32))))))
      (under g)) (under b))
    (broadcast S5000x128 (Scalar.ofBits .f32 0x00000000#32))

/-- The payload is the product of the normalised block with the weight, into a zero accumulator, plus the bias row. -/
theorem pay_eq (x0 : Vec F S5000x128 .f32) (x1 x2 : Vec F S1x128 .f32) (x3 : Vec F S128x128 .f32) (x4 : Vec F S1x128 .f32) :
    k5_pay1 x0 x1 x2 x3 x4
      = addf (matmul dot_S5000x128_S128x128_S5000x128_1_0_0_1_n_n none
          (lnBlk (shapeCast S5000x128 x0 shapeCasts_S5000x128_S5000x128) x1 x2)
          (shapeCast S128x128 x3 shapeCasts_S128x128_S128x128) (constant S5000x128 .f32 0x00000000#32)) (under x4) := rfl

end Payload

/-! ## The stages read at an index, at the ideal values -/

/-- The mean column at row r is the mean of the block's row r. -/
theorem meanCol_apply (v : FVec Ideal S5000x128 .f32) (r : Fin 5000) (z : Fin 1) :
    meanCol v (ix2 r z) = mean (fun k => v (ix2 r k)) := by
  unfold meanCol mean
  show Ideal.div (shapeCast S5000x1 (multiReduction .add [1] S5000 v 0x00000000#32 reduces_S5000x128_S5000 (.inl rfl) rfl) shapeCasts_S5000_S5000x1 (ix2 r z)) _ = _
  refine congrArg₂ Ideal.div ?_ rfl
  refine (shapeCast_apply _ shapeCasts_S5000_S5000x1 (ix2 r z) (ix1 r) ?_).trans ?_
  · rw [Shape.rowMajor_val_one, Shape.rowMajor_val_two]
    show r.val = r.val * 1 + z.val
    have := z.isLt; omega
  · refine (Ideal.multiReduction_add_single v 0x00000000#32 reduces_S5000x128_S5000 (.inl rfl) rfl (ix1 r)).trans ?_
    exact Finset.sum_congr rfl fun k _ => congrArg v (funext fun a => Fin.ext (by match a with | ⟨0, _⟩ => rfl | ⟨1, _⟩ => rfl))

/-- A column laid beside the lanes reads, at (r, q), the column at r. -/
theorem spread_apply (s : FVec Ideal S5000x1 .f32) (r : Fin 5000) (q : Fin 128) : spread s (ix2 r q) = s (ix2 r (0 : Fin 1)) := by
  unfold spread
  refine broadcastTo_apply s broadcasts_S5000x1_S5000x128 (ix2 r q) (ix2 r (0 : Fin 1)) fun a => ?_
  match a with
  | ⟨0, _⟩ => rfl
  | ⟨1, _⟩ => rfl

/-- A row laid under the block's rows reads, at (r, q), the row at q. -/
theorem under_apply (g : FVec Ideal S1x128 .f32) (r : Fin 5000) (q : Fin 128) : under g (ix2 r q) = g (ix2 (0 : Fin 1) q) := by
  unfold under
  rw [shapeCast_self]
  exact broadcastTo_1b_ab_apply g broadcasts_S1x128_S5000x128 r q

/-- The normalised block at (r, k) is entry k of the normalised row r. -/
theorem lnBlk_apply (x : FVec Ideal S5000x128 .f32) (g b : FVec Ideal S1x128 .f32) (r : Fin 5000) (k : Fin 128) :
    lnBlk x g b (ix2 r k) = nrm (fun j => x (ix2 r j)) (fun j => g (ix2 (0 : Fin 1) j)) (fun j => b (ix2 (0 : Fin 1) j)) k := by
  have hm : ∀ j : Fin 128, spread (meanCol x) (ix2 r j) = mean (fun j => x (ix2 r j)) :=
    fun j => (spread_apply _ r j).trans (meanCol_apply x r 0)
  have hv : (fun j : Fin 128 => mulf (subf x (spread (meanCol x))) (subf x (spread (meanCol x))) (ix2 r j))
      = fun j => (x (ix2 r j) - mean (fun j => x (ix2 r j))) * (x (ix2 r j) - mean (fun j => x (ix2 r j))) := funext fun j => by
    show (x (ix2 r j) - spread (meanCol x) (ix2 r j)) * (x (ix2 r j) - spread (meanCol x) (ix2 r j)) = _
    rw [hm j]
  unfold lnBlk nrm invStd
  show max ((x (ix2 r k) - spread (meanCol x) (ix2 r k))
      * spread (rsqrt (addf (meanCol (mulf (subf x (spread (meanCol x))) (subf x (spread (meanCol x)))))
          (broadcast S5000x1 (Scalar.ofBits .f32 0x3727C5AC#32)))) (ix2 r k)
      * under g (ix2 r k) + under b (ix2 r k)) (Ideal.ofBits .f32 0x00000000#32) = _
  rw [hm k, under_apply, under_apply, spread_apply]
  show max ((x (ix2 r k) - mean (fun j => x (ix2 r j)))
      * Ideal.rsqrt (meanCol (mulf (subf x (spread (meanCol x))) (subf x (spread (meanCol x)))) (ix2 r (0 : Fin 1)) + Ideal.ofBits .f32 0x3727C5AC#32)
      * g (ix2 (0 : Fin 1) k) + b (ix2 (0 : Fin 1) k)) (Ideal.ofBits .f32 0x00000000#32) = _
  rw [meanCol_apply, hv]

/-! ## The product read at an index -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block's product into a zero accumulator at (r, q): the sum over k of A(r,k)·B(k,q). -/
theorem prod_apply (A : FVec Ideal S5000x128 .f32) (B : FVec Ideal S128x128 .f32) (r : Fin 5000) (q : Fin 128) :
    matmul dot_S5000x128_S128x128_S5000x128_1_0_0_1_n_n none A B (constant S5000x128 .f32 0x00000000#32) (ix2 r q)
      = ∑ k : Fin 128, A (ix2 r k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k :=
    funext fun a => Fin.ext (by
      match a with
      | ⟨0, _⟩ => exact lhs_0 _ _
      | ⟨1, _⟩ => exact (lhs_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-- THE PAYLOAD AT (r, q): the head's row function of the block's row r, the two rows, the weight and the bias row. -/
theorem pay_apply (x0 : Vec Ideal S5000x128 .f32) (x1 x2 : Vec Ideal S1x128 .f32) (x3 : Vec Ideal S128x128 .f32) (x4 : Vec Ideal S1x128 .f32)
    (r : Fin 5000) (q : Fin 128) :
    k5_pay1 (F := Ideal) x0 x1 x2 x3 x4 (ix2 r q)
      = headAt (fun k => x0 (ix2 r k)) (fun k => x1 (ix2 (0 : Fin 1) k)) (fun k => x2 (ix2 (0 : Fin 1) k))
          (fun k j => x3 (ix2 k j)) (fun j => x4 (ix2 (0 : Fin 1) j)) q := by
  rw [pay_eq]
  unfold headAt
  show matmul dot_S5000x128_S128x128_S5000x128_1_0_0_1_n_n none
        (lnBlk (shapeCast S5000x128 x0 shapeCasts_S5000x128_S5000x128) x1 x2)
        (shapeCast S128x128 x3 shapeCasts_S128x128_S128x128) (constant S5000x128 .f32 0x00000000#32) (ix2 r q) + under (F := Ideal) x4 (ix2 r q) = _
  rw [prod_apply, under_apply, shapeCast_self, shapeCast_self]
  refine congrArg (· + _) (Finset.sum_congr rfl fun k _ => ?_)
  rw [lnBlk_apply]

/-! ## The whole-array function read at an index, at the ideal values -/

/-- A [1,128] row laid under every row reads, at (i, q), the row at q. -/
theorem rowB_apply (b : FVec Ideal Cert.ReferenceIdeal.S1x128 .f32) (i : Fin 50000) (q : Fin 128) :
    Cert.Spec.rowB b (ix2 i q) = b (ix2 (0 : Fin 1) q) := by
  unfold Cert.Spec.rowB
  refine broadcastInDim_apply _ _ b (ix2 i q) (ix2 (0 : Fin 1) q) fun a => ?_
  match a with
  | ⟨0, _⟩ => rfl
  | ⟨1, _⟩ => rfl

/-- A [50000,1] column laid beside every column reads, at (i, q), the column at i. -/
theorem colB_apply (s : FVec Ideal Cert.ReferenceIdeal.S50000x1 .f32) (i : Fin 50000) (q : Fin 128) :
    Cert.Spec.colB s (ix2 i q) = s (ix2 i (0 : Fin 1)) := by
  unfold Cert.Spec.colB
  refine broadcastInDim_apply _ _ s (ix2 i q) (ix2 i (0 : Fin 1)) fun a => ?_
  match a with
  | ⟨0, _⟩ => rfl
  | ⟨1, _⟩ => rfl

/-- The row mean at row i is the mean of the array's row i. -/
theorem rowMean_apply (h : FVec Ideal Cert.ReferenceIdeal.S50000x128 .f32) (i : Fin 50000) (z : Fin 1) :
    Cert.Spec.rowMean h (ix2 i z) = mean (fun k => h (ix2 i k)) := by
  unfold Cert.Spec.rowMean mean
  show Ideal.div (broadcastInDim Cert.ReferenceIdeal.S50000x1 ![0] Cert.ReferenceIdeal.Facts₀.bcast_S50000_S50000x1_0
      (Host.reduceAdd h (constant Cert.ReferenceIdeal.S_ .f32 0x00000000#32) Cert.ReferenceIdeal.Facts₀.reducesTo_S50000x128_S50000_d1 Cert.ReferenceIdeal.Facts₀.h_S_) (ix2 i z))
    (Ideal.ofBits .f32 0x43000000#32) = _
  refine congrArg₂ Ideal.div ?_ rfl
  refine (broadcastInDim_apply _ _ _ (ix2 i z) (ix1 i) fun a => ?_).trans ?_
  · match a with
    | ⟨0, _⟩ => rfl
  · unfold Host.reduceAdd
    rw [Ideal.hostReduceAdd_def, Ideal.hostReduceAdd_single _ (by decide)]
    show Ideal.ofBits .f32 0x00000000#32 + _ = _
    rw [Ideal.ofBits_zero_f32, zero_add]
    exact Finset.sum_congr rfl fun k _ => congrArg h (funext fun a => Fin.ext (by match a with | ⟨0, _⟩ => rfl | ⟨1, _⟩ => rfl))

/-- The normalised, clamped array at (i, k) is entry k of the normalised row i. -/
theorem lnrelu_apply (h : FVec Ideal Cert.ReferenceIdeal.S50000x128 .f32) (g b : FVec Ideal Cert.ReferenceIdeal.S1x128 .f32) (i : Fin 50000) (k : Fin 128) :
    Cert.Spec.lnrelu h g b (ix2 i k) = nrm (fun j => h (ix2 i j)) (fun j => g (ix2 (0 : Fin 1) j)) (fun j => b (ix2 (0 : Fin 1) j)) k := by
  have hm : ∀ j : Fin 128, Cert.Spec.colB (Cert.Spec.rowMean h) (ix2 i j) = mean (fun j => h (ix2 i j)) :=
    fun j => (colB_apply _ i j).trans (rowMean_apply h i 0)
  have hv : (fun j : Fin 128 => mulf (Cert.Spec.centred h) (Cert.Spec.centred h) (ix2 i j))
      = fun j => (h (ix2 i j) - mean (fun j => h (ix2 i j))) * (h (ix2 i j) - mean (fun j => h (ix2 i j))) := funext fun j => by
    unfold Cert.Spec.centred
    show (h (ix2 i j) - Cert.Spec.colB (Cert.Spec.rowMean h) (ix2 i j)) * (h (ix2 i j) - Cert.Spec.colB (Cert.Spec.rowMean h) (ix2 i j)) = _
    rw [hm j]
  unfold Cert.Spec.lnrelu nrm invStd
  show max ((Cert.Spec.centred h (ix2 i k) * Cert.Spec.colB (Cert.Spec.rowInvStd h) (ix2 i k)) * Cert.Spec.rowB g (ix2 i k) + Cert.Spec.rowB b (ix2 i k))
      (Ideal.ofBits .f32 0x00000000#32) = _
  rw [rowB_apply, rowB_apply, colB_apply]
  unfold Cert.Spec.rowInvStd
  show max (((h (ix2 i k) - Cert.Spec.colB (Cert.Spec.rowMean h) (ix2 i k))
      * Ideal.rsqrt (Cert.Spec.rowMean (mulf (Cert.Spec.centred h) (Cert.Spec.centred h)) (ix2 i (0 : Fin 1)) + Ideal.ofBits .f32 0x3727C5AC#32))
      * g (ix2 (0 : Fin 1) k) + b (ix2 (0 : Fin 1) k)) (Ideal.ofBits .f32 0x00000000#32) = _
  rw [hm k, rowMean_apply, hv]

/-! ## The whole-array product read at an index -/

theorem rl_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide),
    dif_pos (show (0 : Fin Cert.ReferenceIdeal.S50000x128.rank) ∈ Cert.ReferenceIdeal.dot_S50000x128_S128x128_S50000x128_1_0_0_1_n_n.lhsNonContracting by decide)]
  rfl
theorem rl_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rr_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rr_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide),
    dif_pos (show (1 : Fin Cert.ReferenceIdeal.S128x128.rank) ∈ Cert.ReferenceIdeal.dot_S50000x128_S128x128_S50000x128_1_0_0_1_n_n.rhsNonContracting by decide)]
  rfl

/-- The whole-array product at (i, q): the sum over k of x(i,k)·W(k,q). -/
theorem mm_apply (x : FVec Ideal Cert.ReferenceIdeal.S50000x128 .f32) (W : FVec Ideal Cert.ReferenceIdeal.S128x128 .f32) (i : Fin 50000) (q : Fin 128) :
    Cert.Spec.mm x W (ix2 i q) = ∑ k : Fin 128, x (ix2 i k) * W (ix2 k q) := by
  unfold Cert.Spec.mm
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 i q) ((contrEquiv1 Cert.ReferenceIdeal.dot_S50000x128_S128x128_S50000x128_1_0_0_1_n_n 128 rfl rfl).symm k) = ix2 i k :=
    funext fun a => Fin.ext (by
      match a with
      | ⟨0, _⟩ => exact rl_0 _ _
      | ⟨1, _⟩ => exact (rl_1 _ _).trans hk)
  have er : Cert.ReferenceIdeal.dot_S50000x128_S128x128_S50000x128_1_0_0_1_n_n.rhsIdx (ix2 i q) ((contrEquiv1 Cert.ReferenceIdeal.dot_S50000x128_S128x128_S50000x128_1_0_0_1_n_n 128 rfl rfl).symm k) = ix2 k q :=
    funext fun a => Fin.ext (by
      match a with
      | ⟨0, _⟩ => exact (rr_0 _ _).trans hk
      | ⟨1, _⟩ => exact rr_1 _ _)
  rw [el, er]

/-- THE WHOLE-ARRAY FUNCTION AT (i, q): the head's row function of the array's row i. -/
theorem lin_apply (h : FVec Ideal Cert.ReferenceIdeal.S50000x128 .f32) (g b : FVec Ideal Cert.ReferenceIdeal.S1x128 .f32)
    (W : FVec Ideal Cert.ReferenceIdeal.S128x128 .f32) (lb : FVec Ideal Cert.ReferenceIdeal.S1x128 .f32) (i : Fin 50000) (q : Fin 128) :
    Cert.Spec.lin (Cert.Spec.lnrelu h g b) W lb (ix2 i q)
      = headAt (fun k => h (ix2 i k)) (fun k => g (ix2 (0 : Fin 1) k)) (fun k => b (ix2 (0 : Fin 1) k))
          (fun k j => W (ix2 k j)) (fun j => lb (ix2 (0 : Fin 1) j)) q := by
  unfold Cert.Spec.lin headAt
  show Cert.Spec.mm (Cert.Spec.lnrelu h g b) W (ix2 i q) + Cert.Spec.rowB lb (ix2 i q) = _
  rw [mm_apply, rowB_apply]
  refine congrArg (· + _) (Finset.sum_congr rfl fun k _ => ?_)
  rw [lnrelu_apply]

/-! ## From the blocks to the array -/

theorem hz : (![0, 0] : Fin 2 → Nat) = fun _ => 0 := funext fun a => by fin_cases a <;> rfl

/-- The printed index maps, decided over the grid: the [5000,128] windows' block index is (t, 0), the whole windows' (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The feature window's block at point t is rows 5000·t … 5000·t + 4999 of its array. -/
theorem xblk_apply (c : Dev nD) (t : Fin cfg5.N) (r : Fin 5000) (k : Fin 128) (hr : t.val * 5000 + r.val < 50000) :
    (iblk5 V c 0 t : Vec Ideal S5000x128 .f32) (ix2 r k)
      = (V c main_v112 : S50000x128.Idx → EReal) (ix2 (⟨t.val * 5000 + r.val, hr⟩ : Fin 50000) k) := by
  obtain ⟨e0, e1, -⟩ := idx_facts t
  unfold iblk5
  rw [View.read_apply]
  show V c main_v112 _ = V c main_v112 _
  congr 1
  funext a
  apply Fin.ext
  match a with
  | ⟨0, _⟩ => show win5_0.index t (0 : Fin 2) * 5000 + 1 * r.val = t.val * 5000 + r.val; rw [e0]; omega
  | ⟨1, _⟩ => show win5_0.index t (1 : Fin 2) * 128 + 1 * k.val = k.val; rw [e1]; omega

/-- The scale row's window holds its whole array at every point. -/
theorem gblk_eq (c : Dev nD) (t : Fin cfg5.N) : (iblk5 V c 1 t : Vec Ideal S1x128 .f32) = V c main_v119 := by
  obtain ⟨-, -, e0, e1, -⟩ := idx_facts t
  funext x
  unfold iblk5
  rw [View.read_apply]
  show V c main_v119 _ = V c main_v119 _
  congr 1
  funext a
  apply Fin.ext
  match a with
  | ⟨0, _⟩ => show win5_1.index t (0 : Fin 2) * 1 + 1 * (x 0).val = (x 0).val; rw [e0]; omega
  | ⟨1, _⟩ => show win5_1.index t (1 : Fin 2) * 128 + 1 * (x 1).val = (x 1).val; rw [e1]; omega

/-- The shift row's window holds its whole array at every point. -/
theorem bblk_eq (c : Dev nD) (t : Fin cfg5.N) : (iblk5 V c 2 t : Vec Ideal S1x128 .f32) = V c main_v120 := by
  obtain ⟨-, -, -, -, e0, e1, -⟩ := idx_facts t
  funext x
  unfold iblk5
  rw [View.read_apply]
  show V c main_v120 _ = V c main_v120 _
  congr 1
  funext a
  apply Fin.ext
  match a with
  | ⟨0, _⟩ => show win5_2.index t (0 : Fin 2) * 1 + 1 * (x 0).val = (x 0).val; rw [e0]; omega
  | ⟨1, _⟩ => show win5_2.index t (1 : Fin 2) * 128 + 1 * (x 1).val = (x 1).val; rw [e1]; omega

/-- The weight's window holds its whole array at every point. -/
theorem wblk_eq (c : Dev nD) (t : Fin cfg5.N) : (iblk5 V c 3 t : Vec Ideal S128x128 .f32) = V c main_v113 := by
  obtain ⟨-, -, -, -, -, -, e0, e1, -⟩ := idx_facts t
  funext x
  unfold iblk5
  rw [View.read_apply]
  show V c main_v113 _ = V c main_v113 _
  congr 1
  funext a
  apply Fin.ext
  match a with
  | ⟨0, _⟩ => show win5_3.index t (0 : Fin 2) * 128 + 1 * (x 0).val = (x 0).val; rw [e0]; omega
  | ⟨1, _⟩ => show win5_3.index t (1 : Fin 2) * 128 + 1 * (x 1).val = (x 1).val; rw [e1]; omega

/-- The bias row's window holds its whole array at every point. -/
theorem lblk_eq (c : Dev nD) (t : Fin cfg5.N) : (iblk5 V c 4 t : Vec Ideal S1x128 .f32) = V c main_v121 := by
  obtain ⟨-, -, -, -, -, -, -, -, e0, e1, -⟩ := idx_facts t
  funext x
  unfold iblk5
  rw [View.read_apply]
  show V c main_v121 _ = V c main_v121 _
  congr 1
  funext a
  apply Fin.ext
  match a with
  | ⟨0, _⟩ => show win5_4.index t (0 : Fin 2) * 1 + 1 * (x 0).val = (x 0).val; rw [e0]; omega
  | ⟨1, _⟩ => show win5_4.index t (1 : Fin 2) * 128 + 1 * (x 1).val = (x 1).val; rw [e1]; omega

/-- Row r of block t is inside the array. -/
theorem row_lt (t : Fin cfg5.N) (r : Fin 5000) : t.val * 5000 + r.val < 50000 := by
  have hN : cfg5.N = 10 := N_5
  have := t.isLt; have := r.isLt; omega

/-- Row r of block t, as a row of the array. -/
def rowOf (t : Fin cfg5.N) (r : Fin 5000) : Fin 50000 := ⟨t.val * 5000 + r.val, row_lt t r⟩

/-- What the array ends holding: the head of the arrays the region found. -/
abbrev G (c : Dev nD) : FVec Ideal Cert.ReferenceIdeal.S50000x128 .f32 :=
  Cert.Spec.lin (F := Ideal) (Cert.Spec.lnrelu (V c main_v112) (V c main_v119) (V c main_v120)) (V c main_v113) (V c main_v121)

/-- The payload of point t's blocks is rows 5000·t … of the head of the whole arrays. -/
theorem blk_eq (c : Dev nD) (t : Fin cfg5.N) :
    k5_pay1 (F := Ideal) (iblk5 V c 0 t) (iblk5 V c 1 t) (iblk5 V c 2 t) (iblk5 V c 3 t) (iblk5 V c 4 t)
      = fun y : S5000x128.Idx => G V c (ix2 (rowOf t (y 0)) (y 1)) := by
  funext y
  obtain ⟨r, q, rfl⟩ : ∃ (r : Fin 5000) (q : Fin 128), y = ix2 r q := ⟨y 0, y 1, eq_ix2 y⟩
  show k5_pay1 (F := Ideal) (iblk5 V c 0 t) (iblk5 V c 1 t) (iblk5 V c 2 t) (iblk5 V c 3 t) (iblk5 V c 4 t) (ix2 r q) = G V c (ix2 (rowOf t r) q)
  refine (pay_apply (iblk5 V c 0 t) (iblk5 V c 1 t) (iblk5 V c 2 t) (iblk5 V c 3 t) (iblk5 V c 4 t) r q).trans ?_
  refine Eq.trans ?_ (lin_apply (V c main_v112) (V c main_v119) (V c main_v120) (V c main_v113) (V c main_v121) (rowOf t r) q).symm
  rw [gblk_eq V c t, bblk_eq V c t, wblk_eq V c t, lblk_eq V c t]
  exact congrArg (fun x => headAt x _ _ _ _ q) (funext fun k => xblk_apply V c t r k (row_lt t r))

/-- WHAT POINT t WRITES BACK is block t of the head of the arrays the region found. -/
theorem flushed_eq (c : Dev nD) (t : Fin cfg5.N) :
    (dat5 (F := Ideal) V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz, View.ld_unit_zero (S := S128x128) hz]
  rw [blk_eq]
  obtain ⟨-, -, -, -, -, -, -, -, -, -, e0, e1⟩ := idx_facts t
  funext j
  rw [View.read_apply]
  show G V c (ix2 (rowOf t (j 0)) (j 1)) = G V c (((cfg5.win 5).blk t).view.emb j)
  refine congrArg (G V c) (funext fun a => Fin.ext ?_)
  match a with
  | ⟨0, _⟩ => show t.val * 5000 + (j 0).val = win5_5.index t (0 : Fin 2) * 5000 + 1 * (j 0).val; rw [e0]; omega
  | ⟨1, _⟩ => show (j 1).val = win5_5.index t (1 : Fin 2) * 128 + 1 * (j 1).val; rw [e1]; omega

/-- An index of the array is in point t's block iff each coordinate is in the block's range on its axis. -/
theorem mem_blk (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v122).slice (win5_5.rect t)).set ↔ _
  rw [View.set_slice_whole, Rect.mem_set_unit]
  exact Iff.rfl

/-- The output's blocks tile the array: row i is in the block of point i / 5000. -/
theorem cover (i : S50000x128.Idx) : ∃ t : Fin cfg5.N, (cfg5.win 5).flush t = true ∧ i ∈ ((cfg5.win 5).blk t).view.set := by
  have hN : cfg5.N = 10 := N_5
  have hi0 : (i 0).val < 50000 := (i 0).isLt
  have hi1 : (i 1).val < 128 := (i 1).isLt
  obtain ⟨t, ht⟩ : ∃ t : Fin cfg5.N, t.val = (i 0).val / 5000 := ⟨⟨(i 0).val / 5000, by rw [hN]; omega⟩, rfl⟩
  obtain ⟨-, -, -, -, -, -, -, -, -, -, e0, e1⟩ := idx_facts t
  refine ⟨t, flush5_5 t, ?_⟩
  rw [mem_blk]
  intro a
  match a with
  | ⟨0, _⟩ => show win5_5.index t (0 : Fin 2) * 5000 ≤ (i 0).val ∧ (i 0).val < win5_5.index t (0 : Fin 2) * 5000 + 5000; rw [e0, ht]; omega
  | ⟨1, _⟩ => show win5_5.index t (1 : Fin 2) * 128 ≤ (i 1).val ∧ (i 1).val < win5_5.index t (1 : Fin 2) * 128 + 128; rw [e1]; omega

/-- The output array after region 5. -/
theorem arr5_5 (c : Dev nD) : (dat5 (F := Ideal) V c).arrAt 5 cfg5.N
    = Cert.Spec.lin (F := Ideal) (Cert.Spec.lnrelu (V c main_v112) (V c main_v119) (V c main_v120)) (V c main_v113) (V c main_v121) :=
  (dat5 (F := Ideal) V c).arrAt_eq_of_cover 5 (G V c) (fun t _ => flushed_eq V c t) cover

end Cert.KernelIdeal.Region5

end
-- ==== Proof.KStep5.lean ====
/-
  From region 5's entry to the return: the head's kernel, then the slice that drops the 16 padding columns.
-/
import proofs.«413863_j12395275616334_2_alg».proof.Proof.Gen.KernelIdeal.Frame
import proofs.«413863_j12395275616334_2_alg».proof.Proof.Gen.KernelIdeal
import proofs.«413863_j12395275616334_2_alg».proof.Proof.Gen.ReferenceIdeal
import proofs.«413863_j12395275616334_2_alg».proof.Proof.KSpec
import proofs.«413863_j12395275616334_2_alg».proof.Proof.KState
import proofs.«413863_j12395275616334_2_alg».proof.Proof.Region5
import Idealize.ShloMosaic.PureOps.Ideal

set_option maxRecDepth 16384

noncomputable section

namespace Cert.KernelIdeal.KStep5
open Idealize.ShloMosaic Idealize.ShloMosaic.TcCoe Idealize.SL.Sem Cert.KernelIdeal Cert.KernelIdeal.Gen
open Cert.KernelIdeal.KState

variable (m : (ℓ : Loc nD τ sig) → Buf (Elt Ideal) ℓ) (ρ : Dev nD → PrngReg) (c : Dev nD)

/-- The last stretch over any entry contents: the returned buffer is the head kernel's array without its last 16 columns. -/
theorem ops6_v123 (V : Valuation τ sig (Elt Ideal)) : StableHlo.after hostOps6 V (Proc.devRef .tc main_v123)
    = extractStridedSlice S50000x112 ![0, 0] (V (Proc.devRef .tc main_v122) : Cert.KSpec.Feat Ideal) slices_S50000x128_S50000x112_0_0 := by
  after_results

/-- At region 5's exit its output array is the whole-array function of the five arrays the region found. -/
theorem w22_v122 (h : Cert.KSpec.Feat Ideal) (g b : FVec Ideal S128 .f32) (linW : FVec Ideal S128x112 .f32) (linb : FVec Ideal S112 .f32)
    (hx : W21 m ρ c (Proc.devRef .tc main_v112) = h) (hg : W21 m ρ c (Proc.devRef .tc main_v119) = Cert.KSpec.asRow g) (hb : W21 m ρ c (Proc.devRef .tc main_v120) = Cert.KSpec.asRow b)
    (hW : W21 m ρ c (Proc.devRef .tc main_v113) = Cert.KSpec.padW linW) (hlb : W21 m ρ c (Proc.devRef .tc main_v121) = Cert.KSpec.asRow (Cert.KSpec.padb linb)) :
    W22 m ρ c (Proc.devRef .tc main_v122)
      = Cert.Spec.lin (F := Ideal) (Cert.Spec.lnrelu h (Cert.KSpec.asRow g) (Cert.KSpec.asRow b)) (Cert.KSpec.padW linW) (Cert.KSpec.asRow (Cert.KSpec.padb linb)) := by
  refine (W22_arr m ρ c 5).trans ((Region5.arr5_5 (V21 m ρ) c).trans ?_)
  dsimp only [V21]
  rw [hx, hg, hb, hW, hlb]

/-- The returned buffer: the head of the last layer's output. -/
theorem result (h : Cert.KSpec.Feat Ideal) (g b : FVec Ideal S128 .f32) (linW : FVec Ideal S128x112 .f32) (linb : FVec Ideal S112 .f32)
    (hx : W21 m ρ c (Proc.devRef .tc main_v112) = h) (hg : W21 m ρ c (Proc.devRef .tc main_v119) = Cert.KSpec.asRow g) (hb : W21 m ρ c (Proc.devRef .tc main_v120) = Cert.KSpec.asRow b)
    (hW : W21 m ρ c (Proc.devRef .tc main_v113) = Cert.KSpec.padW linW) (hlb : W21 m ρ c (Proc.devRef .tc main_v121) = Cert.KSpec.asRow (Cert.KSpec.padb linb)) :
    W23 m ρ c (Proc.devRef .tc main_v123) = Cert.KSpec.head (F := Ideal) h g b linW linb :=
  (ops6_v123 (W22 m ρ c)).trans
    (congrArg (fun y : Cert.KSpec.Feat Ideal => extractStridedSlice S50000x112 ![0, 0] y slices_S50000x128_S50000x112_0_0)
      (w22_v122 m ρ c h g b linW linb hx hg hb hW hlb))

end Cert.KernelIdeal.KStep5

end
-- ==== Proof.KValue.lean ====
/-
  The kernel program's returned buffer, at the last boundary of its run, is `Cert.KSpec.out` of the launch contents of
  its eleven arguments: the six boundary steps chained.
-/
import proofs.«413863_j12395275616334_2_alg».proof.Proof.Gen.KernelIdeal.Frame
import proofs.«413863_j12395275616334_2_alg».proof.Proof.Gen.KernelIdeal
import proofs.«413863_j12395275616334_2_alg».proof.Proof.Gen.ReferenceIdeal
import proofs.«413863_j12395275616334_2_alg».proof.Proof.KSpec
import proofs.«413863_j12395275616334_2_alg».proof.Proof.KState
import proofs.«413863_j12395275616334_2_alg».proof.Proof.KStep0
import proofs.«413863_j12395275616334_2_alg».proof.Proof.KStep1
import proofs.«413863_j12395275616334_2_alg».proof.Proof.KStep2
import proofs.«413863_j12395275616334_2_alg».proof.Proof.KStep3
import proofs.«413863_j12395275616334_2_alg».proof.Proof.KStep4
import proofs.«413863_j12395275616334_2_alg».proof.Proof.KStep5
import Idealize.ShloMosaic.PureOps.Ideal

set_option maxRecDepth 16384

noncomputable section

namespace Cert.KernelIdeal.KValue
open Idealize.ShloMosaic Idealize.ShloMosaic.TcCoe Idealize.SL.Sem Cert.KernelIdeal Cert.KernelIdeal.Gen
open Cert.KernelIdeal.KState

variable (m : (ℓ : Loc nD τ sig) → Buf (Elt Ideal) ℓ) (ρ : Dev nD → PrngReg) (c : Dev nD)

theorem value : W23 m ρ c (Proc.devRef .tc main_v123)
    = Cert.KSpec.out (F := Ideal) (a m c main_arg0) (a m c main_arg1) (a m c main_arg2) (a m c main_arg3) (a m c main_arg4) (a m c main_arg5)
        (a m c main_arg6) (a m c main_arg7) (a m c main_arg8) (a m c main_arg9) (a m c main_arg10) := by
  obtain ⟨k5, x5, w5, c5, s5⟩ := KStep0.at5 m ρ c
  obtain ⟨k8, x8, g8, b8, w8, c8, s8⟩ := KStep1.at8 m ρ c _ _ _ k5 x5 w5 c5 s5
  obtain ⟨k11, x11, g11, b11, w11, c11, s11⟩ := KStep2.at11 m ρ c _ _ _ _ _ k8 x8 g8 b8 w8 c8 s8
  obtain ⟨k14, x14, g14, b14, w14, c14, s14⟩ := KStep3.at14 m ρ c _ _ _ _ _ k11 x11 g11 b11 w11 c11 s11
  obtain ⟨x21, g21, b21, w21, l21⟩ := KStep4.at21 m ρ c _ _ _ _ _ k14 x14 g14 b14 w14 c14 s14
  exact KStep5.result m ρ c _ _ _ _ _ x21 g21 b21 w21 l21

end Cert.KernelIdeal.KValue

end
-- ==== Proof.RefChunksA.lean ====
/-
  The first half of the reference program's fold, chunk by chunk: the launch (the two rows of the edge list, the encoder,
  layer 0's slices and product), layer 0's degrees and edge coefficients, layer 0's convolution, and the same three
  stretches of layer 1 with its normalisation and its residual sum. Each chunk's result buffers hold the shared
  whole-array functions of what the chunk found in the buffers it reads, over an arbitrary valuation; the buffers the
  later chunks still read are left as found.
-/
import proofs.«413863_j12395275616334_2_alg».proof.Proof.RefRun
import proofs.«413863_j12395275616334_2_alg».proof.Proof.Spec
import Idealize.ShloMosaic.PureOps.Ideal
import Idealize.ShloMosaic.Lib.Pipeline.Frame

set_option maxRecDepth 16384

noncomputable section

namespace Cert.ReferenceIdeal.RefChunks

open Idealize.ShloMosaic Idealize.ShloMosaic.TcCoe Idealize.SL.Sem Idealize.ShloMosaic.StableHlo Cert.ReferenceIdeal Cert.ReferenceIdeal.Gen Cert.ReferenceIdeal.ValRun

variable (W : Valuation τ sig (Elt Ideal))

/-- The eleven arguments of @main. -/
abbrev args : List (Ref sig .tc) :=
  [main_arg0, main_arg1, main_arg2, main_arg3, main_arg4, main_arg5, main_arg6, main_arg7, main_arg8, main_arg9, main_arg10]

/-- The results of a literal list of operations at a literal buffer, in one pass: each operation's result at its own
    buffer is its function's value, at any other buffer what was there; the typed references of an inlined function
    carry their contents unchanged. -/
local macro "chunk_results" : tactic => `(tactic| (simp (disch := decide) only [after_cons, after_nil,
      nullary_result', unary_result', binary_result', ternary_result', reshape_result',
      nullary_result_ne', unary_result_ne', binary_result_ne', ternary_result_ne', reshape_result_ne',
      TRef.ofBuf, TRef.toBuf, cast_eq]))

/-- Closes `after ops V (devRef b) = V (devRef b)` for a literal list of operations and a literal buffer none of them writes:
    each operation's one written buffer is another reference. -/
local macro "not_written" ops:ident : tactic => `(tactic| (
  refine after_of_forall_not_mem _ _ (List.forall_iff_forall_mem.mp ?_)
  simp only [$ops:ident, List.Forall, nullary_writes, unary_writes, binary_writes, ternary_writes, reshape_writes, Finset.mem_singleton]
  repeat' apply And.intro
  all_goals exact devRef_ne_of_ne (by decide)))

/-! ## The launch: operations 1 to 13 -/

/-- Row 0 of the edge list: every edge's source. -/
theorem ops0_v1 : after (ops0 (F := Ideal)) W (Proc.devRef .tc main_v1) = Cert.Spec.srcOf (W (Proc.devRef .tc main_arg1)) := by
  unfold ops0
  chunk_results
  rfl

/-- Row 1 of the edge list: every edge's target. -/
theorem ops0_v3 : after (ops0 (F := Ideal)) W (Proc.devRef .tc main_v3) = Cert.Spec.dstOf (W (Proc.devRef .tc main_arg1)) := by
  unfold ops0
  chunk_results
  rfl

/-- The encoder: the node features times the encoder's weight, plus its bias row. -/
theorem ops0_v7 : after (ops0 (F := Ideal)) W (Proc.devRef .tc main_v7)
    = Cert.Spec.refEnc (W (Proc.devRef .tc main_arg0)) (W (Proc.devRef .tc main_arg3)) (W (Proc.devRef .tc main_arg4)) := by
  unfold ops0
  chunk_results
  rfl

/-- Layer 0's bias: row 0 of the stack of convolution biases. -/
theorem ops0_v11 : after (ops0 (F := Ideal)) W (Proc.devRef .tc main_v11) = Cert.Spec.r0 (F := Ideal) (W (Proc.devRef .tc main_arg6)) := by
  unfold ops0
  chunk_results
  rfl

/-- Layer 0's product: the encoded features times layer 0's weight. -/
theorem ops0_v12 : after (ops0 (F := Ideal)) W (Proc.devRef .tc main_v12)
    = Cert.Spec.mm (Cert.Spec.refEnc (W (Proc.devRef .tc main_arg0)) (W (Proc.devRef .tc main_arg3)) (W (Proc.devRef .tc main_arg4))) (Cert.Spec.W0 (W (Proc.devRef .tc main_arg5))) := by
  unfold ops0
  chunk_results
  rfl

/-- The launch writes no argument. -/
theorem ops0_kept : ∀ b ∈ args, after (ops0 (F := Ideal)) W (Proc.devRef .tc b) = W (Proc.devRef .tc b) := by
  intro b hb
  simp only [args, List.mem_cons, List.not_mem_nil, or_false] at hb
  rcases hb with rfl | rfl | rfl | rfl | rfl | rfl | rfl | rfl | rfl | rfl | rfl <;> not_written ops0

/-! ## Layer 0's degrees and edge coefficients: operations 14 to 48 -/

/-- The inverse root degrees, from the targets and the edge weights. -/
theorem ops1_v21 : after (ops1 (F := Ideal)) W (Proc.devRef .tc main_v21) = Cert.Spec.dinv (W (Proc.devRef .tc main_v3)) (W (Proc.devRef .tc main_arg2)) := by
  unfold ops1
  chunk_results
  rfl

/-- The edge coefficients. -/
theorem ops1_v37 : after (ops1 (F := Ideal)) W (Proc.devRef .tc main_v37)
    = Cert.Spec.coef (W (Proc.devRef .tc main_v1)) (W (Proc.devRef .tc main_v3)) (W (Proc.devRef .tc main_arg2)) := by
  unfold ops1
  chunk_results
  rfl

/-- The stretch writes neither row of the edge list, nor the launch's results, nor an argument. -/
theorem ops1_kept : ∀ b ∈ main_v1 :: main_v3 :: main_v7 :: main_v11 :: main_v12 :: args,
    after (ops1 (F := Ideal)) W (Proc.devRef .tc b) = W (Proc.devRef .tc b) := by
  intro b hb
  simp only [args, List.mem_cons, List.not_mem_nil, or_false] at hb
  rcases hb with rfl | rfl | rfl | rfl | rfl | rfl | rfl | rfl | rfl | rfl | rfl | rfl | rfl | rfl | rfl | rfl <;> not_written ops1

/-! ## Layer 0's convolution: operations 49 to 72 -/

/-- The convolution of layer 0's product, given that the stretch finds the inverse root degrees and the edge coefficients
    in their buffers. -/
theorem ops2_v58 (h21 : W (Proc.devRef .tc main_v21) = Cert.Spec.dinv (W (Proc.devRef .tc main_v3)) (W (Proc.devRef .tc main_arg2)))
    (h37 : W (Proc.devRef .tc main_v37) = Cert.Spec.coef (W (Proc.devRef .tc main_v1)) (W (Proc.devRef .tc main_v3)) (W (Proc.devRef .tc main_arg2))) :
    after (ops2 (F := Ideal)) W (Proc.devRef .tc main_v58)
      = Cert.Spec.conv (W (Proc.devRef .tc main_v12)) (W (Proc.devRef .tc main_v1)) (W (Proc.devRef .tc main_v3)) (W (Proc.devRef .tc main_arg2)) (W (Proc.devRef .tc main_v11)) := by
  unfold ops2
  chunk_results
  rw [h21, h37]
  rfl

/-- The stretch writes neither row of the edge list nor an argument. -/
theorem ops2_kept : ∀ b ∈ main_v1 :: main_v3 :: args, after (ops2 (F := Ideal)) W (Proc.devRef .tc b) = W (Proc.devRef .tc b) := by
  intro b hb
  simp only [args, List.mem_cons, List.not_mem_nil, or_false] at hb
  rcases hb with rfl | rfl | rfl | rfl | rfl | rfl | rfl | rfl | rfl | rfl | rfl | rfl | rfl <;> not_written ops2

/-! ## Layer 1's normalisation, slices and product: operations 73 to 113 -/

/-- Layer 1's product: the normalised, clamped layer-0 output times layer 1's weight. -/
theorem ops3_v92 : after (ops3 (F := Ideal)) W (Proc.devRef .tc main_v92)
    = Cert.Spec.mm (F := Ideal) (Cert.Spec.lnrelu (W (Proc.devRef .tc main_v58)) (Cert.Spec.row1 (Cert.Spec.r1 (W (Proc.devRef .tc main_arg7))))
        (Cert.Spec.row1 (Cert.Spec.r1 (W (Proc.devRef .tc main_arg8))))) (Cert.Spec.W1 (W (Proc.devRef .tc main_arg5))) := by
  unfold ops3
  chunk_results
  rfl

/-- Layer 1's bias: row 1 of the stack of convolution biases. -/
theorem ops3_v91 : after (ops3 (F := Ideal)) W (Proc.devRef .tc main_v91) = Cert.Spec.r1 (F := Ideal) (W (Proc.devRef .tc main_arg6)) := by
  unfold ops3
  chunk_results
  rfl

/-- The stretch writes neither row of the edge list, nor layer 0's output, nor an argument. -/
theorem ops3_kept : ∀ b ∈ main_v1 :: main_v3 :: main_v58 :: args,
    after (ops3 (F := Ideal)) W (Proc.devRef .tc b) = W (Proc.devRef .tc b) := by
  intro b hb
  simp only [args, List.mem_cons, List.not_mem_nil, or_false] at hb
  rcases hb with rfl | rfl | rfl | rfl | rfl | rfl | rfl | rfl | rfl | rfl | rfl | rfl | rfl | rfl <;> not_written ops3

/-! ## Layer 1's degrees and edge coefficients: operations 114 to 148 -/

/-- The inverse root degrees again, from the same targets and edge weights. -/
theorem ops4_v101 : after (ops4 (F := Ideal)) W (Proc.devRef .tc main_v101) = Cert.Spec.dinv (W (Proc.devRef .tc main_v3)) (W (Proc.devRef .tc main_arg2)) := by
  unfold ops4
  chunk_results
  rfl

/-- The edge coefficients again. -/
theorem ops4_v117 : after (ops4 (F := Ideal)) W (Proc.devRef .tc main_v117)
    = Cert.Spec.coef (W (Proc.devRef .tc main_v1)) (W (Proc.devRef .tc main_v3)) (W (Proc.devRef .tc main_arg2)) := by
  unfold ops4
  chunk_results
  rfl

/-- The stretch writes neither row of the edge list, nor layer 0's output, nor layer 1's bias and product, nor an argument. -/
theorem ops4_kept : ∀ b ∈ main_v1 :: main_v3 :: main_v58 :: main_v91 :: main_v92 :: args,
    after (ops4 (F := Ideal)) W (Proc.devRef .tc b) = W (Proc.devRef .tc b) := by
  intro b hb
  simp only [args, List.mem_cons, List.not_mem_nil, or_false] at hb
  rcases hb with rfl | rfl | rfl | rfl | rfl | rfl | rfl | rfl | rfl | rfl | rfl | rfl | rfl | rfl | rfl | rfl <;> not_written ops4

/-! ## Layer 1's convolution and residual sum: operations 149 to 173 -/

/-- Layer 1's output: layer 0's output plus the convolution of layer 1's product, given that the stretch finds the inverse
    root degrees and the edge coefficients in their buffers. -/
theorem ops5_v139 (h101 : W (Proc.devRef .tc main_v101) = Cert.Spec.dinv (W (Proc.devRef .tc main_v3)) (W (Proc.devRef .tc main_arg2)))
    (h117 : W (Proc.devRef .tc main_v117) = Cert.Spec.coef (W (Proc.devRef .tc main_v1)) (W (Proc.devRef .tc main_v3)) (W (Proc.devRef .tc main_arg2))) :
    after (ops5 (F := Ideal)) W (Proc.devRef .tc main_v139)
      = addf (W (Proc.devRef .tc main_v58)) (Cert.Spec.conv (W (Proc.devRef .tc main_v92)) (W (Proc.devRef .tc main_v1)) (W (Proc.devRef .tc main_v3)) (W (Proc.devRef .tc main_arg2)) (W (Proc.devRef .tc main_v91))) := by
  unfold ops5
  chunk_results
  rw [h101, h117]
  rfl

/-- The stretch writes neither row of the edge list nor an argument. -/
theorem ops5_kept : ∀ b ∈ main_v1 :: main_v3 :: args, after (ops5 (F := Ideal)) W (Proc.devRef .tc b) = W (Proc.devRef .tc b) := by
  intro b hb
  simp only [args, List.mem_cons, List.not_mem_nil, or_false] at hb
  rcases hb with rfl | rfl | rfl | rfl | rfl | rfl | rfl | rfl | rfl | rfl | rfl | rfl | rfl <;> not_written ops5

/-! ## The six stretches in a row -/

/-- The launch, layer 0 and layer 1, one after the other. -/
abbrev firstHalf : List (HloOp τ sig (Elt Ideal)) := ops0 ++ ops1 ++ ops2 ++ ops3 ++ ops4 ++ ops5

/-- What every stage of the chain keeps of the start `W`: the sources and the targets in their buffers, and the arguments. -/
private structure Base (V : Valuation τ sig (Elt Ideal)) : Prop where
  src : V (Proc.devRef .tc main_v1) = Cert.Spec.srcOf (W (Proc.devRef .tc main_arg1))
  dst : V (Proc.devRef .tc main_v3) = Cert.Spec.dstOf (W (Proc.devRef .tc main_arg1))
  arg : ∀ b ∈ args, V (Proc.devRef .tc b) = W (Proc.devRef .tc b)

/-- A stretch that writes neither row of the edge list nor an argument keeps that. -/
private theorem Base.step {W V : Valuation τ sig (Elt Ideal)} (h : Base W V) (l : List (HloOp τ sig (Elt Ideal)))
    (k1 : after l V (Proc.devRef .tc main_v1) = V (Proc.devRef .tc main_v1))
    (k3 : after l V (Proc.devRef .tc main_v3) = V (Proc.devRef .tc main_v3))
    (ka : ∀ b ∈ args, after l V (Proc.devRef .tc b) = V (Proc.devRef .tc b)) : Base W (after l V) :=
  ⟨k1.trans h.src, k3.trans h.dst, fun b hb => (ka b hb).trans (h.arg b hb)⟩

section Chain

-- The sources, the targets and the edge weights of the start's arguments; layer 0's output of them; the six stages.
local notation "src₀" => Cert.Spec.srcOf (W (Proc.devRef Proc.tc main_arg1))
local notation "dst₀" => Cert.Spec.dstOf (W (Proc.devRef Proc.tc main_arg1))
local notation "ew₀" => W (Proc.devRef Proc.tc main_arg2)
local notation "h₀" => Cert.Spec.conv (Cert.Spec.mm (Cert.Spec.refEnc (W (Proc.devRef Proc.tc main_arg0)) (W (Proc.devRef Proc.tc main_arg3)) (W (Proc.devRef Proc.tc main_arg4))) (Cert.Spec.W0 (W (Proc.devRef Proc.tc main_arg5)))) src₀ dst₀ ew₀ (Cert.Spec.r0 (W (Proc.devRef Proc.tc main_arg6)))
local notation "V₁" => after (ops0 (F := Ideal)) W
local notation "V₂" => after (ops1 (F := Ideal)) V₁
local notation "V₃" => after (ops2 (F := Ideal)) V₂
local notation "V₄" => after (ops3 (F := Ideal)) V₃
local notation "V₅" => after (ops4 (F := Ideal)) V₄
local notation "V₆" => after (ops5 (F := Ideal)) V₅

private theorem base1 : Base W V₁ := ⟨ops0_v1 W, ops0_v3 W, ops0_kept W⟩

private theorem s1_v11 : V₁ (Proc.devRef .tc main_v11) = Cert.Spec.r0 (F := Ideal) (W (Proc.devRef .tc main_arg6)) := ops0_v11 W

private theorem s1_v12 : V₁ (Proc.devRef .tc main_v12)
    = Cert.Spec.mm (Cert.Spec.refEnc (W (Proc.devRef .tc main_arg0)) (W (Proc.devRef .tc main_arg3)) (W (Proc.devRef .tc main_arg4))) (Cert.Spec.W0 (W (Proc.devRef .tc main_arg5))) := ops0_v12 W

private theorem base2 : Base W V₂ :=
  (base1 W).step ops1 (ops1_kept V₁ main_v1 (by decide)) (ops1_kept V₁ main_v3 (by decide))
    fun b hb => ops1_kept V₁ b (List.mem_cons_of_mem _ (List.mem_cons_of_mem _ (List.mem_cons_of_mem _ (List.mem_cons_of_mem _ (List.mem_cons_of_mem _ hb)))))

private theorem s2_v11 : V₂ (Proc.devRef .tc main_v11) = Cert.Spec.r0 (F := Ideal) (W (Proc.devRef .tc main_arg6)) :=
  (ops1_kept V₁ main_v11 (by decide)).trans (s1_v11 W)

private theorem s2_v12 : V₂ (Proc.devRef .tc main_v12)
    = Cert.Spec.mm (Cert.Spec.refEnc (W (Proc.devRef .tc main_arg0)) (W (Proc.devRef .tc main_arg3)) (W (Proc.devRef .tc main_arg4))) (Cert.Spec.W0 (W (Proc.devRef .tc main_arg5))) :=
  (ops1_kept V₁ main_v12 (by decide)).trans (s1_v12 W)

private theorem s2_v21 : V₂ (Proc.devRef .tc main_v21) = Cert.Spec.dinv dst₀ ew₀ := by
  have h := ops1_v21 V₁
  rw [(base1 W).dst, (base1 W).arg main_arg2 (by decide)] at h
  exact h

private theorem s2_v37 : V₂ (Proc.devRef .tc main_v37) = Cert.Spec.coef src₀ dst₀ ew₀ := by
  have h := ops1_v37 V₁
  rw [(base1 W).src, (base1 W).dst, (base1 W).arg main_arg2 (by decide)] at h
  exact h

private theorem base3 : Base W V₃ :=
  (base2 W).step ops2 (ops2_kept V₂ main_v1 (by decide)) (ops2_kept V₂ main_v3 (by decide))
    fun b hb => ops2_kept V₂ b (List.mem_cons_of_mem _ (List.mem_cons_of_mem _ hb))

/-- After layer 0's convolution its output buffer holds the convolution of the encoded features' product. -/
private theorem s3_v58 : V₃ (Proc.devRef .tc main_v58) = h₀ := by
  have h := ops2_v58 V₂
    (by rw [s2_v21 W, (base2 W).dst, (base2 W).arg main_arg2 (by decide)])
    (by rw [s2_v37 W, (base2 W).src, (base2 W).dst, (base2 W).arg main_arg2 (by decide)])
  rw [s2_v12 W, (base2 W).src, (base2 W).dst, (base2 W).arg main_arg2 (by decide), s2_v11 W] at h
  exact h

private theorem base4 : Base W V₄ :=
  (base3 W).step ops3 (ops3_kept V₃ main_v1 (by decide)) (ops3_kept V₃ main_v3 (by decide))
    fun b hb => ops3_kept V₃ b (List.mem_cons_of_mem _ (List.mem_cons_of_mem _ (List.mem_cons_of_mem _ hb)))

private theorem s4_v58 : V₄ (Proc.devRef .tc main_v58) = h₀ := (ops3_kept V₃ main_v58 (by decide)).trans (s3_v58 W)

private theorem s4_v91 : V₄ (Proc.devRef .tc main_v91) = Cert.Spec.r1 (F := Ideal) (W (Proc.devRef .tc main_arg6)) := by
  have h := ops3_v91 V₃
  rw [(base3 W).arg main_arg6 (by decide)] at h
  exact h

private theorem s4_v92 : V₄ (Proc.devRef .tc main_v92)
    = Cert.Spec.mm (F := Ideal) (Cert.Spec.lnrelu h₀ (Cert.Spec.row1 (Cert.Spec.r1 (W (Proc.devRef .tc main_arg7))))
        (Cert.Spec.row1 (Cert.Spec.r1 (W (Proc.devRef .tc main_arg8))))) (Cert.Spec.W1 (W (Proc.devRef .tc main_arg5))) := by
  have h := ops3_v92 V₃
  rw [s3_v58 W, (base3 W).arg main_arg7 (by decide), (base3 W).arg main_arg8 (by decide), (base3 W).arg main_arg5 (by decide)] at h
  exact h

private theorem base5 : Base W V₅ :=
  (base4 W).step ops4 (ops4_kept V₄ main_v1 (by decide)) (ops4_kept V₄ main_v3 (by decide))
    fun b hb => ops4_kept V₄ b (List.mem_cons_of_mem _ (List.mem_cons_of_mem _ (List.mem_cons_of_mem _ (List.mem_cons_of_mem _ (List.mem_cons_of_mem _ hb)))))

private theorem s5_v58 : V₅ (Proc.devRef .tc main_v58) = h₀ := (ops4_kept V₄ main_v58 (by decide)).trans (s4_v58 W)

private theorem s5_v91 : V₅ (Proc.devRef .tc main_v91) = Cert.Spec.r1 (F := Ideal) (W (Proc.devRef .tc main_arg6)) :=
  (ops4_kept V₄ main_v91 (by decide)).trans (s4_v91 W)

private theorem s5_v92 : V₅ (Proc.devRef .tc main_v92)
    = Cert.Spec.mm (F := Ideal) (Cert.Spec.lnrelu h₀ (Cert.Spec.row1 (Cert.Spec.r1 (W (Proc.devRef .tc main_arg7))))
        (Cert.Spec.row1 (Cert.Spec.r1 (W (Proc.devRef .tc main_arg8))))) (Cert.Spec.W1 (W (Proc.devRef .tc main_arg5))) :=
  (ops4_kept V₄ main_v92 (by decide)).trans (s4_v92 W)

private theorem s5_v101 : V₅ (Proc.devRef .tc main_v101) = Cert.Spec.dinv dst₀ ew₀ := by
  have h := ops4_v101 V₄
  rw [(base4 W).dst, (base4 W).arg main_arg2 (by decide)] at h
  exact h

private theorem s5_v117 : V₅ (Proc.devRef .tc main_v117) = Cert.Spec.coef src₀ dst₀ ew₀ := by
  have h := ops4_v117 V₄
  rw [(base4 W).src, (base4 W).dst, (base4 W).arg main_arg2 (by decide)] at h
  exact h

private theorem base6 : Base W V₆ :=
  (base5 W).step ops5 (ops5_kept V₅ main_v1 (by decide)) (ops5_kept V₅ main_v3 (by decide))
    fun b hb => ops5_kept V₅ b (List.mem_cons_of_mem _ (List.mem_cons_of_mem _ hb))

/-- After layer 1's residual sum its output buffer holds the residual layer of layer 0's output. -/
private theorem s6_v139 : V₆ (Proc.devRef .tc main_v139)
    = Cert.Spec.refRes h₀ (Cert.Spec.r1 (W (Proc.devRef .tc main_arg7))) (Cert.Spec.r1 (W (Proc.devRef .tc main_arg8)))
        (Cert.Spec.W1 (W (Proc.devRef .tc main_arg5))) (Cert.Spec.r1 (W (Proc.devRef .tc main_arg6))) src₀ dst₀ ew₀ := by
  have h := ops5_v139 V₅
    (by rw [s5_v101 W, (base5 W).dst, (base5 W).arg main_arg2 (by decide)])
    (by rw [s5_v117 W, (base5 W).src, (base5 W).dst, (base5 W).arg main_arg2 (by decide)])
  rw [s5_v58 W, s5_v92 W, (base5 W).src, (base5 W).dst, (base5 W).arg main_arg2 (by decide), s5_v91 W] at h
  exact h

/-- The fold over the six stretches in a row is the six folds one after the other. -/
theorem firstHalf_eq : after firstHalf W = V₆ := by
  show after (ops0 ++ ops1 ++ ops2 ++ ops3 ++ ops4 ++ ops5) W = _
  rw [after_append, after_append, after_append, after_append, after_append]

end Chain

/-- After the launch, layer 0 and layer 1, from any contents: the buffer of layer 1's output holds the residual layer of the
    convolution of the encoded features, all of the arguments' contents. -/
theorem firstHalf_v139 : after firstHalf W (Proc.devRef .tc main_v139)
    = Cert.Spec.refRes
        (Cert.Spec.conv (Cert.Spec.mm (Cert.Spec.refEnc (W (Proc.devRef .tc main_arg0)) (W (Proc.devRef .tc main_arg3)) (W (Proc.devRef .tc main_arg4))) (Cert.Spec.W0 (W (Proc.devRef .tc main_arg5))))
          (Cert.Spec.srcOf (W (Proc.devRef .tc main_arg1))) (Cert.Spec.dstOf (W (Proc.devRef .tc main_arg1))) (W (Proc.devRef .tc main_arg2)) (Cert.Spec.r0 (W (Proc.devRef .tc main_arg6))))
        (Cert.Spec.r1 (W (Proc.devRef .tc main_arg7))) (Cert.Spec.r1 (W (Proc.devRef .tc main_arg8))) (Cert.Spec.W1 (W (Proc.devRef .tc main_arg5))) (Cert.Spec.r1 (W (Proc.devRef .tc main_arg6)))
        (Cert.Spec.srcOf (W (Proc.devRef .tc main_arg1))) (Cert.Spec.dstOf (W (Proc.devRef .tc main_arg1))) (W (Proc.devRef .tc main_arg2)) := by
  rw [firstHalf_eq]
  exact s6_v139 W

/-- After them the sources' buffer holds row 0 of the edge list. -/
theorem firstHalf_v1 : after firstHalf W (Proc.devRef .tc main_v1) = Cert.Spec.srcOf (W (Proc.devRef .tc main_arg1)) := by
  rw [firstHalf_eq]
  exact (base6 W).src

/-- After them the targets' buffer holds row 1 of the edge list. -/
theorem firstHalf_v3 : after firstHalf W (Proc.devRef .tc main_v3) = Cert.Spec.dstOf (W (Proc.devRef .tc main_arg1)) := by
  rw [firstHalf_eq]
  exact (base6 W).dst

/-- None of them writes an argument. -/
theorem firstHalf_kept : ∀ b ∈ args, after firstHalf W (Proc.devRef .tc b) = W (Proc.devRef .tc b) := by
  rw [firstHalf_eq]
  exact (base6 W).arg

end Cert.ReferenceIdeal.RefChunks

end
-- ==== Proof.RefChunksB.lean ====
/-
  The second half of the reference program's fold, chunk by chunk: layers 2 and 3 (each a normalisation with its slices
  and product, the degrees and edge coefficients recomputed, the convolution with the residual sum) and the head. Each
  chunk's result buffers hold the shared whole-array functions of what the chunk found in the buffers it reads, over an
  arbitrary valuation; the buffers the later chunks still read are left as found. The thirteen chunks in a row then leave
  the reference's layered composition of the arguments at the returned buffer, and the arguments as found.
-/
import proofs.«413863_j12395275616334_2_alg».proof.Proof.RefChunksA
import proofs.«413863_j12395275616334_2_alg».proof.Proof.KSpec

set_option maxRecDepth 16384

noncomputable section

namespace Cert.ReferenceIdeal.RefChunks

open Idealize.ShloMosaic Idealize.ShloMosaic.TcCoe Idealize.SL.Sem Idealize.ShloMosaic.StableHlo Cert.ReferenceIdeal Cert.ReferenceIdeal.Gen Cert.ReferenceIdeal.ValRun

variable (W : Valuation τ sig (Elt Ideal))

/-- Reads the fold of a literal list of operations at one buffer: each operation's result at its own buffer is its function's
    value, at any other buffer what was there; a typed reference's transport of contents is the identity. -/
local macro "fold_results" : tactic =>
  `(tactic| simp (disch := decide) only [after_cons, after_nil, nullary_result', unary_result', binary_result', ternary_result', reshape_result',
      nullary_result_ne', unary_result_ne', binary_result_ne', ternary_result_ne', reshape_result_ne', TRef.ofBuf, TRef.toBuf, cast_eq])

/-! ## Layer 2's normalisation, slices and product: operations 174 to 214 -/

set_option maxHeartbeats 4000000 in
/-- Layer 2's product: the normalised, clamped layer-1 output times layer 2's weight. -/
theorem ops6_v173 : after (ops6 (F := Ideal)) W (Proc.devRef .tc main_v173)
    = Cert.Spec.mm (F := Ideal) (Cert.Spec.lnrelu (W (Proc.devRef .tc main_v139)) (Cert.Spec.row1 (Cert.Spec.r2 (W (Proc.devRef .tc main_arg7))))
        (Cert.Spec.row1 (Cert.Spec.r2 (W (Proc.devRef .tc main_arg8))))) (Cert.Spec.W2 (W (Proc.devRef .tc main_arg5))) := by
  unfold ops6
  fold_results
  unfold Cert.Spec.mm Cert.Spec.lnrelu Cert.Spec.rowInvStd Cert.Spec.centred Cert.Spec.rowMean Cert.Spec.colB Cert.Spec.rowB Cert.Spec.row1 Cert.Spec.r2 Cert.Spec.W2
  rfl

set_option maxHeartbeats 4000000 in
/-- Layer 2's bias: row 2 of the stack of convolution biases. -/
theorem ops6_v172 : after (ops6 (F := Ideal)) W (Proc.devRef .tc main_v172) = Cert.Spec.r2 (F := Ideal) (W (Proc.devRef .tc main_arg6)) := by
  unfold ops6
  fold_results
  unfold Cert.Spec.r2
  rfl

set_option maxHeartbeats 4000000 in
/-- The stretch writes neither row of the edge list, nor layer 1's output, nor an argument. -/
theorem ops6_kept : ∀ b ∈ main_v1 :: main_v3 :: main_v139 :: args,
    after (ops6 (F := Ideal)) W (Proc.devRef .tc b) = W (Proc.devRef .tc b) :=
  fun b hb => after_of_forall_not_mem (b := Proc.devRef .tc b) _ _ (List.forall_iff_forall_mem.mp (by
    simp only [ops6, List.Forall, nullary_writes, unary_writes, binary_writes, ternary_writes, reshape_writes, Finset.mem_singleton]
    repeat' apply And.intro
    all_goals exact devRef_ne_of_ne (by intro e; subst e; exact absurd hb (by decide))))

/-! ## Layer 2's degrees and edge coefficients: operations 215 to 249 -/

set_option maxHeartbeats 4000000 in
/-- The inverse root degrees again, from the same targets and edge weights. -/
theorem ops7_v182 : after (ops7 (F := Ideal)) W (Proc.devRef .tc main_v182) = Cert.Spec.dinv (W (Proc.devRef .tc main_v3)) (W (Proc.devRef .tc main_arg2)) := by
  unfold ops7
  fold_results
  unfold Cert.Spec.dinv Cert.Spec.deg Cert.Spec.col
  with_reducible rfl

set_option maxHeartbeats 4000000 in
/-- The edge coefficients again. -/
theorem ops7_v198 : after (ops7 (F := Ideal)) W (Proc.devRef .tc main_v198)
    = Cert.Spec.coef (W (Proc.devRef .tc main_v1)) (W (Proc.devRef .tc main_v3)) (W (Proc.devRef .tc main_arg2)) := by
  unfold ops7
  fold_results
  unfold Cert.Spec.coef Cert.Spec.wrap Cert.Spec.dinv Cert.Spec.deg Cert.Spec.col
  with_reducible rfl

set_option maxHeartbeats 4000000 in
/-- The stretch writes neither row of the edge list, nor layer 1's output, nor layer 2's bias and product, nor an argument. -/
theorem ops7_kept : ∀ b ∈ main_v1 :: main_v3 :: main_v139 :: main_v172 :: main_v173 :: args,
    after (ops7 (F := Ideal)) W (Proc.devRef .tc b) = W (Proc.devRef .tc b) :=
  fun b hb => after_of_forall_not_mem (b := Proc.devRef .tc b) _ _ (List.forall_iff_forall_mem.mp (by
    simp only [ops7, List.Forall, nullary_writes, unary_writes, binary_writes, ternary_writes, reshape_writes, Finset.mem_singleton]
    repeat' apply And.intro
    all_goals exact devRef_ne_of_ne (by intro e; subst e; exact absurd hb (by decide))))

/-! ## Layer 2's convolution and residual sum: operations 250 to 274 -/

set_option maxHeartbeats 4000000 in
/-- Layer 2's output: layer 1's output plus the convolution of layer 2's product, given that the stretch finds the inverse
    root degrees and the edge coefficients in their buffers. -/
theorem ops8_v220 (h182 : W (Proc.devRef .tc main_v182) = Cert.Spec.dinv (W (Proc.devRef .tc main_v3)) (W (Proc.devRef .tc main_arg2)))
    (h198 : W (Proc.devRef .tc main_v198) = Cert.Spec.coef (W (Proc.devRef .tc main_v1)) (W (Proc.devRef .tc main_v3)) (W (Proc.devRef .tc main_arg2))) :
    after (ops8 (F := Ideal)) W (Proc.devRef .tc main_v220)
      = addf (W (Proc.devRef .tc main_v139)) (Cert.Spec.conv (W (Proc.devRef .tc main_v173)) (W (Proc.devRef .tc main_v1)) (W (Proc.devRef .tc main_v3)) (W (Proc.devRef .tc main_arg2)) (W (Proc.devRef .tc main_v172))) := by
  unfold ops8
  fold_results
  rw [h182, h198]
  unfold Cert.Spec.conv Cert.Spec.agg Cert.Spec.scat Cert.Spec.rows Cert.Spec.spread Cert.Spec.sd Cert.Spec.nodeCol Cert.Spec.colB Cert.Spec.rowB Cert.Spec.row1 Cert.Spec.wrap Cert.Spec.col
  with_reducible rfl

set_option maxHeartbeats 4000000 in
/-- The stretch writes neither row of the edge list nor an argument. -/
theorem ops8_kept : ∀ b ∈ main_v1 :: main_v3 :: args,
    after (ops8 (F := Ideal)) W (Proc.devRef .tc b) = W (Proc.devRef .tc b) :=
  fun b hb => after_of_forall_not_mem (b := Proc.devRef .tc b) _ _ (List.forall_iff_forall_mem.mp (by
    simp only [ops8, List.Forall, nullary_writes, unary_writes, binary_writes, ternary_writes, reshape_writes, Finset.mem_singleton]
    repeat' apply And.intro
    all_goals exact devRef_ne_of_ne (by intro e; subst e; exact absurd hb (by decide))))

/-! ## Layer 3's normalisation, slices and product: operations 275 to 315 -/

set_option maxHeartbeats 4000000 in
/-- Layer 3's product: the normalised, clamped layer-2 output times layer 3's weight. -/
theorem ops9_v254 : after (ops9 (F := Ideal)) W (Proc.devRef .tc main_v254)
    = Cert.Spec.mm (F := Ideal) (Cert.Spec.lnrelu (W (Proc.devRef .tc main_v220)) (Cert.Spec.row1 (Cert.Spec.r3 (W (Proc.devRef .tc main_arg7))))
        (Cert.Spec.row1 (Cert.Spec.r3 (W (Proc.devRef .tc main_arg8))))) (Cert.Spec.W3 (W (Proc.devRef .tc main_arg5))) := by
  unfold ops9
  fold_results
  unfold Cert.Spec.mm Cert.Spec.lnrelu Cert.Spec.rowInvStd Cert.Spec.centred Cert.Spec.rowMean Cert.Spec.colB Cert.Spec.rowB Cert.Spec.row1 Cert.Spec.r3 Cert.Spec.W3
  rfl

set_option maxHeartbeats 4000000 in
/-- Layer 3's bias: row 3 of the stack of convolution biases. -/
theorem ops9_v253 : after (ops9 (F := Ideal)) W (Proc.devRef .tc main_v253) = Cert.Spec.r3 (F := Ideal) (W (Proc.devRef .tc main_arg6)) := by
  unfold ops9
  fold_results
  unfold Cert.Spec.r3
  rfl

set_option maxHeartbeats 4000000 in
/-- The stretch writes neither row of the edge list, nor layer 2's output, nor an argument. -/
theorem ops9_kept : ∀ b ∈ main_v1 :: main_v3 :: main_v220 :: args,
    after (ops9 (F := Ideal)) W (Proc.devRef .tc b) = W (Proc.devRef .tc b) :=
  fun b hb => after_of_forall_not_mem (b := Proc.devRef .tc b) _ _ (List.forall_iff_forall_mem.mp (by
    simp only [ops9, List.Forall, nullary_writes, unary_writes, binary_writes, ternary_writes, reshape_writes, Finset.mem_singleton]
    repeat' apply And.intro
    all_goals exact devRef_ne_of_ne (by intro e; subst e; exact absurd hb (by decide))))

/-! ## Layer 3's degrees and edge coefficients: operations 316 to 350 -/

set_option maxHeartbeats 4000000 in
/-- The inverse root degrees again, from the same targets and edge weights. -/
theorem ops10_v263 : after (ops10 (F := Ideal)) W (Proc.devRef .tc main_v263) = Cert.Spec.dinv (W (Proc.devRef .tc main_v3)) (W (Proc.devRef .tc main_arg2)) := by
  unfold ops10
  fold_results
  unfold Cert.Spec.dinv Cert.Spec.deg Cert.Spec.col
  with_reducible rfl

set_option maxHeartbeats 4000000 in
/-- The edge coefficients again. -/
theorem ops10_v279 : after (ops10 (F := Ideal)) W (Proc.devRef .tc main_v279)
    = Cert.Spec.coef (W (Proc.devRef .tc main_v1)) (W (Proc.devRef .tc main_v3)) (W (Proc.devRef .tc main_arg2)) := by
  unfold ops10
  fold_results
  unfold Cert.Spec.coef Cert.Spec.wrap Cert.Spec.dinv Cert.Spec.deg Cert.Spec.col
  with_reducible rfl

set_option maxHeartbeats 4000000 in
/-- The stretch writes neither row of the edge list, nor layer 2's output, nor layer 3's bias and product, nor an argument. -/
theorem ops10_kept : ∀ b ∈ main_v1 :: main_v3 :: main_v220 :: main_v253 :: main_v254 :: args,
    after (ops10 (F := Ideal)) W (Proc.devRef .tc b) = W (Proc.devRef .tc b) :=
  fun b hb => after_of_forall_not_mem (b := Proc.devRef .tc b) _ _ (List.forall_iff_forall_mem.mp (by
    simp only [ops10, List.Forall, nullary_writes, unary_writes, binary_writes, ternary_writes, reshape_writes, Finset.mem_singleton]
    repeat' apply And.intro
    all_goals exact devRef_ne_of_ne (by intro e; subst e; exact absurd hb (by decide))))

/-! ## Layer 3's convolution and residual sum: operations 351 to 375 -/

set_option maxHeartbeats 4000000 in
/-- Layer 3's output: layer 2's output plus the convolution of layer 3's product, given that the stretch finds the inverse
    root degrees and the edge coefficients in their buffers. -/
theorem ops11_v301 (h263 : W (Proc.devRef .tc main_v263) = Cert.Spec.dinv (W (Proc.devRef .tc main_v3)) (W (Proc.devRef .tc main_arg2)))
    (h279 : W (Proc.devRef .tc main_v279) = Cert.Spec.coef (W (Proc.devRef .tc main_v1)) (W (Proc.devRef .tc main_v3)) (W (Proc.devRef .tc main_arg2))) :
    after (ops11 (F := Ideal)) W (Proc.devRef .tc main_v301)
      = addf (W (Proc.devRef .tc main_v220)) (Cert.Spec.conv (W (Proc.devRef .tc main_v254)) (W (Proc.devRef .tc main_v1)) (W (Proc.devRef .tc main_v3)) (W (Proc.devRef .tc main_arg2)) (W (Proc.devRef .tc main_v253))) := by
  unfold ops11
  fold_results
  rw [h263, h279]
  unfold Cert.Spec.conv Cert.Spec.agg Cert.Spec.scat Cert.Spec.rows Cert.Spec.spread Cert.Spec.sd Cert.Spec.nodeCol Cert.Spec.colB Cert.Spec.rowB Cert.Spec.row1 Cert.Spec.wrap Cert.Spec.col
  with_reducible rfl

set_option maxHeartbeats 4000000 in
/-- The stretch writes neither row of the edge list nor an argument. -/
theorem ops11_kept : ∀ b ∈ main_v1 :: main_v3 :: args,
    after (ops11 (F := Ideal)) W (Proc.devRef .tc b) = W (Proc.devRef .tc b) :=
  fun b hb => after_of_forall_not_mem (b := Proc.devRef .tc b) _ _ (List.forall_iff_forall_mem.mp (by
    simp only [ops11, List.Forall, nullary_writes, unary_writes, binary_writes, ternary_writes, reshape_writes, Finset.mem_singleton]
    repeat' apply And.intro
    all_goals exact devRef_ne_of_ne (by intro e; subst e; exact absurd hb (by decide))))

/-! ## The head: operations 376 to 415 -/

set_option maxHeartbeats 4000000 in
/-- The head: the normalised, clamped layer-3 output times the head's weight, plus its bias row. -/
theorem ops12_v334 : after (ops12 (F := Ideal)) W (Proc.devRef .tc main_v334)
    = Cert.Spec.refHead (W (Proc.devRef .tc main_v301)) (Cert.Spec.r0 (W (Proc.devRef .tc main_arg7))) (Cert.Spec.r0 (W (Proc.devRef .tc main_arg8))) (W (Proc.devRef .tc main_arg9)) (W (Proc.devRef .tc main_arg10)) := by
  unfold ops12
  fold_results
  unfold Cert.Spec.refHead Cert.Spec.lnrelu Cert.Spec.rowInvStd Cert.Spec.centred Cert.Spec.rowMean Cert.Spec.colB Cert.Spec.rowB Cert.Spec.row1 Cert.Spec.r0
  rfl

set_option maxHeartbeats 4000000 in
/-- The head writes no argument. -/
theorem ops12_kept : ∀ b ∈ args,
    after (ops12 (F := Ideal)) W (Proc.devRef .tc b) = W (Proc.devRef .tc b) :=
  fun b hb => after_of_forall_not_mem (b := Proc.devRef .tc b) _ _ (List.forall_iff_forall_mem.mp (by
    simp only [ops12, List.Forall, nullary_writes, unary_writes, binary_writes, ternary_writes, reshape_writes, Finset.mem_singleton]
    repeat' apply And.intro
    all_goals exact devRef_ne_of_ne (by intro e; subst e; exact absurd hb (by decide))))

/-! ## A residual layer's three stretches in a row -/

/-- Layer 2's three stretches in a row, from any contents: the buffer of layer 2's output holds the residual layer of what
    the buffer of layer 1's output held. -/
theorem layer2_v220 : after (ops8 (F := Ideal)) (after ops7 (after ops6 W)) (Proc.devRef .tc main_v220)
    = Cert.Spec.refRes (W (Proc.devRef .tc main_v139)) (Cert.Spec.r2 (W (Proc.devRef .tc main_arg7))) (Cert.Spec.r2 (W (Proc.devRef .tc main_arg8))) (Cert.Spec.W2 (W (Proc.devRef .tc main_arg5)))
        (Cert.Spec.r2 (W (Proc.devRef .tc main_arg6))) (W (Proc.devRef .tc main_v1)) (W (Proc.devRef .tc main_v3)) (W (Proc.devRef .tc main_arg2)) := by
  have k6 := ops6_kept W
  have k7 := ops7_kept (after ops6 W)
  have hd : after (ops7 (F := Ideal)) (after ops6 W) (Proc.devRef .tc main_v182)
      = Cert.Spec.dinv (after (ops7 (F := Ideal)) (after ops6 W) (Proc.devRef .tc main_v3)) (after (ops7 (F := Ideal)) (after ops6 W) (Proc.devRef .tc main_arg2)) := by
    rw [ops7_v182, k7 main_v3 (by decide), k7 main_arg2 (by decide)]
  have hc : after (ops7 (F := Ideal)) (after ops6 W) (Proc.devRef .tc main_v198)
      = Cert.Spec.coef (after (ops7 (F := Ideal)) (after ops6 W) (Proc.devRef .tc main_v1)) (after (ops7 (F := Ideal)) (after ops6 W) (Proc.devRef .tc main_v3))
          (after (ops7 (F := Ideal)) (after ops6 W) (Proc.devRef .tc main_arg2)) := by
    rw [ops7_v198, k7 main_v1 (by decide), k7 main_v3 (by decide), k7 main_arg2 (by decide)]
  rw [ops8_v220 _ hd hc, k7 main_v139 (by decide), k7 main_v173 (by decide), k7 main_v172 (by decide), k7 main_v1 (by decide),
    k7 main_v3 (by decide), k7 main_arg2 (by decide), ops6_v173, ops6_v172, k6 main_v139 (by decide), k6 main_v1 (by decide), k6 main_v3 (by decide),
    k6 main_arg2 (by decide)]
  unfold Cert.Spec.refRes
  with_reducible rfl

/-- The three stretches write neither row of the edge list nor an argument. -/
theorem layer2_kept : ∀ b ∈ main_v1 :: main_v3 :: args,
    after (ops8 (F := Ideal)) (after ops7 (after ops6 W)) (Proc.devRef .tc b) = W (Proc.devRef .tc b) := fun b hb => by
  have h6 : b ∈ main_v1 :: main_v3 :: main_v139 :: args := by
    simp only [List.mem_cons] at hb ⊢; tauto
  have h7 : b ∈ main_v1 :: main_v3 :: main_v139 :: main_v172 :: main_v173 :: args := by
    simp only [List.mem_cons] at hb ⊢; tauto
  rw [ops8_kept _ b hb, ops7_kept _ b h7, ops6_kept _ b h6]

/-- Layer 3's three stretches in a row, from any contents: the buffer of layer 3's output holds the residual layer of what
    the buffer of layer 2's output held. -/
theorem layer3_v301 : after (ops11 (F := Ideal)) (after ops10 (after ops9 W)) (Proc.devRef .tc main_v301)
    = Cert.Spec.refRes (W (Proc.devRef .tc main_v220)) (Cert.Spec.r3 (W (Proc.devRef .tc main_arg7))) (Cert.Spec.r3 (W (Proc.devRef .tc main_arg8))) (Cert.Spec.W3 (W (Proc.devRef .tc main_arg5)))
        (Cert.Spec.r3 (W (Proc.devRef .tc main_arg6))) (W (Proc.devRef .tc main_v1)) (W (Proc.devRef .tc main_v3)) (W (Proc.devRef .tc main_arg2)) := by
  have k6 := ops9_kept W
  have k7 := ops10_kept (after ops9 W)
  have hd : after (ops10 (F := Ideal)) (after ops9 W) (Proc.devRef .tc main_v263)
      = Cert.Spec.dinv (after (ops10 (F := Ideal)) (after ops9 W) (Proc.devRef .tc main_v3)) (after (ops10 (F := Ideal)) (after ops9 W) (Proc.devRef .tc main_arg2)) := by
    rw [ops10_v263, k7 main_v3 (by decide), k7 main_arg2 (by decide)]
  have hc : after (ops10 (F := Ideal)) (after ops9 W) (Proc.devRef .tc main_v279)
      = Cert.Spec.coef (after (ops10 (F := Ideal)) (after ops9 W) (Proc.devRef .tc main_v1)) (after (ops10 (F := Ideal)) (after ops9 W) (Proc.devRef .tc main_v3))
          (after (ops10 (F := Ideal)) (after ops9 W) (Proc.devRef .tc main_arg2)) := by
    rw [ops10_v279, k7 main_v1 (by decide), k7 main_v3 (by decide), k7 main_arg2 (by decide)]
  rw [ops11_v301 _ hd hc, k7 main_v220 (by decide), k7 main_v254 (by decide), k7 main_v253 (by decide), k7 main_v1 (by decide),
    k7 main_v3 (by decide), k7 main_arg2 (by decide), ops9_v254, ops9_v253, k6 main_v220 (by decide), k6 main_v1 (by decide), k6 main_v3 (by decide),
    k6 main_arg2 (by decide)]
  unfold Cert.Spec.refRes
  with_reducible rfl

/-- The three stretches write neither row of the edge list nor an argument. -/
theorem layer3_kept : ∀ b ∈ main_v1 :: main_v3 :: args,
    after (ops11 (F := Ideal)) (after ops10 (after ops9 W)) (Proc.devRef .tc b) = W (Proc.devRef .tc b) := fun b hb => by
  have h6 : b ∈ main_v1 :: main_v3 :: main_v220 :: args := by
    simp only [List.mem_cons] at hb ⊢; tauto
  have h7 : b ∈ main_v1 :: main_v3 :: main_v220 :: main_v253 :: main_v254 :: args := by
    simp only [List.mem_cons] at hb ⊢; tauto
  rw [ops11_kept _ b hb, ops10_kept _ b h7, ops9_kept _ b h6]

/-! ## The thirteen stretches in a row -/

/-- The whole fold, split after the first half and after each later stretch. -/
theorem after_ops : after (ops (F := Ideal)) W
    = after ops12 (after ops11 (after ops10 (after ops9 (after ops8 (after ops7 (after ops6 (after firstHalf W))))))) := by
  show after (firstHalf ++ ops6 ++ ops7 ++ ops8 ++ ops9 ++ ops10 ++ ops11 ++ ops12) W = _
  rw [after_append, after_append, after_append, after_append, after_append, after_append, after_append]

/-- After the reference's 415 operations, from any contents, the returned buffer holds the reference's layered composition of
    what the arguments' buffers held. -/
theorem ops_v334 : after (ops (F := Ideal)) W (Proc.devRef .tc main_v334)
    = Cert.Spec.out (W (Proc.devRef .tc main_arg0)) (W (Proc.devRef .tc main_arg1)) (W (Proc.devRef .tc main_arg2)) (W (Proc.devRef .tc main_arg3)) (W (Proc.devRef .tc main_arg4)) (W (Proc.devRef .tc main_arg5))
        (W (Proc.devRef .tc main_arg6)) (W (Proc.devRef .tc main_arg7)) (W (Proc.devRef .tc main_arg8)) (W (Proc.devRef .tc main_arg9)) (W (Proc.devRef .tc main_arg10)) := by
  have k3 := layer3_kept (after ops8 (after ops7 (after ops6 (after firstHalf W))))
  have k2 := layer2_kept (after firstHalf W)
  have k1 := firstHalf_kept W
  rw [after_ops, ops12_v334, layer3_v301, k3 main_arg7 (by decide), k3 main_arg8 (by decide), k3 main_arg9 (by decide), k3 main_arg10 (by decide),
    layer2_v220, k2 main_arg7 (by decide), k2 main_arg8 (by decide), k2 main_arg9 (by decide), k2 main_arg10 (by decide),
    k2 main_arg5 (by decide), k2 main_arg6 (by decide), k2 main_v1 (by decide), k2 main_v3 (by decide), k2 main_arg2 (by decide),
    firstHalf_v139, firstHalf_v1, firstHalf_v3, k1 main_arg7 (by decide), k1 main_arg8 (by decide), k1 main_arg9 (by decide), k1 main_arg10 (by decide),
    k1 main_arg5 (by decide), k1 main_arg6 (by decide), k1 main_arg2 (by decide)]
  unfold Cert.Spec.out
  with_reducible rfl

/-- None of the 415 operations writes an argument. -/
theorem ops_kept : ∀ b ∈ args, after (ops (F := Ideal)) W (Proc.devRef .tc b) = W (Proc.devRef .tc b) := fun b hb => by
  have hb' : b ∈ main_v1 :: main_v3 :: args := List.mem_cons_of_mem _ (List.mem_cons_of_mem _ hb)
  rw [after_ops, ops12_kept _ b hb, layer3_kept _ b hb', layer2_kept _ b hb', firstHalf_kept W b hb]

end Cert.ReferenceIdeal.RefChunks

end
-- ==== Proof.RefSide.lean ====
/-
  The reference program's side: after its run the returned buffer holds `Cert.Spec.out` of the arguments' launch contents.
-/
import proofs.«413863_j12395275616334_2_alg».proof.Proof.RefRun
import proofs.«413863_j12395275616334_2_alg».proof.Proof.KSpec
import proofs.«413863_j12395275616334_2_alg».proof.Proof.RefChunksB
import Idealize.ShloMosaic.PureOps.Ideal

set_option maxRecDepth 16384

noncomputable section

namespace Cert.ReferenceIdeal.RefSide

open Idealize.ShloMosaic Idealize.ShloMosaic.TcCoe Idealize.SL.Sem Idealize.ShloMosaic.StableHlo Cert.ReferenceIdeal Cert.ReferenceIdeal.Gen Cert.ReferenceIdeal.ValRun

variable (m : (ℓ : Loc nD τ sig) → Buf (Elt Ideal) ℓ) (d : Dev nD)

/-- Core `d`'s launch contents of the buffer `b`. -/
abbrev a (b : Ref sig .tc) := m ((d.tc : Thread nD τ).loc b)

/-- The fold of the reference's 415 operations over the launch contents, read at the returned buffer, is the layered composition. -/
theorem value : after (ops (F := Ideal)) (launchContents m d) (Proc.devRef .tc main_v334)
    = Cert.Spec.out (F := Ideal) (a m d main_arg0) (a m d main_arg1) (a m d main_arg2) (a m d main_arg3) (a m d main_arg4) (a m d main_arg5)
        (a m d main_arg6) (a m d main_arg7) (a m d main_arg8) (a m d main_arg9) (a m d main_arg10) :=
  RefChunks.ops_v334 (launchContents m d)

/-- An argument's buffer is written by no operation: the fold leaves it at its launch contents. -/
theorem kept (b : Ref sig .tc) (hb : b = main_arg0 ∨ b = main_arg1 ∨ b = main_arg2 ∨ b = main_arg3 ∨ b = main_arg4 ∨ b = main_arg5
      ∨ b = main_arg6 ∨ b = main_arg7 ∨ b = main_arg8 ∨ b = main_arg9 ∨ b = main_arg10) :
    after (ops (F := Ideal)) (launchContents m d) (Proc.devRef .tc b) = a m d b :=
  RefChunks.ops_kept (launchContents m d) b (by
    rcases hb with rfl | rfl | rfl | rfl | rfl | rfl | rfl | rfl | rfl | rfl | rfl <;> decide)

end Cert.ReferenceIdeal.RefSide

end
-- ==== Proof.BridgeVocab.lean ====
/-
  The graph functions of the two programs are the same functions: each program prints its own copy of the shape
  records, equal field by field. And a vector reshaped to a row is the vector broadcast to a row; a vector reshaped to
  a column is the vector broadcast to a column.
-/
import proofs.«413863_j12395275616334_2_alg».proof.Proof.Gen.KernelIdeal
import proofs.«413863_j12395275616334_2_alg».proof.Proof.Gen.ReferenceIdeal
import proofs.«413863_j12395275616334_2_alg».proof.Proof.KSpec
import Idealize.ShloMosaic.PureOps.Ideal
import Idealize.ShloMosaic.Lib.Pipeline.Value
import Idealize.ShloMosaic.Lib.ValueIdx

set_option maxRecDepth 16384

noncomputable section

namespace Cert.Bridge

open Idealize.ShloMosaic Idealize.ShloMosaic.ValueIdx

theorem srcOf_eq (ei : (⟨Cert.KernelIdeal.S2x800000, .i32⟩ : BufTy).Contents (Elt Ideal)) : Cert.KSpec.srcOf (F := Ideal) ei = Cert.Spec.srcOf (F := Ideal) ei := rfl
theorem dstOf_eq (ei : (⟨Cert.KernelIdeal.S2x800000, .i32⟩ : BufTy).Contents (Elt Ideal)) : Cert.KSpec.dstOf (F := Ideal) ei = Cert.Spec.dstOf (F := Ideal) ei := rfl
theorem coef_eq (src dst : Cert.KSpec.EIdx Ideal) (ew : Cert.KSpec.EVal Ideal) : Cert.KSpec.coef (F := Ideal) src dst ew = Cert.Spec.coef (F := Ideal) src dst ew := rfl
theorem sd_eq (dst : Cert.KSpec.EIdx Ideal) (ew : Cert.KSpec.EVal Ideal) : Cert.KSpec.sd (F := Ideal) dst ew = Cert.Spec.sd (F := Ideal) dst ew := rfl
theorem spread_eq (v : Cert.KSpec.EVal Ideal) : Cert.KSpec.spread (F := Ideal) v = Cert.Spec.spread (F := Ideal) v := rfl
theorem scat_eq (dst : Cert.KSpec.EIdx Ideal) (u : Cert.KSpec.ERows Ideal) : Cert.KSpec.scat (F := Ideal) dst u = Cert.Spec.scat (F := Ideal) dst u := rfl
theorem rows_eq (xw : Cert.KSpec.Feat Ideal) (src : Cert.KSpec.EIdx Ideal) : Cert.KSpec.rows (F := Ideal) xw src = Cert.Spec.rows (F := Ideal) xw src := rfl
theorem W0_eq (w : FVec Ideal Cert.KernelIdeal.S4x128x128 .f32) : Cert.KSpec.W0 (F := Ideal) w = Cert.Spec.W0 (F := Ideal) w := rfl
theorem W1_eq (w : FVec Ideal Cert.KernelIdeal.S4x128x128 .f32) : Cert.KSpec.W1 (F := Ideal) w = Cert.Spec.W1 (F := Ideal) w := rfl
theorem W2_eq (w : FVec Ideal Cert.KernelIdeal.S4x128x128 .f32) : Cert.KSpec.W2 (F := Ideal) w = Cert.Spec.W2 (F := Ideal) w := rfl
theorem W3_eq (w : FVec Ideal Cert.KernelIdeal.S4x128x128 .f32) : Cert.KSpec.W3 (F := Ideal) w = Cert.Spec.W3 (F := Ideal) w := rfl
theorem r0_eq (p : FVec Ideal Cert.KernelIdeal.S4x128 .f32) : Cert.KSpec.r0 (F := Ideal) p = Cert.Spec.r0 (F := Ideal) p := rfl
theorem r1_eq (p : FVec Ideal Cert.KernelIdeal.S4x128 .f32) : Cert.KSpec.r1 (F := Ideal) p = Cert.Spec.r1 (F := Ideal) p := rfl
theorem r2_eq (p : FVec Ideal Cert.KernelIdeal.S4x128 .f32) : Cert.KSpec.r2 (F := Ideal) p = Cert.Spec.r2 (F := Ideal) p := rfl
theorem r3_eq (p : FVec Ideal Cert.KernelIdeal.S4x128 .f32) : Cert.KSpec.r3 (F := Ideal) p = Cert.Spec.r3 (F := Ideal) p := rfl

/-- A vector of 128 reshaped to a [1,128] row is that vector broadcast along the second axis. -/
theorem asRow_eq (v : FVec Ideal Cert.KernelIdeal.S128 .f32) : Cert.KSpec.asRow (F := Ideal) v = Cert.Spec.row1 (F := Ideal) v := by
  funext j
  -- the row index is 0, so the row-major position of (0, c) in [1,128] is c
  have h0 : (j 0).val < 1 := (j 0).isLt
  have h1 : (j 1).val < 128 := (j 1).isLt
  have hL : Cert.KSpec.asRow (F := Ideal) v j = v (ix1 (⟨(j 1).val, h1⟩ : Fin 128)) := by
    unfold Cert.KSpec.asRow
    refine shapeCast_apply v _ j _ ?_
    rw [Shape.rowMajor_val_one, Shape.rowMajor_val_two]
    show (j 1).val = (j 0).val * 128 + (j 1).val
    omega
  have hR : Cert.Spec.row1 (F := Ideal) v j = v (ix1 (⟨(j 1).val, h1⟩ : Fin 128)) := by
    unfold Cert.Spec.row1
    refine broadcastInDim_apply _ _ v j _ ?_
    intro a
    have ha : a = 0 := Subsingleton.elim _ _
    subst ha
    show (j 1).val = if (128 : Nat) = 1 then 0 else (j 1).val
    rw [if_neg (by decide)]
  rw [hL, hR]

/-- The self-loop coefficients reshaped to a column are the reference's, broadcast to a column. -/
theorem sdCol_eq (dst : Cert.KSpec.EIdx Ideal) (ew : Cert.KSpec.EVal Ideal) : Cert.KSpec.sdCol (F := Ideal) dst ew = Cert.Spec.nodeCol (F := Ideal) (Cert.Spec.sd dst ew) := by
  funext j
  -- the column index is 0, so the row-major position of (r, 0) in [50000,1] is r
  have h0 : (j 0).val < 50000 := (j 0).isLt
  have h1 : (j 1).val < 1 := (j 1).isLt
  have hL : Cert.KSpec.sdCol (F := Ideal) dst ew j = Cert.Spec.sd (F := Ideal) dst ew (ix1 (⟨(j 0).val, h0⟩ : Fin 50000)) := by
    unfold Cert.KSpec.sdCol
    rw [sd_eq]
    refine shapeCast_apply (Cert.Spec.sd (F := Ideal) dst ew) _ j _ ?_
    rw [Shape.rowMajor_val_one, Shape.rowMajor_val_two]
    show (j 0).val = (j 0).val * 1 + (j 1).val
    omega
  have hR : Cert.Spec.nodeCol (F := Ideal) (Cert.Spec.sd dst ew) j = Cert.Spec.sd (F := Ideal) dst ew (ix1 (⟨(j 0).val, h0⟩ : Fin 50000)) := by
    unfold Cert.Spec.nodeCol
    refine broadcastInDim_apply _ _ (Cert.Spec.sd (F := Ideal) dst ew) j _ ?_
    intro a
    have ha : a = 0 := Subsingleton.elim _ _
    subst ha
    show (j 0).val = if (50000 : Nat) = 1 then 0 else (j 0).val
    rw [if_neg (by decide)]
  rw [hL, hR]

end Cert.Bridge

end
-- ==== Proof.BridgeTake.lean ====
/-
  jnp's `take` in fill mode is the plain gather when every source index is in range: the in-range test is then true on
  every edge (a word below 50000 is not negative, so it is its own wrapped index, and it lies in [0, 49999]), and the
  select keeps the gathered row.
-/
import proofs.«413863_j12395275616334_2_alg».proof.Proof.Gen.KernelIdeal
import proofs.«413863_j12395275616334_2_alg».proof.Proof.Gen.ReferenceIdeal
import proofs.«413863_j12395275616334_2_alg».proof.Proof.KSpec
import Idealize.ShloMosaic.PureOps.Ideal
import Idealize.ShloMosaic.Lib.StableHlo.Predicate

set_option maxRecDepth 16384

noncomputable section

namespace Cert.Bridge

open Idealize.ShloMosaic

/-- A word below 50000 is not negative, so it is its own wrapped index, and the wrapped index lies in [0, 49999]. -/
private theorem inRange_word (w : BitVec 32) (hw : w.toNat < 50000) :
    IntOp.andi (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  have hw31 : w.toNat < 2 ^ 31 := by omega
  have h0 : (0#32 : BitVec 32).toNat < 2 ^ 31 := by decide
  have h9 : (49999#32 : BitVec 32).toNat < 2 ^ 31 := by decide
  have hneg : ¬ IntOp.cmpi .slt w 0#32 = 1#1 := by
    rw [StableHlo.Predicate.slt_iff_toNat hw31 h0]
    exact Nat.not_lt_zero _
  have hsel : Scalar.select (IntOp.cmpi .slt w 0#32) (IntOp.addi w 50000#32) w = w := by
    unfold Scalar.select
    exact if_neg hneg
  rw [hsel]
  have hge : IntOp.cmpi .sge w 0#32 = 1#1 := (StableHlo.Predicate.sge_iff_toNat hw31 h0).2 (Nat.zero_le _)
  have hle : IntOp.cmpi .sle w 49999#32 = 1#1 :=
    (StableHlo.Predicate.sle_iff_toNat hw31 h9).2 (by show w.toNat ≤ 49999; omega)
  rw [hge, hle]
  rfl

/-- A fold by `and` from 1 over words that are all 1 is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- The wrapped index column read at a position is the wrap of one source word. -/
private theorem wrap_apply (src : Cert.KSpec.EIdx Ideal) (i : Cert.KernelIdeal.S800000x1.Idx) :
    ∃ e : Cert.KernelIdeal.S800000.Idx, Cert.KSpec.wrap (F := Ideal) src i
      = Scalar.select (IntOp.cmpi .slt (src e) 0#32) (IntOp.addi (src e) 50000#32) (src e) := ⟨_, rfl⟩

/-- With every source word below 50000 the in-range test is true on every lane. -/
private theorem inRange_eq_one (src : Cert.KSpec.EIdx Ideal) (hsrc : ∀ e : Cert.KernelIdeal.S800000.Idx, (src e).toNat < 50000)
    (j : Cert.KernelIdeal.S800000x128.Idx) : Cert.KSpec.inRange (F := Ideal) src j = 1#1 := by
  unfold Cert.KSpec.inRange
  unfold broadcastInDim Host.reduce
  refine foldl_andi_ones _ (fun n => ?_) _
  obtain ⟨e, he⟩ := wrap_apply src (Cert.KernelIdeal.S800000x1.rowMajor.symm n)
  show IntOp.andi (IntOp.cmpi .sge (Cert.KSpec.wrap (F := Ideal) src _) 0#32)
    (IntOp.cmpi .sle (Cert.KSpec.wrap (F := Ideal) src _) 49999#32) = 1#1
  rw [he]
  exact inRange_word (src e) (hsrc e)

/-- With every source word below 50000, the fill-mode gather is the gather. -/
theorem take_eq (xw : Cert.KSpec.Feat Ideal) (src : Cert.KSpec.EIdx Ideal) (hsrc : ∀ e : Cert.KernelIdeal.S800000.Idx, (src e).toNat < 50000) :
    Cert.KSpec.take (F := Ideal) xw src = Cert.KSpec.rows (F := Ideal) xw src := by
  funext j
  unfold Cert.KSpec.take
  show Scalar.select (Cert.KSpec.inRange (F := Ideal) src j) (Cert.KSpec.rows (F := Ideal) xw src j) _ = _
  rw [inRange_eq_one src hsrc j]
  rfl

end Cert.Bridge

end
-- ==== Proof.BridgeLayer.lean ====
/-
  A layer of the kernel program is the reference's layer: the same terms summed in another grouping. On the extended
  reals addition is commutative and associative (with +∞ + −∞ = −∞ throughout), so
  (A + (S + B)) + H = H + ((A + S) + B) entry by entry, with no finiteness needed.
-/
import proofs.«413863_j12395275616334_2_alg».proof.Proof.Gen.KernelIdeal
import proofs.«413863_j12395275616334_2_alg».proof.Proof.Gen.ReferenceIdeal
import proofs.«413863_j12395275616334_2_alg».proof.Proof.KSpec
import proofs.«413863_j12395275616334_2_alg».proof.Proof.BridgeVocab
import proofs.«413863_j12395275616334_2_alg».proof.Proof.BridgeTake
import Idealize.ShloMosaic.PureOps.Ideal

set_option maxRecDepth 16384

noncomputable section

namespace Cert.Bridge

open Idealize.ShloMosaic

/-- Entry by entry, A + (S + B) = (A + S) + B on the extended reals. -/
private theorem addf_assoc_pt {s : Shape} (A S B : FVec Ideal s .f32) : addf A (addf S B) = addf (addf A S) B := by
  funext i
  exact (add_assoc (A i) (S i) (B i)).symm

/-- Entry by entry, C + H = H + C on the extended reals. -/
private theorem addf_comm_pt {s : Shape} (C H : FVec Ideal s .f32) : addf C H = addf H C := by
  funext i
  exact add_comm (C i) (H i)

/-- The kernel program's aggregation is the reference's when every source index is in range. -/
private theorem agg_eq (xw : Cert.KSpec.Feat Ideal) (src dst : Cert.KSpec.EIdx Ideal) (ew : Cert.KSpec.EVal Ideal)
    (hsrc : ∀ e : Cert.KernelIdeal.S800000.Idx, (src e).toNat < 50000) :
    Cert.KSpec.agg (F := Ideal) xw src dst ew = Cert.Spec.agg (F := Ideal) xw src dst ew := by
  unfold Cert.KSpec.agg Cert.Spec.agg
  rw [take_eq xw src hsrc, rows_eq, coef_eq, spread_eq, scat_eq]

theorem enc_eq (x : Cert.KSpec.Feat Ideal) (W : FVec Ideal Cert.KernelIdeal.S128x128 .f32) (b : FVec Ideal Cert.KernelIdeal.S128 .f32) :
    Cert.KSpec.enc (F := Ideal) x W b = Cert.Spec.refEnc (F := Ideal) x W b := by
  unfold Cert.KSpec.enc Cert.Spec.refEnc
  rw [asRow_eq]

theorem first_eq (h : Cert.KSpec.Feat Ideal) (W : FVec Ideal Cert.KernelIdeal.S128x128 .f32) (cb : FVec Ideal Cert.KernelIdeal.S128 .f32)
    (src dst : Cert.KSpec.EIdx Ideal) (ew : Cert.KSpec.EVal Ideal) (hsrc : ∀ e : Cert.KernelIdeal.S800000.Idx, (src e).toNat < 50000) :
    Cert.KSpec.first (F := Ideal) h W cb src dst ew = Cert.Spec.conv (F := Ideal) (Cert.Spec.mm h W) src dst ew cb := by
  unfold Cert.KSpec.first Cert.Spec.conv Cert.Spec.selfTerm
  rw [agg_eq _ src dst ew hsrc, sdCol_eq, asRow_eq]
  exact addf_assoc_pt _ _ _

theorem res_eq (h : Cert.KSpec.Feat Ideal) (g b : FVec Ideal Cert.KernelIdeal.S128 .f32) (W : FVec Ideal Cert.KernelIdeal.S128x128 .f32) (cb : FVec Ideal Cert.KernelIdeal.S128 .f32)
    (src dst : Cert.KSpec.EIdx Ideal) (ew : Cert.KSpec.EVal Ideal) (hsrc : ∀ e : Cert.KernelIdeal.S800000.Idx, (src e).toNat < 50000) :
    Cert.KSpec.res (F := Ideal) h g b W cb src dst ew = Cert.Spec.refRes (F := Ideal) h g b W cb src dst ew := by
  have hf := first_eq (Cert.Spec.lnrelu h (Cert.Spec.row1 g) (Cert.Spec.row1 b)) W cb src dst ew hsrc
  unfold Cert.KSpec.first at hf
  unfold Cert.KSpec.res Cert.Spec.refRes
  rw [asRow_eq g, asRow_eq b, ← hf]
  exact addf_comm_pt _ _

end Cert.Bridge

end
-- ==== Proof.BridgeHead.lean ====
/-
  The head. The kernel program multiplies the normalised, clamped features by the [128,112] weight padded with 16 zero
  columns, adds the bias padded with 16 zeros, and drops the last 16 columns; the reference multiplies by the weight
  and adds the bias. Entry (i, j) with j < 112 of the padded product is the sum over k of t(i,k)·W(k,j), the padded
  weight agreeing with the weight on those columns, and likewise the bias.
-/
import proofs.«413863_j12395275616334_2_alg».proof.Proof.Gen.KernelIdeal
import proofs.«413863_j12395275616334_2_alg».proof.Proof.Gen.ReferenceIdeal
import proofs.«413863_j12395275616334_2_alg».proof.Proof.KSpec
import proofs.«413863_j12395275616334_2_alg».proof.Proof.BridgeVocab
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

namespace Cert.Bridge.Head

open Idealize.ShloMosaic Idealize.ShloMosaic.ValueIdx
open scoped BigOperators

/-! ## The padded product read at an index -/

theorem pl_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide),
    dif_pos (show (0 : Fin Cert.ReferenceIdeal.S50000x128.rank) ∈ Cert.ReferenceIdeal.dot_S50000x128_S128x128_S50000x128_1_0_0_1_n_n.lhsNonContracting by decide)]
  rfl
theorem pl_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem pr_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem pr_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide),
    dif_pos (show (1 : Fin Cert.ReferenceIdeal.S128x128.rank) ∈ Cert.ReferenceIdeal.dot_S50000x128_S128x128_S50000x128_1_0_0_1_n_n.rhsNonContracting by decide)]
  rfl

/-- The [50000,128] by [128,128] product at (i, q): the sum over k of x(i,k)·W(k,q). -/
theorem mm_apply (x : FVec Ideal Cert.ReferenceIdeal.S50000x128 .f32) (W : FVec Ideal Cert.ReferenceIdeal.S128x128 .f32) (i : Fin 50000) (q : Fin 128) :
    Cert.Spec.mm x W (ix2 i q) = ∑ k : Fin 128, x (ix2 i k) * W (ix2 k q) := by
  unfold Cert.Spec.mm
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 i q) ((contrEquiv1 Cert.ReferenceIdeal.dot_S50000x128_S128x128_S50000x128_1_0_0_1_n_n 128 rfl rfl).symm k) = ix2 i k :=
    funext fun a => Fin.ext (by
      match a with
      | ⟨0, _⟩ => exact pl_0 _ _
      | ⟨1, _⟩ => exact (pl_1 _ _).trans hk)
  have er : Cert.ReferenceIdeal.dot_S50000x128_S128x128_S50000x128_1_0_0_1_n_n.rhsIdx (ix2 i q) ((contrEquiv1 Cert.ReferenceIdeal.dot_S50000x128_S128x128_S50000x128_1_0_0_1_n_n 128 rfl rfl).symm k) = ix2 k q :=
    funext fun a => Fin.ext (by
      match a with
      | ⟨0, _⟩ => exact (pr_0 _ _).trans hk
      | ⟨1, _⟩ => exact pr_1 _ _)
  rw [el, er]

/-! ## The reference's product read at an index -/

theorem hl_0 (i : Cert.ReferenceIdeal.S50000x112.Idx) (q : Cert.ReferenceIdeal.dot_S50000x128_S128x112_S50000x112_1_0_0_1_n_n.contr.Idx) :
    (Cert.ReferenceIdeal.dot_S50000x128_S128x112_S50000x112_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x112_S50000x112_1_0_0_1_n_n.lhsBatch by decide),
    dif_pos (show (0 : Fin Cert.ReferenceIdeal.S50000x128.rank) ∈ Cert.ReferenceIdeal.dot_S50000x128_S128x112_S50000x112_1_0_0_1_n_n.lhsNonContracting by decide)]
  rfl
theorem hl_1 (i : Cert.ReferenceIdeal.S50000x112.Idx) (q : Cert.ReferenceIdeal.dot_S50000x128_S128x112_S50000x112_1_0_0_1_n_n.contr.Idx) :
    (Cert.ReferenceIdeal.dot_S50000x128_S128x112_S50000x112_1_0_0_1_n_n.lhsIdx i q 1).val = (q ⟨0, by decide⟩).val :=
  Cert.ReferenceIdeal.dot_S50000x128_S128x112_S50000x112_1_0_0_1_n_n.lhsIdx_val_of_single rfl i q
theorem hr_0 (i : Cert.ReferenceIdeal.S50000x112.Idx) (q : Cert.ReferenceIdeal.dot_S50000x128_S128x112_S50000x112_1_0_0_1_n_n.contr.Idx) :
    (Cert.ReferenceIdeal.dot_S50000x128_S128x112_S50000x112_1_0_0_1_n_n.rhsIdx i q 0).val = (q ⟨0, by decide⟩).val :=
  Cert.ReferenceIdeal.dot_S50000x128_S128x112_S50000x112_1_0_0_1_n_n.rhsIdx_val_of_single rfl i q
theorem hr_1 (i : Cert.ReferenceIdeal.S50000x112.Idx) (q : Cert.ReferenceIdeal.dot_S50000x128_S128x112_S50000x112_1_0_0_1_n_n.contr.Idx) :
    (Cert.ReferenceIdeal.dot_S50000x128_S128x112_S50000x112_1_0_0_1_n_n.rhsIdx i q 1).val = (i 1).val := by
  unfold DotDims.rhsIdx
  rw [dif_neg (show ¬(1 : Fin Cert.ReferenceIdeal.S128x112.rank) ∈ Cert.ReferenceIdeal.dot_S50000x128_S128x112_S50000x112_1_0_0_1_n_n.rhsBatch by decide),
    dif_pos (show (1 : Fin Cert.ReferenceIdeal.S128x112.rank) ∈ Cert.ReferenceIdeal.dot_S50000x128_S128x112_S50000x112_1_0_0_1_n_n.rhsNonContracting by decide)]
  rfl

/-- The [50000,128] by [128,112] product at (i, q): the sum over k of x(i,k)·W(k,q). -/
theorem mmHead_apply (x : FVec Ideal Cert.ReferenceIdeal.S50000x128 .f32) (W : FVec Ideal Cert.ReferenceIdeal.S128x112 .f32) (i : Fin 50000) (q : Fin 112) :
    Host.dotGeneral Cert.ReferenceIdeal.dot_S50000x128_S128x112_S50000x112_1_0_0_1_n_n none x W (ix2 i q) = ∑ k : Fin 128, x (ix2 i k) * W (ix2 k q) := by
  simp only [Host.dotGeneral]
  rw [Ideal.dotGeneral_apply, ← Equiv.sum_comp (contrEquiv1 Cert.ReferenceIdeal.dot_S50000x128_S128x112_S50000x112_1_0_0_1_n_n 128 rfl rfl).symm]
  refine Finset.sum_congr rfl fun k _ => ?_
  have hk := contrEquiv1_symm_val Cert.ReferenceIdeal.dot_S50000x128_S128x112_S50000x112_1_0_0_1_n_n 128 rfl rfl k
  have el : Cert.ReferenceIdeal.dot_S50000x128_S128x112_S50000x112_1_0_0_1_n_n.lhsIdx (ix2 i q) ((contrEquiv1 Cert.ReferenceIdeal.dot_S50000x128_S128x112_S50000x112_1_0_0_1_n_n 128 rfl rfl).symm k) = ix2 i k :=
    funext fun a => Fin.ext (by
      match a with
      | ⟨0, _⟩ => exact hl_0 _ _
      | ⟨1, _⟩ => exact (hl_1 _ _).trans hk)
  have er : Cert.ReferenceIdeal.dot_S50000x128_S128x112_S50000x112_1_0_0_1_n_n.rhsIdx (ix2 i q) ((contrEquiv1 Cert.ReferenceIdeal.dot_S50000x128_S128x112_S50000x112_1_0_0_1_n_n 128 rfl rfl).symm k) = ix2 k q :=
    funext fun a => Fin.ext (by
      match a with
      | ⟨0, _⟩ => exact (hr_0 _ _).trans hk
      | ⟨1, _⟩ => exact hr_1 _ _)
  rw [el, er]

/-! ## The bias rows and the paddings read at an index -/

/-- A [1,128] row laid under every row reads, at (i, q), the row at q. -/
theorem rowB_apply (b : FVec Ideal Cert.ReferenceIdeal.S1x128 .f32) (i : Fin 50000) (q : Fin 128) :
    Cert.Spec.rowB b (ix2 i q) = b (ix2 (0 : Fin 1) q) := by
  unfold Cert.Spec.rowB
  refine broadcastInDim_apply _ _ b (ix2 i q) (ix2 (0 : Fin 1) q) fun a => ?_
  match a with
  | ⟨0, _⟩ => rfl
  | ⟨1, _⟩ => rfl

/-- A vector of 128 reshaped to a row reads, at (0, q), the vector at q. -/
theorem asRow_apply (v : FVec Ideal Cert.KernelIdeal.S128 .f32) (z : Fin 1) (q : Fin 128) :
    Cert.KSpec.asRow (F := Ideal) v (ix2 z q) = v (ix1 q) := by
  unfold Cert.KSpec.asRow
  exact shapeCast_a_1a_apply v _ z q

/-- The reference's bias, broadcast to a row and then under every row, reads at (i, q) the bias at q. -/
theorem bias_apply (linb : FVec Ideal Cert.ReferenceIdeal.S112 .f32) (i : Fin 50000) (q : Fin 112) :
    broadcastInDim Cert.ReferenceIdeal.S50000x112 ![0, 1] Cert.ReferenceIdeal.Facts₀.bcast_S1x112_S50000x112_0_1
      (broadcastInDim Cert.ReferenceIdeal.S1x112 ![1] Cert.ReferenceIdeal.Facts₀.bcast_S112_S1x112_1 linb) (ix2 i q) = linb (ix1 q) := by
  refine (broadcastInDim_apply _ _ _ (ix2 i q) (ix2 (0 : Fin 1) q) fun a => ?_).trans
    (broadcastInDim_apply _ _ linb (ix2 (0 : Fin 1) q) (ix1 q) fun a => ?_)
  · match a with
    | ⟨0, _⟩ => rfl
    | ⟨1, _⟩ => rfl
  · match a with
    | ⟨0, _⟩ => rfl

/-- The padded weight agrees with the weight on the first 112 columns. -/
theorem padW_apply (linW : FVec Ideal Cert.KernelIdeal.S128x112 .f32) (k : Fin 128) (q : Fin 112) (hq : q.val < 128) :
    Cert.KSpec.padW (F := Ideal) linW (ix2 k (⟨q.val, hq⟩ : Fin 128)) = linW (ix2 k q) := by
  unfold Cert.KSpec.padW
  refine pad_apply_of_inside _ _ _ linW _ _ _ (ix2 k (⟨q.val, hq⟩ : Fin 128)) (ix2 k q) fun a => ?_
  match a with
  | ⟨0, _⟩ => show k.val = 0 + k.val * (0 + 1); omega
  | ⟨1, _⟩ => show q.val = 0 + q.val * (0 + 1); omega

/-- The padded bias agrees with the bias on the first 112 entries. -/
theorem padb_apply (linb : FVec Ideal Cert.KernelIdeal.S112 .f32) (q : Fin 112) (hq : q.val < 128) :
    Cert.KSpec.padb (F := Ideal) linb (ix1 (⟨q.val, hq⟩ : Fin 128)) = linb (ix1 q) := by
  unfold Cert.KSpec.padb
  refine pad_apply_of_inside _ _ _ linb _ _ _ (ix1 (⟨q.val, hq⟩ : Fin 128)) (ix1 q) fun a => ?_
  match a with
  | ⟨0, _⟩ => show q.val = 0 + q.val * (0 + 1); omega

end Cert.Bridge.Head

namespace Cert.Bridge

open Idealize.ShloMosaic

/-- The kernel program's head is the reference's. -/
theorem head_eq (h : Cert.KSpec.Feat Ideal) (g b : FVec Ideal Cert.KernelIdeal.S128 .f32) (linW : FVec Ideal Cert.KernelIdeal.S128x112 .f32) (linb : FVec Ideal Cert.KernelIdeal.S112 .f32) :
    Cert.KSpec.head (F := Ideal) h g b linW linb = Cert.Spec.refHead (F := Ideal) h g b linW linb := by
  funext j
  obtain ⟨i, q, rfl⟩ : ∃ (i : Fin 50000) (q : Fin 112), j = ValueIdx.ix2 i q := ⟨j 0, j 1, ValueIdx.eq_ix2 j⟩
  have hq : q.val < 128 := by have := q.isLt; omega
  unfold Cert.KSpec.head Cert.Spec.refHead
  rw [asRow_eq, asRow_eq]
  refine (extractStridedSlice_apply _ _ _ (ValueIdx.ix2 i q) (ValueIdx.ix2 i (⟨q.val, hq⟩ : Fin 128)) fun a => ?_).trans ?_
  · match a with
    | ⟨0, _⟩ => show i.val = 0 + i.val; omega
    | ⟨1, _⟩ => show q.val = 0 + q.val; omega
  · unfold Cert.Spec.lin
    show Cert.Spec.mm (Cert.Spec.lnrelu h (Cert.Spec.row1 g) (Cert.Spec.row1 b)) (Cert.KSpec.padW linW) (ValueIdx.ix2 i (⟨q.val, hq⟩ : Fin 128))
        + Cert.Spec.rowB (Cert.KSpec.asRow (Cert.KSpec.padb linb)) (ValueIdx.ix2 i (⟨q.val, hq⟩ : Fin 128))
      = Host.dotGeneral Cert.ReferenceIdeal.dot_S50000x128_S128x112_S50000x112_1_0_0_1_n_n none (Cert.Spec.lnrelu h (Cert.Spec.row1 g) (Cert.Spec.row1 b)) linW (ValueIdx.ix2 i q)
        + broadcastInDim Cert.ReferenceIdeal.S50000x112 ![0, 1] Cert.ReferenceIdeal.Facts₀.bcast_S1x112_S50000x112_0_1
            (broadcastInDim Cert.ReferenceIdeal.S1x112 ![1] Cert.ReferenceIdeal.Facts₀.bcast_S112_S1x112_1 linb) (ValueIdx.ix2 i q)
    rw [Head.mm_apply, Head.rowB_apply, Head.asRow_apply, Head.padb_apply, Head.mmHead_apply, Head.bias_apply]
    refine congrArg (· + _) (Finset.sum_congr rfl fun k _ => ?_)
    rw [Head.padW_apply]

end Cert.Bridge

end
-- ==== Proof.Bridge.lean ====
/-
  The two programs' results are one function of the arguments when every source index is in range: the encoder, the
  four layers and the head, each by its own lemma.
-/
import proofs.«413863_j12395275616334_2_alg».proof.Proof.Gen.KernelIdeal
import proofs.«413863_j12395275616334_2_alg».proof.Proof.Gen.ReferenceIdeal
import proofs.«413863_j12395275616334_2_alg».proof.Proof.KSpec
import proofs.«413863_j12395275616334_2_alg».proof.Proof.BridgeVocab
import proofs.«413863_j12395275616334_2_alg».proof.Proof.BridgeLayer
import proofs.«413863_j12395275616334_2_alg».proof.Proof.BridgeHead
import Idealize.ShloMosaic.PureOps.Ideal

set_option maxRecDepth 16384

noncomputable section

namespace Cert.Bridge

open Idealize.ShloMosaic

theorem out_eq (x : Cert.KSpec.Feat Ideal) (ei : (⟨Cert.KernelIdeal.S2x800000, .i32⟩ : BufTy).Contents (Elt Ideal)) (ew : Cert.KSpec.EVal Ideal)
    (encW : FVec Ideal Cert.KernelIdeal.S128x128 .f32) (encb : FVec Ideal Cert.KernelIdeal.S128 .f32)
    (cw : FVec Ideal Cert.KernelIdeal.S4x128x128 .f32) (cb ng nb : FVec Ideal Cert.KernelIdeal.S4x128 .f32)
    (linW : FVec Ideal Cert.KernelIdeal.S128x112 .f32) (linb : FVec Ideal Cert.KernelIdeal.S112 .f32)
    (hsrc : ∀ e : Cert.KernelIdeal.S800000.Idx, (Cert.KSpec.srcOf (F := Ideal) ei e).toNat < 50000) :
    Cert.KSpec.out (F := Ideal) x ei ew encW encb cw cb ng nb linW linb = Cert.Spec.out (F := Ideal) x ei ew encW encb cw cb ng nb linW linb := by
  unfold Cert.KSpec.out Cert.Spec.out
  -- the head, the three residual layers, the first layer and the encoder, each by its own lemma
  rw [head_eq, res_eq _ _ _ _ _ _ _ _ hsrc, res_eq _ _ _ _ _ _ _ _ hsrc, res_eq _ _ _ _ _ _ _ _ hsrc,
    first_eq _ _ _ _ _ _ hsrc, enc_eq]
  -- the arguments' pieces are the same slices in both programs
  rw [srcOf_eq, dstOf_eq, W0_eq, W1_eq, W2_eq, W3_eq, r0_eq cb, r1_eq cb, r2_eq cb, r3_eq cb,
    r0_eq ng, r1_eq ng, r2_eq ng, r3_eq ng, r0_eq nb, r1_eq nb, r2_eq nb, r3_eq nb]

end Cert.Bridge

end
-- ==== Proof.PreSrc.lean ====
/-
  What the precondition says of the edge list: its last conjunct is `all (0 ≤ edge_index[0] ∧ edge_index[0] < 50000)`, so every
  word of the source row, read signed, lies in [0, 50000), and hence is below 50000 read unsigned.
-/
import proofs.«413863_j12395275616334_2_alg».proof.Defs
import proofs.«413863_j12395275616334_2_alg».proof.Proof.Gen.KernelIdeal
import proofs.«413863_j12395275616334_2_alg».proof.Proof.Gen.ReferenceIdeal
import proofs.«413863_j12395275616334_2_alg».proof.Proof.Gen.Pre_finite_inputs
import proofs.«413863_j12395275616334_2_alg».proof.Proof.KSpec
import Idealize.ShloMosaic.PureOps.Ideal
import Idealize.ShloMosaic.Lib.ReduceAll

set_option maxRecDepth 16384

noncomputable section

namespace Cert.PreSrc

open Idealize.ShloMosaic Idealize.ShloMosaic.TcCoe Idealize.SL.Sem Cert.KernelIdeal

/-- The scalar shape has one index. -/
instance : Subsingleton Cert.Pre_finite_inputs.S_.Idx := ⟨fun a b => funext fun d => d.elim0⟩

/-- A word that is at least 0 and below 50000 read signed is below 50000 read unsigned: a word whose top bit is set
    reads negative, so the first comparison leaves only words that read the same either way. -/
theorem toNat_lt_of_signed (w : BitVec 32) (h0 : IntOp.cmpi .sge w 0#32 = 1#1) (h1 : IntOp.cmpi .slt w 50000#32 = 1#1) :
    w.toNat < 50000 := by
  have a : (0#32 : BitVec 32).toInt ≤ w.toInt := IntOp.cmpi_sge.1 h0
  have b : w.toInt < (50000#32 : BitVec 32).toInt := IntOp.cmpi_slt.1 h1
  have z : (0#32 : BitVec 32).toInt = 0 := by decide
  have n : (50000#32 : BitVec 32).toInt = 50000 := by decide
  rw [z] at a
  rw [n] at b
  have hw := w.isLt
  rw [BitVec.toInt_eq_toNat_cond] at a b
  rcases Nat.lt_or_ge (2 * w.toNat) (2 ^ 32) with hc | hc
  · rw [if_pos hc] at b; omega
  · rw [if_neg (by omega)] at a; omega

/-- Row 0 of the [2,800000] edge array as the predicate slices and reshapes it is the source row: both read the array
    at row 0, column e. -/
theorem srcOf_eq (ei : IVec S2x800000 32) (e : S800000.Idx) :
    Cert.KSpec.srcOf (F := Ideal) ei e
      = shapeCast Cert.Pre_finite_inputs.S800000
          (extractStridedSlice Cert.Pre_finite_inputs.S1x800000 ![0, 0] ei Cert.Pre_finite_inputs.Facts.slices_S2x800000_S1x800000_0_0)
          Cert.Pre_finite_inputs.Facts.shapeCasts_S1x800000_S800000 e := rfl

/-- Under the precondition every source index of the edge list is below 50000. -/
theorem src_lt (m : (ℓ : Loc nD τ sig) → Buf (Elt Ideal) ℓ) (h : Cert.Pre_KernelIdeal m) (c : Dev nD) (e : S800000.Idx) :
    (Cert.KSpec.srcOf (F := Ideal) (m ((c.tc : Thread nD τ).loc main_arg1)) e).toNat < 50000 := by
  -- the precondition's value at the scalar shape's one index is the last `and` of its chain of eleven tests
  have e0 : Cert.Pre_finite_inputs.fn_part3 (F := Ideal) _ _ _ _ (fun a => a.elim0) = 1#1 :=
    congrFun (h c) (fun a => a.elim0)
  unfold Cert.Pre_finite_inputs.fn_part3 at e0
  -- its right operand, the conjunction over all 800000 edges of the range test on row 0, is therefore 1
  have e1 := (IntOp.andi_eq_one.1 e0).2
  -- so the range test holds at edge e
  have e2 := Host.reduce_andi_all _ _ _ _ _ e1 e
  -- that is: the word is at least 0, and below 50000, both read signed
  have e3 := IntOp.andi_eq_one.1 e2
  rw [srcOf_eq]
  exact toNat_lt_of_signed _ e3.1 e3.2

end Cert.PreSrc

end
-- ==== Proof.lean ====
/-
  The certificate of the graph network kernel against its reference.

  Both programs compute, over the extended reals: an encoder `x · W + b`; a first graph convolution; three residual
  layers `h + conv (relu (layernorm h) · W)`; and a head `relu (layernorm h) · W + b`. A convolution sends every edge's
  source row of the product, scaled by the edge's coefficient, to the edge's target, and adds the self loop's term and a
  bias. The kernel program computes each dense step in a kernel tiled over the 50000 rows in ten blocks of 5000, gathers
  the source rows with jnp's `take` in fill mode, adds the self loop's term and the bias to each other before adding the
  aggregation, adds the residual last, and pads the head's weight with 16 zero columns which it drops at the end. With
  every source index in range (the precondition's last conjunct) the fill-mode gather is the plain gather; the other
  differences are regroupings of sums, which on the extended reals need no finiteness, and zero columns that are dropped.

  The frames of the two kernel programs are the generated ones. The kernel program's run is read boundary by boundary:
  each tiled kernel's output array is a whole-array function of the arrays it found (Region0 … Region5), and each host
  stretch applies its operations to the buffers of the boundary before (KStep0 … KStep5, chained in KValue). The
  reference's run is the fold of its operations (RefRun), read layer by layer (RefSide). Bridge joins the two.
-/
import proofs.«413863_j12395275616334_2_alg».proof.Defs
import proofs.«413863_j12395275616334_2_alg».proof.Proof.Gen.Kernel
import proofs.«413863_j12395275616334_2_alg».proof.Proof.Gen.Kernel.Frame
import proofs.«413863_j12395275616334_2_alg».proof.Proof.Gen.KernelIdeal
import proofs.«413863_j12395275616334_2_alg».proof.Proof.Gen.KernelIdeal.Frame
import proofs.«413863_j12395275616334_2_alg».proof.Proof.Gen.ReferenceIdeal
import proofs.«413863_j12395275616334_2_alg».proof.Proof.Gen.Pre_finite_inputs
import proofs.«413863_j12395275616334_2_alg».proof.Proof.KRun
import proofs.«413863_j12395275616334_2_alg».proof.Proof.KValue
import proofs.«413863_j12395275616334_2_alg».proof.Proof.RefRun
import proofs.«413863_j12395275616334_2_alg».proof.Proof.RefSide
import proofs.«413863_j12395275616334_2_alg».proof.Proof.Bridge
import proofs.«413863_j12395275616334_2_alg».proof.Proof.PreSrc
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference writes none of its arguments: after the fold of its operations each is at its launch contents. -/
theorem frame_ri : Cert.frame_ReferenceIdeal := fun m ρ _ =>
  (θ_run (Cert.ReferenceIdeal.defs (F := Ideal)) _ _).mono (fun _ h c =>
    ⟨(h c Cert.ReferenceIdeal.main_arg0).trans (Cert.ReferenceIdeal.RefSide.kept m c Cert.ReferenceIdeal.main_arg0 (Or.inl rfl)),
     (h c Cert.ReferenceIdeal.main_arg1).trans (Cert.ReferenceIdeal.RefSide.kept m c Cert.ReferenceIdeal.main_arg1 (Or.inr (Or.inl rfl))),
     (h c Cert.ReferenceIdeal.main_arg2).trans (Cert.ReferenceIdeal.RefSide.kept m c Cert.ReferenceIdeal.main_arg2 (Or.inr (Or.inr (Or.inl rfl)))),
     (h c Cert.ReferenceIdeal.main_arg3).trans (Cert.ReferenceIdeal.RefSide.kept m c Cert.ReferenceIdeal.main_arg3 (Or.inr (Or.inr (Or.inr (Or.inl rfl))))),
     (h c Cert.ReferenceIdeal.main_arg4).trans (Cert.ReferenceIdeal.RefSide.kept m c Cert.ReferenceIdeal.main_arg4 (Or.inr (Or.inr (Or.inr (Or.inr (Or.inl rfl)))))),
     (h c Cert.ReferenceIdeal.main_arg5).trans (Cert.ReferenceIdeal.RefSide.kept m c Cert.ReferenceIdeal.main_arg5 (Or.inr (Or.inr (Or.inr (Or.inr (Or.inr (Or.inl rfl))))))),
     (h c Cert.ReferenceIdeal.main_arg6).trans (Cert.ReferenceIdeal.RefSide.kept m c Cert.ReferenceIdeal.main_arg6 (Or.inr (Or.inr (Or.inr (Or.inr (Or.inr (Or.inr (Or.inl rfl)))))))),
     (h c Cert.ReferenceIdeal.main_arg7).trans (Cert.ReferenceIdeal.RefSide.kept m c Cert.ReferenceIdeal.main_arg7 (Or.inr (Or.inr (Or.inr (Or.inr (Or.inr (Or.inr (Or.inr (Or.inl rfl))))))))),
     (h c Cert.ReferenceIdeal.main_arg8).trans (Cert.ReferenceIdeal.RefSide.kept m c Cert.ReferenceIdeal.main_arg8 (Or.inr (Or.inr (Or.inr (Or.inr (Or.inr (Or.inr (Or.inr (Or.inr (Or.inl rfl)))))))))),
     (h c Cert.ReferenceIdeal.main_arg9).trans (Cert.ReferenceIdeal.RefSide.kept m c Cert.ReferenceIdeal.main_arg9 (Or.inr (Or.inr (Or.inr (Or.inr (Or.inr (Or.inr (Or.inr (Or.inr (Or.inr (Or.inl rfl))))))))))),
     (h c Cert.ReferenceIdeal.main_arg10).trans (Cert.ReferenceIdeal.RefSide.kept m c Cert.ReferenceIdeal.main_arg10 (Or.inr (Or.inr (Or.inr (Or.inr (Or.inr (Or.inr (Or.inr (Or.inr (Or.inr (Or.inr (rfl))))))))))))⟩)
    (Cert.ReferenceIdeal.ValRun.run_all (F := Ideal) m ρ)

/-- The ideal pass rewrote no operation of the kernel: there is nothing to preserve. -/
theorem preserves : Cert.preserves_Kernel_KernelIdeal := trivial

/-- Both runs end, with the returned buffers equal: the kernel program's at `Cert.KSpec.out` of its arguments, the reference's at
    `Cert.Spec.out` of its own, the arguments agreeing and every source index in range. -/
theorem algebraic : Cert.algebraic_KernelIdeal_ReferenceIdeal := by
  intro m ρ m' ρ' hpre hagree
  refine ⟨fun c => Cert.KSpec.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run (Cert.KernelIdeal.defs (F := Ideal)) _ _).mono
      (fun r h c => ⟨(h c).1.trans (Cert.KernelIdeal.KValue.value m ρ c), (h c).2⟩)
      (Cert.KernelIdeal.ValRun.run (F := Ideal) m ρ)
  · refine (θ_run (Cert.ReferenceIdeal.defs (F := Ideal)) _ _).mono (fun r h c => ⟨?_,
      (h c Cert.ReferenceIdeal.main_arg0).trans (Cert.ReferenceIdeal.RefSide.kept m' c Cert.ReferenceIdeal.main_arg0 (Or.inl rfl)),
      (h c Cert.ReferenceIdeal.main_arg1).trans (Cert.ReferenceIdeal.RefSide.kept m' c Cert.ReferenceIdeal.main_arg1 (Or.inr (Or.inl rfl))),
      (h c Cert.ReferenceIdeal.main_arg2).trans (Cert.ReferenceIdeal.RefSide.kept m' c Cert.ReferenceIdeal.main_arg2 (Or.inr (Or.inr (Or.inl rfl)))),
      (h c Cert.ReferenceIdeal.main_arg3).trans (Cert.ReferenceIdeal.RefSide.kept m' c Cert.ReferenceIdeal.main_arg3 (Or.inr (Or.inr (Or.inr (Or.inl rfl))))),
      (h c Cert.ReferenceIdeal.main_arg4).trans (Cert.ReferenceIdeal.RefSide.kept m' c Cert.ReferenceIdeal.main_arg4 (Or.inr (Or.inr (Or.inr (Or.inr (Or.inl rfl)))))),
      (h c Cert.ReferenceIdeal.main_arg5).trans (Cert.ReferenceIdeal.RefSide.kept m' c Cert.ReferenceIdeal.main_arg5 (Or.inr (Or.inr (Or.inr (Or.inr (Or.inr (Or.inl rfl))))))),
      (h c Cert.ReferenceIdeal.main_arg6).trans (Cert.ReferenceIdeal.RefSide.kept m' c Cert.ReferenceIdeal.main_arg6 (Or.inr (Or.inr (Or.inr (Or.inr (Or.inr (Or.inr (Or.inl rfl)))))))),
      (h c Cert.ReferenceIdeal.main_arg7).trans (Cert.ReferenceIdeal.RefSide.kept m' c Cert.ReferenceIdeal.main_arg7 (Or.inr (Or.inr (Or.inr (Or.inr (Or.inr (Or.inr (Or.inr (Or.inl rfl))))))))),
      (h c Cert.ReferenceIdeal.main_arg8).trans (Cert.ReferenceIdeal.RefSide.kept m' c Cert.ReferenceIdeal.main_arg8 (Or.inr (Or.inr (Or.inr (Or.inr (Or.inr (Or.inr (Or.inr (Or.inr (Or.inl rfl)))))))))),
      (h c Cert.ReferenceIdeal.main_arg9).trans (Cert.ReferenceIdeal.RefSide.kept m' c Cert.ReferenceIdeal.main_arg9 (Or.inr (Or.inr (Or.inr (Or.inr (Or.inr (Or.inr (Or.inr (Or.inr (Or.inr (Or.inl rfl))))))))))),
      (h c Cert.ReferenceIdeal.main_arg10).trans (Cert.ReferenceIdeal.RefSide.kept m' c Cert.ReferenceIdeal.main_arg10 (Or.inr (Or.inr (Or.inr (Or.inr (Or.inr (Or.inr (Or.inr (Or.inr (Or.inr (Or.inr (rfl))))))))))))⟩)
      (Cert.ReferenceIdeal.ValRun.run_all (F := Ideal) m' ρ')
    obtain ⟨e0, e1, e2, e3, e4, e5, e6, e7, e8, e9, e10⟩ := hagree c
    rw [h c Cert.ReferenceIdeal.main_v334, Cert.ReferenceIdeal.RefSide.value m' c]
    unfold Cert.ReferenceIdeal.RefSide.a
    rw [e0, e1, e2, e3, e4, e5, e6, e7, e8, e9, e10]
    exact (Cert.Bridge.out_eq _ _ _ _ _ _ _ _ _ _ _ (Cert.PreSrc.src_lt m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
